-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S8x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x32 : Shape := ⟨3, ![64, 4, 32]⟩
abbrev S32x10000 : Shape := ⟨2, ![32, 10000]⟩
abbrev S3000x10000 : Shape := ⟨2, ![3000, 10000]⟩
abbrev S200x10000 : Shape := ⟨2, ![200, 10000]⟩
abbrev S_ : Shape := ⟨0, ![]⟩

class Facts : Prop where
  bcast_S_S64x4x32 : S_.BroadcastsInDim S64x4x32 (![] : Fin 0 → Fin S64x4x32.rank)
  reducesTo_S64x4x32_S_d0_1_2 : S64x4x32.ReducesTo [0, 1, 2] S_
  h_S_ : 0 < S_.numel
  bcast_S_S32x10000 : S_.BroadcastsInDim S32x10000 (![] : Fin 0 → Fin S32x10000.rank)
  reducesTo_S32x10000_S_d0_1 : S32x10000.ReducesTo [0, 1] S_
  bcast_S_S3000x10000 : S_.BroadcastsInDim S3000x10000 (![] : Fin 0 → Fin S3000x10000.rank)
  reducesTo_S3000x10000_S_d0_1 : S3000x10000.ReducesTo [0, 1] S_
  bcast_S_S200x10000 : S_.BroadcastsInDim S200x10000 (![] : Fin 0 → Fin S200x10000.rank)
  reducesTo_S200x10000_S_d0_1 : S200x10000.ReducesTo [0, 1] S_

variable [Facts]

def fn_part1 {F : FTy → Type} [FloatOps F] (main_v13 : IVec S_ 1) (main_v16 : IVec S200x10000 1) : IVec S_ 1 :=
  let main_c_5 : IVec S_ 1 := constantI S_ 1 1#1
  let main_v17 : IVec S_ 1 := (fun x v => Host.reduce IntOp.andi x v reducesTo_S200x10000_S_d0_1 h_S_) main_v16 main_c_5
  let main_v18 : IVec S_ 1 := andi main_v13 main_v17
  main_v18

def fn {F : FTy → Type} [FloatOps F] (main_arg0 : FVec F S64x4x32 .f32) (main_arg1 : FVec F S32x10000 .f32) (main_arg2 : FVec F S3000x10000 .f32) (main_arg3 : FVec F S200x10000 .f32) : IVec S_ 1 :=
  let main_v0 : FVec F S64x4x32 .f32 := Host.absf main_arg0
  let main_cst : FVec F S_ .f32 := constant S_ .f32 0x7F800000#32
  let main_v1 : FVec F S64x4x32 .f32 := broadcastInDim S64x4x32 ![] bcast_S_S64x4x32 main_cst
  let main_v2 : IVec S64x4x32 1 := cmpf .olt main_v0 main_v1
  let main_c : IVec S_ 1 := constantI S_ 1 1#1
  let main_v3 : IVec S_ 1 := (fun x v => Host.reduce IntOp.andi x v reducesTo_S64x4x32_S_d0_1_2 h_S_) main_v2 main_c
  let main_v4 : FVec F S32x10000 .f32 := Host.absf main_arg1
  let main_cst_0 : FVec F S_ .f32 := constant S_ .f32 0x7F800000#32
  let main_v5 : FVec F S32x10000 .f32 := broadcastInDim S32x10000 ![] bcast_S_S32x10000 main_cst_0
  let main_v6 : IVec S32x10000 1 := cmpf .olt main_v4 main_v5
  let main_c_1 : IVec S_ 1 := constantI S_ 1 1#1
  let main_v7 : IVec S_ 1 := (fun x v => Host.reduce IntOp.andi x v reducesTo_S32x10000_S_d0_1 h_S_) main_v6 main_c_1
  let main_v8 : IVec S_ 1 := andi main_v3 main_v7
  let main_v9 : FVec F S3000x10000 .f32 := Host.absf main_arg2
  let main_cst_2 : FVec F S_ .f32 := constant S_ .f32 0x7F800000#32
  let main_v10 : FVec F S3000x10000 .f32 := broadcastInDim S3000x10000 ![] bcast_S_S3000x10000 main_cst_2
  let main_v11 : IVec S3000x10000 1 := cmpf .olt main_v9 main_v10
  let main_c_3 : IVec S_ 1 := constantI S_ 1 1#1
  let main_v12 : IVec S_ 1 := (fun x v => Host.reduce IntOp.andi x v reducesTo_S3000x10000_S_d0_1 h_S_) main_v11 main_c_3
  let main_v13 : IVec S_ 1 := andi main_v8 main_v12
  let main_v14 : FVec F S200x10000 .f32 := Host.absf main_arg3
  let main_cst_4 : FVec F S_ .f32 := constant S_ .f32 0x7F800000#32
  let main_v15 : FVec F S200x10000 .f32 := broadcastInDim S200x10000 ![] bcast_S_S200x10000 main_cst_4
  let main_v16 : IVec S200x10000 1 := cmpf .olt main_v14 main_v15
  fn_part1 (F := F) main_v13 main_v16
-- ==== Kernel.lean ====
abbrev S64x4x32 : Shape := ⟨3, ![64, 4, 32]⟩
abbrev S32x10000 : Shape := ⟨2, ![32, 10000]⟩
abbrev S3000x10000 : Shape := ⟨2, ![3000, 10000]⟩
abbrev S200x10000 : Shape := ⟨2, ![200, 10000]⟩
abbrev S64x1x31 : Shape := ⟨3, ![64, 1, 31]⟩
abbrev S64x31 : Shape := ⟨2, ![64, 31]⟩
abbrev S64x1x1 : Shape := ⟨3, ![64, 1, 1]⟩
abbrev S64x1 : Shape := ⟨2, ![64, 1]⟩
abbrev S64x30 : Shape := ⟨2, ![64, 30]⟩
abbrev S_ : Shape := ⟨0, ![]⟩
abbrev S64 : Shape := ⟨1, ![64]⟩
abbrev S25x10000 : Shape := ⟨2, ![25, 10000]⟩
abbrev S64x10000 : Shape := ⟨2, ![64, 10000]⟩
abbrev S8x10000 : Shape := ⟨2, ![8, 10000]⟩
abbrev S10000 : Shape := ⟨1, ![10000]⟩
abbrev S31 : Shape := ⟨1, ![31]⟩
abbrev S1x1 : Shape := ⟨2, ![1, 1]⟩
abbrev S1 : Shape := ⟨1, ![1]⟩
abbrev S1x10000 : Shape := ⟨2, ![1, 10000]⟩
abbrev S8x1x10000 : Shape := ⟨3, ![8, 1, 10000]⟩
abbrev S8x31x10000 : Shape := ⟨3, ![8, 31, 10000]⟩
abbrev S8x25x10000 : Shape := ⟨3, ![8, 25, 10000]⟩
abbrev S8x25x6 : Shape := ⟨3, ![8, 25, 6]⟩
abbrev S8x25x9994 : Shape := ⟨3, ![8, 25, 9994]⟩
abbrev S8x25x5 : Shape := ⟨3, ![8, 25, 5]⟩
abbrev S8x25x9995 : Shape := ⟨3, ![8, 25, 9995]⟩
abbrev S8x25x4 : Shape := ⟨3, ![8, 25, 4]⟩
abbrev S8x25x9996 : Shape := ⟨3, ![8, 25, 9996]⟩
abbrev S8x25x3 : Shape := ⟨3, ![8, 25, 3]⟩
abbrev S8x25x9997 : Shape := ⟨3, ![8, 25, 9997]⟩
abbrev S8x25x2 : Shape := ⟨3, ![8, 25, 2]⟩
abbrev S8x25x9998 : Shape := ⟨3, ![8, 25, 9998]⟩
abbrev S8x25x1 : Shape := ⟨3, ![8, 25, 1]⟩
abbrev S8x25x9999 : Shape := ⟨3, ![8, 25, 9999]⟩
abbrev S1x25x10000 : Shape := ⟨3, ![1, 25, 10000]⟩

abbrev nBuf : Space → Nat
  | .hbm => 48
  | .vmem => 65
  | .smem => 2
  | _ => 0

abbrev bufTy : (tb : Table) → Fin (tcTables nBuf tb) → BufTy
  | .hbm, ⟨0, _⟩ => ⟨S64x4x32, .f32⟩
  | .hbm, ⟨1, _⟩ => ⟨S32x10000, .f32⟩
  | .hbm, ⟨2, _⟩ => ⟨S3000x10000, .f32⟩
  | .hbm, ⟨3, _⟩ => ⟨S200x10000, .f32⟩
  | .hbm, ⟨4, _⟩ => ⟨S64x1x31, .f32⟩
  | .hbm, ⟨5, _⟩ => ⟨S64x31, .f32⟩
  | .hbm, ⟨6, _⟩ => ⟨S64x1x1, .f32⟩
  | .hbm, ⟨7, _⟩ => ⟨S64x1, .f32⟩
  | .hbm, ⟨8, _⟩ => ⟨S64x30, .f32⟩
  | .hbm, ⟨9, _⟩ => ⟨S_, .f32⟩
  | .hbm, ⟨10, _⟩ => ⟨S64x30, .f32⟩
  | .hbm, ⟨11, _⟩ => ⟨S64x30, .f32⟩
  | .hbm, ⟨12, _⟩ => ⟨S_, .f32⟩
  | .hbm, ⟨13, _⟩ => ⟨S64x30, .f32⟩
  | .hbm, ⟨14, _⟩ => ⟨S64x30, .f32⟩
  | .hbm, ⟨15, _⟩ => ⟨S_, .f32⟩
  | .hbm, ⟨16, _⟩ => ⟨S64x30, .f32⟩
  | .hbm, ⟨17, _⟩ => ⟨S64x30, .f32⟩
  | .hbm, ⟨18, _⟩ => ⟨S64x30, .f32⟩
  | .hbm, ⟨19, _⟩ => ⟨S64x30, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x30, .i32⟩
  | .hbm, ⟨24, _⟩ => ⟨S64x30, .i32⟩
  | .hbm, ⟨25, _⟩ => ⟨S_, .i32⟩
  | .hbm, ⟨26, _⟩ => ⟨S64x30, .i32⟩
  | .hbm, ⟨27, _⟩ => ⟨S_, .f32⟩
  | .hbm, ⟨28, _⟩ => ⟨S64x1, .f32⟩
  | .hbm, ⟨29, _⟩ => ⟨S64x1, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S_, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S64x1, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S25x10000, .f32⟩
  | .hbm, ⟨47, _⟩ => ⟨S64x10000, .f32⟩
  | .local _ .vmem, ⟨0, _⟩ => ⟨S25x10000, .f32⟩
  | .local _ .vmem, ⟨1, _⟩ => ⟨S8x10000, .f32⟩
  | .local _ .vmem, ⟨2, _⟩ => ⟨S8x10000, .f32⟩
  | .local _ .vmem, ⟨3, _⟩ => ⟨S10000, .f32⟩
  | .local _ .vmem, ⟨4, _⟩ => ⟨S10000, .f32⟩
  | .local _ .vmem, ⟨5, _⟩ => ⟨S10000, .f32⟩
  | .local _ .vmem, ⟨6, _⟩ => ⟨S10000, .f32⟩
  | .local _ .vmem, ⟨7, _⟩ => ⟨S10000, .f32⟩
  | .local _ .vmem, ⟨8, _⟩ => ⟨S10000, .f32⟩
  | .local _ .vmem, ⟨9, _⟩ => ⟨S10000, .f32⟩
  | .local _ .vmem, ⟨10, _⟩ => ⟨S10000, .f32⟩
  | .local _ .vmem, ⟨11, _⟩ => ⟨S10000, .f32⟩
  | .local _ .vmem, ⟨12, _⟩ => ⟨S10000, .f32⟩
  | .local _ .vmem, ⟨13, _⟩ => ⟨S10000, .f32⟩
  | .local _ .vmem, ⟨14, _⟩ => ⟨S10000, .f32⟩
  | .local _ .vmem, ⟨15, _⟩ => ⟨S10000, .f32⟩
  | .local _ .vmem, ⟨16, _⟩ => ⟨S10000, .f32⟩
  | .local _ .vmem, ⟨17, _⟩ => ⟨S10000, .f32⟩
  | .local _ .vmem, ⟨18, _⟩ => ⟨S10000, .f32⟩
  | .local _ .vmem, ⟨19, _⟩ => ⟨S10000, .f32⟩
  | .local _ .vmem, ⟨20, _⟩ => ⟨S10000, .f32⟩
  | .local _ .vmem, ⟨21, _⟩ => ⟨S10000, .f32⟩
  | .local _ .vmem, ⟨22, _⟩ => ⟨S10000, .f32⟩
  | .local _ .vmem, ⟨23, _⟩ => ⟨S10000, .f32⟩
  | .local _ .vmem, ⟨24, _⟩ => ⟨S10000, .f32⟩
  | .local _ .vmem, ⟨25, _⟩ => ⟨S10000, .f32⟩
  | .local _ .vmem, ⟨26, _⟩ => ⟨S10000, .f32⟩
  | .local _ .vmem, ⟨27, _⟩ => ⟨S10000, .f32⟩
  | .local _ .vmem, ⟨28, _⟩ => ⟨S10000, .f32⟩
  | .local _ .vmem, ⟨29, _⟩ => ⟨S10000, .f32⟩
  | .local _ .vmem, ⟨30, _⟩ => ⟨S10000, .f32⟩
  | .local _ .vmem, ⟨31, _⟩ => ⟨S10000, .f32⟩
  | .local _ .vmem, ⟨32, _⟩ => ⟨S10000, .f32⟩
  | .local _ .vmem, ⟨33, _⟩ => ⟨S10000, .f32⟩
  | .local _ .vmem, ⟨34, _⟩ => ⟨S8x10000, .f32⟩
  | .local _ .vmem, ⟨35, _⟩ => ⟨S8x10000, .f32⟩
  | .local _ .vmem, ⟨36, _⟩ => ⟨S8x10000, .f32⟩
  | .local _ .vmem, ⟨37, _⟩ => ⟨S8x10000, .f32⟩
  | .local _ .vmem, ⟨38, _⟩ => ⟨S8x10000, .f32⟩
  | .local _ .vmem, ⟨39, _⟩ => ⟨S8x10000, .f32⟩
  | .local _ .vmem, ⟨40, _⟩ => ⟨S8x10000, .f32⟩
  | .local _ .vmem, ⟨41, _⟩ => ⟨S8x10000, .f32⟩
  | .local _ .vmem, ⟨42, _⟩ => ⟨S8x10000, .f32⟩
  | .local _ .vmem, ⟨43, _⟩ => ⟨S8x10000, .f32⟩
  | .local _ .vmem, ⟨44, _⟩ => ⟨S8x10000, .f32⟩
  | .local _ .vmem, ⟨45, _⟩ => ⟨S8x10000, .f32⟩
  | .local _ .vmem, ⟨46, _⟩ => ⟨S8x10000, .f32⟩
  | .local _ .vmem, ⟨47, _⟩ => ⟨S8x10000, .f32⟩
  | .local _ .vmem, ⟨48, _⟩ => ⟨S8x10000, .f32⟩
  | .local _ .vmem, ⟨49, _⟩ => ⟨S8x10000, .f32⟩
  | .local _ .vmem, ⟨50, _⟩ => ⟨S8x10000, .f32⟩
  | .local _ .vmem, ⟨51, _⟩ => ⟨S8x10000, .f32⟩
  | .local _ .vmem, ⟨52, _⟩ => ⟨S8x10000, .f32⟩
  | .local _ .vmem, ⟨53, _⟩ => ⟨S8x10000, .f32⟩
  | .local _ .vmem, ⟨54, _⟩ => ⟨S8x10000, .f32⟩
  | .local _ .vmem, ⟨55, _⟩ => ⟨S8x10000, .f32⟩
  | .local _ .vmem, ⟨56, _⟩ => ⟨S8x10000, .f32⟩
  | .local _ .vmem, ⟨57, _⟩ => ⟨S8x10000, .f32⟩
  | .local _ .vmem, ⟨58, _⟩ => ⟨S8x10000, .f32⟩
  | .local _ .vmem, ⟨59, _⟩ => ⟨S8x10000, .f32⟩
  | .local _ .vmem, ⟨60, _⟩ => ⟨S8x10000, .f32⟩
  | .local _ .vmem, ⟨61, _⟩ => ⟨S8x10000, .f32⟩
  | .local _ .vmem, ⟨62, _⟩ => ⟨S8x10000, .f32⟩
  | .local _ .vmem, ⟨63, _⟩ => ⟨S8x10000, .f32⟩
  | .local _ .vmem, ⟨64, _⟩ => ⟨S8x10000, .f32⟩
  | .local _ .smem, ⟨0, _⟩ => ⟨S64x30, .i32⟩
  | .local _ .smem, ⟨1, _⟩ => ⟨S64, .i32⟩
  | _, _ => ⟨S64x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_c_7 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v22 : Ref sig .tc := ⟨.hbm, 45, rfl⟩
abbrev main_v24 : Ref sig .tc := ⟨.hbm, 46, rfl⟩
abbrev main_v25 : Ref sig .tc := ⟨.hbm, 47, rfl⟩
abbrev main_v13 : Ref sig .tc := ⟨.smem, 0, rfl⟩
abbrev main_v23 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_scratch32 : Ref sig .tc := ⟨.vmem, 35, rfl⟩
abbrev cc0_scratch33 : Ref sig .tc := ⟨.vmem, 36, rfl⟩
abbrev cc0_scratch34 : Ref sig .tc := ⟨.vmem, 37, rfl⟩
abbrev cc0_scratch35 : Ref sig .tc := ⟨.vmem, 38, rfl⟩
abbrev cc0_scratch36 : Ref sig .tc := ⟨.vmem, 39, rfl⟩
abbrev cc0_scratch37 : Ref sig .tc := ⟨.vmem, 40, rfl⟩
abbrev cc0_scratch38 : Ref sig .tc := ⟨.vmem, 41, rfl⟩
abbrev cc0_scratch39 : Ref sig .tc := ⟨.vmem, 42, rfl⟩
abbrev cc0_scratch40 : Ref sig .tc := ⟨.vmem, 43, rfl⟩
abbrev cc0_scratch41 : Ref sig .tc := ⟨.vmem, 44, rfl⟩
abbrev cc0_scratch42 : Ref sig .tc := ⟨.vmem, 45, rfl⟩
abbrev cc0_scratch43 : Ref sig .tc := ⟨.vmem, 46, rfl⟩
abbrev cc0_scratch44 : Ref sig .tc := ⟨.vmem, 47, rfl⟩
abbrev cc0_scratch45 : Ref sig .tc := ⟨.vmem, 48, rfl⟩
abbrev cc0_scratch46 : Ref sig .tc := ⟨.vmem, 49, rfl⟩
abbrev cc0_scratch47 : Ref sig .tc := ⟨.vmem, 50, rfl⟩
abbrev cc0_scratch48 : Ref sig .tc := ⟨.vmem, 51, rfl⟩
abbrev cc0_scratch49 : Ref sig .tc := ⟨.vmem, 52, rfl⟩
abbrev cc0_scratch50 : Ref sig .tc := ⟨.vmem, 53, rfl⟩
abbrev cc0_scratch51 : Ref sig .tc := ⟨.vmem, 54, rfl⟩
abbrev cc0_scratch52 : Ref sig .tc := ⟨.vmem, 55, rfl⟩
abbrev cc0_scratch53 : Ref sig .tc := ⟨.vmem, 56, rfl⟩
abbrev cc0_scratch54 : Ref sig .tc := ⟨.vmem, 57, rfl⟩
abbrev cc0_scratch55 : Ref sig .tc := ⟨.vmem, 58, rfl⟩
abbrev cc0_scratch56 : Ref sig .tc := ⟨.vmem, 59, rfl⟩
abbrev cc0_scratch57 : Ref sig .tc := ⟨.vmem, 60, rfl⟩
abbrev cc0_scratch58 : Ref sig .tc := ⟨.vmem, 61, rfl⟩
abbrev cc0_scratch59 : Ref sig .tc := ⟨.vmem, 62, rfl⟩
abbrev cc0_scratch60 : Ref sig .tc := ⟨.vmem, 63, rfl⟩
abbrev cc0_scratch61 : Ref sig .tc := ⟨.vmem, 64, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_v13.idx, main_v23.idx], fun | 0 => main_v13.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let c0 : Index := 0#32
  ![v2.toNat, 0]
def k0_off2 (v3 : BitVec 32) : Fin 2 → Nat :=
  let c0_i32_1 : BitVec 32 := 0#32
  ![v3.toNat, 0]

def k0_off3 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v8 : Index := Scalar.indexCast v1
  let c1 : Index := 1#32
  ![v8.toNat, 1]
def k0_off4 (v9 : BitVec 32) : Fin 2 → Nat :=
  let c0_i32_2 : BitVec 32 := 0#32
  ![v9.toNat, 0]

def k0_off5 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v14 : Index := Scalar.indexCast v1
  let c2 : Index := 2#32
  ![v14.toNat, 2]
def k0_off6 (v15 : BitVec 32) : Fin 2 → Nat :=
  let c0_i32_3 : BitVec 32 := 0#32
  ![v15.toNat, 0]

def k0_off7 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v20 : Index := Scalar.indexCast v1
  let c3 : Index := 3#32
  ![v20.toNat, 3]
def k0_off8 (v21 : BitVec 32) : Fin 2 → Nat :=
  let c0_i32_4 : BitVec 32 := 0#32
  ![v21.toNat, 0]

def k0_off9 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v26 : Index := Scalar.indexCast v1
  let c4 : Index := 4#32
  ![v26.toNat, 4]
def k0_off10 (v27 : BitVec 32) : Fin 2 → Nat :=
  let c0_i32_5 : BitVec 32 := 0#32
  ![v27.toNat, 0]

def k0_off11 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v32 : Index := Scalar.indexCast v1
  let c5 : Index := 5#32
  ![v32.toNat, 5]
def k0_off12 (v33 : BitVec 32) : Fin 2 → Nat :=
  let c0_i32_6 : BitVec 32 := 0#32
  ![v33.toNat, 0]

def k0_off13 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v38 : Index := Scalar.indexCast v1
  let c6 : Index := 6#32
  ![v38.toNat, 6]
def k0_off14 (v39 : BitVec 32) : Fin 2 → Nat :=
  let c0_i32_7 : BitVec 32 := 0#32
  ![v39.toNat, 0]

def k0_off15 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v44 : Index := Scalar.indexCast v1
  let c7 : Index := 7#32
  ![v44.toNat, 7]
def k0_off16 (v45 : BitVec 32) : Fin 2 → Nat :=
  let c0_i32_8 : BitVec 32 := 0#32
  ![v45.toNat, 0]

def k0_off17 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v50 : Index := Scalar.indexCast v1
  let c8 : Index := 8#32
  ![v50.toNat, 8]
def k0_off18 (v51 : BitVec 32) : Fin 2 → Nat :=
  let c0_i32_10 : BitVec 32 := 0#32
  ![v51.toNat, 0]

def k0_off19 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v56 : Index := Scalar.indexCast v1
  let c9 : Index := 9#32
  ![v56.toNat, 9]
def k0_off20 (v57 : BitVec 32) : Fin 2 → Nat :=
  let c0_i32_11 : BitVec 32 := 0#32
  ![v57.toNat, 0]

def k0_off21 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v62 : Index := Scalar.indexCast v1
  let c10 : Index := 10#32
  ![v62.toNat, 10]
def k0_off22 (v63 : BitVec 32) : Fin 2 → Nat :=
  let c0_i32_12 : BitVec 32 := 0#32
  ![v63.toNat, 0]

def k0_off23 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v68 : Index := Scalar.indexCast v1
  let c11 : Index := 11#32
  ![v68.toNat, 11]
def k0_off24 (v69 : BitVec 32) : Fin 2 → Nat :=
  let c0_i32_13 : BitVec 32 := 0#32
  ![v69.toNat, 0]

def k0_off25 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v74 : Index := Scalar.indexCast v1
  let c12 : Index := 12#32
  ![v74.toNat, 12]
def k0_off26 (v75 : BitVec 32) : Fin 2 → Nat :=
  let c0_i32_14 : BitVec 32 := 0#32
  ![v75.toNat, 0]

def k0_off27 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v80 : Index := Scalar.indexCast v1
  let c13 : Index := 13#32
  ![v80.toNat, 13]
def k0_off28 (v81 : BitVec 32) : Fin 2 → Nat :=
  let c0_i32_15 : BitVec 32 := 0#32
  ![v81.toNat, 0]

def k0_off29 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v86 : Index := Scalar.indexCast v1
  let c14 : Index := 14#32
  ![v86.toNat, 14]
def k0_off30 (v87 : BitVec 32) : Fin 2 → Nat :=
  let c0_i32_16 : BitVec 32 := 0#32
  ![v87.toNat, 0]

def k0_off31 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v92 : Index := Scalar.indexCast v1
  let c15 : Index := 15#32
  ![v92.toNat, 15]
def k0_off32 (v93 : BitVec 32) : Fin 2 → Nat :=
  let c0_i32_17 : BitVec 32 := 0#32
  ![v93.toNat, 0]

def k0_off33 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v98 : Index := Scalar.indexCast v1
  let c16 : Index := 16#32
  ![v98.toNat, 16]
def k0_off34 (v99 : BitVec 32) : Fin 2 → Nat :=
  let c0_i32_18 : BitVec 32 := 0#32
  ![v99.toNat, 0]

def k0_off35 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v104 : Index := Scalar.indexCast v1
  let c17 : Index := 17#32
  ![v104.toNat, 17]
def k0_off36 (v105 : BitVec 32) : Fin 2 → Nat :=
  let c0_i32_19 : BitVec 32 := 0#32
  ![v105.toNat, 0]

def k0_off37 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v110 : Index := Scalar.indexCast v1
  let c18 : Index := 18#32
  ![v110.toNat, 18]
def k0_off38 (v111 : BitVec 32) : Fin 2 → Nat :=
  let c0_i32_20 : BitVec 32 := 0#32
  ![v111.toNat, 0]

def k0_off39 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v116 : Index := Scalar.indexCast v1
  let c19 : Index := 19#32
  ![v116.toNat, 19]
def k0_off40 (v117 : BitVec 32) : Fin 2 → Nat :=
  let c0_i32_21 : BitVec 32 := 0#32
  ![v117.toNat, 0]

def k0_off41 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v122 : Index := Scalar.indexCast v1
  let c20 : Index := 20#32
  ![v122.toNat, 20]
def k0_off42 (v123 : BitVec 32) : Fin 2 → Nat :=
  let c0_i32_22 : BitVec 32 := 0#32
  ![v123.toNat, 0]

def k0_off43 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v128 : Index := Scalar.indexCast v1
  let c21 : Index := 21#32
  ![v128.toNat, 21]
def k0_off44 (v129 : BitVec 32) : Fin 2 → Nat :=
  let c0_i32_23 : BitVec 32 := 0#32
  ![v129.toNat, 0]

def k0_off45 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v134 : Index := Scalar.indexCast v1
  let c22 : Index := 22#32
  ![v134.toNat, 22]
def k0_off46 (v135 : BitVec 32) : Fin 2 → Nat :=
  let c0_i32_24 : BitVec 32 := 0#32
  ![v135.toNat, 0]

def k0_off47 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v140 : Index := Scalar.indexCast v1
  let c23 : Index := 23#32
  ![v140.toNat, 23]
def k0_off48 (v141 : BitVec 32) : Fin 2 → Nat :=
  let c0_i32_25 : BitVec 32 := 0#32
  ![v141.toNat, 0]

def k0_off49 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v146 : Index := Scalar.indexCast v1
  let c24 : Index := 24#32
  ![v146.toNat, 24]
def k0_off50 (v147 : BitVec 32) : Fin 2 → Nat :=
  let c0_i32_26 : BitVec 32 := 0#32
  ![v147.toNat, 0]

def k0_off51 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v152 : Index := Scalar.indexCast v1
  let c25 : Index := 25#32
  ![v152.toNat, 25]
def k0_off52 (v153 : BitVec 32) : Fin 2 → Nat :=
  let c0_i32_27 : BitVec 32 := 0#32
  ![v153.toNat, 0]

def k0_off53 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v158 : Index := Scalar.indexCast v1
  let c26 : Index := 26#32
  ![v158.toNat, 26]
def k0_off54 (v159 : BitVec 32) : Fin 2 → Nat :=
  let c0_i32_28 : BitVec 32 := 0#32
  ![v159.toNat, 0]

def k0_off55 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v164 : Index := Scalar.indexCast v1
  let c27 : Index := 27#32
  ![v164.toNat, 27]
def k0_off56 (v165 : BitVec 32) : Fin 2 → Nat :=
  let c0_i32_29 : BitVec 32 := 0#32
  ![v165.toNat, 0]

def k0_off57 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v170 : Index := Scalar.indexCast v1
  let c28 : Index := 28#32
  ![v170.toNat, 28]
def k0_off58 (v171 : BitVec 32) : Fin 2 → Nat :=
  let c0_i32_30 : BitVec 32 := 0#32
  ![v171.toNat, 0]

def k0_off59 (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v176 : Index := Scalar.indexCast v1
  let c29 : Index := 29#32
  ![v176.toNat, 29]
def k0_off60 (v177 : BitVec 32) : Fin 2 → Nat :=
  let c0_i32_31 : BitVec 32 := 0#32
  ![v177.toNat, 0]

def k0_off61 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v182 : Index := Scalar.indexCast v1
  ![v182.toNat]
def k0_off62 (v183 : BitVec 32) : Fin 2 → Nat :=
  let c0_i32_32 : BitVec 32 := 0#32
  ![v183.toNat, 0]

def k0_chk31 (v183 : BitVec 32) : Prop :=
  (∀ a, (k0_off62 v183) a + S1x10000.size a ≤ S200x10000.size a)
instance k0_chk31.dec : ∀ (v183 : BitVec 32), Decidable (k0_chk31 v183) := fun v183 => decidable_of_iff' _ (Iff.of_eq (k0_chk31.eq_1 v183))
theorem k0_off62_inb : ∀ (v183 : BitVec 32) (k0_hw31 : k0_chk31 v183), ∀ a, (k0_off62 v183) a + S1x10000.size a ≤ S200x10000.size a := fun v183 k0_hw31 => k0_hw31

def k0_off63 (v3 : BitVec 32) : Fin 2 → Nat :=
  let c0_i32_34 : BitVec 32 := 0#32
  ![v3.toNat, 0]

def k0_chk1 (v3 : BitVec 32) : Prop :=
  (∀ a, (k0_off2 v3) a + S1x10000.size a ≤ S3000x10000.size a) ∧
  (∀ a, (k0_off63 v3) a + S1x10000.size a ≤ S3000x10000.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x10000.size a ≤ S3000x10000.size a := fun v3 k0_hw1 => k0_hw1.1
theorem k0_off63_inb : ∀ (v3 : BitVec 32) (k0_hw1 : k0_chk1 v3), ∀ a, (k0_off63 v3) a + S1x10000.size a ≤ S3000x10000.size a := fun v3 k0_hw1 => k0_hw1.2

def k0_off64 (v9 : BitVec 32) : Fin 2 → Nat :=
  let c0_i32_36 : BitVec 32 := 0#32
  ![v9.toNat, 0]

def k0_chk2 (v9 : BitVec 32) : Prop :=
  (∀ a, (k0_off4 v9) a + S1x10000.size a ≤ S3000x10000.size a) ∧
  (∀ a, (k0_off64 v9) a + S1x10000.size a ≤ S3000x10000.size a)
instance k0_chk2.dec : ∀ (v9 : BitVec 32), Decidable (k0_chk2 v9) := fun v9 => decidable_of_iff' _ (Iff.of_eq (k0_chk2.eq_1 v9))
theorem k0_off4_inb : ∀ (v9 : BitVec 32) (k0_hw2 : k0_chk2 v9), ∀ a, (k0_off4 v9) a + S1x10000.size a ≤ S3000x10000.size a := fun v9 k0_hw2 => k0_hw2.1
theorem k0_off64_inb : ∀ (v9 : BitVec 32) (k0_hw2 : k0_chk2 v9), ∀ a, (k0_off64 v9) a + S1x10000.size a ≤ S3000x10000.size a := fun v9 k0_hw2 => k0_hw2.2

def k0_off65 (v15 : BitVec 32) : Fin 2 → Nat :=
  let c0_i32_38 : BitVec 32 := 0#32
  ![v15.toNat, 0]

def k0_chk3 (v15 : BitVec 32) : Prop :=
  (∀ a, (k0_off6 v15) a + S1x10000.size a ≤ S3000x10000.size a) ∧
  (∀ a, (k0_off65 v15) a + S1x10000.size a ≤ S3000x10000.size a)
instance k0_chk3.dec : ∀ (v15 : BitVec 32), Decidable (k0_chk3 v15) := fun v15 => decidable_of_iff' _ (Iff.of_eq (k0_chk3.eq_1 v15))
theorem k0_off6_inb : ∀ (v15 : BitVec 32) (k0_hw3 : k0_chk3 v15), ∀ a, (k0_off6 v15) a + S1x10000.size a ≤ S3000x10000.size a := fun v15 k0_hw3 => k0_hw3.1
theorem k0_off65_inb : ∀ (v15 : BitVec 32) (k0_hw3 : k0_chk3 v15), ∀ a, (k0_off65 v15) a + S1x10000.size a ≤ S3000x10000.size a := fun v15 k0_hw3 => k0_hw3.2

def k0_off66 (v21 : BitVec 32) : Fin 2 → Nat :=
  let c0_i32_40 : BitVec 32 := 0#32
  ![v21.toNat, 0]

def k0_chk4 (v21 : BitVec 32) : Prop :=
  (∀ a, (k0_off8 v21) a + S1x10000.size a ≤ S3000x10000.size a) ∧
  (∀ a, (k0_off66 v21) a + S1x10000.size a ≤ S3000x10000.size a)
instance k0_chk4.dec : ∀ (v21 : BitVec 32), Decidable (k0_chk4 v21) := fun v21 => decidable_of_iff' _ (Iff.of_eq (k0_chk4.eq_1 v21))
theorem k0_off8_inb : ∀ (v21 : BitVec 32) (k0_hw4 : k0_chk4 v21), ∀ a, (k0_off8 v21) a + S1x10000.size a ≤ S3000x10000.size a := fun v21 k0_hw4 => k0_hw4.1
theorem k0_off66_inb : ∀ (v21 : BitVec 32) (k0_hw4 : k0_chk4 v21), ∀ a, (k0_off66 v21) a + S1x10000.size a ≤ S3000x10000.size a := fun v21 k0_hw4 => k0_hw4.2

def k0_off67 (v27 : BitVec 32) : Fin 2 → Nat :=
  let c0_i32_42 : BitVec 32 := 0#32
  ![v27.toNat, 0]

def k0_chk5 (v27 : BitVec 32) : Prop :=
  (∀ a, (k0_off10 v27) a + S1x10000.size a ≤ S3000x10000.size a) ∧
  (∀ a, (k0_off67 v27) a + S1x10000.size a ≤ S3000x10000.size a)
instance k0_chk5.dec : ∀ (v27 : BitVec 32), Decidable (k0_chk5 v27) := fun v27 => decidable_of_iff' _ (Iff.of_eq (k0_chk5.eq_1 v27))
theorem k0_off10_inb : ∀ (v27 : BitVec 32) (k0_hw5 : k0_chk5 v27), ∀ a, (k0_off10 v27) a + S1x10000.size a ≤ S3000x10000.size a := fun v27 k0_hw5 => k0_hw5.1
theorem k0_off67_inb : ∀ (v27 : BitVec 32) (k0_hw5 : k0_chk5 v27), ∀ a, (k0_off67 v27) a + S1x10000.size a ≤ S3000x10000.size a := fun v27 k0_hw5 => k0_hw5.2

def k0_off68 (v33 : BitVec 32) : Fin 2 → Nat :=
  let c0_i32_44 : BitVec 32 := 0#32
  ![v33.toNat, 0]

def k0_chk6 (v33 : BitVec 32) : Prop :=
  (∀ a, (k0_off12 v33) a + S1x10000.size a ≤ S3000x10000.size a) ∧
  (∀ a, (k0_off68 v33) a + S1x10000.size a ≤ S3000x10000.size a)
instance k0_chk6.dec : ∀ (v33 : BitVec 32), Decidable (k0_chk6 v33) := fun v33 => decidable_of_iff' _ (Iff.of_eq (k0_chk6.eq_1 v33))
theorem k0_off12_inb : ∀ (v33 : BitVec 32) (k0_hw6 : k0_chk6 v33), ∀ a, (k0_off12 v33) a + S1x10000.size a ≤ S3000x10000.size a := fun v33 k0_hw6 => k0_hw6.1
theorem k0_off68_inb : ∀ (v33 : BitVec 32) (k0_hw6 : k0_chk6 v33), ∀ a, (k0_off68 v33) a + S1x10000.size a ≤ S3000x10000.size a := fun v33 k0_hw6 => k0_hw6.2

def k0_off69 (v39 : BitVec 32) : Fin 2 → Nat :=
  let c0_i32_46 : BitVec 32 := 0#32
  ![v39.toNat, 0]

def k0_chk7 (v39 : BitVec 32) : Prop :=
  (∀ a, (k0_off14 v39) a + S1x10000.size a ≤ S3000x10000.size a) ∧
  (∀ a, (k0_off69 v39) a + S1x10000.size a ≤ S3000x10000.size a)
instance k0_chk7.dec : ∀ (v39 : BitVec 32), Decidable (k0_chk7 v39) := fun v39 => decidable_of_iff' _ (Iff.of_eq (k0_chk7.eq_1 v39))
theorem k0_off14_inb : ∀ (v39 : BitVec 32) (k0_hw7 : k0_chk7 v39), ∀ a, (k0_off14 v39) a + S1x10000.size a ≤ S3000x10000.size a := fun v39 k0_hw7 => k0_hw7.1
theorem k0_off69_inb : ∀ (v39 : BitVec 32) (k0_hw7 : k0_chk7 v39), ∀ a, (k0_off69 v39) a + S1x10000.size a ≤ S3000x10000.size a := fun v39 k0_hw7 => k0_hw7.2

def k0_off70 (v45 : BitVec 32) : Fin 2 → Nat :=
  let c0_i32_48 : BitVec 32 := 0#32
  ![v45.toNat, 0]

def k0_chk8 (v45 : BitVec 32) : Prop :=
  (∀ a, (k0_off16 v45) a + S1x10000.size a ≤ S3000x10000.size a) ∧
  (∀ a, (k0_off70 v45) a + S1x10000.size a ≤ S3000x10000.size a)
instance k0_chk8.dec : ∀ (v45 : BitVec 32), Decidable (k0_chk8 v45) := fun v45 => decidable_of_iff' _ (Iff.of_eq (k0_chk8.eq_1 v45))
theorem k0_off16_inb : ∀ (v45 : BitVec 32) (k0_hw8 : k0_chk8 v45), ∀ a, (k0_off16 v45) a + S1x10000.size a ≤ S3000x10000.size a := fun v45 k0_hw8 => k0_hw8.1
theorem k0_off70_inb : ∀ (v45 : BitVec 32) (k0_hw8 : k0_chk8 v45), ∀ a, (k0_off70 v45) a + S1x10000.size a ≤ S3000x10000.size a := fun v45 k0_hw8 => k0_hw8.2

def k0_off71 (v51 : BitVec 32) : Fin 2 → Nat :=
  let c0_i32_50 : BitVec 32 := 0#32
  ![v51.toNat, 0]

def k0_chk9 (v51 : BitVec 32) : Prop :=
  (∀ a, (k0_off18 v51) a + S1x10000.size a ≤ S3000x10000.size a) ∧
  (∀ a, (k0_off71 v51) a + S1x10000.size a ≤ S3000x10000.size a)
instance k0_chk9.dec : ∀ (v51 : BitVec 32), Decidable (k0_chk9 v51) := fun v51 => decidable_of_iff' _ (Iff.of_eq (k0_chk9.eq_1 v51))
theorem k0_off18_inb : ∀ (v51 : BitVec 32) (k0_hw9 : k0_chk9 v51), ∀ a, (k0_off18 v51) a + S1x10000.size a ≤ S3000x10000.size a := fun v51 k0_hw9 => k0_hw9.1
theorem k0_off71_inb : ∀ (v51 : BitVec 32) (k0_hw9 : k0_chk9 v51), ∀ a, (k0_off71 v51) a + S1x10000.size a ≤ S3000x10000.size a := fun v51 k0_hw9 => k0_hw9.2

def k0_off72 (v57 : BitVec 32) : Fin 2 → Nat :=
  let c0_i32_52 : BitVec 32 := 0#32
  ![v57.toNat, 0]

def k0_chk10 (v57 : BitVec 32) : Prop :=
  (∀ a, (k0_off20 v57) a + S1x10000.size a ≤ S3000x10000.size a) ∧
  (∀ a, (k0_off72 v57) a + S1x10000.size a ≤ S3000x10000.size a)
instance k0_chk10.dec : ∀ (v57 : BitVec 32), Decidable (k0_chk10 v57) := fun v57 => decidable_of_iff' _ (Iff.of_eq (k0_chk10.eq_1 v57))
theorem k0_off20_inb : ∀ (v57 : BitVec 32) (k0_hw10 : k0_chk10 v57), ∀ a, (k0_off20 v57) a + S1x10000.size a ≤ S3000x10000.size a := fun v57 k0_hw10 => k0_hw10.1
theorem k0_off72_inb : ∀ (v57 : BitVec 32) (k0_hw10 : k0_chk10 v57), ∀ a, (k0_off72 v57) a + S1x10000.size a ≤ S3000x10000.size a := fun v57 k0_hw10 => k0_hw10.2

def k0_off73 (v63 : BitVec 32) : Fin 2 → Nat :=
  let c0_i32_54 : BitVec 32 := 0#32
  ![v63.toNat, 0]

def k0_chk11 (v63 : BitVec 32) : Prop :=
  (∀ a, (k0_off22 v63) a + S1x10000.size a ≤ S3000x10000.size a) ∧
  (∀ a, (k0_off73 v63) a + S1x10000.size a ≤ S3000x10000.size a)
instance k0_chk11.dec : ∀ (v63 : BitVec 32), Decidable (k0_chk11 v63) := fun v63 => decidable_of_iff' _ (Iff.of_eq (k0_chk11.eq_1 v63))
theorem k0_off22_inb : ∀ (v63 : BitVec 32) (k0_hw11 : k0_chk11 v63), ∀ a, (k0_off22 v63) a + S1x10000.size a ≤ S3000x10000.size a := fun v63 k0_hw11 => k0_hw11.1
theorem k0_off73_inb : ∀ (v63 : BitVec 32) (k0_hw11 : k0_chk11 v63), ∀ a, (k0_off73 v63) a + S1x10000.size a ≤ S3000x10000.size a := fun v63 k0_hw11 => k0_hw11.2

def k0_off74 (v69 : BitVec 32) : Fin 2 → Nat :=
  let c0_i32_56 : BitVec 32 := 0#32
  ![v69.toNat, 0]

def k0_chk12 (v69 : BitVec 32) : Prop :=
  (∀ a, (k0_off24 v69) a + S1x10000.size a ≤ S3000x10000.size a) ∧
  (∀ a, (k0_off74 v69) a + S1x10000.size a ≤ S3000x10000.size a)
instance k0_chk12.dec : ∀ (v69 : BitVec 32), Decidable (k0_chk12 v69) := fun v69 => decidable_of_iff' _ (Iff.of_eq (k0_chk12.eq_1 v69))
theorem k0_off24_inb : ∀ (v69 : BitVec 32) (k0_hw12 : k0_chk12 v69), ∀ a, (k0_off24 v69) a + S1x10000.size a ≤ S3000x10000.size a := fun v69 k0_hw12 => k0_hw12.1
theorem k0_off74_inb : ∀ (v69 : BitVec 32) (k0_hw12 : k0_chk12 v69), ∀ a, (k0_off74 v69) a + S1x10000.size a ≤ S3000x10000.size a := fun v69 k0_hw12 => k0_hw12.2

def k0_off75 (v75 : BitVec 32) : Fin 2 → Nat :=
  let c0_i32_58 : BitVec 32 := 0#32
  ![v75.toNat, 0]

def k0_chk13 (v75 : BitVec 32) : Prop :=
  (∀ a, (k0_off26 v75) a + S1x10000.size a ≤ S3000x10000.size a) ∧
  (∀ a, (k0_off75 v75) a + S1x10000.size a ≤ S3000x10000.size a)
instance k0_chk13.dec : ∀ (v75 : BitVec 32), Decidable (k0_chk13 v75) := fun v75 => decidable_of_iff' _ (Iff.of_eq (k0_chk13.eq_1 v75))
theorem k0_off26_inb : ∀ (v75 : BitVec 32) (k0_hw13 : k0_chk13 v75), ∀ a, (k0_off26 v75) a + S1x10000.size a ≤ S3000x10000.size a := fun v75 k0_hw13 => k0_hw13.1
theorem k0_off75_inb : ∀ (v75 : BitVec 32) (k0_hw13 : k0_chk13 v75), ∀ a, (k0_off75 v75) a + S1x10000.size a ≤ S3000x10000.size a := fun v75 k0_hw13 => k0_hw13.2

def k0_off76 (v81 : BitVec 32) : Fin 2 → Nat :=
  let c0_i32_60 : BitVec 32 := 0#32
  ![v81.toNat, 0]

def k0_chk14 (v81 : BitVec 32) : Prop :=
  (∀ a, (k0_off28 v81) a + S1x10000.size a ≤ S3000x10000.size a) ∧
  (∀ a, (k0_off76 v81) a + S1x10000.size a ≤ S3000x10000.size a)
instance k0_chk14.dec : ∀ (v81 : BitVec 32), Decidable (k0_chk14 v81) := fun v81 => decidable_of_iff' _ (Iff.of_eq (k0_chk14.eq_1 v81))
theorem k0_off28_inb : ∀ (v81 : BitVec 32) (k0_hw14 : k0_chk14 v81), ∀ a, (k0_off28 v81) a + S1x10000.size a ≤ S3000x10000.size a := fun v81 k0_hw14 => k0_hw14.1
theorem k0_off76_inb : ∀ (v81 : BitVec 32) (k0_hw14 : k0_chk14 v81), ∀ a, (k0_off76 v81) a + S1x10000.size a ≤ S3000x10000.size a := fun v81 k0_hw14 => k0_hw14.2

def k0_off77 (v87 : BitVec 32) : Fin 2 → Nat :=
  let c0_i32_62 : BitVec 32 := 0#32
  ![v87.toNat, 0]

def k0_chk15 (v87 : BitVec 32) : Prop :=
  (∀ a, (k0_off30 v87) a + S1x10000.size a ≤ S3000x10000.size a) ∧
  (∀ a, (k0_off77 v87) a + S1x10000.size a ≤ S3000x10000.size a)
instance k0_chk15.dec : ∀ (v87 : BitVec 32), Decidable (k0_chk15 v87) := fun v87 => decidable_of_iff' _ (Iff.of_eq (k0_chk15.eq_1 v87))
theorem k0_off30_inb : ∀ (v87 : BitVec 32) (k0_hw15 : k0_chk15 v87), ∀ a, (k0_off30 v87) a + S1x10000.size a ≤ S3000x10000.size a := fun v87 k0_hw15 => k0_hw15.1
theorem k0_off77_inb : ∀ (v87 : BitVec 32) (k0_hw15 : k0_chk15 v87), ∀ a, (k0_off77 v87) a + S1x10000.size a ≤ S3000x10000.size a := fun v87 k0_hw15 => k0_hw15.2

def k0_off78 (v93 : BitVec 32) : Fin 2 → Nat :=
  let c0_i32_64 : BitVec 32 := 0#32
  ![v93.toNat, 0]

def k0_chk16 (v93 : BitVec 32) : Prop :=
  (∀ a, (k0_off32 v93) a + S1x10000.size a ≤ S3000x10000.size a) ∧
  (∀ a, (k0_off78 v93) a + S1x10000.size a ≤ S3000x10000.size a)
instance k0_chk16.dec : ∀ (v93 : BitVec 32), Decidable (k0_chk16 v93) := fun v93 => decidable_of_iff' _ (Iff.of_eq (k0_chk16.eq_1 v93))
theorem k0_off32_inb : ∀ (v93 : BitVec 32) (k0_hw16 : k0_chk16 v93), ∀ a, (k0_off32 v93) a + S1x10000.size a ≤ S3000x10000.size a := fun v93 k0_hw16 => k0_hw16.1
theorem k0_off78_inb : ∀ (v93 : BitVec 32) (k0_hw16 : k0_chk16 v93), ∀ a, (k0_off78 v93) a + S1x10000.size a ≤ S3000x10000.size a := fun v93 k0_hw16 => k0_hw16.2

def k0_off79 (v99 : BitVec 32) : Fin 2 → Nat :=
  let c0_i32_66 : BitVec 32 := 0#32
  ![v99.toNat, 0]

def k0_chk17 (v99 : BitVec 32) : Prop :=
  (∀ a, (k0_off34 v99) a + S1x10000.size a ≤ S3000x10000.size a) ∧
  (∀ a, (k0_off79 v99) a + S1x10000.size a ≤ S3000x10000.size a)
instance k0_chk17.dec : ∀ (v99 : BitVec 32), Decidable (k0_chk17 v99) := fun v99 => decidable_of_iff' _ (Iff.of_eq (k0_chk17.eq_1 v99))
theorem k0_off34_inb : ∀ (v99 : BitVec 32) (k0_hw17 : k0_chk17 v99), ∀ a, (k0_off34 v99) a + S1x10000.size a ≤ S3000x10000.size a := fun v99 k0_hw17 => k0_hw17.1
theorem k0_off79_inb : ∀ (v99 : BitVec 32) (k0_hw17 : k0_chk17 v99), ∀ a, (k0_off79 v99) a + S1x10000.size a ≤ S3000x10000.size a := fun v99 k0_hw17 => k0_hw17.2

def k0_off80 (v105 : BitVec 32) : Fin 2 → Nat :=
  let c0_i32_68 : BitVec 32 := 0#32
  ![v105.toNat, 0]

def k0_chk18 (v105 : BitVec 32) : Prop :=
  (∀ a, (k0_off36 v105) a + S1x10000.size a ≤ S3000x10000.size a) ∧
  (∀ a, (k0_off80 v105) a + S1x10000.size a ≤ S3000x10000.size a)
instance k0_chk18.dec : ∀ (v105 : BitVec 32), Decidable (k0_chk18 v105) := fun v105 => decidable_of_iff' _ (Iff.of_eq (k0_chk18.eq_1 v105))
theorem k0_off36_inb : ∀ (v105 : BitVec 32) (k0_hw18 : k0_chk18 v105), ∀ a, (k0_off36 v105) a + S1x10000.size a ≤ S3000x10000.size a := fun v105 k0_hw18 => k0_hw18.1
theorem k0_off80_inb : ∀ (v105 : BitVec 32) (k0_hw18 : k0_chk18 v105), ∀ a, (k0_off80 v105) a + S1x10000.size a ≤ S3000x10000.size a := fun v105 k0_hw18 => k0_hw18.2

def k0_off81 (v111 : BitVec 32) : Fin 2 → Nat :=
  let c0_i32_70 : BitVec 32 := 0#32
  ![v111.toNat, 0]

def k0_chk19 (v111 : BitVec 32) : Prop :=
  (∀ a, (k0_off38 v111) a + S1x10000.size a ≤ S3000x10000.size a) ∧
  (∀ a, (k0_off81 v111) a + S1x10000.size a ≤ S3000x10000.size a)
instance k0_chk19.dec : ∀ (v111 : BitVec 32), Decidable (k0_chk19 v111) := fun v111 => decidable_of_iff' _ (Iff.of_eq (k0_chk19.eq_1 v111))
theorem k0_off38_inb : ∀ (v111 : BitVec 32) (k0_hw19 : k0_chk19 v111), ∀ a, (k0_off38 v111) a + S1x10000.size a ≤ S3000x10000.size a := fun v111 k0_hw19 => k0_hw19.1
theorem k0_off81_inb : ∀ (v111 : BitVec 32) (k0_hw19 : k0_chk19 v111), ∀ a, (k0_off81 v111) a + S1x10000.size a ≤ S3000x10000.size a := fun v111 k0_hw19 => k0_hw19.2

def k0_off82 (v117 : BitVec 32) : Fin 2 → Nat :=
  let c0_i32_72 : BitVec 32 := 0#32
  ![v117.toNat, 0]

def k0_chk20 (v117 : BitVec 32) : Prop :=
  (∀ a, (k0_off40 v117) a + S1x10000.size a ≤ S3000x10000.size a) ∧
  (∀ a, (k0_off82 v117) a + S1x10000.size a ≤ S3000x10000.size a)
instance k0_chk20.dec : ∀ (v117 : BitVec 32), Decidable (k0_chk20 v117) := fun v117 => decidable_of_iff' _ (Iff.of_eq (k0_chk20.eq_1 v117))
theorem k0_off40_inb : ∀ (v117 : BitVec 32) (k0_hw20 : k0_chk20 v117), ∀ a, (k0_off40 v117) a + S1x10000.size a ≤ S3000x10000.size a := fun v117 k0_hw20 => k0_hw20.1
theorem k0_off82_inb : ∀ (v117 : BitVec 32) (k0_hw20 : k0_chk20 v117), ∀ a, (k0_off82 v117) a + S1x10000.size a ≤ S3000x10000.size a := fun v117 k0_hw20 => k0_hw20.2

def k0_off83 (v123 : BitVec 32) : Fin 2 → Nat :=
  let c0_i32_74 : BitVec 32 := 0#32
  ![v123.toNat, 0]

def k0_chk21 (v123 : BitVec 32) : Prop :=
  (∀ a, (k0_off42 v123) a + S1x10000.size a ≤ S3000x10000.size a) ∧
  (∀ a, (k0_off83 v123) a + S1x10000.size a ≤ S3000x10000.size a)
instance k0_chk21.dec : ∀ (v123 : BitVec 32), Decidable (k0_chk21 v123) := fun v123 => decidable_of_iff' _ (Iff.of_eq (k0_chk21.eq_1 v123))
theorem k0_off42_inb : ∀ (v123 : BitVec 32) (k0_hw21 : k0_chk21 v123), ∀ a, (k0_off42 v123) a + S1x10000.size a ≤ S3000x10000.size a := fun v123 k0_hw21 => k0_hw21.1
theorem k0_off83_inb : ∀ (v123 : BitVec 32) (k0_hw21 : k0_chk21 v123), ∀ a, (k0_off83 v123) a + S1x10000.size a ≤ S3000x10000.size a := fun v123 k0_hw21 => k0_hw21.2

def k0_off84 (v129 : BitVec 32) : Fin 2 → Nat :=
  let c0_i32_76 : BitVec 32 := 0#32
  ![v129.toNat, 0]

def k0_chk22 (v129 : BitVec 32) : Prop :=
  (∀ a, (k0_off44 v129) a + S1x10000.size a ≤ S3000x10000.size a) ∧
  (∀ a, (k0_off84 v129) a + S1x10000.size a ≤ S3000x10000.size a)
instance k0_chk22.dec : ∀ (v129 : BitVec 32), Decidable (k0_chk22 v129) := fun v129 => decidable_of_iff' _ (Iff.of_eq (k0_chk22.eq_1 v129))
theorem k0_off44_inb : ∀ (v129 : BitVec 32) (k0_hw22 : k0_chk22 v129), ∀ a, (k0_off44 v129) a + S1x10000.size a ≤ S3000x10000.size a := fun v129 k0_hw22 => k0_hw22.1
theorem k0_off84_inb : ∀ (v129 : BitVec 32) (k0_hw22 : k0_chk22 v129), ∀ a, (k0_off84 v129) a + S1x10000.size a ≤ S3000x10000.size a := fun v129 k0_hw22 => k0_hw22.2

def k0_off85 (v135 : BitVec 32) : Fin 2 → Nat :=
  let c0_i32_78 : BitVec 32 := 0#32
  ![v135.toNat, 0]

def k0_chk23 (v135 : BitVec 32) : Prop :=
  (∀ a, (k0_off46 v135) a + S1x10000.size a ≤ S3000x10000.size a) ∧
  (∀ a, (k0_off85 v135) a + S1x10000.size a ≤ S3000x10000.size a)
instance k0_chk23.dec : ∀ (v135 : BitVec 32), Decidable (k0_chk23 v135) := fun v135 => decidable_of_iff' _ (Iff.of_eq (k0_chk23.eq_1 v135))
theorem k0_off46_inb : ∀ (v135 : BitVec 32) (k0_hw23 : k0_chk23 v135), ∀ a, (k0_off46 v135) a + S1x10000.size a ≤ S3000x10000.size a := fun v135 k0_hw23 => k0_hw23.1
theorem k0_off85_inb : ∀ (v135 : BitVec 32) (k0_hw23 : k0_chk23 v135), ∀ a, (k0_off85 v135) a + S1x10000.size a ≤ S3000x10000.size a := fun v135 k0_hw23 => k0_hw23.2

def k0_off86 (v141 : BitVec 32) : Fin 2 → Nat :=
  let c0_i32_80 : BitVec 32 := 0#32
  ![v141.toNat, 0]

def k0_chk24 (v141 : BitVec 32) : Prop :=
  (∀ a, (k0_off48 v141) a + S1x10000.size a ≤ S3000x10000.size a) ∧
  (∀ a, (k0_off86 v141) a + S1x10000.size a ≤ S3000x10000.size a)
instance k0_chk24.dec : ∀ (v141 : BitVec 32), Decidable (k0_chk24 v141) := fun v141 => decidable_of_iff' _ (Iff.of_eq (k0_chk24.eq_1 v141))
theorem k0_off48_inb : ∀ (v141 : BitVec 32) (k0_hw24 : k0_chk24 v141), ∀ a, (k0_off48 v141) a + S1x10000.size a ≤ S3000x10000.size a := fun v141 k0_hw24 => k0_hw24.1
theorem k0_off86_inb : ∀ (v141 : BitVec 32) (k0_hw24 : k0_chk24 v141), ∀ a, (k0_off86 v141) a + S1x10000.size a ≤ S3000x10000.size a := fun v141 k0_hw24 => k0_hw24.2

def k0_off87 (v147 : BitVec 32) : Fin 2 → Nat :=
  let c0_i32_82 : BitVec 32 := 0#32
  ![v147.toNat, 0]

def k0_chk25 (v147 : BitVec 32) : Prop :=
  (∀ a, (k0_off50 v147) a + S1x10000.size a ≤ S3000x10000.size a) ∧
  (∀ a, (k0_off87 v147) a + S1x10000.size a ≤ S3000x10000.size a)
instance k0_chk25.dec : ∀ (v147 : BitVec 32), Decidable (k0_chk25 v147) := fun v147 => decidable_of_iff' _ (Iff.of_eq (k0_chk25.eq_1 v147))
theorem k0_off50_inb : ∀ (v147 : BitVec 32) (k0_hw25 : k0_chk25 v147), ∀ a, (k0_off50 v147) a + S1x10000.size a ≤ S3000x10000.size a := fun v147 k0_hw25 => k0_hw25.1
theorem k0_off87_inb : ∀ (v147 : BitVec 32) (k0_hw25 : k0_chk25 v147), ∀ a, (k0_off87 v147) a + S1x10000.size a ≤ S3000x10000.size a := fun v147 k0_hw25 => k0_hw25.2

def k0_off88 (v153 : BitVec 32) : Fin 2 → Nat :=
  let c0_i32_84 : BitVec 32 := 0#32
  ![v153.toNat, 0]

def k0_chk26 (v153 : BitVec 32) : Prop :=
  (∀ a, (k0_off52 v153) a + S1x10000.size a ≤ S3000x10000.size a) ∧
  (∀ a, (k0_off88 v153) a + S1x10000.size a ≤ S3000x10000.size a)
instance k0_chk26.dec : ∀ (v153 : BitVec 32), Decidable (k0_chk26 v153) := fun v153 => decidable_of_iff' _ (Iff.of_eq (k0_chk26.eq_1 v153))
theorem k0_off52_inb : ∀ (v153 : BitVec 32) (k0_hw26 : k0_chk26 v153), ∀ a, (k0_off52 v153) a + S1x10000.size a ≤ S3000x10000.size a := fun v153 k0_hw26 => k0_hw26.1
theorem k0_off88_inb : ∀ (v153 : BitVec 32) (k0_hw26 : k0_chk26 v153), ∀ a, (k0_off88 v153) a + S1x10000.size a ≤ S3000x10000.size a := fun v153 k0_hw26 => k0_hw26.2

def k0_off89 (v159 : BitVec 32) : Fin 2 → Nat :=
  let c0_i32_86 : BitVec 32 := 0#32
  ![v159.toNat, 0]

def k0_chk27 (v159 : BitVec 32) : Prop :=
  (∀ a, (k0_off54 v159) a + S1x10000.size a ≤ S3000x10000.size a) ∧
  (∀ a, (k0_off89 v159) a + S1x10000.size a ≤ S3000x10000.size a)
instance k0_chk27.dec : ∀ (v159 : BitVec 32), Decidable (k0_chk27 v159) := fun v159 => decidable_of_iff' _ (Iff.of_eq (k0_chk27.eq_1 v159))
theorem k0_off54_inb : ∀ (v159 : BitVec 32) (k0_hw27 : k0_chk27 v159), ∀ a, (k0_off54 v159) a + S1x10000.size a ≤ S3000x10000.size a := fun v159 k0_hw27 => k0_hw27.1
theorem k0_off89_inb : ∀ (v159 : BitVec 32) (k0_hw27 : k0_chk27 v159), ∀ a, (k0_off89 v159) a + S1x10000.size a ≤ S3000x10000.size a := fun v159 k0_hw27 => k0_hw27.2

def k0_off90 (v165 : BitVec 32) : Fin 2 → Nat :=
  let c0_i32_88 : BitVec 32 := 0#32
  ![v165.toNat, 0]

def k0_chk28 (v165 : BitVec 32) : Prop :=
  (∀ a, (k0_off56 v165) a + S1x10000.size a ≤ S3000x10000.size a) ∧
  (∀ a, (k0_off90 v165) a + S1x10000.size a ≤ S3000x10000.size a)
instance k0_chk28.dec : ∀ (v165 : BitVec 32), Decidable (k0_chk28 v165) := fun v165 => decidable_of_iff' _ (Iff.of_eq (k0_chk28.eq_1 v165))
theorem k0_off56_inb : ∀ (v165 : BitVec 32) (k0_hw28 : k0_chk28 v165), ∀ a, (k0_off56 v165) a + S1x10000.size a ≤ S3000x10000.size a := fun v165 k0_hw28 => k0_hw28.1
theorem k0_off90_inb : ∀ (v165 : BitVec 32) (k0_hw28 : k0_chk28 v165), ∀ a, (k0_off90 v165) a + S1x10000.size a ≤ S3000x10000.size a := fun v165 k0_hw28 => k0_hw28.2

def k0_off91 (v171 : BitVec 32) : Fin 2 → Nat :=
  let c0_i32_90 : BitVec 32 := 0#32
  ![v171.toNat, 0]

def k0_chk29 (v171 : BitVec 32) : Prop :=
  (∀ a, (k0_off58 v171) a + S1x10000.size a ≤ S3000x10000.size a) ∧
  (∀ a, (k0_off91 v171) a + S1x10000.size a ≤ S3000x10000.size a)
instance k0_chk29.dec : ∀ (v171 : BitVec 32), Decidable (k0_chk29 v171) := fun v171 => decidable_of_iff' _ (Iff.of_eq (k0_chk29.eq_1 v171))
theorem k0_off58_inb : ∀ (v171 : BitVec 32) (k0_hw29 : k0_chk29 v171), ∀ a, (k0_off58 v171) a + S1x10000.size a ≤ S3000x10000.size a := fun v171 k0_hw29 => k0_hw29.1
theorem k0_off91_inb : ∀ (v171 : BitVec 32) (k0_hw29 : k0_chk29 v171), ∀ a, (k0_off91 v171) a + S1x10000.size a ≤ S3000x10000.size a := fun v171 k0_hw29 => k0_hw29.2

def k0_off92 (v177 : BitVec 32) : Fin 2 → Nat :=
  let c0_i32_92 : BitVec 32 := 0#32
  ![v177.toNat, 0]

def k0_chk30 (v177 : BitVec 32) : Prop :=
  (∀ a, (k0_off60 v177) a + S1x10000.size a ≤ S3000x10000.size a) ∧
  (∀ a, (k0_off92 v177) a + S1x10000.size a ≤ S3000x10000.size a)
instance k0_chk30.dec : ∀ (v177 : BitVec 32), Decidable (k0_chk30 v177) := fun v177 => decidable_of_iff' _ (Iff.of_eq (k0_chk30.eq_1 v177))
theorem k0_off60_inb : ∀ (v177 : BitVec 32) (k0_hw30 : k0_chk30 v177), ∀ a, (k0_off60 v177) a + S1x10000.size a ≤ S3000x10000.size a := fun v177 k0_hw30 => k0_hw30.1
theorem k0_off92_inb : ∀ (v177 : BitVec 32) (k0_hw30 : k0_chk30 v177), ∀ a, (k0_off92 v177) a + S1x10000.size a ≤ S3000x10000.size a := fun v177 k0_hw30 => k0_hw30.2

def k0_off93 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v438 : Index := Scalar.indexCast v437
  let c0_190 : Index := 0#32
  ![v438.toNat, 0]
def k0_off94 (v439 : BitVec 32) : Fin 2 → Nat :=
  let c0_i32_192 : BitVec 32 := 0#32
  ![v439.toNat, 0]

def k0_off95 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v444 : Index := Scalar.indexCast v437
  let c1_193 : Index := 1#32
  ![v444.toNat, 1]
def k0_off96 (v445 : BitVec 32) : Fin 2 → Nat :=
  let c0_i32_195 : BitVec 32 := 0#32
  ![v445.toNat, 0]

def k0_off97 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v450 : Index := Scalar.indexCast v437
  let c2_196 : Index := 2#32
  ![v450.toNat, 2]
def k0_off98 (v451 : BitVec 32) : Fin 2 → Nat :=
  let c0_i32_198 : BitVec 32 := 0#32
  ![v451.toNat, 0]

def k0_off99 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v456 : Index := Scalar.indexCast v437
  let c3_199 : Index := 3#32
  ![v456.toNat, 3]
def k0_off100 (v457 : BitVec 32) : Fin 2 → Nat :=
  let c0_i32_201 : BitVec 32 := 0#32
  ![v457.toNat, 0]

def k0_off101 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v462 : Index := Scalar.indexCast v437
  let c4_202 : Index := 4#32
  ![v462.toNat, 4]
def k0_off102 (v463 : BitVec 32) : Fin 2 → Nat :=
  let c0_i32_204 : BitVec 32 := 0#32
  ![v463.toNat, 0]

def k0_off103 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v468 : Index := Scalar.indexCast v437
  let c5_205 : Index := 5#32
  ![v468.toNat, 5]
def k0_off104 (v469 : BitVec 32) : Fin 2 → Nat :=
  let c0_i32_207 : BitVec 32 := 0#32
  ![v469.toNat, 0]

def k0_off105 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v474 : Index := Scalar.indexCast v437
  let c6_208 : Index := 6#32
  ![v474.toNat, 6]
def k0_off106 (v475 : BitVec 32) : Fin 2 → Nat :=
  let c0_i32_210 : BitVec 32 := 0#32
  ![v475.toNat, 0]

def k0_off107 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v480 : Index := Scalar.indexCast v437
  let c7_211 : Index := 7#32
  ![v480.toNat, 7]
def k0_off108 (v481 : BitVec 32) : Fin 2 → Nat :=
  let c0_i32_213 : BitVec 32 := 0#32
  ![v481.toNat, 0]

def k0_off109 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v486 : Index := Scalar.indexCast v437
  let c8_214 : Index := 8#32
  ![v486.toNat, 8]
def k0_off110 (v487 : BitVec 32) : Fin 2 → Nat :=
  let c0_i32_216 : BitVec 32 := 0#32
  ![v487.toNat, 0]

def k0_off111 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v492 : Index := Scalar.indexCast v437
  let c9_217 : Index := 9#32
  ![v492.toNat, 9]
def k0_off112 (v493 : BitVec 32) : Fin 2 → Nat :=
  let c0_i32_219 : BitVec 32 := 0#32
  ![v493.toNat, 0]

def k0_off113 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v498 : Index := Scalar.indexCast v437
  let c10_220 : Index := 10#32
  ![v498.toNat, 10]
def k0_off114 (v499 : BitVec 32) : Fin 2 → Nat :=
  let c0_i32_222 : BitVec 32 := 0#32
  ![v499.toNat, 0]

def k0_off115 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v504 : Index := Scalar.indexCast v437
  let c11_223 : Index := 11#32
  ![v504.toNat, 11]
def k0_off116 (v505 : BitVec 32) : Fin 2 → Nat :=
  let c0_i32_225 : BitVec 32 := 0#32
  ![v505.toNat, 0]

def k0_off117 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v510 : Index := Scalar.indexCast v437
  let c12_226 : Index := 12#32
  ![v510.toNat, 12]
def k0_off118 (v511 : BitVec 32) : Fin 2 → Nat :=
  let c0_i32_228 : BitVec 32 := 0#32
  ![v511.toNat, 0]

def k0_off119 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v516 : Index := Scalar.indexCast v437
  let c13_229 : Index := 13#32
  ![v516.toNat, 13]
def k0_off120 (v517 : BitVec 32) : Fin 2 → Nat :=
  let c0_i32_231 : BitVec 32 := 0#32
  ![v517.toNat, 0]

def k0_off121 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v522 : Index := Scalar.indexCast v437
  let c14_232 : Index := 14#32
  ![v522.toNat, 14]
def k0_off122 (v523 : BitVec 32) : Fin 2 → Nat :=
  let c0_i32_234 : BitVec 32 := 0#32
  ![v523.toNat, 0]

def k0_off123 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v528 : Index := Scalar.indexCast v437
  let c15_235 : Index := 15#32
  ![v528.toNat, 15]
def k0_off124 (v529 : BitVec 32) : Fin 2 → Nat :=
  let c0_i32_237 : BitVec 32 := 0#32
  ![v529.toNat, 0]

def k0_off125 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v534 : Index := Scalar.indexCast v437
  let c16_238 : Index := 16#32
  ![v534.toNat, 16]
def k0_off126 (v535 : BitVec 32) : Fin 2 → Nat :=
  let c0_i32_240 : BitVec 32 := 0#32
  ![v535.toNat, 0]

def k0_off127 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v540 : Index := Scalar.indexCast v437
  let c17_241 : Index := 17#32
  ![v540.toNat, 17]
def k0_off128 (v541 : BitVec 32) : Fin 2 → Nat :=
  let c0_i32_243 : BitVec 32 := 0#32
  ![v541.toNat, 0]

def k0_off129 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v546 : Index := Scalar.indexCast v437
  let c18_244 : Index := 18#32
  ![v546.toNat, 18]
def k0_off130 (v547 : BitVec 32) : Fin 2 → Nat :=
  let c0_i32_246 : BitVec 32 := 0#32
  ![v547.toNat, 0]

def k0_off131 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v552 : Index := Scalar.indexCast v437
  let c19_247 : Index := 19#32
  ![v552.toNat, 19]
def k0_off132 (v553 : BitVec 32) : Fin 2 → Nat :=
  let c0_i32_249 : BitVec 32 := 0#32
  ![v553.toNat, 0]

def k0_off133 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v558 : Index := Scalar.indexCast v437
  let c20_250 : Index := 20#32
  ![v558.toNat, 20]
def k0_off134 (v559 : BitVec 32) : Fin 2 → Nat :=
  let c0_i32_252 : BitVec 32 := 0#32
  ![v559.toNat, 0]

def k0_off135 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v564 : Index := Scalar.indexCast v437
  let c21_253 : Index := 21#32
  ![v564.toNat, 21]
def k0_off136 (v565 : BitVec 32) : Fin 2 → Nat :=
  let c0_i32_255 : BitVec 32 := 0#32
  ![v565.toNat, 0]

def k0_off137 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v570 : Index := Scalar.indexCast v437
  let c22_256 : Index := 22#32
  ![v570.toNat, 22]
def k0_off138 (v571 : BitVec 32) : Fin 2 → Nat :=
  let c0_i32_258 : BitVec 32 := 0#32
  ![v571.toNat, 0]

def k0_off139 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v576 : Index := Scalar.indexCast v437
  let c23_259 : Index := 23#32
  ![v576.toNat, 23]
def k0_off140 (v577 : BitVec 32) : Fin 2 → Nat :=
  let c0_i32_261 : BitVec 32 := 0#32
  ![v577.toNat, 0]

def k0_off141 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v582 : Index := Scalar.indexCast v437
  let c24_262 : Index := 24#32
  ![v582.toNat, 24]
def k0_off142 (v583 : BitVec 32) : Fin 2 → Nat :=
  let c0_i32_264 : BitVec 32 := 0#32
  ![v583.toNat, 0]

def k0_off143 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v588 : Index := Scalar.indexCast v437
  let c25_265 : Index := 25#32
  ![v588.toNat, 25]
def k0_off144 (v589 : BitVec 32) : Fin 2 → Nat :=
  let c0_i32_267 : BitVec 32 := 0#32
  ![v589.toNat, 0]

def k0_off145 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v594 : Index := Scalar.indexCast v437
  let c26_268 : Index := 26#32
  ![v594.toNat, 26]
def k0_off146 (v595 : BitVec 32) : Fin 2 → Nat :=
  let c0_i32_270 : BitVec 32 := 0#32
  ![v595.toNat, 0]

def k0_off147 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v600 : Index := Scalar.indexCast v437
  let c27_271 : Index := 27#32
  ![v600.toNat, 27]
def k0_off148 (v601 : BitVec 32) : Fin 2 → Nat :=
  let c0_i32_273 : BitVec 32 := 0#32
  ![v601.toNat, 0]

def k0_off149 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v606 : Index := Scalar.indexCast v437
  let c28_274 : Index := 28#32
  ![v606.toNat, 28]
def k0_off150 (v607 : BitVec 32) : Fin 2 → Nat :=
  let c0_i32_276 : BitVec 32 := 0#32
  ![v607.toNat, 0]

def k0_off151 (i : grid0.Coords) : Fin 2 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v612 : Index := Scalar.indexCast v437
  let c29_277 : Index := 29#32
  ![v612.toNat, 29]
def k0_off152 (v613 : BitVec 32) : Fin 2 → Nat :=
  let c0_i32_279 : BitVec 32 := 0#32
  ![v613.toNat, 0]

def k0_off153 (i : grid0.Coords) : Fin 1 → Nat :=
  let arg0 : BitVec 32 := BitVec.ofNat 32 (i 0).val
  let c8_i32_188 : BitVec 32 := 8#32
  let v436 : BitVec 32 := Scalar.muli arg0 c8_i32_188
  let c1_i32_189 : BitVec 32 := 1#32
  let v437 : BitVec 32 := Scalar.addi v436 c1_i32_189
  let v618 : Index := Scalar.indexCast v437
  ![v618.toNat]
def k0_off154 (v619 : BitVec 32) : Fin 2 → Nat :=
  let c0_i32_281 : BitVec 32 := 0#32
  ![v619.toNat, 0]

def k0_chk62 (v619 : BitVec 32) : Prop :=
  (∀ a, (k0_off154 v619) a + S1x10000.size a ≤ S200x10000.size a)
instance k0_chk62.dec : ∀ (v619 : BitVec 32), Decidable (k0_chk62 v619) := fun v619 => decidable_of_iff' _ (Iff.of_eq (k0_chk62.eq_1 v619))
theorem k0_off154_inb : ∀ (v619 : BitVec 32) (k0_hw62 : k0_chk62 v619), ∀ a, (k0_off154 v619) a + S1x10000.size a ≤ S200x10000.size a := fun v619 k0_hw62 => k0_hw62

def k0_off155 (v439 : BitVec 32) : Fin 2 → Nat :=
  let c0_i32_283 : BitVec 32 := 0#32
  ![v439.toNat, 0]

def k0_chk32 (v439 : BitVec 32) : Prop :=
  (∀ a, (k0_off94 v439) a + S1x10000.size a ≤ S3000x10000.size a) ∧
  (∀ a, (k0_off155 v439) a + S1x10000.size a ≤ S3000x10000.size a)
instance k0_chk32.dec : ∀ (v439 : BitVec 32), Decidable (k0_chk32 v439) := fun v439 => decidable_of_iff' _ (Iff.of_eq (k0_chk32.eq_1 v439))
theorem k0_off94_inb : ∀ (v439 : BitVec 32) (k0_hw32 : k0_chk32 v439), ∀ a, (k0_off94 v439) a + S1x10000.size a ≤ S3000x10000.size a := fun v439 k0_hw32 => k0_hw32.1
theorem k0_off155_inb : ∀ (v439 : BitVec 32) (k0_hw32 : k0_chk32 v439), ∀ a, (k0_off155 v439) a + S1x10000.size a ≤ S3000x10000.size a := fun v439 k0_hw32 => k0_hw32.2

def k0_off156 (v445 : BitVec 32) : Fin 2 → Nat :=
  let c0_i32_285 : BitVec 32 := 0#32
  ![v445.toNat, 0]

def k0_chk33 (v445 : BitVec 32) : Prop :=
  (∀ a, (k0_off96 v445) a + S1x10000.size a ≤ S3000x10000.size a) ∧
  (∀ a, (k0_off156 v445) a + S1x10000.size a ≤ S3000x10000.size a)
instance k0_chk33.dec : ∀ (v445 : BitVec 32), Decidable (k0_chk33 v445) := fun v445 => decidable_of_iff' _ (Iff.of_eq (k0_chk33.eq_1 v445))
theorem k0_off96_inb : ∀ (v445 : BitVec 32) (k0_hw33 : k0_chk33 v445), ∀ a, (k0_off96 v445) a + S1x10000.size a ≤ S3000x10000.size a := fun v445 k0_hw33 => k0_hw33.1
theorem k0_off156_inb : ∀ (v445 : BitVec 32) (k0_hw33 : k0_chk33 v445), ∀ a, (k0_off156 v445) a + S1x10000.size a ≤ S3000x10000.size a := fun v445 k0_hw33 => k0_hw33.2

def k0_off157 (v451 : BitVec 32) : Fin 2 → Nat :=
  let c0_i32_287 : BitVec 32 := 0#32
  ![v451.toNat, 0]

def k0_chk34 (v451 : BitVec 32) : Prop :=
  (∀ a, (k0_off98 v451) a + S1x10000.size a ≤ S3000x10000.size a) ∧
  (∀ a, (k0_off157 v451) a + S1x10000.size a ≤ S3000x10000.size a)
instance k0_chk34.dec : ∀ (v451 : BitVec 32), Decidable (k0_chk34 v451) := fun v451 => decidable_of_iff' _ (Iff.of_eq (k0_chk34.eq_1 v451))
theorem k0_off98_inb : ∀ (v451 : BitVec 32) (k0_hw34 : k0_chk34 v451), ∀ a, (k0_off98 v451) a + S1x10000.size a ≤ S3000x10000.size a := fun v451 k0_hw34 => k0_hw34.1
theorem k0_off157_inb : ∀ (v451 : BitVec 32) (k0_hw34 : k0_chk34 v451), ∀ a, (k0_off157 v451) a + S1x10000.size a ≤ S3000x10000.size a := fun v451 k0_hw34 => k0_hw34.2

def k0_off158 (v457 : BitVec 32) : Fin 2 → Nat :=
  let c0_i32_289 : BitVec 32 := 0#32
  ![v457.toNat, 0]

def k0_chk35 (v457 : BitVec 32) : Prop :=
  (∀ a, (k0_off100 v457) a + S1x10000.size a ≤ S3000x10000.size a) ∧
  (∀ a, (k0_off158 v457) a + S1x10000.size a ≤ S3000x10000.size a)
instance k0_chk35.dec : ∀ (v457 : BitVec 32), Decidable (k0_chk35 v457) := fun v457 => decidable_of_iff' _ (Iff.of_eq (k0_chk35.eq_1 v457))
theorem k0_off100_inb : ∀ (v457 : BitVec 32) (k0_hw35 : k0_chk35 v457), ∀ a, (k0_off100 v457) a + S1x10000.size a ≤ S3000x10000.size a := fun v457 k0_hw35 => k0_hw35.1
theorem k0_off158_inb : ∀ (v457 : BitVec 32) (k0_hw35 : k0_chk35 v457), ∀ a, (k0_off158 v457) a + S1x10000.size a ≤ S3000x10000.size a := fun v457 k0_hw35 => k0_hw35.2

def k0_off159 (v463 : BitVec 32) : Fin 2 → Nat :=
  let c0_i32_291 : BitVec 32 := 0#32
  ![v463.toNat, 0]

def k0_chk36 (v463 : BitVec 32) : Prop :=
  (∀ a, (k0_off102 v463) a + S1x10000.size a ≤ S3000x10000.size a) ∧
  (∀ a, (k0_off159 v463) a + S1x10000.size a ≤ S3000x10000.size a)
instance k0_chk36.dec : ∀ (v463 : BitVec 32), Decidable (k0_chk36 v463) := fun v463 => decidable_of_iff' _ (Iff.of_eq (k0_chk36.eq_1 v463))
theorem k0_off102_inb : ∀ (v463 : BitVec 32) (k0_hw36 : k0_chk36 v463), ∀ a, (k0_off102 v463) a + S1x10000.size a ≤ S3000x10000.size a := fun v463 k0_hw36 => k0_hw36.1
theorem k0_off159_inb : ∀ (v463 : BitVec 32) (k0_hw36 : k0_chk36 v463), ∀ a, (k0_off159 v463) a + S1x10000.size a ≤ S3000x10000.size a := fun v463 k0_hw36 => k0_hw36.2

def k0_off160 (v469 : BitVec 32) : Fin 2 → Nat :=
  let c0_i32_293 : BitVec 32 := 0#32
  ![v469.toNat, 0]

def k0_chk37 (v469 : BitVec 32) : Prop :=
  (∀ a, (k0_off104 v469) a + S1x10000.size a ≤ S3000x10000.size a) ∧
  (∀ a, (k0_off160 v469) a + S1x10000.size a ≤ S3000x10000.size a)
instance k0_chk37.dec : ∀ (v469 : BitVec 32), Decidable (k0_chk37 v469) := fun v469 => decidable_of_iff' _ (Iff.of_eq (k0_chk37.eq_1 v469))
theorem k0_off104_inb : ∀ (v469 : BitVec 32) (k0_hw37 : k0_chk37 v469), ∀ a, (k0_off104 v469) a + S1x10000.size a ≤ S3000x10000.size a := fun v469 k0_hw37 => k0_hw37.1
theorem k0_off160_inb : ∀ (v469 : BitVec 32) (k0_hw37 : k0_chk37 v469), ∀ a, (k0_off160 v469) a + S1x10000.size a ≤ S3000x10000.size a := fun v469 k0_hw37 => k0_hw37.2

def k0_off161 (v475 : BitVec 32) : Fin 2 → Nat :=
  let c0_i32_295 : BitVec 32 := 0#32
  ![v475.toNat, 0]

def k0_chk38 (v475 : BitVec 32) : Prop :=
  (∀ a, (k0_off106 v475) a + S1x10000.size a ≤ S3000x10000.size a) ∧
  (∀ a, (k0_off161 v475) a + S1x10000.size a ≤ S3000x10000.size a)
instance k0_chk38.dec : ∀ (v475 : BitVec 32), Decidable (k0_chk38 v475) := fun v475 => decidable_of_iff' _ (Iff.of_eq (k0_chk38.eq_1 v475))
theorem k0_off106_inb : ∀ (v475 : BitVec 32) (k0_hw38 : k0_chk38 v475), ∀ a, (k0_off106 v475) a + S1x10000.size a ≤ S3000x10000.size a := fun v475 k0_hw38 => k0_hw38.1
theorem k0_off161_inb : ∀ (v475 : BitVec 32) (k0_hw38 : k0_chk38 v475), ∀ a, (k0_off161 v475) a + S1x10000.size a ≤ S3000x10000.size a := fun v475 k0_hw38 => k0_hw38.2

def k0_off162 (v481 : BitVec 32) : Fin 2 → Nat :=
  let c0_i32_297 : BitVec 32 := 0#32
  ![v481.toNat, 0]

def k0_chk39 (v481 : BitVec 32) : Prop :=
  (∀ a, (k0_off108 v481) a + S1x10000.size a ≤ S3000x10000.size a) ∧
  (∀ a, (k0_off162 v481) a + S1x10000.size a ≤ S3000x10000.size a)
instance k0_chk39.dec : ∀ (v481 : BitVec 32), Decidable (k0_chk39 v481) := fun v481 => decidable_of_iff' _ (Iff.of_eq (k0_chk39.eq_1 v481))
theorem k0_off108_inb : ∀ (v481 : BitVec 32) (k0_hw39 : k0_chk39 v481), ∀ a, (k0_off108 v481) a + S1x10000.size a ≤ S3000x10000.size a := fun v481 k0_hw39 => k0_hw39.1
theorem k0_off162_inb : ∀ (v481 : BitVec 32) (k0_hw39 : k0_chk39 v481), ∀ a, (k0_off162 v481) a + S1x10000.size a ≤ S3000x10000.size a := fun v481 k0_hw39 => k0_hw39.2

def k0_off163 (v487 : BitVec 32) : Fin 2 → Nat :=
  let c0_i32_299 : BitVec 32 := 0#32
  ![v487.toNat, 0]

def k0_chk40 (v487 : BitVec 32) : Prop :=
  (∀ a, (k0_off110 v487) a + S1x10000.size a ≤ S3000x10000.size a) ∧
  (∀ a, (k0_off163 v487) a + S1x10000.size a ≤ S3000x10000.size a)
instance k0_chk40.dec : ∀ (v487 : BitVec 32), Decidable (k0_chk40 v487) := fun v487 => decidable_of_iff' _ (Iff.of_eq (k0_chk40.eq_1 v487))
theorem k0_off110_inb : ∀ (v487 : BitVec 32) (k0_hw40 : k0_chk40 v487), ∀ a, (k0_off110 v487) a + S1x10000.size a ≤ S3000x10000.size a := fun v487 k0_hw40 => k0_hw40.1
theorem k0_off163_inb : ∀ (v487 : BitVec 32) (k0_hw40 : k0_chk40 v487), ∀ a, (k0_off163 v487) a + S1x10000.size a ≤ S3000x10000.size a := fun v487 k0_hw40 => k0_hw40.2

def k0_off164 (v493 : BitVec 32) : Fin 2 → Nat :=
  let c0_i32_301 : BitVec 32 := 0#32
  ![v493.toNat, 0]

def k0_chk41 (v493 : BitVec 32) : Prop :=
  (∀ a, (k0_off112 v493) a + S1x10000.size a ≤ S3000x10000.size a) ∧
  (∀ a, (k0_off164 v493) a + S1x10000.size a ≤ S3000x10000.size a)
instance k0_chk41.dec : ∀ (v493 : BitVec 32), Decidable (k0_chk41 v493) := fun v493 => decidable_of_iff' _ (Iff.of_eq (k0_chk41.eq_1 v493))
theorem k0_off112_inb : ∀ (v493 : BitVec 32) (k0_hw41 : k0_chk41 v493), ∀ a, (k0_off112 v493) a + S1x10000.size a ≤ S3000x10000.size a := fun v493 k0_hw41 => k0_hw41.1
theorem k0_off164_inb : ∀ (v493 : BitVec 32) (k0_hw41 : k0_chk41 v493), ∀ a, (k0_off164 v493) a + S1x10000.size a ≤ S3000x10000.size a := fun v493 k0_hw41 => k0_hw41.2

def k0_off165 (v499 : BitVec 32) : Fin 2 → Nat :=
  let c0_i32_303 : BitVec 32 := 0#32
  ![v499.toNat, 0]

def k0_chk42 (v499 : BitVec 32) : Prop :=
  (∀ a, (k0_off114 v499) a + S1x10000.size a ≤ S3000x10000.size a) ∧
  (∀ a, (k0_off165 v499) a + S1x10000.size a ≤ S3000x10000.size a)
instance k0_chk42.dec : ∀ (v499 : BitVec 32), Decidable (k0_chk42 v499) := fun v499 => decidable_of_iff' _ (Iff.of_eq (k0_chk42.eq_1 v499))
theorem k0_off114_inb : ∀ (v499 : BitVec 32) (k0_hw42 : k0_chk42 v499), ∀ a, (k0_off114 v499) a + S1x10000.size a ≤ S3000x10000.size a := fun v499 k0_hw42 => k0_hw42.1
theorem k0_off165_inb : ∀ (v499 : BitVec 32) (k0_hw42 : k0_chk42 v499), ∀ a, (k0_off165 v499) a + S1x10000.size a ≤ S3000x10000.size a := fun v499 k0_hw42 => k0_hw42.2

def k0_off166 (v505 : BitVec 32) : Fin 2 → Nat :=
  let c0_i32_305 : BitVec 32 := 0#32
  ![v505.toNat, 0]

def k0_chk43 (v505 : BitVec 32) : Prop :=
  (∀ a, (k0_off116 v505) a + S1x10000.size a ≤ S3000x10000.size a) ∧
  (∀ a, (k0_off166 v505) a + S1x10000.size a ≤ S3000x10000.size a)
instance k0_chk43.dec : ∀ (v505 : BitVec 32), Decidable (k0_chk43 v505) := fun v505 => decidable_of_iff' _ (Iff.of_eq (k0_chk43.eq_1 v505))
theorem k0_off116_inb : ∀ (v505 : BitVec 32) (k0_hw43 : k0_chk43 v505), ∀ a, (k0_off116 v505) a + S1x10000.size a ≤ S3000x10000.size a := fun v505 k0_hw43 => k0_hw43.1
theorem k0_off166_inb : ∀ (v505 : BitVec 32) (k0_hw43 : k0_chk43 v505), ∀ a, (k0_off166 v505) a + S1x10000.size a ≤ S3000x10000.size a := fun v505 k0_hw43 => k0_hw43.2

def k0_off167 (v511 : BitVec 32) : Fin 2 → Nat :=
  let c0_i32_307 : BitVec 32 := 0#32
  ![v511.toNat, 0]

def k0_chk44 (v511 : BitVec 32) : Prop :=
  (∀ a, (k0_off118 v511) a + S1x10000.size a ≤ S3000x10000.size a) ∧
  (∀ a, (k0_off167 v511) a + S1x10000.size a ≤ S3000x10000.size a)
instance k0_chk44.dec : ∀ (v511 : BitVec 32), Decidable (k0_chk44 v511) := fun v511 => decidable_of_iff' _ (Iff.of_eq (k0_chk44.eq_1 v511))
theorem k0_off118_inb : ∀ (v511 : BitVec 32) (k0_hw44 : k0_chk44 v511), ∀ a, (k0_off118 v511) a + S1x10000.size a ≤ S3000x10000.size a := fun v511 k0_hw44 => k0_hw44.1
theorem k0_off167_inb : ∀ (v511 : BitVec 32) (k0_hw44 : k0_chk44 v511), ∀ a, (k0_off167 v511) a + S1x10000.size a ≤ S3000x10000.size a := fun v511 k0_hw44 => k0_hw44.2

def k0_off168 (v517 : BitVec 32) : Fin 2 → Nat :=
  let c0_i32_309 : BitVec 32 := 0#32
  ![v517.toNat, 0]

def k0_chk45 (v517 : BitVec 32) : Prop :=
  (∀ a, (k0_off120 v517) a + S1x10000.size a ≤ S3000x10000.size a) ∧
  (∀ a, (k0_off168 v517) a + S1x10000.size a ≤ S3000x10000.size a)
instance k0_chk45.dec : ∀ (v517 : BitVec 32), Decidable (k0_chk45 v517) := fun v517 => decidable_of_iff' _ (Iff.of_eq (k0_chk45.eq_1 v517))
theorem k0_off120_inb : ∀ (v517 : BitVec 32) (k0_hw45 : k0_chk45 v517), ∀ a, (k0_off120 v517) a + S1x10000.size a ≤ S3000x10000.size a := fun v517 k0_hw45 => k0_hw45.1
theorem k0_off168_inb : ∀ (v517 : BitVec 32) (k0_hw45 : k0_chk45 v517), ∀ a, (k0_off168 v517) a + S1x10000.size a ≤ S3000x10000.size a := fun v517 k0_hw45 => k0_hw45.2

def k0_off169 (v523 : BitVec 32) : Fin 2 → Nat :=
  let c0_i32_311 : BitVec 32 := 0#32
  ![v523.toNat, 0]

def k0_chk46 (v523 : BitVec 32) : Prop :=
  (∀ a, (k0_off122 v523) a + S1x10000.size a ≤ S3000x10000.size a) ∧
  (∀ a, (k0_off169 v523) a + S1x10000.size a ≤ S3000x10000.size a)
instance k0_chk46.dec : ∀ (v523 : BitVec 32), Decidable (k0_chk46 v523) := fun v523 => decidable_of_iff' _ (Iff.of_eq (k0_chk46.eq_1 v523))
theorem k0_off122_inb : ∀ (v523 : BitVec 32) (k0_hw46 : k0_chk46 v523), ∀ a, (k0_off122 v523) a + S1x10000.size a ≤ S3000x10000.size a := fun v523 k0_hw46 => k0_hw46.1
theorem k0_off169_inb : ∀ (v523 : BitVec 32) (k0_hw46 : k0_chk46 v523), ∀ a, (k0_off169 v523) a + S1x10000.size a ≤ S3000x10000.size a := fun v523 k0_hw46 => k0_hw46.2

def k0_off170 (v529 : BitVec 32) : Fin 2 → Nat :=
  let c0_i32_313 : BitVec 32 := 0#32
  ![v529.toNat, 0]

def k0_chk47 (v529 : BitVec 32) : Prop :=
  (∀ a, (k0_off124 v529) a + S1x10000.size a ≤ S3000x10000.size a) ∧
  (∀ a, (k0_off170 v529) a + S1x10000.size a ≤ S3000x10000.size a)
instance k0_chk47.dec : ∀ (v529 : BitVec 32), Decidable (k0_chk47 v529) := fun v529 => decidable_of_iff' _ (Iff.of_eq (k0_chk47.eq_1 v529))
theorem k0_off124_inb : ∀ (v529 : BitVec 32) (k0_hw47 : k0_chk47 v529), ∀ a, (k0_off124 v529) a + S1x10000.size a ≤ S3000x10000.size a := fun v529 k0_hw47 => k0_hw47.1
theorem k0_off170_inb : ∀ (v529 : BitVec 32) (k0_hw47 : k0_chk47 v529), ∀ a, (k0_off170 v529) a + S1x10000.size a ≤ S3000x10000.size a := fun v529 k0_hw47 => k0_hw47.2

def k0_off171 (v535 : BitVec 32) : Fin 2 → Nat :=
  let c0_i32_315 : BitVec 32 := 0#32
  ![v535.toNat, 0]

def k0_chk48 (v535 : BitVec 32) : Prop :=
  (∀ a, (k0_off126 v535) a + S1x10000.size a ≤ S3000x10000.size a) ∧
  (∀ a, (k0_off171 v535) a + S1x10000.size a ≤ S3000x10000.size a)
instance k0_chk48.dec : ∀ (v535 : BitVec 32), Decidable (k0_chk48 v535) := fun v535 => decidable_of_iff' _ (Iff.of_eq (k0_chk48.eq_1 v535))
theorem k0_off126_inb : ∀ (v535 : BitVec 32) (k0_hw48 : k0_chk48 v535), ∀ a, (k0_off126 v535) a + S1x10000.size a ≤ S3000x10000.size a := fun v535 k0_hw48 => k0_hw48.1
theorem k0_off171_inb : ∀ (v535 : BitVec 32) (k0_hw48 : k0_chk48 v535), ∀ a, (k0_off171 v535) a + S1x10000.size a ≤ S3000x10000.size a := fun v535 k0_hw48 => k0_hw48.2

def k0_off172 (v541 : BitVec 32) : Fin 2 → Nat :=
  let c0_i32_317 : BitVec 32 := 0#32
  ![v541.toNat, 0]

def k0_chk49 (v541 : BitVec 32) : Prop :=
  (∀ a, (k0_off128 v541) a + S1x10000.size a ≤ S3000x10000.size a) ∧
  (∀ a, (k0_off172 v541) a + S1x10000.size a ≤ S3000x10000.size a)
instance k0_chk49.dec : ∀ (v541 : BitVec 32), Decidable (k0_chk49 v541) := fun v541 => decidable_of_iff' _ (Iff.of_eq (k0_chk49.eq_1 v541))
theorem k0_off128_inb : ∀ (v541 : BitVec 32) (k0_hw49 : k0_chk49 v541), ∀ a, (k0_off128 v541) a + S1x10000.size a ≤ S3000x10000.size a := fun v541 k0_hw49 => k0_hw49.1
theorem k0_off172_inb : ∀ (v541 : BitVec 32) (k0_hw49 : k0_chk49 v541), ∀ a, (k0_off172 v541) a + S1x10000.size a ≤ S3000x10000.size a := fun v541 k0_hw49 => k0_hw49.2

def k0_off173 (v547 : BitVec 32) : Fin 2 → Nat :=
  let c0_i32_319 : BitVec 32 := 0#32
  ![v547.toNat, 0]

def k0_chk50 (v547 : BitVec 32) : Prop :=
  (∀ a, (k0_off130 v547) a + S1x10000.size a ≤ S3000x10000.size a) ∧
  (∀ a, (k0_off173 v547) a + S1x10000.size a ≤ S3000x10000.size a)
instance k0_chk50.dec : ∀ (v547 : BitVec 32), Decidable (k0_chk50 v547) := fun v547 => decidable_of_iff' _ (Iff.of_eq (k0_chk50.eq_1 v547))
theorem k0_off130_inb : ∀ (v547 : BitVec 32) (k0_hw50 : k0_chk50 v547), ∀ a, (k0_off130 v547) a + S1x10000.size a ≤ S3000x10000.size a := fun v547 k0_hw50 => k0_hw50.1
theorem k0_off173_inb : ∀ (v547 : BitVec 32) (k0_hw50 : k0_chk50 v547), ∀ a, (k0_off173 v547) a + S1x10000.size a ≤ S3000x10000.size a := fun v547 k0_hw50 => k0_hw50.2

def k0_off174 (v553 : BitVec 32) : Fin 2 → Nat :=
  let c0_i32_321 : BitVec 32 := 0#32
  ![v553.toNat, 0]

def k0_chk51 (v553 : BitVec 32) : Prop :=
  (∀ a, (k0_off132 v553) a + S1x10000.size a ≤ S3000x10000.size a) ∧
  (∀ a, (k0_off174 v553) a + S1x10000.size a ≤ S3000x10000.size a)
instance k0_chk51.dec : ∀ (v553 : BitVec 32), Decidable (k0_chk51 v553) := fun v553 => decidable_of_iff' _ (Iff.of_eq (k0_chk51.eq_1 v553))
theorem k0_off132_inb : ∀ (v553 : BitVec 32) (k0_hw51 : k0_chk51 v553), ∀ a, (k0_off132 v553) a + S1x10000.size a ≤ S3000x10000.size a := fun v553 k0_hw51 => k0_hw51.1
theorem k0_off174_inb : ∀ (v553 : BitVec 32) (k0_hw51 : k0_chk51 v553), ∀ a, (k0_off174 v553) a + S1x10000.size a ≤ S3000x10000.size a := fun v553 k0_hw51 => k0_hw51.2

def k0_off175 (v559 : BitVec 32) : Fin 2 → Nat :=
  let c0_i32_323 : BitVec 32 := 0#32
  ![v559.toNat, 0]

def k0_chk52 (v559 : BitVec 32) : Prop :=
  (∀ a, (k0_off134 v559) a + S1x10000.size a ≤ S3000x10000.size a) ∧
  (∀ a, (k0_off175 v559) a + S1x10000.size a ≤ S3000x10000.size a)
instance k0_chk52.dec : ∀ (v559 : BitVec 32), Decidable (k0_chk52 v559) := fun v559 => decidable_of_iff' _ (Iff.of_eq (k0_chk52.eq_1 v559))
theorem k0_off134_inb : ∀ (v559 : BitVec 32) (k0_hw52 : k0_chk52 v559), ∀ a, (k0_off134 v559) a + S1x10000.size a ≤ S3000x10000.size a := fun v559 k0_hw52 => k0_hw52.1
theorem k0_off175_inb : ∀ (v559 : BitVec 32) (k0_hw52 : k0_chk52 v559), ∀ a, (k0_off175 v559) a + S1x10000.size a ≤ S3000x10000.size a := fun v559 k0_hw52 => k0_hw52.2

def k0_off176 (v565 : BitVec 32) : Fin 2 → Nat :=
  let c0_i32_325 : BitVec 32 := 0#32
  ![v565.toNat, 0]

def k0_chk53 (v565 : BitVec 32) : Prop :=
  (∀ a, (k0_off136 v565) a + S1x10000.size a ≤ S3000x10000.size a) ∧
  (∀ a, (k0_off176 v565) a + S1x10000.size a ≤ S3000x10000.size a)
instance k0_chk53.dec : ∀ (v565 : BitVec 32), Decidable (k0_chk53 v565) := fun v565 => decidable_of_iff' _ (Iff.of_eq (k0_chk53.eq_1 v565))
theorem k0_off136_inb : ∀ (v565 : BitVec 32) (k0_hw53 : k0_chk53 v565), ∀ a, (k0_off136 v565) a + S1x10000.size a ≤ S3000x10000.size a := fun v565 k0_hw53 => k0_hw53.1
theorem k0_off176_inb : ∀ (v565 : BitVec 32) (k0_hw53 : k0_chk53 v565), ∀ a, (k0_off176 v565) a + S1x10000.size a ≤ S3000x10000.size a := fun v565 k0_hw53 => k0_hw53.2

def k0_off177 (v571 : BitVec 32) : Fin 2 → Nat :=
  let c0_i32_327 : BitVec 32 := 0#32
  ![v571.toNat, 0]

def k0_chk54 (v571 : BitVec 32) : Prop :=
  (∀ a, (k0_off138 v571) a + S1x10000.size a ≤ S3000x10000.size a) ∧
  (∀ a, (k0_off177 v571) a + S1x10000.size a ≤ S3000x10000.size a)
instance k0_chk54.dec : ∀ (v571 : BitVec 32), Decidable (k0_chk54 v571) := fun v571 => decidable_of_iff' _ (Iff.of_eq (k0_chk54.eq_1 v571))
theorem k0_off138_inb : ∀ (v571 : BitVec 32) (k0_hw54 : k0_chk54 v571), ∀ a, (k0_off138 v571) a + S1x10000.size a ≤ S3000x10000.size a := fun v571 k0_hw54 => k0_hw54.1
theorem k0_off177_inb : ∀ (v571 : BitVec 32) (k0_hw54 : k0_chk54 v571), ∀ a, (k0_off177 v571) a + S1x10000.size a ≤ S3000x10000.size a := fun v571 k0_hw54 => k0_hw54.2

def k0_off178 (v577 : BitVec 32) : Fin 2 → Nat :=
  let c0_i32_329 : BitVec 32 := 0#32
  ![v577.toNat, 0]

def k0_chk55 (v577 : BitVec 32) : Prop :=
  (∀ a, (k0_off140 v577) a + S1x10000.size a ≤ S3000x10000.size a) ∧
  (∀ a, (k0_off178 v577) a + S1x10000.size a ≤ S3000x10000.size a)
instance k0_chk55.dec : ∀ (v577 : BitVec 32), Decidable (k0_chk55 v577) := fun v577 => decidable_of_iff' _ (Iff.of_eq (k0_chk55.eq_1 v577))
theorem k0_off140_inb : ∀ (v577 : BitVec 32) (k0_hw55 : k0_chk55 v577), ∀ a, (k0_off140 v577) a + S1x10000.size a ≤ S3000x10000.size a := fun v577 k0_hw55 => k0_hw55.1
theorem k0_off178_inb : ∀ (v577 : BitVec 32) (k0_hw55 : k0_chk55 v577), ∀ a, (k0_off178 v577) a + S1x10000.size a ≤ S3000x10000.size a := fun v577 k0_hw55 => k0_hw55.2

def k0_off179 (v583 : BitVec 32) : Fin 2 → Nat :=
  let c0_i32_331 : BitVec 32 := 0#32
  ![v583.toNat, 0]

def k0_chk56 (v583 : BitVec 32) : Prop :=
  (∀ a, (k0_off142 v583) a + S1x10000.size a ≤ S3000x10000.size a) ∧
  (∀ a, (k0_off179 v583) a + S1x10000.size a ≤ S3000x10000.size a)
instance k0_chk56.dec : ∀ (v583 : BitVec 32), Decidable (k0_chk56 v583) := fun v583 => decidable_of_iff' _ (Iff.of_eq (k0_chk56.eq_1 v583))
theorem k0_off142_inb : ∀ (v583 : BitVec 32) (k0_hw56 : k0_chk56 v583), ∀ a, (k0_off142 v583) a + S1x10000.size a ≤ S3000x10000.size a := fun v583 k0_hw56 => k0_hw56.1
theorem k0_off179_inb : ∀ (v583 : BitVec 32) (k0_hw56 : k0_chk56 v583), ∀ a, (k0_off179 v583) a + S1x10000.size a ≤ S3000x10000.size a := fun v583 k0_hw56 => k0_hw56.2

def k0_off180 (v589 : BitVec 32) : Fin 2 → Nat :=
  let c0_i32_333 : BitVec 32 := 0#32
  ![v589.toNat, 0]

def k0_chk57 (v589 : BitVec 32) : Prop :=
  (∀ a, (k0_off144 v589) a + S1x10000.size a ≤ S3000x10000.size a) ∧
  (∀ a, (k0_off180 v589) a + S1x10000.size a ≤ S3000x10000.size a)
instance k0_chk57.dec : ∀ (v589 : BitVec 32), Decidable (k0_chk57 v589) := fun v589 => decidable_of_iff' _ (Iff.of_eq (k0_chk57.eq_1 v589))
theorem k0_off144_inb : ∀ (v589 : BitVec 32) (k0_hw57 : k0_chk57 v589), ∀ a, (k0_off144 v589) a + S1x10000.size a ≤ S3000x10000.size a := fun v589 k0_hw57 => k0_hw57.1
theorem k0_off180_inb : ∀ (v589 : BitVec 32) (k0_hw57 : k0_chk57 v589), ∀ a, (k0_off180 v589) a + S1x10000.size a ≤ S3000x10000.size a := fun v589 k0_hw57 => k0_hw57.2

def k0_off181 (v595 : BitVec 32) : Fin 2 → Nat :=
  let c0_i32_335 : BitVec 32 := 0#32
  ![v595.toNat, 0]

def k0_chk58 (v595 : BitVec 32) : Prop :=
  (∀ a, (k0_off146 v595) a + S1x10000.size a ≤ S3000x10000.size a) ∧
  (∀ a, (k0_off181 v595) a + S1x10000.size a ≤ S3000x10000.size a)
instance k0_chk58.dec : ∀ (v595 : BitVec 32), Decidable (k0_chk58 v595) := fun v595 => decidable_of_iff' _ (Iff.of_eq (k0_chk58.eq_1 v595))
theorem k0_off146_inb : ∀ (v595 : BitVec 32) (k0_hw58 : k0_chk58 v595), ∀ a, (k0_off146 v595) a + S1x10000.size a ≤ S3000x10000.size a := fun v595 k0_hw58 => k0_hw58.1
theorem k0_off181_inb : ∀ (v595 : BitVec 32) (k0_hw58 : k0_chk58 v595), ∀ a, (k0_off181 v595) a + S1x10000.size a ≤ S3000x10000.size a := fun v595 k0_hw58 => k0_hw58.2

def k0_off182 (v601 : BitVec 32) : Fin 2 → Nat :=
  let c0_i32_337 : BitVec 32 := 0#32
  ![v601.toNat, 0]

def k0_chk59 (v601 : BitVec 32) : Prop :=
  (∀ a, (k0_off148 v601) a + S1x10000.size a ≤ S3000x10000.size a) ∧
  (∀ a, (k0_off182 v601) a + S1x10000.size a ≤ S3000x10000.size a)
instance k0_chk59.dec : ∀ (v601 : BitVec 32), Decidable (k0_chk59 v601) := fun v601 => decidable_of_iff' _ (Iff.of_eq (k0_chk59.eq_1 v601))
theorem k0_off148_inb : ∀ (v601 : BitVec 32) (k0_hw59 : k0_chk59 v601), ∀ a, (k0_off148 v601) a + S1x10000.size a ≤ S3000x10000.size a := fun v601 k0_hw59 => k0_hw59.1
theorem k0_off182_inb : ∀ (v601 : BitVec 32) (k0_hw59 : k0_chk59 v601), ∀ a, (k0_off182 v601) a + S1x10000.size a ≤ S3000x10000.size a := fun v601 k0_hw59 => k0_hw59.2

def k0_off183 (v607 : BitVec 32) : Fin 2 → Nat :=
  let c0_i32_339 : BitVec 32 := 0#32
  ![v607.toNat, 0]

def k0_chk60 (v607 : BitVec 32) : Prop :=
  (∀ a, (k0_off150 v607) a + S1x10000.size a ≤ S3000x10000.size a) ∧
  (∀ a, (k0_off183 v607) a + S1x10000.size a ≤ S3000x10000.size a)
instance k0_chk60.dec : ∀ (v607 : BitVec 32), Decidable (k0_chk60 v607) := fun v607 => decidable_of_iff' _ (Iff.of_eq (k0_chk60.eq_1 v607))
theorem k0_off150_inb : ∀ (v607 : BitVec 32) (k0_hw60 : k0_chk60 v607), ∀ a, (k0_off150 v607) a + S1x10000.size a ≤ S3000x10000.size a := fun v607 k0_hw60 => k0_hw60.1
theorem k0_off183_inb : ∀ (v607 : BitVec 32) (k0_hw60 : k0_chk60 v607), ∀ a, (k0_off183 v607) a + S1x10000.size a ≤ S3000x10000.size a := fun v607 k0_hw60 => k0_hw60.2

def k0_off184 (v613 : BitVec 32) : Fin 2 → Nat :=
  let c0_i32_341 : BitVec 32 := 0#32
  ![v613.toNat, 0]

def k0_chk61 (v613 : BitVec 32) : Prop :=
  (∀ a, (k0_off152 v613) a + S1x10000.size a ≤ S3000x10000.size a) ∧
  (∀ a, (k0_off184 v613) a + S1x10000.size a ≤ S3000x10000.size a)
instance k0_chk61.dec : ∀ (v613 : BitVec 32), Decidable (k0_chk61 v613) := fun v613 => decidable_of_iff' _ (Iff.of_eq (k0_chk61.eq_1 v613))
theorem k0_off152_inb : ∀ (v613 : BitVec 32) (k0_hw61 : k0_chk61 v613), ∀ a, (k0_off152 v613) a + S1x10000.size a ≤ S3000x10000.size a := fun v613 k0_hw61 => k0_hw61.1
theorem k0_off184_inb : ∀ (v613 : BitVec 32) (k0_hw61 : k0_chk61 v613), ∀ a, (k0_off184 v613) a + S1x10000.size a ≤ S3000x10000.size a := fun v613 k0_hw61 => k0_hw61.2

def k0_off185 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v874 : Index := Scalar.indexCast v873
  let c0_439 : Index := 0#32
  ![v874.toNat, 0]
def k0_off186 (v875 : BitVec 32) : Fin 2 → Nat :=
  let c0_i32_441 : BitVec 32 := 0#32
  ![v875.toNat, 0]

def k0_off187 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v880 : Index := Scalar.indexCast v873
  let c1_442 : Index := 1#32
  ![v880.toNat, 1]
def k0_off188 (v881 : BitVec 32) : Fin 2 → Nat :=
  let c0_i32_444 : BitVec 32 := 0#32
  ![v881.toNat, 0]

def k0_off189 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v886 : Index := Scalar.indexCast v873
  let c2_445 : Index := 2#32
  ![v886.toNat, 2]
def k0_off190 (v887 : BitVec 32) : Fin 2 → Nat :=
  let c0_i32_447 : BitVec 32 := 0#32
  ![v887.toNat, 0]

def k0_off191 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v892 : Index := Scalar.indexCast v873
  let c3_448 : Index := 3#32
  ![v892.toNat, 3]
def k0_off192 (v893 : BitVec 32) : Fin 2 → Nat :=
  let c0_i32_450 : BitVec 32 := 0#32
  ![v893.toNat, 0]

def k0_off193 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v898 : Index := Scalar.indexCast v873
  let c4_451 : Index := 4#32
  ![v898.toNat, 4]
def k0_off194 (v899 : BitVec 32) : Fin 2 → Nat :=
  let c0_i32_453 : BitVec 32 := 0#32
  ![v899.toNat, 0]

def k0_off195 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v904 : Index := Scalar.indexCast v873
  let c5_454 : Index := 5#32
  ![v904.toNat, 5]
def k0_off196 (v905 : BitVec 32) : Fin 2 → Nat :=
  let c0_i32_456 : BitVec 32 := 0#32
  ![v905.toNat, 0]

def k0_off197 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v910 : Index := Scalar.indexCast v873
  let c6_457 : Index := 6#32
  ![v910.toNat, 6]
def k0_off198 (v911 : BitVec 32) : Fin 2 → Nat :=
  let c0_i32_459 : BitVec 32 := 0#32
  ![v911.toNat, 0]

def k0_off199 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v916 : Index := Scalar.indexCast v873
  let c7_460 : Index := 7#32
  ![v916.toNat, 7]
def k0_off200 (v917 : BitVec 32) : Fin 2 → Nat :=
  let c0_i32_462 : BitVec 32 := 0#32
  ![v917.toNat, 0]

def k0_off201 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v922 : Index := Scalar.indexCast v873
  let c8_463 : Index := 8#32
  ![v922.toNat, 8]
def k0_off202 (v923 : BitVec 32) : Fin 2 → Nat :=
  let c0_i32_465 : BitVec 32 := 0#32
  ![v923.toNat, 0]

def k0_off203 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v928 : Index := Scalar.indexCast v873
  let c9_466 : Index := 9#32
  ![v928.toNat, 9]
def k0_off204 (v929 : BitVec 32) : Fin 2 → Nat :=
  let c0_i32_468 : BitVec 32 := 0#32
  ![v929.toNat, 0]

def k0_off205 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v934 : Index := Scalar.indexCast v873
  let c10_469 : Index := 10#32
  ![v934.toNat, 10]
def k0_off206 (v935 : BitVec 32) : Fin 2 → Nat :=
  let c0_i32_471 : BitVec 32 := 0#32
  ![v935.toNat, 0]

def k0_off207 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v940 : Index := Scalar.indexCast v873
  let c11_472 : Index := 11#32
  ![v940.toNat, 11]
def k0_off208 (v941 : BitVec 32) : Fin 2 → Nat :=
  let c0_i32_474 : BitVec 32 := 0#32
  ![v941.toNat, 0]

def k0_off209 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v946 : Index := Scalar.indexCast v873
  let c12_475 : Index := 12#32
  ![v946.toNat, 12]
def k0_off210 (v947 : BitVec 32) : Fin 2 → Nat :=
  let c0_i32_477 : BitVec 32 := 0#32
  ![v947.toNat, 0]

def k0_off211 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v952 : Index := Scalar.indexCast v873
  let c13_478 : Index := 13#32
  ![v952.toNat, 13]
def k0_off212 (v953 : BitVec 32) : Fin 2 → Nat :=
  let c0_i32_480 : BitVec 32 := 0#32
  ![v953.toNat, 0]

def k0_off213 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v958 : Index := Scalar.indexCast v873
  let c14_481 : Index := 14#32
  ![v958.toNat, 14]
def k0_off214 (v959 : BitVec 32) : Fin 2 → Nat :=
  let c0_i32_483 : BitVec 32 := 0#32
  ![v959.toNat, 0]

def k0_off215 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v964 : Index := Scalar.indexCast v873
  let c15_484 : Index := 15#32
  ![v964.toNat, 15]
def k0_off216 (v965 : BitVec 32) : Fin 2 → Nat :=
  let c0_i32_486 : BitVec 32 := 0#32
  ![v965.toNat, 0]

def k0_off217 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v970 : Index := Scalar.indexCast v873
  let c16_487 : Index := 16#32
  ![v970.toNat, 16]
def k0_off218 (v971 : BitVec 32) : Fin 2 → Nat :=
  let c0_i32_489 : BitVec 32 := 0#32
  ![v971.toNat, 0]

def k0_off219 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v976 : Index := Scalar.indexCast v873
  let c17_490 : Index := 17#32
  ![v976.toNat, 17]
def k0_off220 (v977 : BitVec 32) : Fin 2 → Nat :=
  let c0_i32_492 : BitVec 32 := 0#32
  ![v977.toNat, 0]

def k0_off221 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v982 : Index := Scalar.indexCast v873
  let c18_493 : Index := 18#32
  ![v982.toNat, 18]
def k0_off222 (v983 : BitVec 32) : Fin 2 → Nat :=
  let c0_i32_495 : BitVec 32 := 0#32
  ![v983.toNat, 0]

def k0_off223 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v988 : Index := Scalar.indexCast v873
  let c19_496 : Index := 19#32
  ![v988.toNat, 19]
def k0_off224 (v989 : BitVec 32) : Fin 2 → Nat :=
  let c0_i32_498 : BitVec 32 := 0#32
  ![v989.toNat, 0]

def k0_off225 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v994 : Index := Scalar.indexCast v873
  let c20_499 : Index := 20#32
  ![v994.toNat, 20]
def k0_off226 (v995 : BitVec 32) : Fin 2 → Nat :=
  let c0_i32_501 : BitVec 32 := 0#32
  ![v995.toNat, 0]

def k0_off227 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1000 : Index := Scalar.indexCast v873
  let c21_502 : Index := 21#32
  ![v1000.toNat, 21]
def k0_off228 (v1001 : BitVec 32) : Fin 2 → Nat :=
  let c0_i32_504 : BitVec 32 := 0#32
  ![v1001.toNat, 0]

def k0_off229 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1006 : Index := Scalar.indexCast v873
  let c22_505 : Index := 22#32
  ![v1006.toNat, 22]
def k0_off230 (v1007 : BitVec 32) : Fin 2 → Nat :=
  let c0_i32_507 : BitVec 32 := 0#32
  ![v1007.toNat, 0]

def k0_off231 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1012 : Index := Scalar.indexCast v873
  let c23_508 : Index := 23#32
  ![v1012.toNat, 23]
def k0_off232 (v1013 : BitVec 32) : Fin 2 → Nat :=
  let c0_i32_510 : BitVec 32 := 0#32
  ![v1013.toNat, 0]

def k0_off233 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1018 : Index := Scalar.indexCast v873
  let c24_511 : Index := 24#32
  ![v1018.toNat, 24]
def k0_off234 (v1019 : BitVec 32) : Fin 2 → Nat :=
  let c0_i32_513 : BitVec 32 := 0#32
  ![v1019.toNat, 0]

def k0_off235 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1024 : Index := Scalar.indexCast v873
  let c25_514 : Index := 25#32
  ![v1024.toNat, 25]
def k0_off236 (v1025 : BitVec 32) : Fin 2 → Nat :=
  let c0_i32_516 : BitVec 32 := 0#32
  ![v1025.toNat, 0]

def k0_off237 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1030 : Index := Scalar.indexCast v873
  let c26_517 : Index := 26#32
  ![v1030.toNat, 26]
def k0_off238 (v1031 : BitVec 32) : Fin 2 → Nat :=
  let c0_i32_519 : BitVec 32 := 0#32
  ![v1031.toNat, 0]

def k0_off239 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1036 : Index := Scalar.indexCast v873
  let c27_520 : Index := 27#32
  ![v1036.toNat, 27]
def k0_off240 (v1037 : BitVec 32) : Fin 2 → Nat :=
  let c0_i32_522 : BitVec 32 := 0#32
  ![v1037.toNat, 0]

def k0_off241 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1042 : Index := Scalar.indexCast v873
  let c28_523 : Index := 28#32
  ![v1042.toNat, 28]
def k0_off242 (v1043 : BitVec 32) : Fin 2 → Nat :=
  let c0_i32_525 : BitVec 32 := 0#32
  ![v1043.toNat, 0]

def k0_off243 (i : grid0.Coords) : Fin 2 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1048 : Index := Scalar.indexCast v873
  let c29_526 : Index := 29#32
  ![v1048.toNat, 29]
def k0_off244 (v1049 : BitVec 32) : Fin 2 → Nat :=
  let c0_i32_528 : BitVec 32 := 0#32
  ![v1049.toNat, 0]

def k0_off245 (i : grid0.Coords) : Fin 1 → Nat :=
  let arg0 : BitVec 32 := BitVec.ofNat 32 (i 0).val
  let c8_i32_437 : BitVec 32 := 8#32
  let v872 : BitVec 32 := Scalar.muli arg0 c8_i32_437
  let c2_i32_438 : BitVec 32 := 2#32
  let v873 : BitVec 32 := Scalar.addi v872 c2_i32_438
  let v1054 : Index := Scalar.indexCast v873
  ![v1054.toNat]
def k0_off246 (v1055 : BitVec 32) : Fin 2 → Nat :=
  let c0_i32_530 : BitVec 32 := 0#32
  ![v1055.toNat, 0]

def k0_chk93 (v1055 : BitVec 32) : Prop :=
  (∀ a, (k0_off246 v1055) a + S1x10000.size a ≤ S200x10000.size a)
instance k0_chk93.dec : ∀ (v1055 : BitVec 32), Decidable (k0_chk93 v1055) := fun v1055 => decidable_of_iff' _ (Iff.of_eq (k0_chk93.eq_1 v1055))
theorem k0_off246_inb : ∀ (v1055 : BitVec 32) (k0_hw93 : k0_chk93 v1055), ∀ a, (k0_off246 v1055) a + S1x10000.size a ≤ S200x10000.size a := fun v1055 k0_hw93 => k0_hw93

def k0_off247 (v875 : BitVec 32) : Fin 2 → Nat :=
  let c0_i32_532 : BitVec 32 := 0#32
  ![v875.toNat, 0]

def k0_chk63 (v875 : BitVec 32) : Prop :=
  (∀ a, (k0_off186 v875) a + S1x10000.size a ≤ S3000x10000.size a) ∧
  (∀ a, (k0_off247 v875) a + S1x10000.size a ≤ S3000x10000.size a)
instance k0_chk63.dec : ∀ (v875 : BitVec 32), Decidable (k0_chk63 v875) := fun v875 => decidable_of_iff' _ (Iff.of_eq (k0_chk63.eq_1 v875))
theorem k0_off186_inb : ∀ (v875 : BitVec 32) (k0_hw63 : k0_chk63 v875), ∀ a, (k0_off186 v875) a + S1x10000.size a ≤ S3000x10000.size a := fun v875 k0_hw63 => k0_hw63.1
theorem k0_off247_inb : ∀ (v875 : BitVec 32) (k0_hw63 : k0_chk63 v875), ∀ a, (k0_off247 v875) a + S1x10000.size a ≤ S3000x10000.size a := fun v875 k0_hw63 => k0_hw63.2

def k0_off248 (v881 : BitVec 32) : Fin 2 → Nat :=
  let c0_i32_534 : BitVec 32 := 0#32
  ![v881.toNat, 0]

def k0_chk64 (v881 : BitVec 32) : Prop :=
  (∀ a, (k0_off188 v881) a + S1x10000.size a ≤ S3000x10000.size a) ∧
  (∀ a, (k0_off248 v881) a + S1x10000.size a ≤ S3000x10000.size a)
instance k0_chk64.dec : ∀ (v881 : BitVec 32), Decidable (k0_chk64 v881) := fun v881 => decidable_of_iff' _ (Iff.of_eq (k0_chk64.eq_1 v881))
theorem k0_off188_inb : ∀ (v881 : BitVec 32) (k0_hw64 : k0_chk64 v881), ∀ a, (k0_off188 v881) a + S1x10000.size a ≤ S3000x10000.size a := fun v881 k0_hw64 => k0_hw64.1
theorem k0_off248_inb : ∀ (v881 : BitVec 32) (k0_hw64 : k0_chk64 v881), ∀ a, (k0_off248 v881) a + S1x10000.size a ≤ S3000x10000.size a := fun v881 k0_hw64 => k0_hw64.2

def k0_off249 (v887 : BitVec 32) : Fin 2 → Nat :=
  let c0_i32_536 : BitVec 32 := 0#32
  ![v887.toNat, 0]

def k0_chk65 (v887 : BitVec 32) : Prop :=
  (∀ a, (k0_off190 v887) a + S1x10000.size a ≤ S3000x10000.size a) ∧
  (∀ a, (k0_off249 v887) a + S1x10000.size a ≤ S3000x10000.size a)
instance k0_chk65.dec : ∀ (v887 : BitVec 32), Decidable (k0_chk65 v887) := fun v887 => decidable_of_iff' _ (Iff.of_eq (k0_chk65.eq_1 v887))
theorem k0_off190_inb : ∀ (v887 : BitVec 32) (k0_hw65 : k0_chk65 v887), ∀ a, (k0_off190 v887) a + S1x10000.size a ≤ S3000x10000.size a := fun v887 k0_hw65 => k0_hw65.1
theorem k0_off249_inb : ∀ (v887 : BitVec 32) (k0_hw65 : k0_chk65 v887), ∀ a, (k0_off249 v887) a + S1x10000.size a ≤ S3000x10000.size a := fun v887 k0_hw65 => k0_hw65.2

def k0_off250 (v893 : BitVec 32) : Fin 2 → Nat :=
  let c0_i32_538 : BitVec 32 := 0#32
  ![v893.toNat, 0]

def k0_chk66 (v893 : BitVec 32) : Prop :=
  (∀ a, (k0_off192 v893) a + S1x10000.size a ≤ S3000x10000.size a) ∧
  (∀ a, (k0_off250 v893) a + S1x10000.size a ≤ S3000x10000.size a)
instance k0_chk66.dec : ∀ (v893 : BitVec 32), Decidable (k0_chk66 v893) := fun v893 => decidable_of_iff' _ (Iff.of_eq (k0_chk66.eq_1 v893))
theorem k0_off192_inb : ∀ (v893 : BitVec 32) (k0_hw66 : k0_chk66 v893), ∀ a, (k0_off192 v893) a + S1x10000.size a ≤ S3000x10000.size a := fun v893 k0_hw66 => k0_hw66.1
theorem k0_off250_inb : ∀ (v893 : BitVec 32) (k0_hw66 : k0_chk66 v893), ∀ a, (k0_off250 v893) a + S1x10000.size a ≤ S3000x10000.size a := fun v893 k0_hw66 => k0_hw66.2

def k0_off251 (v899 : BitVec 32) : Fin 2 → Nat :=
  let c0_i32_540 : BitVec 32 := 0#32
  ![v899.toNat, 0]

def k0_chk67 (v899 : BitVec 32) : Prop :=
  (∀ a, (k0_off194 v899) a + S1x10000.size a ≤ S3000x10000.size a) ∧
  (∀ a, (k0_off251 v899) a + S1x10000.size a ≤ S3000x10000.size a)
instance k0_chk67.dec : ∀ (v899 : BitVec 32), Decidable (k0_chk67 v899) := fun v899 => decidable_of_iff' _ (Iff.of_eq (k0_chk67.eq_1 v899))
theorem k0_off194_inb : ∀ (v899 : BitVec 32) (k0_hw67 : k0_chk67 v899), ∀ a, (k0_off194 v899) a + S1x10000.size a ≤ S3000x10000.size a := fun v899 k0_hw67 => k0_hw67.1
theorem k0_off251_inb : ∀ (v899 : BitVec 32) (k0_hw67 : k0_chk67 v899), ∀ a, (k0_off251 v899) a + S1x10000.size a ≤ S3000x10000.size a := fun v899 k0_hw67 => k0_hw67.2

def k0_off252 (v905 : BitVec 32) : Fin 2 → Nat :=
  let c0_i32_542 : BitVec 32 := 0#32
  ![v905.toNat, 0]

def k0_chk68 (v905 : BitVec 32) : Prop :=
  (∀ a, (k0_off196 v905) a + S1x10000.size a ≤ S3000x10000.size a) ∧
  (∀ a, (k0_off252 v905) a + S1x10000.size a ≤ S3000x10000.size a)
instance k0_chk68.dec : ∀ (v905 : BitVec 32), Decidable (k0_chk68 v905) := fun v905 => decidable_of_iff' _ (Iff.of_eq (k0_chk68.eq_1 v905))
theorem k0_off196_inb : ∀ (v905 : BitVec 32) (k0_hw68 : k0_chk68 v905), ∀ a, (k0_off196 v905) a + S1x10000.size a ≤ S3000x10000.size a := fun v905 k0_hw68 => k0_hw68.1
theorem k0_off252_inb : ∀ (v905 : BitVec 32) (k0_hw68 : k0_chk68 v905), ∀ a, (k0_off252 v905) a + S1x10000.size a ≤ S3000x10000.size a := fun v905 k0_hw68 => k0_hw68.2

def k0_off253 (v911 : BitVec 32) : Fin 2 → Nat :=
  let c0_i32_544 : BitVec 32 := 0#32
  ![v911.toNat, 0]

def k0_chk69 (v911 : BitVec 32) : Prop :=
  (∀ a, (k0_off198 v911) a + S1x10000.size a ≤ S3000x10000.size a) ∧
  (∀ a, (k0_off253 v911) a + S1x10000.size a ≤ S3000x10000.size a)
instance k0_chk69.dec : ∀ (v911 : BitVec 32), Decidable (k0_chk69 v911) := fun v911 => decidable_of_iff' _ (Iff.of_eq (k0_chk69.eq_1 v911))
theorem k0_off198_inb : ∀ (v911 : BitVec 32) (k0_hw69 : k0_chk69 v911), ∀ a, (k0_off198 v911) a + S1x10000.size a ≤ S3000x10000.size a := fun v911 k0_hw69 => k0_hw69.1
theorem k0_off253_inb : ∀ (v911 : BitVec 32) (k0_hw69 : k0_chk69 v911), ∀ a, (k0_off253 v911) a + S1x10000.size a ≤ S3000x10000.size a := fun v911 k0_hw69 => k0_hw69.2

def k0_off254 (v917 : BitVec 32) : Fin 2 → Nat :=
  let c0_i32_546 : BitVec 32 := 0#32
  ![v917.toNat, 0]

def k0_chk70 (v917 : BitVec 32) : Prop :=
  (∀ a, (k0_off200 v917) a + S1x10000.size a ≤ S3000x10000.size a) ∧
  (∀ a, (k0_off254 v917) a + S1x10000.size a ≤ S3000x10000.size a)
instance k0_chk70.dec : ∀ (v917 : BitVec 32), Decidable (k0_chk70 v917) := fun v917 => decidable_of_iff' _ (Iff.of_eq (k0_chk70.eq_1 v917))
theorem k0_off200_inb : ∀ (v917 : BitVec 32) (k0_hw70 : k0_chk70 v917), ∀ a, (k0_off200 v917) a + S1x10000.size a ≤ S3000x10000.size a := fun v917 k0_hw70 => k0_hw70.1
theorem k0_off254_inb : ∀ (v917 : BitVec 32) (k0_hw70 : k0_chk70 v917), ∀ a, (k0_off254 v917) a + S1x10000.size a ≤ S3000x10000.size a := fun v917 k0_hw70 => k0_hw70.2

def k0_off255 (v923 : BitVec 32) : Fin 2 → Nat :=
  let c0_i32_548 : BitVec 32 := 0#32
  ![v923.toNat, 0]

def k0_chk71 (v923 : BitVec 32) : Prop :=
  (∀ a, (k0_off202 v923) a + S1x10000.size a ≤ S3000x10000.size a) ∧
  (∀ a, (k0_off255 v923) a + S1x10000.size a ≤ S3000x10000.size a)
instance k0_chk71.dec : ∀ (v923 : BitVec 32), Decidable (k0_chk71 v923) := fun v923 => decidable_of_iff' _ (Iff.of_eq (k0_chk71.eq_1 v923))
theorem k0_off202_inb : ∀ (v923 : BitVec 32) (k0_hw71 : k0_chk71 v923), ∀ a, (k0_off202 v923) a + S1x10000.size a ≤ S3000x10000.size a := fun v923 k0_hw71 => k0_hw71.1
theorem k0_off255_inb : ∀ (v923 : BitVec 32) (k0_hw71 : k0_chk71 v923), ∀ a, (k0_off255 v923) a + S1x10000.size a ≤ S3000x10000.size a := fun v923 k0_hw71 => k0_hw71.2

def k0_off256 (v929 : BitVec 32) : Fin 2 → Nat :=
  let c0_i32_550 : BitVec 32 := 0#32
  ![v929.toNat, 0]

def k0_chk72 (v929 : BitVec 32) : Prop :=
  (∀ a, (k0_off204 v929) a + S1x10000.size a ≤ S3000x10000.size a) ∧
  (∀ a, (k0_off256 v929) a + S1x10000.size a ≤ S3000x10000.size a)
instance k0_chk72.dec : ∀ (v929 : BitVec 32), Decidable (k0_chk72 v929) := fun v929 => decidable_of_iff' _ (Iff.of_eq (k0_chk72.eq_1 v929))
theorem k0_off204_inb : ∀ (v929 : BitVec 32) (k0_hw72 : k0_chk72 v929), ∀ a, (k0_off204 v929) a + S1x10000.size a ≤ S3000x10000.size a := fun v929 k0_hw72 => k0_hw72.1
theorem k0_off256_inb : ∀ (v929 : BitVec 32) (k0_hw72 : k0_chk72 v929), ∀ a, (k0_off256 v929) a + S1x10000.size a ≤ S3000x10000.size a := fun v929 k0_hw72 => k0_hw72.2

def k0_off257 (v935 : BitVec 32) : Fin 2 → Nat :=
  let c0_i32_552 : BitVec 32 := 0#32
  ![v935.toNat, 0]

def k0_chk73 (v935 : BitVec 32) : Prop :=
  (∀ a, (k0_off206 v935) a + S1x10000.size a ≤ S3000x10000.size a) ∧
  (∀ a, (k0_off257 v935) a + S1x10000.size a ≤ S3000x10000.size a)
instance k0_chk73.dec : ∀ (v935 : BitVec 32), Decidable (k0_chk73 v935) := fun v935 => decidable_of_iff' _ (Iff.of_eq (k0_chk73.eq_1 v935))
theorem k0_off206_inb : ∀ (v935 : BitVec 32) (k0_hw73 : k0_chk73 v935), ∀ a, (k0_off206 v935) a + S1x10000.size a ≤ S3000x10000.size a := fun v935 k0_hw73 => k0_hw73.1
theorem k0_off257_inb : ∀ (v935 : BitVec 32) (k0_hw73 : k0_chk73 v935), ∀ a, (k0_off257 v935) a + S1x10000.size a ≤ S3000x10000.size a := fun v935 k0_hw73 => k0_hw73.2

def k0_off258 (v941 : BitVec 32) : Fin 2 → Nat :=
  let c0_i32_554 : BitVec 32 := 0#32
  ![v941.toNat, 0]

def k0_chk74 (v941 : BitVec 32) : Prop :=
  (∀ a, (k0_off208 v941) a + S1x10000.size a ≤ S3000x10000.size a) ∧
  (∀ a, (k0_off258 v941) a + S1x10000.size a ≤ S3000x10000.size a)
instance k0_chk74.dec : ∀ (v941 : BitVec 32), Decidable (k0_chk74 v941) := fun v941 => decidable_of_iff' _ (Iff.of_eq (k0_chk74.eq_1 v941))
theorem k0_off208_inb : ∀ (v941 : BitVec 32) (k0_hw74 : k0_chk74 v941), ∀ a, (k0_off208 v941) a + S1x10000.size a ≤ S3000x10000.size a := fun v941 k0_hw74 => k0_hw74.1
theorem k0_off258_inb : ∀ (v941 : BitVec 32) (k0_hw74 : k0_chk74 v941), ∀ a, (k0_off258 v941) a + S1x10000.size a ≤ S3000x10000.size a := fun v941 k0_hw74 => k0_hw74.2

def k0_off259 (v947 : BitVec 32) : Fin 2 → Nat :=
  let c0_i32_556 : BitVec 32 := 0#32
  ![v947.toNat, 0]

def k0_chk75 (v947 : BitVec 32) : Prop :=
  (∀ a, (k0_off210 v947) a + S1x10000.size a ≤ S3000x10000.size a) ∧
  (∀ a, (k0_off259 v947) a + S1x10000.size a ≤ S3000x10000.size a)
instance k0_chk75.dec : ∀ (v947 : BitVec 32), Decidable (k0_chk75 v947) := fun v947 => decidable_of_iff' _ (Iff.of_eq (k0_chk75.eq_1 v947))
theorem k0_off210_inb : ∀ (v947 : BitVec 32) (k0_hw75 : k0_chk75 v947), ∀ a, (k0_off210 v947) a + S1x10000.size a ≤ S3000x10000.size a := fun v947 k0_hw75 => k0_hw75.1
theorem k0_off259_inb : ∀ (v947 : BitVec 32) (k0_hw75 : k0_chk75 v947), ∀ a, (k0_off259 v947) a + S1x10000.size a ≤ S3000x10000.size a := fun v947 k0_hw75 => k0_hw75.2

def k0_off260 (v953 : BitVec 32) : Fin 2 → Nat :=
  let c0_i32_558 : BitVec 32 := 0#32
  ![v953.toNat, 0]

def k0_chk76 (v953 : BitVec 32) : Prop :=
  (∀ a, (k0_off212 v953) a + S1x10000.size a ≤ S3000x10000.size a) ∧
  (∀ a, (k0_off260 v953) a + S1x10000.size a ≤ S3000x10000.size a)
instance k0_chk76.dec : ∀ (v953 : BitVec 32), Decidable (k0_chk76 v953) := fun v953 => decidable_of_iff' _ (Iff.of_eq (k0_chk76.eq_1 v953))
theorem k0_off212_inb : ∀ (v953 : BitVec 32) (k0_hw76 : k0_chk76 v953), ∀ a, (k0_off212 v953) a + S1x10000.size a ≤ S3000x10000.size a := fun v953 k0_hw76 => k0_hw76.1
theorem k0_off260_inb : ∀ (v953 : BitVec 32) (k0_hw76 : k0_chk76 v953), ∀ a, (k0_off260 v953) a + S1x10000.size a ≤ S3000x10000.size a := fun v953 k0_hw76 => k0_hw76.2

def k0_off261 (v959 : BitVec 32) : Fin 2 → Nat :=
  let c0_i32_560 : BitVec 32 := 0#32
  ![v959.toNat, 0]

def k0_chk77 (v959 : BitVec 32) : Prop :=
  (∀ a, (k0_off214 v959) a + S1x10000.size a ≤ S3000x10000.size a) ∧
  (∀ a, (k0_off261 v959) a + S1x10000.size a ≤ S3000x10000.size a)
instance k0_chk77.dec : ∀ (v959 : BitVec 32), Decidable (k0_chk77 v959) := fun v959 => decidable_of_iff' _ (Iff.of_eq (k0_chk77.eq_1 v959))
theorem k0_off214_inb : ∀ (v959 : BitVec 32) (k0_hw77 : k0_chk77 v959), ∀ a, (k0_off214 v959) a + S1x10000.size a ≤ S3000x10000.size a := fun v959 k0_hw77 => k0_hw77.1
theorem k0_off261_inb : ∀ (v959 : BitVec 32) (k0_hw77 : k0_chk77 v959), ∀ a, (k0_off261 v959) a + S1x10000.size a ≤ S3000x10000.size a := fun v959 k0_hw77 => k0_hw77.2

def k0_off262 (v965 : BitVec 32) : Fin 2 → Nat :=
  let c0_i32_562 : BitVec 32 := 0#32
  ![v965.toNat, 0]

def k0_chk78 (v965 : BitVec 32) : Prop :=
  (∀ a, (k0_off216 v965) a + S1x10000.size a ≤ S3000x10000.size a) ∧
  (∀ a, (k0_off262 v965) a + S1x10000.size a ≤ S3000x10000.size a)
instance k0_chk78.dec : ∀ (v965 : BitVec 32), Decidable (k0_chk78 v965) := fun v965 => decidable_of_iff' _ (Iff.of_eq (k0_chk78.eq_1 v965))
theorem k0_off216_inb : ∀ (v965 : BitVec 32) (k0_hw78 : k0_chk78 v965), ∀ a, (k0_off216 v965) a + S1x10000.size a ≤ S3000x10000.size a := fun v965 k0_hw78 => k0_hw78.1
theorem k0_off262_inb : ∀ (v965 : BitVec 32) (k0_hw78 : k0_chk78 v965), ∀ a, (k0_off262 v965) a + S1x10000.size a ≤ S3000x10000.size a := fun v965 k0_hw78 => k0_hw78.2

def k0_off263 (v971 : BitVec 32) : Fin 2 → Nat :=
  let c0_i32_564 : BitVec 32 := 0#32
  ![v971.toNat, 0]

def k0_chk79 (v971 : BitVec 32) : Prop :=
  (∀ a, (k0_off218 v971) a + S1x10000.size a ≤ S3000x10000.size a) ∧
  (∀ a, (k0_off263 v971) a + S1x10000.size a ≤ S3000x10000.size a)
instance k0_chk79.dec : ∀ (v971 : BitVec 32), Decidable (k0_chk79 v971) := fun v971 => decidable_of_iff' _ (Iff.of_eq (k0_chk79.eq_1 v971))
theorem k0_off218_inb : ∀ (v971 : BitVec 32) (k0_hw79 : k0_chk79 v971), ∀ a, (k0_off218 v971) a + S1x10000.size a ≤ S3000x10000.size a := fun v971 k0_hw79 => k0_hw79.1
theorem k0_off263_inb : ∀ (v971 : BitVec 32) (k0_hw79 : k0_chk79 v971), ∀ a, (k0_off263 v971) a + S1x10000.size a ≤ S3000x10000.size a := fun v971 k0_hw79 => k0_hw79.2

def k0_off264 (v977 : BitVec 32) : Fin 2 → Nat :=
  let c0_i32_566 : BitVec 32 := 0#32
  ![v977.toNat, 0]

def k0_chk80 (v977 : BitVec 32) : Prop :=
  (∀ a, (k0_off220 v977) a + S1x10000.size a ≤ S3000x10000.size a) ∧
  (∀ a, (k0_off264 v977) a + S1x10000.size a ≤ S3000x10000.size a)
instance k0_chk80.dec : ∀ (v977 : BitVec 32), Decidable (k0_chk80 v977) := fun v977 => decidable_of_iff' _ (Iff.of_eq (k0_chk80.eq_1 v977))
theorem k0_off220_inb : ∀ (v977 : BitVec 32) (k0_hw80 : k0_chk80 v977), ∀ a, (k0_off220 v977) a + S1x10000.size a ≤ S3000x10000.size a := fun v977 k0_hw80 => k0_hw80.1
theorem k0_off264_inb : ∀ (v977 : BitVec 32) (k0_hw80 : k0_chk80 v977), ∀ a, (k0_off264 v977) a + S1x10000.size a ≤ S3000x10000.size a := fun v977 k0_hw80 => k0_hw80.2

def k0_off265 (v983 : BitVec 32) : Fin 2 → Nat :=
  let c0_i32_568 : BitVec 32 := 0#32
  ![v983.toNat, 0]

def k0_chk81 (v983 : BitVec 32) : Prop :=
  (∀ a, (k0_off222 v983) a + S1x10000.size a ≤ S3000x10000.size a) ∧
  (∀ a, (k0_off265 v983) a + S1x10000.size a ≤ S3000x10000.size a)
instance k0_chk81.dec : ∀ (v983 : BitVec 32), Decidable (k0_chk81 v983) := fun v983 => decidable_of_iff' _ (Iff.of_eq (k0_chk81.eq_1 v983))
theorem k0_off222_inb : ∀ (v983 : BitVec 32) (k0_hw81 : k0_chk81 v983), ∀ a, (k0_off222 v983) a + S1x10000.size a ≤ S3000x10000.size a := fun v983 k0_hw81 => k0_hw81.1
theorem k0_off265_inb : ∀ (v983 : BitVec 32) (k0_hw81 : k0_chk81 v983), ∀ a, (k0_off265 v983) a + S1x10000.size a ≤ S3000x10000.size a := fun v983 k0_hw81 => k0_hw81.2

def k0_off266 (v989 : BitVec 32) : Fin 2 → Nat :=
  let c0_i32_570 : BitVec 32 := 0#32
  ![v989.toNat, 0]

def k0_chk82 (v989 : BitVec 32) : Prop :=
  (∀ a, (k0_off224 v989) a + S1x10000.size a ≤ S3000x10000.size a) ∧
  (∀ a, (k0_off266 v989) a + S1x10000.size a ≤ S3000x10000.size a)
instance k0_chk82.dec : ∀ (v989 : BitVec 32), Decidable (k0_chk82 v989) := fun v989 => decidable_of_iff' _ (Iff.of_eq (k0_chk82.eq_1 v989))
theorem k0_off224_inb : ∀ (v989 : BitVec 32) (k0_hw82 : k0_chk82 v989), ∀ a, (k0_off224 v989) a + S1x10000.size a ≤ S3000x10000.size a := fun v989 k0_hw82 => k0_hw82.1
theorem k0_off266_inb : ∀ (v989 : BitVec 32) (k0_hw82 : k0_chk82 v989), ∀ a, (k0_off266 v989) a + S1x10000.size a ≤ S3000x10000.size a := fun v989 k0_hw82 => k0_hw82.2

def k0_off267 (v995 : BitVec 32) : Fin 2 → Nat :=
  let c0_i32_572 : BitVec 32 := 0#32
  ![v995.toNat, 0]

def k0_chk83 (v995 : BitVec 32) : Prop :=
  (∀ a, (k0_off226 v995) a + S1x10000.size a ≤ S3000x10000.size a) ∧
  (∀ a, (k0_off267 v995) a + S1x10000.size a ≤ S3000x10000.size a)
instance k0_chk83.dec : ∀ (v995 : BitVec 32), Decidable (k0_chk83 v995) := fun v995 => decidable_of_iff' _ (Iff.of_eq (k0_chk83.eq_1 v995))
theorem k0_off226_inb : ∀ (v995 : BitVec 32) (k0_hw83 : k0_chk83 v995), ∀ a, (k0_off226 v995) a + S1x10000.size a ≤ S3000x10000.size a := fun v995 k0_hw83 => k0_hw83.1
theorem k0_off267_inb : ∀ (v995 : BitVec 32) (k0_hw83 : k0_chk83 v995), ∀ a, (k0_off267 v995) a + S1x10000.size a ≤ S3000x10000.size a := fun v995 k0_hw83 => k0_hw83.2

def k0_off268 (v1001 : BitVec 32) : Fin 2 → Nat :=
  let c0_i32_574 : BitVec 32 := 0#32
  ![v1001.toNat, 0]

def k0_chk84 (v1001 : BitVec 32) : Prop :=
  (∀ a, (k0_off228 v1001) a + S1x10000.size a ≤ S3000x10000.size a) ∧
  (∀ a, (k0_off268 v1001) a + S1x10000.size a ≤ S3000x10000.size a)
instance k0_chk84.dec : ∀ (v1001 : BitVec 32), Decidable (k0_chk84 v1001) := fun v1001 => decidable_of_iff' _ (Iff.of_eq (k0_chk84.eq_1 v1001))
theorem k0_off228_inb : ∀ (v1001 : BitVec 32) (k0_hw84 : k0_chk84 v1001), ∀ a, (k0_off228 v1001) a + S1x10000.size a ≤ S3000x10000.size a := fun v1001 k0_hw84 => k0_hw84.1
theorem k0_off268_inb : ∀ (v1001 : BitVec 32) (k0_hw84 : k0_chk84 v1001), ∀ a, (k0_off268 v1001) a + S1x10000.size a ≤ S3000x10000.size a := fun v1001 k0_hw84 => k0_hw84.2

def k0_off269 (v1007 : BitVec 32) : Fin 2 → Nat :=
  let c0_i32_576 : BitVec 32 := 0#32
  ![v1007.toNat, 0]

def k0_chk85 (v1007 : BitVec 32) : Prop :=
  (∀ a, (k0_off230 v1007) a + S1x10000.size a ≤ S3000x10000.size a) ∧
  (∀ a, (k0_off269 v1007) a + S1x10000.size a ≤ S3000x10000.size a)
instance k0_chk85.dec : ∀ (v1007 : BitVec 32), Decidable (k0_chk85 v1007) := fun v1007 => decidable_of_iff' _ (Iff.of_eq (k0_chk85.eq_1 v1007))
theorem k0_off230_inb : ∀ (v1007 : BitVec 32) (k0_hw85 : k0_chk85 v1007), ∀ a, (k0_off230 v1007) a + S1x10000.size a ≤ S3000x10000.size a := fun v1007 k0_hw85 => k0_hw85.1
theorem k0_off269_inb : ∀ (v1007 : BitVec 32) (k0_hw85 : k0_chk85 v1007), ∀ a, (k0_off269 v1007) a + S1x10000.size a ≤ S3000x10000.size a := fun v1007 k0_hw85 => k0_hw85.2

def k0_off270 (v1013 : BitVec 32) : Fin 2 → Nat :=
  let c0_i32_578 : BitVec 32 := 0#32
  ![v1013.toNat, 0]

def k0_chk86 (v1013 : BitVec 32) : Prop :=
  (∀ a, (k0_off232 v1013) a + S1x10000.size a ≤ S3000x10000.size a) ∧
  (∀ a, (k0_off270 v1013) a + S1x10000.size a ≤ S3000x10000.size a)
instance k0_chk86.dec : ∀ (v1013 : BitVec 32), Decidable (k0_chk86 v1013) := fun v1013 => decidable_of_iff' _ (Iff.of_eq (k0_chk86.eq_1 v1013))
theorem k0_off232_inb : ∀ (v1013 : BitVec 32) (k0_hw86 : k0_chk86 v1013), ∀ a, (k0_off232 v1013) a + S1x10000.size a ≤ S3000x10000.size a := fun v1013 k0_hw86 => k0_hw86.1
theorem k0_off270_inb : ∀ (v1013 : BitVec 32) (k0_hw86 : k0_chk86 v1013), ∀ a, (k0_off270 v1013) a + S1x10000.size a ≤ S3000x10000.size a := fun v1013 k0_hw86 => k0_hw86.2

def k0_off271 (v1019 : BitVec 32) : Fin 2 → Nat :=
  let c0_i32_580 : BitVec 32 := 0#32
  ![v1019.toNat, 0]

def k0_chk87 (v1019 : BitVec 32) : Prop :=
  (∀ a, (k0_off234 v1019) a + S1x10000.size a ≤ S3000x10000.size a) ∧
  (∀ a, (k0_off271 v1019) a + S1x10000.size a ≤ S3000x10000.size a)
instance k0_chk87.dec : ∀ (v1019 : BitVec 32), Decidable (k0_chk87 v1019) := fun v1019 => decidable_of_iff' _ (Iff.of_eq (k0_chk87.eq_1 v1019))
theorem k0_off234_inb : ∀ (v1019 : BitVec 32) (k0_hw87 : k0_chk87 v1019), ∀ a, (k0_off234 v1019) a + S1x10000.size a ≤ S3000x10000.size a := fun v1019 k0_hw87 => k0_hw87.1
theorem k0_off271_inb : ∀ (v1019 : BitVec 32) (k0_hw87 : k0_chk87 v1019), ∀ a, (k0_off271 v1019) a + S1x10000.size a ≤ S3000x10000.size a := fun v1019 k0_hw87 => k0_hw87.2

def k0_off272 (v1025 : BitVec 32) : Fin 2 → Nat :=
  let c0_i32_582 : BitVec 32 := 0#32
  ![v1025.toNat, 0]

def k0_chk88 (v1025 : BitVec 32) : Prop :=
  (∀ a, (k0_off236 v1025) a + S1x10000.size a ≤ S3000x10000.size a) ∧
  (∀ a, (k0_off272 v1025) a + S1x10000.size a ≤ S3000x10000.size a)
instance k0_chk88.dec : ∀ (v1025 : BitVec 32), Decidable (k0_chk88 v1025) := fun v1025 => decidable_of_iff' _ (Iff.of_eq (k0_chk88.eq_1 v1025))
theorem k0_off236_inb : ∀ (v1025 : BitVec 32) (k0_hw88 : k0_chk88 v1025), ∀ a, (k0_off236 v1025) a + S1x10000.size a ≤ S3000x10000.size a := fun v1025 k0_hw88 => k0_hw88.1
theorem k0_off272_inb : ∀ (v1025 : BitVec 32) (k0_hw88 : k0_chk88 v1025), ∀ a, (k0_off272 v1025) a + S1x10000.size a ≤ S3000x10000.size a := fun v1025 k0_hw88 => k0_hw88.2

def k0_off273 (v1031 : BitVec 32) : Fin 2 → Nat :=
  let c0_i32_584 : BitVec 32 := 0#32
  ![v1031.toNat, 0]

def k0_chk89 (v1031 : BitVec 32) : Prop :=
  (∀ a, (k0_off238 v1031) a + S1x10000.size a ≤ S3000x10000.size a) ∧
  (∀ a, (k0_off273 v1031) a + S1x10000.size a ≤ S3000x10000.size a)
instance k0_chk89.dec : ∀ (v1031 : BitVec 32), Decidable (k0_chk89 v1031) := fun v1031 => decidable_of_iff' _ (Iff.of_eq (k0_chk89.eq_1 v1031))
theorem k0_off238_inb : ∀ (v1031 : BitVec 32) (k0_hw89 : k0_chk89 v1031), ∀ a, (k0_off238 v1031) a + S1x10000.size a ≤ S3000x10000.size a := fun v1031 k0_hw89 => k0_hw89.1
theorem k0_off273_inb : ∀ (v1031 : BitVec 32) (k0_hw89 : k0_chk89 v1031), ∀ a, (k0_off273 v1031) a + S1x10000.size a ≤ S3000x10000.size a := fun v1031 k0_hw89 => k0_hw89.2

def k0_off274 (v1037 : BitVec 32) : Fin 2 → Nat :=
  let c0_i32_586 : BitVec 32 := 0#32
  ![v1037.toNat, 0]

def k0_chk90 (v1037 : BitVec 32) : Prop :=
  (∀ a, (k0_off240 v1037) a + S1x10000.size a ≤ S3000x10000.size a) ∧
  (∀ a, (k0_off274 v1037) a + S1x10000.size a ≤ S3000x10000.size a)
instance k0_chk90.dec : ∀ (v1037 : BitVec 32), Decidable (k0_chk90 v1037) := fun v1037 => decidable_of_iff' _ (Iff.of_eq (k0_chk90.eq_1 v1037))
theorem k0_off240_inb : ∀ (v1037 : BitVec 32) (k0_hw90 : k0_chk90 v1037), ∀ a, (k0_off240 v1037) a + S1x10000.size a ≤ S3000x10000.size a := fun v1037 k0_hw90 => k0_hw90.1
theorem k0_off274_inb : ∀ (v1037 : BitVec 32) (k0_hw90 : k0_chk90 v1037), ∀ a, (k0_off274 v1037) a + S1x10000.size a ≤ S3000x10000.size a := fun v1037 k0_hw90 => k0_hw90.2

def k0_off275 (v1043 : BitVec 32) : Fin 2 → Nat :=
  let c0_i32_588 : BitVec 32 := 0#32
  ![v1043.toNat, 0]

def k0_chk91 (v1043 : BitVec 32) : Prop :=
  (∀ a, (k0_off242 v1043) a + S1x10000.size a ≤ S3000x10000.size a) ∧
  (∀ a, (k0_off275 v1043) a + S1x10000.size a ≤ S3000x10000.size a)
instance k0_chk91.dec : ∀ (v1043 : BitVec 32), Decidable (k0_chk91 v1043) := fun v1043 => decidable_of_iff' _ (Iff.of_eq (k0_chk91.eq_1 v1043))
theorem k0_off242_inb : ∀ (v1043 : BitVec 32) (k0_hw91 : k0_chk91 v1043), ∀ a, (k0_off242 v1043) a + S1x10000.size a ≤ S3000x10000.size a := fun v1043 k0_hw91 => k0_hw91.1
theorem k0_off275_inb : ∀ (v1043 : BitVec 32) (k0_hw91 : k0_chk91 v1043), ∀ a, (k0_off275 v1043) a + S1x10000.size a ≤ S3000x10000.size a := fun v1043 k0_hw91 => k0_hw91.2

def k0_off276 (v1049 : BitVec 32) : Fin 2 → Nat :=
  let c0_i32_590 : BitVec 32 := 0#32
  ![v1049.toNat, 0]

def k0_chk92 (v1049 : BitVec 32) : Prop :=
  (∀ a, (k0_off244 v1049) a + S1x10000.size a ≤ S3000x10000.size a) ∧
  (∀ a, (k0_off276 v1049) a + S1x10000.size a ≤ S3000x10000.size a)
instance k0_chk92.dec : ∀ (v1049 : BitVec 32), Decidable (k0_chk92 v1049) := fun v1049 => decidable_of_iff' _ (Iff.of_eq (k0_chk92.eq_1 v1049))
theorem k0_off244_inb : ∀ (v1049 : BitVec 32) (k0_hw92 : k0_chk92 v1049), ∀ a, (k0_off244 v1049) a + S1x10000.size a ≤ S3000x10000.size a := fun v1049 k0_hw92 => k0_hw92.1
theorem k0_off276_inb : ∀ (v1049 : BitVec 32) (k0_hw92 : k0_chk92 v1049), ∀ a, (k0_off276 v1049) a + S1x10000.size a ≤ S3000x10000.size a := fun v1049 k0_hw92 => k0_hw92.2

def k0_off277 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1310 : Index := Scalar.indexCast v1309
  let c0_688 : Index := 0#32
  ![v1310.toNat, 0]
def k0_off278 (v1311 : BitVec 32) : Fin 2 → Nat :=
  let c0_i32_690 : BitVec 32 := 0#32
  ![v1311.toNat, 0]

def k0_off279 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1316 : Index := Scalar.indexCast v1309
  let c1_691 : Index := 1#32
  ![v1316.toNat, 1]
def k0_off280 (v1317 : BitVec 32) : Fin 2 → Nat :=
  let c0_i32_693 : BitVec 32 := 0#32
  ![v1317.toNat, 0]

def k0_off281 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1322 : Index := Scalar.indexCast v1309
  let c2_694 : Index := 2#32
  ![v1322.toNat, 2]
def k0_off282 (v1323 : BitVec 32) : Fin 2 → Nat :=
  let c0_i32_696 : BitVec 32 := 0#32
  ![v1323.toNat, 0]

def k0_off283 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1328 : Index := Scalar.indexCast v1309
  let c3_697 : Index := 3#32
  ![v1328.toNat, 3]
def k0_off284 (v1329 : BitVec 32) : Fin 2 → Nat :=
  let c0_i32_699 : BitVec 32 := 0#32
  ![v1329.toNat, 0]

def k0_off285 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1334 : Index := Scalar.indexCast v1309
  let c4_700 : Index := 4#32
  ![v1334.toNat, 4]
def k0_off286 (v1335 : BitVec 32) : Fin 2 → Nat :=
  let c0_i32_702 : BitVec 32 := 0#32
  ![v1335.toNat, 0]

def k0_off287 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1340 : Index := Scalar.indexCast v1309
  let c5_703 : Index := 5#32
  ![v1340.toNat, 5]
def k0_off288 (v1341 : BitVec 32) : Fin 2 → Nat :=
  let c0_i32_705 : BitVec 32 := 0#32
  ![v1341.toNat, 0]

def k0_off289 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1346 : Index := Scalar.indexCast v1309
  let c6_706 : Index := 6#32
  ![v1346.toNat, 6]
def k0_off290 (v1347 : BitVec 32) : Fin 2 → Nat :=
  let c0_i32_708 : BitVec 32 := 0#32
  ![v1347.toNat, 0]

def k0_off291 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1352 : Index := Scalar.indexCast v1309
  let c7_709 : Index := 7#32
  ![v1352.toNat, 7]
def k0_off292 (v1353 : BitVec 32) : Fin 2 → Nat :=
  let c0_i32_711 : BitVec 32 := 0#32
  ![v1353.toNat, 0]

def k0_off293 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1358 : Index := Scalar.indexCast v1309
  let c8_712 : Index := 8#32
  ![v1358.toNat, 8]
def k0_off294 (v1359 : BitVec 32) : Fin 2 → Nat :=
  let c0_i32_714 : BitVec 32 := 0#32
  ![v1359.toNat, 0]

def k0_off295 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1364 : Index := Scalar.indexCast v1309
  let c9_715 : Index := 9#32
  ![v1364.toNat, 9]
def k0_off296 (v1365 : BitVec 32) : Fin 2 → Nat :=
  let c0_i32_717 : BitVec 32 := 0#32
  ![v1365.toNat, 0]

def k0_off297 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1370 : Index := Scalar.indexCast v1309
  let c10_718 : Index := 10#32
  ![v1370.toNat, 10]
def k0_off298 (v1371 : BitVec 32) : Fin 2 → Nat :=
  let c0_i32_720 : BitVec 32 := 0#32
  ![v1371.toNat, 0]

def k0_off299 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1376 : Index := Scalar.indexCast v1309
  let c11_721 : Index := 11#32
  ![v1376.toNat, 11]
def k0_off300 (v1377 : BitVec 32) : Fin 2 → Nat :=
  let c0_i32_723 : BitVec 32 := 0#32
  ![v1377.toNat, 0]

def k0_off301 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1382 : Index := Scalar.indexCast v1309
  let c12_724 : Index := 12#32
  ![v1382.toNat, 12]
def k0_off302 (v1383 : BitVec 32) : Fin 2 → Nat :=
  let c0_i32_726 : BitVec 32 := 0#32
  ![v1383.toNat, 0]

def k0_off303 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1388 : Index := Scalar.indexCast v1309
  let c13_727 : Index := 13#32
  ![v1388.toNat, 13]
def k0_off304 (v1389 : BitVec 32) : Fin 2 → Nat :=
  let c0_i32_729 : BitVec 32 := 0#32
  ![v1389.toNat, 0]

def k0_off305 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1394 : Index := Scalar.indexCast v1309
  let c14_730 : Index := 14#32
  ![v1394.toNat, 14]
def k0_off306 (v1395 : BitVec 32) : Fin 2 → Nat :=
  let c0_i32_732 : BitVec 32 := 0#32
  ![v1395.toNat, 0]

def k0_off307 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1400 : Index := Scalar.indexCast v1309
  let c15_733 : Index := 15#32
  ![v1400.toNat, 15]
def k0_off308 (v1401 : BitVec 32) : Fin 2 → Nat :=
  let c0_i32_735 : BitVec 32 := 0#32
  ![v1401.toNat, 0]

def k0_off309 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1406 : Index := Scalar.indexCast v1309
  let c16_736 : Index := 16#32
  ![v1406.toNat, 16]
def k0_off310 (v1407 : BitVec 32) : Fin 2 → Nat :=
  let c0_i32_738 : BitVec 32 := 0#32
  ![v1407.toNat, 0]

def k0_off311 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1412 : Index := Scalar.indexCast v1309
  let c17_739 : Index := 17#32
  ![v1412.toNat, 17]
def k0_off312 (v1413 : BitVec 32) : Fin 2 → Nat :=
  let c0_i32_741 : BitVec 32 := 0#32
  ![v1413.toNat, 0]

def k0_off313 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1418 : Index := Scalar.indexCast v1309
  let c18_742 : Index := 18#32
  ![v1418.toNat, 18]
def k0_off314 (v1419 : BitVec 32) : Fin 2 → Nat :=
  let c0_i32_744 : BitVec 32 := 0#32
  ![v1419.toNat, 0]

def k0_off315 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1424 : Index := Scalar.indexCast v1309
  let c19_745 : Index := 19#32
  ![v1424.toNat, 19]
def k0_off316 (v1425 : BitVec 32) : Fin 2 → Nat :=
  let c0_i32_747 : BitVec 32 := 0#32
  ![v1425.toNat, 0]

def k0_off317 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1430 : Index := Scalar.indexCast v1309
  let c20_748 : Index := 20#32
  ![v1430.toNat, 20]
def k0_off318 (v1431 : BitVec 32) : Fin 2 → Nat :=
  let c0_i32_750 : BitVec 32 := 0#32
  ![v1431.toNat, 0]

def k0_off319 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1436 : Index := Scalar.indexCast v1309
  let c21_751 : Index := 21#32
  ![v1436.toNat, 21]
def k0_off320 (v1437 : BitVec 32) : Fin 2 → Nat :=
  let c0_i32_753 : BitVec 32 := 0#32
  ![v1437.toNat, 0]

def k0_off321 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1442 : Index := Scalar.indexCast v1309
  let c22_754 : Index := 22#32
  ![v1442.toNat, 22]
def k0_off322 (v1443 : BitVec 32) : Fin 2 → Nat :=
  let c0_i32_756 : BitVec 32 := 0#32
  ![v1443.toNat, 0]

def k0_off323 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1448 : Index := Scalar.indexCast v1309
  let c23_757 : Index := 23#32
  ![v1448.toNat, 23]
def k0_off324 (v1449 : BitVec 32) : Fin 2 → Nat :=
  let c0_i32_759 : BitVec 32 := 0#32
  ![v1449.toNat, 0]

def k0_off325 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1454 : Index := Scalar.indexCast v1309
  let c24_760 : Index := 24#32
  ![v1454.toNat, 24]
def k0_off326 (v1455 : BitVec 32) : Fin 2 → Nat :=
  let c0_i32_762 : BitVec 32 := 0#32
  ![v1455.toNat, 0]

def k0_off327 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1460 : Index := Scalar.indexCast v1309
  let c25_763 : Index := 25#32
  ![v1460.toNat, 25]
def k0_off328 (v1461 : BitVec 32) : Fin 2 → Nat :=
  let c0_i32_765 : BitVec 32 := 0#32
  ![v1461.toNat, 0]

def k0_off329 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1466 : Index := Scalar.indexCast v1309
  let c26_766 : Index := 26#32
  ![v1466.toNat, 26]
def k0_off330 (v1467 : BitVec 32) : Fin 2 → Nat :=
  let c0_i32_768 : BitVec 32 := 0#32
  ![v1467.toNat, 0]

def k0_off331 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1472 : Index := Scalar.indexCast v1309
  let c27_769 : Index := 27#32
  ![v1472.toNat, 27]
def k0_off332 (v1473 : BitVec 32) : Fin 2 → Nat :=
  let c0_i32_771 : BitVec 32 := 0#32
  ![v1473.toNat, 0]

def k0_off333 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1478 : Index := Scalar.indexCast v1309
  let c28_772 : Index := 28#32
  ![v1478.toNat, 28]
def k0_off334 (v1479 : BitVec 32) : Fin 2 → Nat :=
  let c0_i32_774 : BitVec 32 := 0#32
  ![v1479.toNat, 0]

def k0_off335 (i : grid0.Coords) : Fin 2 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1484 : Index := Scalar.indexCast v1309
  let c29_775 : Index := 29#32
  ![v1484.toNat, 29]
def k0_off336 (v1485 : BitVec 32) : Fin 2 → Nat :=
  let c0_i32_777 : BitVec 32 := 0#32
  ![v1485.toNat, 0]

def k0_off337 (i : grid0.Coords) : Fin 1 → Nat :=
  let arg0 : BitVec 32 := BitVec.ofNat 32 (i 0).val
  let c8_i32_686 : BitVec 32 := 8#32
  let v1308 : BitVec 32 := Scalar.muli arg0 c8_i32_686
  let c3_i32_687 : BitVec 32 := 3#32
  let v1309 : BitVec 32 := Scalar.addi v1308 c3_i32_687
  let v1490 : Index := Scalar.indexCast v1309
  ![v1490.toNat]
def k0_off338 (v1491 : BitVec 32) : Fin 2 → Nat :=
  let c0_i32_779 : BitVec 32 := 0#32
  ![v1491.toNat, 0]

def k0_chk124 (v1491 : BitVec 32) : Prop :=
  (∀ a, (k0_off338 v1491) a + S1x10000.size a ≤ S200x10000.size a)
instance k0_chk124.dec : ∀ (v1491 : BitVec 32), Decidable (k0_chk124 v1491) := fun v1491 => decidable_of_iff' _ (Iff.of_eq (k0_chk124.eq_1 v1491))
theorem k0_off338_inb : ∀ (v1491 : BitVec 32) (k0_hw124 : k0_chk124 v1491), ∀ a, (k0_off338 v1491) a + S1x10000.size a ≤ S200x10000.size a := fun v1491 k0_hw124 => k0_hw124

def k0_off339 (v1311 : BitVec 32) : Fin 2 → Nat :=
  let c0_i32_781 : BitVec 32 := 0#32
  ![v1311.toNat, 0]

def k0_chk94 (v1311 : BitVec 32) : Prop :=
  (∀ a, (k0_off278 v1311) a + S1x10000.size a ≤ S3000x10000.size a) ∧
  (∀ a, (k0_off339 v1311) a + S1x10000.size a ≤ S3000x10000.size a)
instance k0_chk94.dec : ∀ (v1311 : BitVec 32), Decidable (k0_chk94 v1311) := fun v1311 => decidable_of_iff' _ (Iff.of_eq (k0_chk94.eq_1 v1311))
theorem k0_off278_inb : ∀ (v1311 : BitVec 32) (k0_hw94 : k0_chk94 v1311), ∀ a, (k0_off278 v1311) a + S1x10000.size a ≤ S3000x10000.size a := fun v1311 k0_hw94 => k0_hw94.1
theorem k0_off339_inb : ∀ (v1311 : BitVec 32) (k0_hw94 : k0_chk94 v1311), ∀ a, (k0_off339 v1311) a + S1x10000.size a ≤ S3000x10000.size a := fun v1311 k0_hw94 => k0_hw94.2

def k0_off340 (v1317 : BitVec 32) : Fin 2 → Nat :=
  let c0_i32_783 : BitVec 32 := 0#32
  ![v1317.toNat, 0]

def k0_chk95 (v1317 : BitVec 32) : Prop :=
  (∀ a, (k0_off280 v1317) a + S1x10000.size a ≤ S3000x10000.size a) ∧
  (∀ a, (k0_off340 v1317) a + S1x10000.size a ≤ S3000x10000.size a)
instance k0_chk95.dec : ∀ (v1317 : BitVec 32), Decidable (k0_chk95 v1317) := fun v1317 => decidable_of_iff' _ (Iff.of_eq (k0_chk95.eq_1 v1317))
theorem k0_off280_inb : ∀ (v1317 : BitVec 32) (k0_hw95 : k0_chk95 v1317), ∀ a, (k0_off280 v1317) a + S1x10000.size a ≤ S3000x10000.size a := fun v1317 k0_hw95 => k0_hw95.1
theorem k0_off340_inb : ∀ (v1317 : BitVec 32) (k0_hw95 : k0_chk95 v1317), ∀ a, (k0_off340 v1317) a + S1x10000.size a ≤ S3000x10000.size a := fun v1317 k0_hw95 => k0_hw95.2

def k0_off341 (v1323 : BitVec 32) : Fin 2 → Nat :=
  let c0_i32_785 : BitVec 32 := 0#32
  ![v1323.toNat, 0]

def k0_chk96 (v1323 : BitVec 32) : Prop :=
  (∀ a, (k0_off282 v1323) a + S1x10000.size a ≤ S3000x10000.size a) ∧
  (∀ a, (k0_off341 v1323) a + S1x10000.size a ≤ S3000x10000.size a)
instance k0_chk96.dec : ∀ (v1323 : BitVec 32), Decidable (k0_chk96 v1323) := fun v1323 => decidable_of_iff' _ (Iff.of_eq (k0_chk96.eq_1 v1323))
theorem k0_off282_inb : ∀ (v1323 : BitVec 32) (k0_hw96 : k0_chk96 v1323), ∀ a, (k0_off282 v1323) a + S1x10000.size a ≤ S3000x10000.size a := fun v1323 k0_hw96 => k0_hw96.1
theorem k0_off341_inb : ∀ (v1323 : BitVec 32) (k0_hw96 : k0_chk96 v1323), ∀ a, (k0_off341 v1323) a + S1x10000.size a ≤ S3000x10000.size a := fun v1323 k0_hw96 => k0_hw96.2

def k0_off342 (v1329 : BitVec 32) : Fin 2 → Nat :=
  let c0_i32_787 : BitVec 32 := 0#32
  ![v1329.toNat, 0]

def k0_chk97 (v1329 : BitVec 32) : Prop :=
  (∀ a, (k0_off284 v1329) a + S1x10000.size a ≤ S3000x10000.size a) ∧
  (∀ a, (k0_off342 v1329) a + S1x10000.size a ≤ S3000x10000.size a)
instance k0_chk97.dec : ∀ (v1329 : BitVec 32), Decidable (k0_chk97 v1329) := fun v1329 => decidable_of_iff' _ (Iff.of_eq (k0_chk97.eq_1 v1329))
theorem k0_off284_inb : ∀ (v1329 : BitVec 32) (k0_hw97 : k0_chk97 v1329), ∀ a, (k0_off284 v1329) a + S1x10000.size a ≤ S3000x10000.size a := fun v1329 k0_hw97 => k0_hw97.1
theorem k0_off342_inb : ∀ (v1329 : BitVec 32) (k0_hw97 : k0_chk97 v1329), ∀ a, (k0_off342 v1329) a + S1x10000.size a ≤ S3000x10000.size a := fun v1329 k0_hw97 => k0_hw97.2

def k0_off343 (v1335 : BitVec 32) : Fin 2 → Nat :=
  let c0_i32_789 : BitVec 32 := 0#32
  ![v1335.toNat, 0]

def k0_chk98 (v1335 : BitVec 32) : Prop :=
  (∀ a, (k0_off286 v1335) a + S1x10000.size a ≤ S3000x10000.size a) ∧
  (∀ a, (k0_off343 v1335) a + S1x10000.size a ≤ S3000x10000.size a)
instance k0_chk98.dec : ∀ (v1335 : BitVec 32), Decidable (k0_chk98 v1335) := fun v1335 => decidable_of_iff' _ (Iff.of_eq (k0_chk98.eq_1 v1335))
theorem k0_off286_inb : ∀ (v1335 : BitVec 32) (k0_hw98 : k0_chk98 v1335), ∀ a, (k0_off286 v1335) a + S1x10000.size a ≤ S3000x10000.size a := fun v1335 k0_hw98 => k0_hw98.1
theorem k0_off343_inb : ∀ (v1335 : BitVec 32) (k0_hw98 : k0_chk98 v1335), ∀ a, (k0_off343 v1335) a + S1x10000.size a ≤ S3000x10000.size a := fun v1335 k0_hw98 => k0_hw98.2

def k0_off344 (v1341 : BitVec 32) : Fin 2 → Nat :=
  let c0_i32_791 : BitVec 32 := 0#32
  ![v1341.toNat, 0]

def k0_chk99 (v1341 : BitVec 32) : Prop :=
  (∀ a, (k0_off288 v1341) a + S1x10000.size a ≤ S3000x10000.size a) ∧
  (∀ a, (k0_off344 v1341) a + S1x10000.size a ≤ S3000x10000.size a)
instance k0_chk99.dec : ∀ (v1341 : BitVec 32), Decidable (k0_chk99 v1341) := fun v1341 => decidable_of_iff' _ (Iff.of_eq (k0_chk99.eq_1 v1341))
theorem k0_off288_inb : ∀ (v1341 : BitVec 32) (k0_hw99 : k0_chk99 v1341), ∀ a, (k0_off288 v1341) a + S1x10000.size a ≤ S3000x10000.size a := fun v1341 k0_hw99 => k0_hw99.1
theorem k0_off344_inb : ∀ (v1341 : BitVec 32) (k0_hw99 : k0_chk99 v1341), ∀ a, (k0_off344 v1341) a + S1x10000.size a ≤ S3000x10000.size a := fun v1341 k0_hw99 => k0_hw99.2

def k0_off345 (v1347 : BitVec 32) : Fin 2 → Nat :=
  let c0_i32_793 : BitVec 32 := 0#32
  ![v1347.toNat, 0]

def k0_chk100 (v1347 : BitVec 32) : Prop :=
  (∀ a, (k0_off290 v1347) a + S1x10000.size a ≤ S3000x10000.size a) ∧
  (∀ a, (k0_off345 v1347) a + S1x10000.size a ≤ S3000x10000.size a)
instance k0_chk100.dec : ∀ (v1347 : BitVec 32), Decidable (k0_chk100 v1347) := fun v1347 => decidable_of_iff' _ (Iff.of_eq (k0_chk100.eq_1 v1347))
theorem k0_off290_inb : ∀ (v1347 : BitVec 32) (k0_hw100 : k0_chk100 v1347), ∀ a, (k0_off290 v1347) a + S1x10000.size a ≤ S3000x10000.size a := fun v1347 k0_hw100 => k0_hw100.1
theorem k0_off345_inb : ∀ (v1347 : BitVec 32) (k0_hw100 : k0_chk100 v1347), ∀ a, (k0_off345 v1347) a + S1x10000.size a ≤ S3000x10000.size a := fun v1347 k0_hw100 => k0_hw100.2

def k0_off346 (v1353 : BitVec 32) : Fin 2 → Nat :=
  let c0_i32_795 : BitVec 32 := 0#32
  ![v1353.toNat, 0]

def k0_chk101 (v1353 : BitVec 32) : Prop :=
  (∀ a, (k0_off292 v1353) a + S1x10000.size a ≤ S3000x10000.size a) ∧
  (∀ a, (k0_off346 v1353) a + S1x10000.size a ≤ S3000x10000.size a)
instance k0_chk101.dec : ∀ (v1353 : BitVec 32), Decidable (k0_chk101 v1353) := fun v1353 => decidable_of_iff' _ (Iff.of_eq (k0_chk101.eq_1 v1353))
theorem k0_off292_inb : ∀ (v1353 : BitVec 32) (k0_hw101 : k0_chk101 v1353), ∀ a, (k0_off292 v1353) a + S1x10000.size a ≤ S3000x10000.size a := fun v1353 k0_hw101 => k0_hw101.1
theorem k0_off346_inb : ∀ (v1353 : BitVec 32) (k0_hw101 : k0_chk101 v1353), ∀ a, (k0_off346 v1353) a + S1x10000.size a ≤ S3000x10000.size a := fun v1353 k0_hw101 => k0_hw101.2

def k0_off347 (v1359 : BitVec 32) : Fin 2 → Nat :=
  let c0_i32_797 : BitVec 32 := 0#32
  ![v1359.toNat, 0]

def k0_chk102 (v1359 : BitVec 32) : Prop :=
  (∀ a, (k0_off294 v1359) a + S1x10000.size a ≤ S3000x10000.size a) ∧
  (∀ a, (k0_off347 v1359) a + S1x10000.size a ≤ S3000x10000.size a)
instance k0_chk102.dec : ∀ (v1359 : BitVec 32), Decidable (k0_chk102 v1359) := fun v1359 => decidable_of_iff' _ (Iff.of_eq (k0_chk102.eq_1 v1359))
theorem k0_off294_inb : ∀ (v1359 : BitVec 32) (k0_hw102 : k0_chk102 v1359), ∀ a, (k0_off294 v1359) a + S1x10000.size a ≤ S3000x10000.size a := fun v1359 k0_hw102 => k0_hw102.1
theorem k0_off347_inb : ∀ (v1359 : BitVec 32) (k0_hw102 : k0_chk102 v1359), ∀ a, (k0_off347 v1359) a + S1x10000.size a ≤ S3000x10000.size a := fun v1359 k0_hw102 => k0_hw102.2

def k0_off348 (v1365 : BitVec 32) : Fin 2 → Nat :=
  let c0_i32_799 : BitVec 32 := 0#32
  ![v1365.toNat, 0]

def k0_chk103 (v1365 : BitVec 32) : Prop :=
  (∀ a, (k0_off296 v1365) a + S1x10000.size a ≤ S3000x10000.size a) ∧
  (∀ a, (k0_off348 v1365) a + S1x10000.size a ≤ S3000x10000.size a)
instance k0_chk103.dec : ∀ (v1365 : BitVec 32), Decidable (k0_chk103 v1365) := fun v1365 => decidable_of_iff' _ (Iff.of_eq (k0_chk103.eq_1 v1365))
theorem k0_off296_inb : ∀ (v1365 : BitVec 32) (k0_hw103 : k0_chk103 v1365), ∀ a, (k0_off296 v1365) a + S1x10000.size a ≤ S3000x10000.size a := fun v1365 k0_hw103 => k0_hw103.1
theorem k0_off348_inb : ∀ (v1365 : BitVec 32) (k0_hw103 : k0_chk103 v1365), ∀ a, (k0_off348 v1365) a + S1x10000.size a ≤ S3000x10000.size a := fun v1365 k0_hw103 => k0_hw103.2

def k0_off349 (v1371 : BitVec 32) : Fin 2 → Nat :=
  let c0_i32_801 : BitVec 32 := 0#32
  ![v1371.toNat, 0]

def k0_chk104 (v1371 : BitVec 32) : Prop :=
  (∀ a, (k0_off298 v1371) a + S1x10000.size a ≤ S3000x10000.size a) ∧
  (∀ a, (k0_off349 v1371) a + S1x10000.size a ≤ S3000x10000.size a)
instance k0_chk104.dec : ∀ (v1371 : BitVec 32), Decidable (k0_chk104 v1371) := fun v1371 => decidable_of_iff' _ (Iff.of_eq (k0_chk104.eq_1 v1371))
theorem k0_off298_inb : ∀ (v1371 : BitVec 32) (k0_hw104 : k0_chk104 v1371), ∀ a, (k0_off298 v1371) a + S1x10000.size a ≤ S3000x10000.size a := fun v1371 k0_hw104 => k0_hw104.1
theorem k0_off349_inb : ∀ (v1371 : BitVec 32) (k0_hw104 : k0_chk104 v1371), ∀ a, (k0_off349 v1371) a + S1x10000.size a ≤ S3000x10000.size a := fun v1371 k0_hw104 => k0_hw104.2

def k0_off350 (v1377 : BitVec 32) : Fin 2 → Nat :=
  let c0_i32_803 : BitVec 32 := 0#32
  ![v1377.toNat, 0]

def k0_chk105 (v1377 : BitVec 32) : Prop :=
  (∀ a, (k0_off300 v1377) a + S1x10000.size a ≤ S3000x10000.size a) ∧
  (∀ a, (k0_off350 v1377) a + S1x10000.size a ≤ S3000x10000.size a)
instance k0_chk105.dec : ∀ (v1377 : BitVec 32), Decidable (k0_chk105 v1377) := fun v1377 => decidable_of_iff' _ (Iff.of_eq (k0_chk105.eq_1 v1377))
theorem k0_off300_inb : ∀ (v1377 : BitVec 32) (k0_hw105 : k0_chk105 v1377), ∀ a, (k0_off300 v1377) a + S1x10000.size a ≤ S3000x10000.size a := fun v1377 k0_hw105 => k0_hw105.1
theorem k0_off350_inb : ∀ (v1377 : BitVec 32) (k0_hw105 : k0_chk105 v1377), ∀ a, (k0_off350 v1377) a + S1x10000.size a ≤ S3000x10000.size a := fun v1377 k0_hw105 => k0_hw105.2

def k0_off351 (v1383 : BitVec 32) : Fin 2 → Nat :=
  let c0_i32_805 : BitVec 32 := 0#32
  ![v1383.toNat, 0]

def k0_chk106 (v1383 : BitVec 32) : Prop :=
  (∀ a, (k0_off302 v1383) a + S1x10000.size a ≤ S3000x10000.size a) ∧
  (∀ a, (k0_off351 v1383) a + S1x10000.size a ≤ S3000x10000.size a)
instance k0_chk106.dec : ∀ (v1383 : BitVec 32), Decidable (k0_chk106 v1383) := fun v1383 => decidable_of_iff' _ (Iff.of_eq (k0_chk106.eq_1 v1383))
theorem k0_off302_inb : ∀ (v1383 : BitVec 32) (k0_hw106 : k0_chk106 v1383), ∀ a, (k0_off302 v1383) a + S1x10000.size a ≤ S3000x10000.size a := fun v1383 k0_hw106 => k0_hw106.1
theorem k0_off351_inb : ∀ (v1383 : BitVec 32) (k0_hw106 : k0_chk106 v1383), ∀ a, (k0_off351 v1383) a + S1x10000.size a ≤ S3000x10000.size a := fun v1383 k0_hw106 => k0_hw106.2

def k0_off352 (v1389 : BitVec 32) : Fin 2 → Nat :=
  let c0_i32_807 : BitVec 32 := 0#32
  ![v1389.toNat, 0]

def k0_chk107 (v1389 : BitVec 32) : Prop :=
  (∀ a, (k0_off304 v1389) a + S1x10000.size a ≤ S3000x10000.size a) ∧
  (∀ a, (k0_off352 v1389) a + S1x10000.size a ≤ S3000x10000.size a)
instance k0_chk107.dec : ∀ (v1389 : BitVec 32), Decidable (k0_chk107 v1389) := fun v1389 => decidable_of_iff' _ (Iff.of_eq (k0_chk107.eq_1 v1389))
theorem k0_off304_inb : ∀ (v1389 : BitVec 32) (k0_hw107 : k0_chk107 v1389), ∀ a, (k0_off304 v1389) a + S1x10000.size a ≤ S3000x10000.size a := fun v1389 k0_hw107 => k0_hw107.1
theorem k0_off352_inb : ∀ (v1389 : BitVec 32) (k0_hw107 : k0_chk107 v1389), ∀ a, (k0_off352 v1389) a + S1x10000.size a ≤ S3000x10000.size a := fun v1389 k0_hw107 => k0_hw107.2

def k0_off353 (v1395 : BitVec 32) : Fin 2 → Nat :=
  let c0_i32_809 : BitVec 32 := 0#32
  ![v1395.toNat, 0]

def k0_chk108 (v1395 : BitVec 32) : Prop :=
  (∀ a, (k0_off306 v1395) a + S1x10000.size a ≤ S3000x10000.size a) ∧
  (∀ a, (k0_off353 v1395) a + S1x10000.size a ≤ S3000x10000.size a)
instance k0_chk108.dec : ∀ (v1395 : BitVec 32), Decidable (k0_chk108 v1395) := fun v1395 => decidable_of_iff' _ (Iff.of_eq (k0_chk108.eq_1 v1395))
theorem k0_off306_inb : ∀ (v1395 : BitVec 32) (k0_hw108 : k0_chk108 v1395), ∀ a, (k0_off306 v1395) a + S1x10000.size a ≤ S3000x10000.size a := fun v1395 k0_hw108 => k0_hw108.1
theorem k0_off353_inb : ∀ (v1395 : BitVec 32) (k0_hw108 : k0_chk108 v1395), ∀ a, (k0_off353 v1395) a + S1x10000.size a ≤ S3000x10000.size a := fun v1395 k0_hw108 => k0_hw108.2

def k0_off354 (v1401 : BitVec 32) : Fin 2 → Nat :=
  let c0_i32_811 : BitVec 32 := 0#32
  ![v1401.toNat, 0]

def k0_chk109 (v1401 : BitVec 32) : Prop :=
  (∀ a, (k0_off308 v1401) a + S1x10000.size a ≤ S3000x10000.size a) ∧
  (∀ a, (k0_off354 v1401) a + S1x10000.size a ≤ S3000x10000.size a)
instance k0_chk109.dec : ∀ (v1401 : BitVec 32), Decidable (k0_chk109 v1401) := fun v1401 => decidable_of_iff' _ (Iff.of_eq (k0_chk109.eq_1 v1401))
theorem k0_off308_inb : ∀ (v1401 : BitVec 32) (k0_hw109 : k0_chk109 v1401), ∀ a, (k0_off308 v1401) a + S1x10000.size a ≤ S3000x10000.size a := fun v1401 k0_hw109 => k0_hw109.1
theorem k0_off354_inb : ∀ (v1401 : BitVec 32) (k0_hw109 : k0_chk109 v1401), ∀ a, (k0_off354 v1401) a + S1x10000.size a ≤ S3000x10000.size a := fun v1401 k0_hw109 => k0_hw109.2

def k0_off355 (v1407 : BitVec 32) : Fin 2 → Nat :=
  let c0_i32_813 : BitVec 32 := 0#32
  ![v1407.toNat, 0]

def k0_chk110 (v1407 : BitVec 32) : Prop :=
  (∀ a, (k0_off310 v1407) a + S1x10000.size a ≤ S3000x10000.size a) ∧
  (∀ a, (k0_off355 v1407) a + S1x10000.size a ≤ S3000x10000.size a)
instance k0_chk110.dec : ∀ (v1407 : BitVec 32), Decidable (k0_chk110 v1407) := fun v1407 => decidable_of_iff' _ (Iff.of_eq (k0_chk110.eq_1 v1407))
theorem k0_off310_inb : ∀ (v1407 : BitVec 32) (k0_hw110 : k0_chk110 v1407), ∀ a, (k0_off310 v1407) a + S1x10000.size a ≤ S3000x10000.size a := fun v1407 k0_hw110 => k0_hw110.1
theorem k0_off355_inb : ∀ (v1407 : BitVec 32) (k0_hw110 : k0_chk110 v1407), ∀ a, (k0_off355 v1407) a + S1x10000.size a ≤ S3000x10000.size a := fun v1407 k0_hw110 => k0_hw110.2

def k0_off356 (v1413 : BitVec 32) : Fin 2 → Nat :=
  let c0_i32_815 : BitVec 32 := 0#32
  ![v1413.toNat, 0]

def k0_chk111 (v1413 : BitVec 32) : Prop :=
  (∀ a, (k0_off312 v1413) a + S1x10000.size a ≤ S3000x10000.size a) ∧
  (∀ a, (k0_off356 v1413) a + S1x10000.size a ≤ S3000x10000.size a)
instance k0_chk111.dec : ∀ (v1413 : BitVec 32), Decidable (k0_chk111 v1413) := fun v1413 => decidable_of_iff' _ (Iff.of_eq (k0_chk111.eq_1 v1413))
theorem k0_off312_inb : ∀ (v1413 : BitVec 32) (k0_hw111 : k0_chk111 v1413), ∀ a, (k0_off312 v1413) a + S1x10000.size a ≤ S3000x10000.size a := fun v1413 k0_hw111 => k0_hw111.1
theorem k0_off356_inb : ∀ (v1413 : BitVec 32) (k0_hw111 : k0_chk111 v1413), ∀ a, (k0_off356 v1413) a + S1x10000.size a ≤ S3000x10000.size a := fun v1413 k0_hw111 => k0_hw111.2

def k0_off357 (v1419 : BitVec 32) : Fin 2 → Nat :=
  let c0_i32_817 : BitVec 32 := 0#32
  ![v1419.toNat, 0]

def k0_chk112 (v1419 : BitVec 32) : Prop :=
  (∀ a, (k0_off314 v1419) a + S1x10000.size a ≤ S3000x10000.size a) ∧
  (∀ a, (k0_off357 v1419) a + S1x10000.size a ≤ S3000x10000.size a)
instance k0_chk112.dec : ∀ (v1419 : BitVec 32), Decidable (k0_chk112 v1419) := fun v1419 => decidable_of_iff' _ (Iff.of_eq (k0_chk112.eq_1 v1419))
theorem k0_off314_inb : ∀ (v1419 : BitVec 32) (k0_hw112 : k0_chk112 v1419), ∀ a, (k0_off314 v1419) a + S1x10000.size a ≤ S3000x10000.size a := fun v1419 k0_hw112 => k0_hw112.1
theorem k0_off357_inb : ∀ (v1419 : BitVec 32) (k0_hw112 : k0_chk112 v1419), ∀ a, (k0_off357 v1419) a + S1x10000.size a ≤ S3000x10000.size a := fun v1419 k0_hw112 => k0_hw112.2

def k0_off358 (v1425 : BitVec 32) : Fin 2 → Nat :=
  let c0_i32_819 : BitVec 32 := 0#32
  ![v1425.toNat, 0]

def k0_chk113 (v1425 : BitVec 32) : Prop :=
  (∀ a, (k0_off316 v1425) a + S1x10000.size a ≤ S3000x10000.size a) ∧
  (∀ a, (k0_off358 v1425) a + S1x10000.size a ≤ S3000x10000.size a)
instance k0_chk113.dec : ∀ (v1425 : BitVec 32), Decidable (k0_chk113 v1425) := fun v1425 => decidable_of_iff' _ (Iff.of_eq (k0_chk113.eq_1 v1425))
theorem k0_off316_inb : ∀ (v1425 : BitVec 32) (k0_hw113 : k0_chk113 v1425), ∀ a, (k0_off316 v1425) a + S1x10000.size a ≤ S3000x10000.size a := fun v1425 k0_hw113 => k0_hw113.1
theorem k0_off358_inb : ∀ (v1425 : BitVec 32) (k0_hw113 : k0_chk113 v1425), ∀ a, (k0_off358 v1425) a + S1x10000.size a ≤ S3000x10000.size a := fun v1425 k0_hw113 => k0_hw113.2

def k0_off359 (v1431 : BitVec 32) : Fin 2 → Nat :=
  let c0_i32_821 : BitVec 32 := 0#32
  ![v1431.toNat, 0]

def k0_chk114 (v1431 : BitVec 32) : Prop :=
  (∀ a, (k0_off318 v1431) a + S1x10000.size a ≤ S3000x10000.size a) ∧
  (∀ a, (k0_off359 v1431) a + S1x10000.size a ≤ S3000x10000.size a)
instance k0_chk114.dec : ∀ (v1431 : BitVec 32), Decidable (k0_chk114 v1431) := fun v1431 => decidable_of_iff' _ (Iff.of_eq (k0_chk114.eq_1 v1431))
theorem k0_off318_inb : ∀ (v1431 : BitVec 32) (k0_hw114 : k0_chk114 v1431), ∀ a, (k0_off318 v1431) a + S1x10000.size a ≤ S3000x10000.size a := fun v1431 k0_hw114 => k0_hw114.1
theorem k0_off359_inb : ∀ (v1431 : BitVec 32) (k0_hw114 : k0_chk114 v1431), ∀ a, (k0_off359 v1431) a + S1x10000.size a ≤ S3000x10000.size a := fun v1431 k0_hw114 => k0_hw114.2

def k0_off360 (v1437 : BitVec 32) : Fin 2 → Nat :=
  let c0_i32_823 : BitVec 32 := 0#32
  ![v1437.toNat, 0]

def k0_chk115 (v1437 : BitVec 32) : Prop :=
  (∀ a, (k0_off320 v1437) a + S1x10000.size a ≤ S3000x10000.size a) ∧
  (∀ a, (k0_off360 v1437) a + S1x10000.size a ≤ S3000x10000.size a)
instance k0_chk115.dec : ∀ (v1437 : BitVec 32), Decidable (k0_chk115 v1437) := fun v1437 => decidable_of_iff' _ (Iff.of_eq (k0_chk115.eq_1 v1437))
theorem k0_off320_inb : ∀ (v1437 : BitVec 32) (k0_hw115 : k0_chk115 v1437), ∀ a, (k0_off320 v1437) a + S1x10000.size a ≤ S3000x10000.size a := fun v1437 k0_hw115 => k0_hw115.1
theorem k0_off360_inb : ∀ (v1437 : BitVec 32) (k0_hw115 : k0_chk115 v1437), ∀ a, (k0_off360 v1437) a + S1x10000.size a ≤ S3000x10000.size a := fun v1437 k0_hw115 => k0_hw115.2

def k0_off361 (v1443 : BitVec 32) : Fin 2 → Nat :=
  let c0_i32_825 : BitVec 32 := 0#32
  ![v1443.toNat, 0]

def k0_chk116 (v1443 : BitVec 32) : Prop :=
  (∀ a, (k0_off322 v1443) a + S1x10000.size a ≤ S3000x10000.size a) ∧
  (∀ a, (k0_off361 v1443) a + S1x10000.size a ≤ S3000x10000.size a)
instance k0_chk116.dec : ∀ (v1443 : BitVec 32), Decidable (k0_chk116 v1443) := fun v1443 => decidable_of_iff' _ (Iff.of_eq (k0_chk116.eq_1 v1443))
theorem k0_off322_inb : ∀ (v1443 : BitVec 32) (k0_hw116 : k0_chk116 v1443), ∀ a, (k0_off322 v1443) a + S1x10000.size a ≤ S3000x10000.size a := fun v1443 k0_hw116 => k0_hw116.1
theorem k0_off361_inb : ∀ (v1443 : BitVec 32) (k0_hw116 : k0_chk116 v1443), ∀ a, (k0_off361 v1443) a + S1x10000.size a ≤ S3000x10000.size a := fun v1443 k0_hw116 => k0_hw116.2

def k0_off362 (v1449 : BitVec 32) : Fin 2 → Nat :=
  let c0_i32_827 : BitVec 32 := 0#32
  ![v1449.toNat, 0]

def k0_chk117 (v1449 : BitVec 32) : Prop :=
  (∀ a, (k0_off324 v1449) a + S1x10000.size a ≤ S3000x10000.size a) ∧
  (∀ a, (k0_off362 v1449) a + S1x10000.size a ≤ S3000x10000.size a)
instance k0_chk117.dec : ∀ (v1449 : BitVec 32), Decidable (k0_chk117 v1449) := fun v1449 => decidable_of_iff' _ (Iff.of_eq (k0_chk117.eq_1 v1449))
theorem k0_off324_inb : ∀ (v1449 : BitVec 32) (k0_hw117 : k0_chk117 v1449), ∀ a, (k0_off324 v1449) a + S1x10000.size a ≤ S3000x10000.size a := fun v1449 k0_hw117 => k0_hw117.1
theorem k0_off362_inb : ∀ (v1449 : BitVec 32) (k0_hw117 : k0_chk117 v1449), ∀ a, (k0_off362 v1449) a + S1x10000.size a ≤ S3000x10000.size a := fun v1449 k0_hw117 => k0_hw117.2

def k0_off363 (v1455 : BitVec 32) : Fin 2 → Nat :=
  let c0_i32_829 : BitVec 32 := 0#32
  ![v1455.toNat, 0]

def k0_chk118 (v1455 : BitVec 32) : Prop :=
  (∀ a, (k0_off326 v1455) a + S1x10000.size a ≤ S3000x10000.size a) ∧
  (∀ a, (k0_off363 v1455) a + S1x10000.size a ≤ S3000x10000.size a)
instance k0_chk118.dec : ∀ (v1455 : BitVec 32), Decidable (k0_chk118 v1455) := fun v1455 => decidable_of_iff' _ (Iff.of_eq (k0_chk118.eq_1 v1455))
theorem k0_off326_inb : ∀ (v1455 : BitVec 32) (k0_hw118 : k0_chk118 v1455), ∀ a, (k0_off326 v1455) a + S1x10000.size a ≤ S3000x10000.size a := fun v1455 k0_hw118 => k0_hw118.1
theorem k0_off363_inb : ∀ (v1455 : BitVec 32) (k0_hw118 : k0_chk118 v1455), ∀ a, (k0_off363 v1455) a + S1x10000.size a ≤ S3000x10000.size a := fun v1455 k0_hw118 => k0_hw118.2

def k0_off364 (v1461 : BitVec 32) : Fin 2 → Nat :=
  let c0_i32_831 : BitVec 32 := 0#32
  ![v1461.toNat, 0]

def k0_chk119 (v1461 : BitVec 32) : Prop :=
  (∀ a, (k0_off328 v1461) a + S1x10000.size a ≤ S3000x10000.size a) ∧
  (∀ a, (k0_off364 v1461) a + S1x10000.size a ≤ S3000x10000.size a)
instance k0_chk119.dec : ∀ (v1461 : BitVec 32), Decidable (k0_chk119 v1461) := fun v1461 => decidable_of_iff' _ (Iff.of_eq (k0_chk119.eq_1 v1461))
theorem k0_off328_inb : ∀ (v1461 : BitVec 32) (k0_hw119 : k0_chk119 v1461), ∀ a, (k0_off328 v1461) a + S1x10000.size a ≤ S3000x10000.size a := fun v1461 k0_hw119 => k0_hw119.1
theorem k0_off364_inb : ∀ (v1461 : BitVec 32) (k0_hw119 : k0_chk119 v1461), ∀ a, (k0_off364 v1461) a + S1x10000.size a ≤ S3000x10000.size a := fun v1461 k0_hw119 => k0_hw119.2

def k0_off365 (v1467 : BitVec 32) : Fin 2 → Nat :=
  let c0_i32_833 : BitVec 32 := 0#32
  ![v1467.toNat, 0]

def k0_chk120 (v1467 : BitVec 32) : Prop :=
  (∀ a, (k0_off330 v1467) a + S1x10000.size a ≤ S3000x10000.size a) ∧
  (∀ a, (k0_off365 v1467) a + S1x10000.size a ≤ S3000x10000.size a)
instance k0_chk120.dec : ∀ (v1467 : BitVec 32), Decidable (k0_chk120 v1467) := fun v1467 => decidable_of_iff' _ (Iff.of_eq (k0_chk120.eq_1 v1467))
theorem k0_off330_inb : ∀ (v1467 : BitVec 32) (k0_hw120 : k0_chk120 v1467), ∀ a, (k0_off330 v1467) a + S1x10000.size a ≤ S3000x10000.size a := fun v1467 k0_hw120 => k0_hw120.1
theorem k0_off365_inb : ∀ (v1467 : BitVec 32) (k0_hw120 : k0_chk120 v1467), ∀ a, (k0_off365 v1467) a + S1x10000.size a ≤ S3000x10000.size a := fun v1467 k0_hw120 => k0_hw120.2

def k0_off366 (v1473 : BitVec 32) : Fin 2 → Nat :=
  let c0_i32_835 : BitVec 32 := 0#32
  ![v1473.toNat, 0]

def k0_chk121 (v1473 : BitVec 32) : Prop :=
  (∀ a, (k0_off332 v1473) a + S1x10000.size a ≤ S3000x10000.size a) ∧
  (∀ a, (k0_off366 v1473) a + S1x10000.size a ≤ S3000x10000.size a)
instance k0_chk121.dec : ∀ (v1473 : BitVec 32), Decidable (k0_chk121 v1473) := fun v1473 => decidable_of_iff' _ (Iff.of_eq (k0_chk121.eq_1 v1473))
theorem k0_off332_inb : ∀ (v1473 : BitVec 32) (k0_hw121 : k0_chk121 v1473), ∀ a, (k0_off332 v1473) a + S1x10000.size a ≤ S3000x10000.size a := fun v1473 k0_hw121 => k0_hw121.1
theorem k0_off366_inb : ∀ (v1473 : BitVec 32) (k0_hw121 : k0_chk121 v1473), ∀ a, (k0_off366 v1473) a + S1x10000.size a ≤ S3000x10000.size a := fun v1473 k0_hw121 => k0_hw121.2

def k0_off367 (v1479 : BitVec 32) : Fin 2 → Nat :=
  let c0_i32_837 : BitVec 32 := 0#32
  ![v1479.toNat, 0]

def k0_chk122 (v1479 : BitVec 32) : Prop :=
  (∀ a, (k0_off334 v1479) a + S1x10000.size a ≤ S3000x10000.size a) ∧
  (∀ a, (k0_off367 v1479) a + S1x10000.size a ≤ S3000x10000.size a)
instance k0_chk122.dec : ∀ (v1479 : BitVec 32), Decidable (k0_chk122 v1479) := fun v1479 => decidable_of_iff' _ (Iff.of_eq (k0_chk122.eq_1 v1479))
theorem k0_off334_inb : ∀ (v1479 : BitVec 32) (k0_hw122 : k0_chk122 v1479), ∀ a, (k0_off334 v1479) a + S1x10000.size a ≤ S3000x10000.size a := fun v1479 k0_hw122 => k0_hw122.1
theorem k0_off367_inb : ∀ (v1479 : BitVec 32) (k0_hw122 : k0_chk122 v1479), ∀ a, (k0_off367 v1479) a + S1x10000.size a ≤ S3000x10000.size a := fun v1479 k0_hw122 => k0_hw122.2

def k0_off368 (v1485 : BitVec 32) : Fin 2 → Nat :=
  let c0_i32_839 : BitVec 32 := 0#32
  ![v1485.toNat, 0]

def k0_chk123 (v1485 : BitVec 32) : Prop :=
  (∀ a, (k0_off336 v1485) a + S1x10000.size a ≤ S3000x10000.size a) ∧
  (∀ a, (k0_off368 v1485) a + S1x10000.size a ≤ S3000x10000.size a)
instance k0_chk123.dec : ∀ (v1485 : BitVec 32), Decidable (k0_chk123 v1485) := fun v1485 => decidable_of_iff' _ (Iff.of_eq (k0_chk123.eq_1 v1485))
theorem k0_off336_inb : ∀ (v1485 : BitVec 32) (k0_hw123 : k0_chk123 v1485), ∀ a, (k0_off336 v1485) a + S1x10000.size a ≤ S3000x10000.size a := fun v1485 k0_hw123 => k0_hw123.1
theorem k0_off368_inb : ∀ (v1485 : BitVec 32) (k0_hw123 : k0_chk123 v1485), ∀ a, (k0_off368 v1485) a + S1x10000.size a ≤ S3000x10000.size a := fun v1485 k0_hw123 => k0_hw123.2

def k0_off369 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1746 : Index := Scalar.indexCast v1745
  let c0_937 : Index := 0#32
  ![v1746.toNat, 0]
def k0_off370 (v1747 : BitVec 32) : Fin 2 → Nat :=
  let c0_i32_939 : BitVec 32 := 0#32
  ![v1747.toNat, 0]

def k0_off371 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1752 : Index := Scalar.indexCast v1745
  let c1_940 : Index := 1#32
  ![v1752.toNat, 1]
def k0_off372 (v1753 : BitVec 32) : Fin 2 → Nat :=
  let c0_i32_942 : BitVec 32 := 0#32
  ![v1753.toNat, 0]

def k0_off373 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1758 : Index := Scalar.indexCast v1745
  let c2_943 : Index := 2#32
  ![v1758.toNat, 2]
def k0_off374 (v1759 : BitVec 32) : Fin 2 → Nat :=
  let c0_i32_945 : BitVec 32 := 0#32
  ![v1759.toNat, 0]

def k0_off375 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1764 : Index := Scalar.indexCast v1745
  let c3_946 : Index := 3#32
  ![v1764.toNat, 3]
def k0_off376 (v1765 : BitVec 32) : Fin 2 → Nat :=
  let c0_i32_948 : BitVec 32 := 0#32
  ![v1765.toNat, 0]

def k0_off377 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1770 : Index := Scalar.indexCast v1745
  let c4_949 : Index := 4#32
  ![v1770.toNat, 4]
def k0_off378 (v1771 : BitVec 32) : Fin 2 → Nat :=
  let c0_i32_951 : BitVec 32 := 0#32
  ![v1771.toNat, 0]

def k0_off379 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1776 : Index := Scalar.indexCast v1745
  let c5_952 : Index := 5#32
  ![v1776.toNat, 5]
def k0_off380 (v1777 : BitVec 32) : Fin 2 → Nat :=
  let c0_i32_954 : BitVec 32 := 0#32
  ![v1777.toNat, 0]

def k0_off381 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1782 : Index := Scalar.indexCast v1745
  let c6_955 : Index := 6#32
  ![v1782.toNat, 6]
def k0_off382 (v1783 : BitVec 32) : Fin 2 → Nat :=
  let c0_i32_957 : BitVec 32 := 0#32
  ![v1783.toNat, 0]

def k0_off383 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1788 : Index := Scalar.indexCast v1745
  let c7_958 : Index := 7#32
  ![v1788.toNat, 7]
def k0_off384 (v1789 : BitVec 32) : Fin 2 → Nat :=
  let c0_i32_960 : BitVec 32 := 0#32
  ![v1789.toNat, 0]

def k0_off385 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1794 : Index := Scalar.indexCast v1745
  let c8_961 : Index := 8#32
  ![v1794.toNat, 8]
def k0_off386 (v1795 : BitVec 32) : Fin 2 → Nat :=
  let c0_i32_963 : BitVec 32 := 0#32
  ![v1795.toNat, 0]

def k0_off387 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1800 : Index := Scalar.indexCast v1745
  let c9_964 : Index := 9#32
  ![v1800.toNat, 9]
def k0_off388 (v1801 : BitVec 32) : Fin 2 → Nat :=
  let c0_i32_966 : BitVec 32 := 0#32
  ![v1801.toNat, 0]

def k0_off389 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1806 : Index := Scalar.indexCast v1745
  let c10_967 : Index := 10#32
  ![v1806.toNat, 10]
def k0_off390 (v1807 : BitVec 32) : Fin 2 → Nat :=
  let c0_i32_969 : BitVec 32 := 0#32
  ![v1807.toNat, 0]

def k0_off391 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1812 : Index := Scalar.indexCast v1745
  let c11_970 : Index := 11#32
  ![v1812.toNat, 11]
def k0_off392 (v1813 : BitVec 32) : Fin 2 → Nat :=
  let c0_i32_972 : BitVec 32 := 0#32
  ![v1813.toNat, 0]

def k0_off393 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1818 : Index := Scalar.indexCast v1745
  let c12_973 : Index := 12#32
  ![v1818.toNat, 12]
def k0_off394 (v1819 : BitVec 32) : Fin 2 → Nat :=
  let c0_i32_975 : BitVec 32 := 0#32
  ![v1819.toNat, 0]

def k0_off395 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1824 : Index := Scalar.indexCast v1745
  let c13_976 : Index := 13#32
  ![v1824.toNat, 13]
def k0_off396 (v1825 : BitVec 32) : Fin 2 → Nat :=
  let c0_i32_978 : BitVec 32 := 0#32
  ![v1825.toNat, 0]

def k0_off397 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1830 : Index := Scalar.indexCast v1745
  let c14_979 : Index := 14#32
  ![v1830.toNat, 14]
def k0_off398 (v1831 : BitVec 32) : Fin 2 → Nat :=
  let c0_i32_981 : BitVec 32 := 0#32
  ![v1831.toNat, 0]

def k0_off399 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1836 : Index := Scalar.indexCast v1745
  let c15_982 : Index := 15#32
  ![v1836.toNat, 15]
def k0_off400 (v1837 : BitVec 32) : Fin 2 → Nat :=
  let c0_i32_984 : BitVec 32 := 0#32
  ![v1837.toNat, 0]

def k0_off401 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1842 : Index := Scalar.indexCast v1745
  let c16_985 : Index := 16#32
  ![v1842.toNat, 16]
def k0_off402 (v1843 : BitVec 32) : Fin 2 → Nat :=
  let c0_i32_987 : BitVec 32 := 0#32
  ![v1843.toNat, 0]

def k0_off403 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1848 : Index := Scalar.indexCast v1745
  let c17_988 : Index := 17#32
  ![v1848.toNat, 17]
def k0_off404 (v1849 : BitVec 32) : Fin 2 → Nat :=
  let c0_i32_990 : BitVec 32 := 0#32
  ![v1849.toNat, 0]

def k0_off405 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1854 : Index := Scalar.indexCast v1745
  let c18_991 : Index := 18#32
  ![v1854.toNat, 18]
def k0_off406 (v1855 : BitVec 32) : Fin 2 → Nat :=
  let c0_i32_993 : BitVec 32 := 0#32
  ![v1855.toNat, 0]

def k0_off407 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1860 : Index := Scalar.indexCast v1745
  let c19_994 : Index := 19#32
  ![v1860.toNat, 19]
def k0_off408 (v1861 : BitVec 32) : Fin 2 → Nat :=
  let c0_i32_996 : BitVec 32 := 0#32
  ![v1861.toNat, 0]

def k0_off409 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1866 : Index := Scalar.indexCast v1745
  let c20_997 : Index := 20#32
  ![v1866.toNat, 20]
def k0_off410 (v1867 : BitVec 32) : Fin 2 → Nat :=
  let c0_i32_999 : BitVec 32 := 0#32
  ![v1867.toNat, 0]

def k0_off411 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1872 : Index := Scalar.indexCast v1745
  let c21_1000 : Index := 21#32
  ![v1872.toNat, 21]
def k0_off412 (v1873 : BitVec 32) : Fin 2 → Nat :=
  let c0_i32_1002 : BitVec 32 := 0#32
  ![v1873.toNat, 0]

def k0_off413 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1878 : Index := Scalar.indexCast v1745
  let c22_1003 : Index := 22#32
  ![v1878.toNat, 22]
def k0_off414 (v1879 : BitVec 32) : Fin 2 → Nat :=
  let c0_i32_1005 : BitVec 32 := 0#32
  ![v1879.toNat, 0]

def k0_off415 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1884 : Index := Scalar.indexCast v1745
  let c23_1006 : Index := 23#32
  ![v1884.toNat, 23]
def k0_off416 (v1885 : BitVec 32) : Fin 2 → Nat :=
  let c0_i32_1008 : BitVec 32 := 0#32
  ![v1885.toNat, 0]

def k0_off417 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1890 : Index := Scalar.indexCast v1745
  let c24_1009 : Index := 24#32
  ![v1890.toNat, 24]
def k0_off418 (v1891 : BitVec 32) : Fin 2 → Nat :=
  let c0_i32_1011 : BitVec 32 := 0#32
  ![v1891.toNat, 0]

def k0_off419 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1896 : Index := Scalar.indexCast v1745
  let c25_1012 : Index := 25#32
  ![v1896.toNat, 25]
def k0_off420 (v1897 : BitVec 32) : Fin 2 → Nat :=
  let c0_i32_1014 : BitVec 32 := 0#32
  ![v1897.toNat, 0]

def k0_off421 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1902 : Index := Scalar.indexCast v1745
  let c26_1015 : Index := 26#32
  ![v1902.toNat, 26]
def k0_off422 (v1903 : BitVec 32) : Fin 2 → Nat :=
  let c0_i32_1017 : BitVec 32 := 0#32
  ![v1903.toNat, 0]

def k0_off423 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1908 : Index := Scalar.indexCast v1745
  let c27_1018 : Index := 27#32
  ![v1908.toNat, 27]
def k0_off424 (v1909 : BitVec 32) : Fin 2 → Nat :=
  let c0_i32_1020 : BitVec 32 := 0#32
  ![v1909.toNat, 0]

def k0_off425 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1914 : Index := Scalar.indexCast v1745
  let c28_1021 : Index := 28#32
  ![v1914.toNat, 28]
def k0_off426 (v1915 : BitVec 32) : Fin 2 → Nat :=
  let c0_i32_1023 : BitVec 32 := 0#32
  ![v1915.toNat, 0]

def k0_off427 (i : grid0.Coords) : Fin 2 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1920 : Index := Scalar.indexCast v1745
  let c29_1024 : Index := 29#32
  ![v1920.toNat, 29]
def k0_off428 (v1921 : BitVec 32) : Fin 2 → Nat :=
  let c0_i32_1026 : BitVec 32 := 0#32
  ![v1921.toNat, 0]

def k0_off429 (i : grid0.Coords) : Fin 1 → Nat :=
  let arg0 : BitVec 32 := BitVec.ofNat 32 (i 0).val
  let c8_i32_935 : BitVec 32 := 8#32
  let v1744 : BitVec 32 := Scalar.muli arg0 c8_i32_935
  let c4_i32_936 : BitVec 32 := 4#32
  let v1745 : BitVec 32 := Scalar.addi v1744 c4_i32_936
  let v1926 : Index := Scalar.indexCast v1745
  ![v1926.toNat]
def k0_off430 (v1927 : BitVec 32) : Fin 2 → Nat :=
  let c0_i32_1028 : BitVec 32 := 0#32
  ![v1927.toNat, 0]

def k0_chk155 (v1927 : BitVec 32) : Prop :=
  (∀ a, (k0_off430 v1927) a + S1x10000.size a ≤ S200x10000.size a)
instance k0_chk155.dec : ∀ (v1927 : BitVec 32), Decidable (k0_chk155 v1927) := fun v1927 => decidable_of_iff' _ (Iff.of_eq (k0_chk155.eq_1 v1927))
theorem k0_off430_inb : ∀ (v1927 : BitVec 32) (k0_hw155 : k0_chk155 v1927), ∀ a, (k0_off430 v1927) a + S1x10000.size a ≤ S200x10000.size a := fun v1927 k0_hw155 => k0_hw155

def k0_off431 (v1747 : BitVec 32) : Fin 2 → Nat :=
  let c0_i32_1030 : BitVec 32 := 0#32
  ![v1747.toNat, 0]

def k0_chk125 (v1747 : BitVec 32) : Prop :=
  (∀ a, (k0_off370 v1747) a + S1x10000.size a ≤ S3000x10000.size a) ∧
  (∀ a, (k0_off431 v1747) a + S1x10000.size a ≤ S3000x10000.size a)
instance k0_chk125.dec : ∀ (v1747 : BitVec 32), Decidable (k0_chk125 v1747) := fun v1747 => decidable_of_iff' _ (Iff.of_eq (k0_chk125.eq_1 v1747))
theorem k0_off370_inb : ∀ (v1747 : BitVec 32) (k0_hw125 : k0_chk125 v1747), ∀ a, (k0_off370 v1747) a + S1x10000.size a ≤ S3000x10000.size a := fun v1747 k0_hw125 => k0_hw125.1
theorem k0_off431_inb : ∀ (v1747 : BitVec 32) (k0_hw125 : k0_chk125 v1747), ∀ a, (k0_off431 v1747) a + S1x10000.size a ≤ S3000x10000.size a := fun v1747 k0_hw125 => k0_hw125.2

def k0_off432 (v1753 : BitVec 32) : Fin 2 → Nat :=
  let c0_i32_1032 : BitVec 32 := 0#32
  ![v1753.toNat, 0]

def k0_chk126 (v1753 : BitVec 32) : Prop :=
  (∀ a, (k0_off372 v1753) a + S1x10000.size a ≤ S3000x10000.size a) ∧
  (∀ a, (k0_off432 v1753) a + S1x10000.size a ≤ S3000x10000.size a)
instance k0_chk126.dec : ∀ (v1753 : BitVec 32), Decidable (k0_chk126 v1753) := fun v1753 => decidable_of_iff' _ (Iff.of_eq (k0_chk126.eq_1 v1753))
theorem k0_off372_inb : ∀ (v1753 : BitVec 32) (k0_hw126 : k0_chk126 v1753), ∀ a, (k0_off372 v1753) a + S1x10000.size a ≤ S3000x10000.size a := fun v1753 k0_hw126 => k0_hw126.1
theorem k0_off432_inb : ∀ (v1753 : BitVec 32) (k0_hw126 : k0_chk126 v1753), ∀ a, (k0_off432 v1753) a + S1x10000.size a ≤ S3000x10000.size a := fun v1753 k0_hw126 => k0_hw126.2

def k0_off433 (v1759 : BitVec 32) : Fin 2 → Nat :=
  let c0_i32_1034 : BitVec 32 := 0#32
  ![v1759.toNat, 0]

def k0_chk127 (v1759 : BitVec 32) : Prop :=
  (∀ a, (k0_off374 v1759) a + S1x10000.size a ≤ S3000x10000.size a) ∧
  (∀ a, (k0_off433 v1759) a + S1x10000.size a ≤ S3000x10000.size a)
instance k0_chk127.dec : ∀ (v1759 : BitVec 32), Decidable (k0_chk127 v1759) := fun v1759 => decidable_of_iff' _ (Iff.of_eq (k0_chk127.eq_1 v1759))
theorem k0_off374_inb : ∀ (v1759 : BitVec 32) (k0_hw127 : k0_chk127 v1759), ∀ a, (k0_off374 v1759) a + S1x10000.size a ≤ S3000x10000.size a := fun v1759 k0_hw127 => k0_hw127.1
theorem k0_off433_inb : ∀ (v1759 : BitVec 32) (k0_hw127 : k0_chk127 v1759), ∀ a, (k0_off433 v1759) a + S1x10000.size a ≤ S3000x10000.size a := fun v1759 k0_hw127 => k0_hw127.2

def k0_off434 (v1765 : BitVec 32) : Fin 2 → Nat :=
  let c0_i32_1036 : BitVec 32 := 0#32
  ![v1765.toNat, 0]

def k0_chk128 (v1765 : BitVec 32) : Prop :=
  (∀ a, (k0_off376 v1765) a + S1x10000.size a ≤ S3000x10000.size a) ∧
  (∀ a, (k0_off434 v1765) a + S1x10000.size a ≤ S3000x10000.size a)
instance k0_chk128.dec : ∀ (v1765 : BitVec 32), Decidable (k0_chk128 v1765) := fun v1765 => decidable_of_iff' _ (Iff.of_eq (k0_chk128.eq_1 v1765))
theorem k0_off376_inb : ∀ (v1765 : BitVec 32) (k0_hw128 : k0_chk128 v1765), ∀ a, (k0_off376 v1765) a + S1x10000.size a ≤ S3000x10000.size a := fun v1765 k0_hw128 => k0_hw128.1
theorem k0_off434_inb : ∀ (v1765 : BitVec 32) (k0_hw128 : k0_chk128 v1765), ∀ a, (k0_off434 v1765) a + S1x10000.size a ≤ S3000x10000.size a := fun v1765 k0_hw128 => k0_hw128.2

def k0_off435 (v1771 : BitVec 32) : Fin 2 → Nat :=
  let c0_i32_1038 : BitVec 32 := 0#32
  ![v1771.toNat, 0]

def k0_chk129 (v1771 : BitVec 32) : Prop :=
  (∀ a, (k0_off378 v1771) a + S1x10000.size a ≤ S3000x10000.size a) ∧
  (∀ a, (k0_off435 v1771) a + S1x10000.size a ≤ S3000x10000.size a)
instance k0_chk129.dec : ∀ (v1771 : BitVec 32), Decidable (k0_chk129 v1771) := fun v1771 => decidable_of_iff' _ (Iff.of_eq (k0_chk129.eq_1 v1771))
theorem k0_off378_inb : ∀ (v1771 : BitVec 32) (k0_hw129 : k0_chk129 v1771), ∀ a, (k0_off378 v1771) a + S1x10000.size a ≤ S3000x10000.size a := fun v1771 k0_hw129 => k0_hw129.1
theorem k0_off435_inb : ∀ (v1771 : BitVec 32) (k0_hw129 : k0_chk129 v1771), ∀ a, (k0_off435 v1771) a + S1x10000.size a ≤ S3000x10000.size a := fun v1771 k0_hw129 => k0_hw129.2

def k0_off436 (v1777 : BitVec 32) : Fin 2 → Nat :=
  let c0_i32_1040 : BitVec 32 := 0#32
  ![v1777.toNat, 0]

def k0_chk130 (v1777 : BitVec 32) : Prop :=
  (∀ a, (k0_off380 v1777) a + S1x10000.size a ≤ S3000x10000.size a) ∧
  (∀ a, (k0_off436 v1777) a + S1x10000.size a ≤ S3000x10000.size a)
instance k0_chk130.dec : ∀ (v1777 : BitVec 32), Decidable (k0_chk130 v1777) := fun v1777 => decidable_of_iff' _ (Iff.of_eq (k0_chk130.eq_1 v1777))
theorem k0_off380_inb : ∀ (v1777 : BitVec 32) (k0_hw130 : k0_chk130 v1777), ∀ a, (k0_off380 v1777) a + S1x10000.size a ≤ S3000x10000.size a := fun v1777 k0_hw130 => k0_hw130.1
theorem k0_off436_inb : ∀ (v1777 : BitVec 32) (k0_hw130 : k0_chk130 v1777), ∀ a, (k0_off436 v1777) a + S1x10000.size a ≤ S3000x10000.size a := fun v1777 k0_hw130 => k0_hw130.2

def k0_off437 (v1783 : BitVec 32) : Fin 2 → Nat :=
  let c0_i32_1042 : BitVec 32 := 0#32
  ![v1783.toNat, 0]

def k0_chk131 (v1783 : BitVec 32) : Prop :=
  (∀ a, (k0_off382 v1783) a + S1x10000.size a ≤ S3000x10000.size a) ∧
  (∀ a, (k0_off437 v1783) a + S1x10000.size a ≤ S3000x10000.size a)
instance k0_chk131.dec : ∀ (v1783 : BitVec 32), Decidable (k0_chk131 v1783) := fun v1783 => decidable_of_iff' _ (Iff.of_eq (k0_chk131.eq_1 v1783))
theorem k0_off382_inb : ∀ (v1783 : BitVec 32) (k0_hw131 : k0_chk131 v1783), ∀ a, (k0_off382 v1783) a + S1x10000.size a ≤ S3000x10000.size a := fun v1783 k0_hw131 => k0_hw131.1
theorem k0_off437_inb : ∀ (v1783 : BitVec 32) (k0_hw131 : k0_chk131 v1783), ∀ a, (k0_off437 v1783) a + S1x10000.size a ≤ S3000x10000.size a := fun v1783 k0_hw131 => k0_hw131.2

def k0_off438 (v1789 : BitVec 32) : Fin 2 → Nat :=
  let c0_i32_1044 : BitVec 32 := 0#32
  ![v1789.toNat, 0]

def k0_chk132 (v1789 : BitVec 32) : Prop :=
  (∀ a, (k0_off384 v1789) a + S1x10000.size a ≤ S3000x10000.size a) ∧
  (∀ a, (k0_off438 v1789) a + S1x10000.size a ≤ S3000x10000.size a)
instance k0_chk132.dec : ∀ (v1789 : BitVec 32), Decidable (k0_chk132 v1789) := fun v1789 => decidable_of_iff' _ (Iff.of_eq (k0_chk132.eq_1 v1789))
theorem k0_off384_inb : ∀ (v1789 : BitVec 32) (k0_hw132 : k0_chk132 v1789), ∀ a, (k0_off384 v1789) a + S1x10000.size a ≤ S3000x10000.size a := fun v1789 k0_hw132 => k0_hw132.1
theorem k0_off438_inb : ∀ (v1789 : BitVec 32) (k0_hw132 : k0_chk132 v1789), ∀ a, (k0_off438 v1789) a + S1x10000.size a ≤ S3000x10000.size a := fun v1789 k0_hw132 => k0_hw132.2

def k0_off439 (v1795 : BitVec 32) : Fin 2 → Nat :=
  let c0_i32_1046 : BitVec 32 := 0#32
  ![v1795.toNat, 0]

def k0_chk133 (v1795 : BitVec 32) : Prop :=
  (∀ a, (k0_off386 v1795) a + S1x10000.size a ≤ S3000x10000.size a) ∧
  (∀ a, (k0_off439 v1795) a + S1x10000.size a ≤ S3000x10000.size a)
instance k0_chk133.dec : ∀ (v1795 : BitVec 32), Decidable (k0_chk133 v1795) := fun v1795 => decidable_of_iff' _ (Iff.of_eq (k0_chk133.eq_1 v1795))
theorem k0_off386_inb : ∀ (v1795 : BitVec 32) (k0_hw133 : k0_chk133 v1795), ∀ a, (k0_off386 v1795) a + S1x10000.size a ≤ S3000x10000.size a := fun v1795 k0_hw133 => k0_hw133.1
theorem k0_off439_inb : ∀ (v1795 : BitVec 32) (k0_hw133 : k0_chk133 v1795), ∀ a, (k0_off439 v1795) a + S1x10000.size a ≤ S3000x10000.size a := fun v1795 k0_hw133 => k0_hw133.2

def k0_off440 (v1801 : BitVec 32) : Fin 2 → Nat :=
  let c0_i32_1048 : BitVec 32 := 0#32
  ![v1801.toNat, 0]

def k0_chk134 (v1801 : BitVec 32) : Prop :=
  (∀ a, (k0_off388 v1801) a + S1x10000.size a ≤ S3000x10000.size a) ∧
  (∀ a, (k0_off440 v1801) a + S1x10000.size a ≤ S3000x10000.size a)
instance k0_chk134.dec : ∀ (v1801 : BitVec 32), Decidable (k0_chk134 v1801) := fun v1801 => decidable_of_iff' _ (Iff.of_eq (k0_chk134.eq_1 v1801))
theorem k0_off388_inb : ∀ (v1801 : BitVec 32) (k0_hw134 : k0_chk134 v1801), ∀ a, (k0_off388 v1801) a + S1x10000.size a ≤ S3000x10000.size a := fun v1801 k0_hw134 => k0_hw134.1
theorem k0_off440_inb : ∀ (v1801 : BitVec 32) (k0_hw134 : k0_chk134 v1801), ∀ a, (k0_off440 v1801) a + S1x10000.size a ≤ S3000x10000.size a := fun v1801 k0_hw134 => k0_hw134.2

def k0_off441 (v1807 : BitVec 32) : Fin 2 → Nat :=
  let c0_i32_1050 : BitVec 32 := 0#32
  ![v1807.toNat, 0]

def k0_chk135 (v1807 : BitVec 32) : Prop :=
  (∀ a, (k0_off390 v1807) a + S1x10000.size a ≤ S3000x10000.size a) ∧
  (∀ a, (k0_off441 v1807) a + S1x10000.size a ≤ S3000x10000.size a)
instance k0_chk135.dec : ∀ (v1807 : BitVec 32), Decidable (k0_chk135 v1807) := fun v1807 => decidable_of_iff' _ (Iff.of_eq (k0_chk135.eq_1 v1807))
theorem k0_off390_inb : ∀ (v1807 : BitVec 32) (k0_hw135 : k0_chk135 v1807), ∀ a, (k0_off390 v1807) a + S1x10000.size a ≤ S3000x10000.size a := fun v1807 k0_hw135 => k0_hw135.1
theorem k0_off441_inb : ∀ (v1807 : BitVec 32) (k0_hw135 : k0_chk135 v1807), ∀ a, (k0_off441 v1807) a + S1x10000.size a ≤ S3000x10000.size a := fun v1807 k0_hw135 => k0_hw135.2

def k0_off442 (v1813 : BitVec 32) : Fin 2 → Nat :=
  let c0_i32_1052 : BitVec 32 := 0#32
  ![v1813.toNat, 0]

def k0_chk136 (v1813 : BitVec 32) : Prop :=
  (∀ a, (k0_off392 v1813) a + S1x10000.size a ≤ S3000x10000.size a) ∧
  (∀ a, (k0_off442 v1813) a + S1x10000.size a ≤ S3000x10000.size a)
instance k0_chk136.dec : ∀ (v1813 : BitVec 32), Decidable (k0_chk136 v1813) := fun v1813 => decidable_of_iff' _ (Iff.of_eq (k0_chk136.eq_1 v1813))
theorem k0_off392_inb : ∀ (v1813 : BitVec 32) (k0_hw136 : k0_chk136 v1813), ∀ a, (k0_off392 v1813) a + S1x10000.size a ≤ S3000x10000.size a := fun v1813 k0_hw136 => k0_hw136.1
theorem k0_off442_inb : ∀ (v1813 : BitVec 32) (k0_hw136 : k0_chk136 v1813), ∀ a, (k0_off442 v1813) a + S1x10000.size a ≤ S3000x10000.size a := fun v1813 k0_hw136 => k0_hw136.2

def k0_off443 (v1819 : BitVec 32) : Fin 2 → Nat :=
  let c0_i32_1054 : BitVec 32 := 0#32
  ![v1819.toNat, 0]

def k0_chk137 (v1819 : BitVec 32) : Prop :=
  (∀ a, (k0_off394 v1819) a + S1x10000.size a ≤ S3000x10000.size a) ∧
  (∀ a, (k0_off443 v1819) a + S1x10000.size a ≤ S3000x10000.size a)
instance k0_chk137.dec : ∀ (v1819 : BitVec 32), Decidable (k0_chk137 v1819) := fun v1819 => decidable_of_iff' _ (Iff.of_eq (k0_chk137.eq_1 v1819))
theorem k0_off394_inb : ∀ (v1819 : BitVec 32) (k0_hw137 : k0_chk137 v1819), ∀ a, (k0_off394 v1819) a + S1x10000.size a ≤ S3000x10000.size a := fun v1819 k0_hw137 => k0_hw137.1
theorem k0_off443_inb : ∀ (v1819 : BitVec 32) (k0_hw137 : k0_chk137 v1819), ∀ a, (k0_off443 v1819) a + S1x10000.size a ≤ S3000x10000.size a := fun v1819 k0_hw137 => k0_hw137.2

def k0_off444 (v1825 : BitVec 32) : Fin 2 → Nat :=
  let c0_i32_1056 : BitVec 32 := 0#32
  ![v1825.toNat, 0]

def k0_chk138 (v1825 : BitVec 32) : Prop :=
  (∀ a, (k0_off396 v1825) a + S1x10000.size a ≤ S3000x10000.size a) ∧
  (∀ a, (k0_off444 v1825) a + S1x10000.size a ≤ S3000x10000.size a)
instance k0_chk138.dec : ∀ (v1825 : BitVec 32), Decidable (k0_chk138 v1825) := fun v1825 => decidable_of_iff' _ (Iff.of_eq (k0_chk138.eq_1 v1825))
theorem k0_off396_inb : ∀ (v1825 : BitVec 32) (k0_hw138 : k0_chk138 v1825), ∀ a, (k0_off396 v1825) a + S1x10000.size a ≤ S3000x10000.size a := fun v1825 k0_hw138 => k0_hw138.1
theorem k0_off444_inb : ∀ (v1825 : BitVec 32) (k0_hw138 : k0_chk138 v1825), ∀ a, (k0_off444 v1825) a + S1x10000.size a ≤ S3000x10000.size a := fun v1825 k0_hw138 => k0_hw138.2

def k0_off445 (v1831 : BitVec 32) : Fin 2 → Nat :=
  let c0_i32_1058 : BitVec 32 := 0#32
  ![v1831.toNat, 0]

def k0_chk139 (v1831 : BitVec 32) : Prop :=
  (∀ a, (k0_off398 v1831) a + S1x10000.size a ≤ S3000x10000.size a) ∧
  (∀ a, (k0_off445 v1831) a + S1x10000.size a ≤ S3000x10000.size a)
instance k0_chk139.dec : ∀ (v1831 : BitVec 32), Decidable (k0_chk139 v1831) := fun v1831 => decidable_of_iff' _ (Iff.of_eq (k0_chk139.eq_1 v1831))
theorem k0_off398_inb : ∀ (v1831 : BitVec 32) (k0_hw139 : k0_chk139 v1831), ∀ a, (k0_off398 v1831) a + S1x10000.size a ≤ S3000x10000.size a := fun v1831 k0_hw139 => k0_hw139.1
theorem k0_off445_inb : ∀ (v1831 : BitVec 32) (k0_hw139 : k0_chk139 v1831), ∀ a, (k0_off445 v1831) a + S1x10000.size a ≤ S3000x10000.size a := fun v1831 k0_hw139 => k0_hw139.2

def k0_off446 (v1837 : BitVec 32) : Fin 2 → Nat :=
  let c0_i32_1060 : BitVec 32 := 0#32
  ![v1837.toNat, 0]

def k0_chk140 (v1837 : BitVec 32) : Prop :=
  (∀ a, (k0_off400 v1837) a + S1x10000.size a ≤ S3000x10000.size a) ∧
  (∀ a, (k0_off446 v1837) a + S1x10000.size a ≤ S3000x10000.size a)
instance k0_chk140.dec : ∀ (v1837 : BitVec 32), Decidable (k0_chk140 v1837) := fun v1837 => decidable_of_iff' _ (Iff.of_eq (k0_chk140.eq_1 v1837))
theorem k0_off400_inb : ∀ (v1837 : BitVec 32) (k0_hw140 : k0_chk140 v1837), ∀ a, (k0_off400 v1837) a + S1x10000.size a ≤ S3000x10000.size a := fun v1837 k0_hw140 => k0_hw140.1
theorem k0_off446_inb : ∀ (v1837 : BitVec 32) (k0_hw140 : k0_chk140 v1837), ∀ a, (k0_off446 v1837) a + S1x10000.size a ≤ S3000x10000.size a := fun v1837 k0_hw140 => k0_hw140.2

def k0_off447 (v1843 : BitVec 32) : Fin 2 → Nat :=
  let c0_i32_1062 : BitVec 32 := 0#32
  ![v1843.toNat, 0]

def k0_chk141 (v1843 : BitVec 32) : Prop :=
  (∀ a, (k0_off402 v1843) a + S1x10000.size a ≤ S3000x10000.size a) ∧
  (∀ a, (k0_off447 v1843) a + S1x10000.size a ≤ S3000x10000.size a)
instance k0_chk141.dec : ∀ (v1843 : BitVec 32), Decidable (k0_chk141 v1843) := fun v1843 => decidable_of_iff' _ (Iff.of_eq (k0_chk141.eq_1 v1843))
theorem k0_off402_inb : ∀ (v1843 : BitVec 32) (k0_hw141 : k0_chk141 v1843), ∀ a, (k0_off402 v1843) a + S1x10000.size a ≤ S3000x10000.size a := fun v1843 k0_hw141 => k0_hw141.1
theorem k0_off447_inb : ∀ (v1843 : BitVec 32) (k0_hw141 : k0_chk141 v1843), ∀ a, (k0_off447 v1843) a + S1x10000.size a ≤ S3000x10000.size a := fun v1843 k0_hw141 => k0_hw141.2

def k0_off448 (v1849 : BitVec 32) : Fin 2 → Nat :=
  let c0_i32_1064 : BitVec 32 := 0#32
  ![v1849.toNat, 0]

def k0_chk142 (v1849 : BitVec 32) : Prop :=
  (∀ a, (k0_off404 v1849) a + S1x10000.size a ≤ S3000x10000.size a) ∧
  (∀ a, (k0_off448 v1849) a + S1x10000.size a ≤ S3000x10000.size a)
instance k0_chk142.dec : ∀ (v1849 : BitVec 32), Decidable (k0_chk142 v1849) := fun v1849 => decidable_of_iff' _ (Iff.of_eq (k0_chk142.eq_1 v1849))
theorem k0_off404_inb : ∀ (v1849 : BitVec 32) (k0_hw142 : k0_chk142 v1849), ∀ a, (k0_off404 v1849) a + S1x10000.size a ≤ S3000x10000.size a := fun v1849 k0_hw142 => k0_hw142.1
theorem k0_off448_inb : ∀ (v1849 : BitVec 32) (k0_hw142 : k0_chk142 v1849), ∀ a, (k0_off448 v1849) a + S1x10000.size a ≤ S3000x10000.size a := fun v1849 k0_hw142 => k0_hw142.2

def k0_off449 (v1855 : BitVec 32) : Fin 2 → Nat :=
  let c0_i32_1066 : BitVec 32 := 0#32
  ![v1855.toNat, 0]

def k0_chk143 (v1855 : BitVec 32) : Prop :=
  (∀ a, (k0_off406 v1855) a + S1x10000.size a ≤ S3000x10000.size a) ∧
  (∀ a, (k0_off449 v1855) a + S1x10000.size a ≤ S3000x10000.size a)
instance k0_chk143.dec : ∀ (v1855 : BitVec 32), Decidable (k0_chk143 v1855) := fun v1855 => decidable_of_iff' _ (Iff.of_eq (k0_chk143.eq_1 v1855))
theorem k0_off406_inb : ∀ (v1855 : BitVec 32) (k0_hw143 : k0_chk143 v1855), ∀ a, (k0_off406 v1855) a + S1x10000.size a ≤ S3000x10000.size a := fun v1855 k0_hw143 => k0_hw143.1
theorem k0_off449_inb : ∀ (v1855 : BitVec 32) (k0_hw143 : k0_chk143 v1855), ∀ a, (k0_off449 v1855) a + S1x10000.size a ≤ S3000x10000.size a := fun v1855 k0_hw143 => k0_hw143.2

def k0_off450 (v1861 : BitVec 32) : Fin 2 → Nat :=
  let c0_i32_1068 : BitVec 32 := 0#32
  ![v1861.toNat, 0]

def k0_chk144 (v1861 : BitVec 32) : Prop :=
  (∀ a, (k0_off408 v1861) a + S1x10000.size a ≤ S3000x10000.size a) ∧
  (∀ a, (k0_off450 v1861) a + S1x10000.size a ≤ S3000x10000.size a)
instance k0_chk144.dec : ∀ (v1861 : BitVec 32), Decidable (k0_chk144 v1861) := fun v1861 => decidable_of_iff' _ (Iff.of_eq (k0_chk144.eq_1 v1861))
theorem k0_off408_inb : ∀ (v1861 : BitVec 32) (k0_hw144 : k0_chk144 v1861), ∀ a, (k0_off408 v1861) a + S1x10000.size a ≤ S3000x10000.size a := fun v1861 k0_hw144 => k0_hw144.1
theorem k0_off450_inb : ∀ (v1861 : BitVec 32) (k0_hw144 : k0_chk144 v1861), ∀ a, (k0_off450 v1861) a + S1x10000.size a ≤ S3000x10000.size a := fun v1861 k0_hw144 => k0_hw144.2

def k0_off451 (v1867 : BitVec 32) : Fin 2 → Nat :=
  let c0_i32_1070 : BitVec 32 := 0#32
  ![v1867.toNat, 0]

def k0_chk145 (v1867 : BitVec 32) : Prop :=
  (∀ a, (k0_off410 v1867) a + S1x10000.size a ≤ S3000x10000.size a) ∧
  (∀ a, (k0_off451 v1867) a + S1x10000.size a ≤ S3000x10000.size a)
instance k0_chk145.dec : ∀ (v1867 : BitVec 32), Decidable (k0_chk145 v1867) := fun v1867 => decidable_of_iff' _ (Iff.of_eq (k0_chk145.eq_1 v1867))
theorem k0_off410_inb : ∀ (v1867 : BitVec 32) (k0_hw145 : k0_chk145 v1867), ∀ a, (k0_off410 v1867) a + S1x10000.size a ≤ S3000x10000.size a := fun v1867 k0_hw145 => k0_hw145.1
theorem k0_off451_inb : ∀ (v1867 : BitVec 32) (k0_hw145 : k0_chk145 v1867), ∀ a, (k0_off451 v1867) a + S1x10000.size a ≤ S3000x10000.size a := fun v1867 k0_hw145 => k0_hw145.2

def k0_off452 (v1873 : BitVec 32) : Fin 2 → Nat :=
  let c0_i32_1072 : BitVec 32 := 0#32
  ![v1873.toNat, 0]

def k0_chk146 (v1873 : BitVec 32) : Prop :=
  (∀ a, (k0_off412 v1873) a + S1x10000.size a ≤ S3000x10000.size a) ∧
  (∀ a, (k0_off452 v1873) a + S1x10000.size a ≤ S3000x10000.size a)
instance k0_chk146.dec : ∀ (v1873 : BitVec 32), Decidable (k0_chk146 v1873) := fun v1873 => decidable_of_iff' _ (Iff.of_eq (k0_chk146.eq_1 v1873))
theorem k0_off412_inb : ∀ (v1873 : BitVec 32) (k0_hw146 : k0_chk146 v1873), ∀ a, (k0_off412 v1873) a + S1x10000.size a ≤ S3000x10000.size a := fun v1873 k0_hw146 => k0_hw146.1
theorem k0_off452_inb : ∀ (v1873 : BitVec 32) (k0_hw146 : k0_chk146 v1873), ∀ a, (k0_off452 v1873) a + S1x10000.size a ≤ S3000x10000.size a := fun v1873 k0_hw146 => k0_hw146.2

def k0_off453 (v1879 : BitVec 32) : Fin 2 → Nat :=
  let c0_i32_1074 : BitVec 32 := 0#32
  ![v1879.toNat, 0]

def k0_chk147 (v1879 : BitVec 32) : Prop :=
  (∀ a, (k0_off414 v1879) a + S1x10000.size a ≤ S3000x10000.size a) ∧
  (∀ a, (k0_off453 v1879) a + S1x10000.size a ≤ S3000x10000.size a)
instance k0_chk147.dec : ∀ (v1879 : BitVec 32), Decidable (k0_chk147 v1879) := fun v1879 => decidable_of_iff' _ (Iff.of_eq (k0_chk147.eq_1 v1879))
theorem k0_off414_inb : ∀ (v1879 : BitVec 32) (k0_hw147 : k0_chk147 v1879), ∀ a, (k0_off414 v1879) a + S1x10000.size a ≤ S3000x10000.size a := fun v1879 k0_hw147 => k0_hw147.1
theorem k0_off453_inb : ∀ (v1879 : BitVec 32) (k0_hw147 : k0_chk147 v1879), ∀ a, (k0_off453 v1879) a + S1x10000.size a ≤ S3000x10000.size a := fun v1879 k0_hw147 => k0_hw147.2

def k0_off454 (v1885 : BitVec 32) : Fin 2 → Nat :=
  let c0_i32_1076 : BitVec 32 := 0#32
  ![v1885.toNat, 0]

def k0_chk148 (v1885 : BitVec 32) : Prop :=
  (∀ a, (k0_off416 v1885) a + S1x10000.size a ≤ S3000x10000.size a) ∧
  (∀ a, (k0_off454 v1885) a + S1x10000.size a ≤ S3000x10000.size a)
instance k0_chk148.dec : ∀ (v1885 : BitVec 32), Decidable (k0_chk148 v1885) := fun v1885 => decidable_of_iff' _ (Iff.of_eq (k0_chk148.eq_1 v1885))
theorem k0_off416_inb : ∀ (v1885 : BitVec 32) (k0_hw148 : k0_chk148 v1885), ∀ a, (k0_off416 v1885) a + S1x10000.size a ≤ S3000x10000.size a := fun v1885 k0_hw148 => k0_hw148.1
theorem k0_off454_inb : ∀ (v1885 : BitVec 32) (k0_hw148 : k0_chk148 v1885), ∀ a, (k0_off454 v1885) a + S1x10000.size a ≤ S3000x10000.size a := fun v1885 k0_hw148 => k0_hw148.2

def k0_off455 (v1891 : BitVec 32) : Fin 2 → Nat :=
  let c0_i32_1078 : BitVec 32 := 0#32
  ![v1891.toNat, 0]

def k0_chk149 (v1891 : BitVec 32) : Prop :=
  (∀ a, (k0_off418 v1891) a + S1x10000.size a ≤ S3000x10000.size a) ∧
  (∀ a, (k0_off455 v1891) a + S1x10000.size a ≤ S3000x10000.size a)
instance k0_chk149.dec : ∀ (v1891 : BitVec 32), Decidable (k0_chk149 v1891) := fun v1891 => decidable_of_iff' _ (Iff.of_eq (k0_chk149.eq_1 v1891))
theorem k0_off418_inb : ∀ (v1891 : BitVec 32) (k0_hw149 : k0_chk149 v1891), ∀ a, (k0_off418 v1891) a + S1x10000.size a ≤ S3000x10000.size a := fun v1891 k0_hw149 => k0_hw149.1
theorem k0_off455_inb : ∀ (v1891 : BitVec 32) (k0_hw149 : k0_chk149 v1891), ∀ a, (k0_off455 v1891) a + S1x10000.size a ≤ S3000x10000.size a := fun v1891 k0_hw149 => k0_hw149.2

def k0_off456 (v1897 : BitVec 32) : Fin 2 → Nat :=
  let c0_i32_1080 : BitVec 32 := 0#32
  ![v1897.toNat, 0]

def k0_chk150 (v1897 : BitVec 32) : Prop :=
  (∀ a, (k0_off420 v1897) a + S1x10000.size a ≤ S3000x10000.size a) ∧
  (∀ a, (k0_off456 v1897) a + S1x10000.size a ≤ S3000x10000.size a)
instance k0_chk150.dec : ∀ (v1897 : BitVec 32), Decidable (k0_chk150 v1897) := fun v1897 => decidable_of_iff' _ (Iff.of_eq (k0_chk150.eq_1 v1897))
theorem k0_off420_inb : ∀ (v1897 : BitVec 32) (k0_hw150 : k0_chk150 v1897), ∀ a, (k0_off420 v1897) a + S1x10000.size a ≤ S3000x10000.size a := fun v1897 k0_hw150 => k0_hw150.1
theorem k0_off456_inb : ∀ (v1897 : BitVec 32) (k0_hw150 : k0_chk150 v1897), ∀ a, (k0_off456 v1897) a + S1x10000.size a ≤ S3000x10000.size a := fun v1897 k0_hw150 => k0_hw150.2

def k0_off457 (v1903 : BitVec 32) : Fin 2 → Nat :=
  let c0_i32_1082 : BitVec 32 := 0#32
  ![v1903.toNat, 0]

def k0_chk151 (v1903 : BitVec 32) : Prop :=
  (∀ a, (k0_off422 v1903) a + S1x10000.size a ≤ S3000x10000.size a) ∧
  (∀ a, (k0_off457 v1903) a + S1x10000.size a ≤ S3000x10000.size a)
instance k0_chk151.dec : ∀ (v1903 : BitVec 32), Decidable (k0_chk151 v1903) := fun v1903 => decidable_of_iff' _ (Iff.of_eq (k0_chk151.eq_1 v1903))
theorem k0_off422_inb : ∀ (v1903 : BitVec 32) (k0_hw151 : k0_chk151 v1903), ∀ a, (k0_off422 v1903) a + S1x10000.size a ≤ S3000x10000.size a := fun v1903 k0_hw151 => k0_hw151.1
theorem k0_off457_inb : ∀ (v1903 : BitVec 32) (k0_hw151 : k0_chk151 v1903), ∀ a, (k0_off457 v1903) a + S1x10000.size a ≤ S3000x10000.size a := fun v1903 k0_hw151 => k0_hw151.2

def k0_off458 (v1909 : BitVec 32) : Fin 2 → Nat :=
  let c0_i32_1084 : BitVec 32 := 0#32
  ![v1909.toNat, 0]

def k0_chk152 (v1909 : BitVec 32) : Prop :=
  (∀ a, (k0_off424 v1909) a + S1x10000.size a ≤ S3000x10000.size a) ∧
  (∀ a, (k0_off458 v1909) a + S1x10000.size a ≤ S3000x10000.size a)
instance k0_chk152.dec : ∀ (v1909 : BitVec 32), Decidable (k0_chk152 v1909) := fun v1909 => decidable_of_iff' _ (Iff.of_eq (k0_chk152.eq_1 v1909))
theorem k0_off424_inb : ∀ (v1909 : BitVec 32) (k0_hw152 : k0_chk152 v1909), ∀ a, (k0_off424 v1909) a + S1x10000.size a ≤ S3000x10000.size a := fun v1909 k0_hw152 => k0_hw152.1
theorem k0_off458_inb : ∀ (v1909 : BitVec 32) (k0_hw152 : k0_chk152 v1909), ∀ a, (k0_off458 v1909) a + S1x10000.size a ≤ S3000x10000.size a := fun v1909 k0_hw152 => k0_hw152.2

def k0_off459 (v1915 : BitVec 32) : Fin 2 → Nat :=
  let c0_i32_1086 : BitVec 32 := 0#32
  ![v1915.toNat, 0]

def k0_chk153 (v1915 : BitVec 32) : Prop :=
  (∀ a, (k0_off426 v1915) a + S1x10000.size a ≤ S3000x10000.size a) ∧
  (∀ a, (k0_off459 v1915) a + S1x10000.size a ≤ S3000x10000.size a)
instance k0_chk153.dec : ∀ (v1915 : BitVec 32), Decidable (k0_chk153 v1915) := fun v1915 => decidable_of_iff' _ (Iff.of_eq (k0_chk153.eq_1 v1915))
theorem k0_off426_inb : ∀ (v1915 : BitVec 32) (k0_hw153 : k0_chk153 v1915), ∀ a, (k0_off426 v1915) a + S1x10000.size a ≤ S3000x10000.size a := fun v1915 k0_hw153 => k0_hw153.1
theorem k0_off459_inb : ∀ (v1915 : BitVec 32) (k0_hw153 : k0_chk153 v1915), ∀ a, (k0_off459 v1915) a + S1x10000.size a ≤ S3000x10000.size a := fun v1915 k0_hw153 => k0_hw153.2

def k0_off460 (v1921 : BitVec 32) : Fin 2 → Nat :=
  let c0_i32_1088 : BitVec 32 := 0#32
  ![v1921.toNat, 0]

def k0_chk154 (v1921 : BitVec 32) : Prop :=
  (∀ a, (k0_off428 v1921) a + S1x10000.size a ≤ S3000x10000.size a) ∧
  (∀ a, (k0_off460 v1921) a + S1x10000.size a ≤ S3000x10000.size a)
instance k0_chk154.dec : ∀ (v1921 : BitVec 32), Decidable (k0_chk154 v1921) := fun v1921 => decidable_of_iff' _ (Iff.of_eq (k0_chk154.eq_1 v1921))
theorem k0_off428_inb : ∀ (v1921 : BitVec 32) (k0_hw154 : k0_chk154 v1921), ∀ a, (k0_off428 v1921) a + S1x10000.size a ≤ S3000x10000.size a := fun v1921 k0_hw154 => k0_hw154.1
theorem k0_off460_inb : ∀ (v1921 : BitVec 32) (k0_hw154 : k0_chk154 v1921), ∀ a, (k0_off460 v1921) a + S1x10000.size a ≤ S3000x10000.size a := fun v1921 k0_hw154 => k0_hw154.2

def k0_off461 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2182 : Index := Scalar.indexCast v2181
  let c0_1186 : Index := 0#32
  ![v2182.toNat, 0]
def k0_off462 (v2183 : BitVec 32) : Fin 2 → Nat :=
  let c0_i32_1188 : BitVec 32 := 0#32
  ![v2183.toNat, 0]

def k0_off463 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2188 : Index := Scalar.indexCast v2181
  let c1_1189 : Index := 1#32
  ![v2188.toNat, 1]
def k0_off464 (v2189 : BitVec 32) : Fin 2 → Nat :=
  let c0_i32_1191 : BitVec 32 := 0#32
  ![v2189.toNat, 0]

def k0_off465 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2194 : Index := Scalar.indexCast v2181
  let c2_1192 : Index := 2#32
  ![v2194.toNat, 2]
def k0_off466 (v2195 : BitVec 32) : Fin 2 → Nat :=
  let c0_i32_1194 : BitVec 32 := 0#32
  ![v2195.toNat, 0]

def k0_off467 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2200 : Index := Scalar.indexCast v2181
  let c3_1195 : Index := 3#32
  ![v2200.toNat, 3]
def k0_off468 (v2201 : BitVec 32) : Fin 2 → Nat :=
  let c0_i32_1197 : BitVec 32 := 0#32
  ![v2201.toNat, 0]

def k0_off469 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2206 : Index := Scalar.indexCast v2181
  let c4_1198 : Index := 4#32
  ![v2206.toNat, 4]
def k0_off470 (v2207 : BitVec 32) : Fin 2 → Nat :=
  let c0_i32_1200 : BitVec 32 := 0#32
  ![v2207.toNat, 0]

def k0_off471 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2212 : Index := Scalar.indexCast v2181
  let c5_1201 : Index := 5#32
  ![v2212.toNat, 5]
def k0_off472 (v2213 : BitVec 32) : Fin 2 → Nat :=
  let c0_i32_1203 : BitVec 32 := 0#32
  ![v2213.toNat, 0]

def k0_off473 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2218 : Index := Scalar.indexCast v2181
  let c6_1204 : Index := 6#32
  ![v2218.toNat, 6]
def k0_off474 (v2219 : BitVec 32) : Fin 2 → Nat :=
  let c0_i32_1206 : BitVec 32 := 0#32
  ![v2219.toNat, 0]

def k0_off475 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2224 : Index := Scalar.indexCast v2181
  let c7_1207 : Index := 7#32
  ![v2224.toNat, 7]
def k0_off476 (v2225 : BitVec 32) : Fin 2 → Nat :=
  let c0_i32_1209 : BitVec 32 := 0#32
  ![v2225.toNat, 0]

def k0_off477 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2230 : Index := Scalar.indexCast v2181
  let c8_1210 : Index := 8#32
  ![v2230.toNat, 8]
def k0_off478 (v2231 : BitVec 32) : Fin 2 → Nat :=
  let c0_i32_1212 : BitVec 32 := 0#32
  ![v2231.toNat, 0]

def k0_off479 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2236 : Index := Scalar.indexCast v2181
  let c9_1213 : Index := 9#32
  ![v2236.toNat, 9]
def k0_off480 (v2237 : BitVec 32) : Fin 2 → Nat :=
  let c0_i32_1215 : BitVec 32 := 0#32
  ![v2237.toNat, 0]

def k0_off481 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2242 : Index := Scalar.indexCast v2181
  let c10_1216 : Index := 10#32
  ![v2242.toNat, 10]
def k0_off482 (v2243 : BitVec 32) : Fin 2 → Nat :=
  let c0_i32_1218 : BitVec 32 := 0#32
  ![v2243.toNat, 0]

def k0_off483 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2248 : Index := Scalar.indexCast v2181
  let c11_1219 : Index := 11#32
  ![v2248.toNat, 11]
def k0_off484 (v2249 : BitVec 32) : Fin 2 → Nat :=
  let c0_i32_1221 : BitVec 32 := 0#32
  ![v2249.toNat, 0]

def k0_off485 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2254 : Index := Scalar.indexCast v2181
  let c12_1222 : Index := 12#32
  ![v2254.toNat, 12]
def k0_off486 (v2255 : BitVec 32) : Fin 2 → Nat :=
  let c0_i32_1224 : BitVec 32 := 0#32
  ![v2255.toNat, 0]

def k0_off487 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2260 : Index := Scalar.indexCast v2181
  let c13_1225 : Index := 13#32
  ![v2260.toNat, 13]
def k0_off488 (v2261 : BitVec 32) : Fin 2 → Nat :=
  let c0_i32_1227 : BitVec 32 := 0#32
  ![v2261.toNat, 0]

def k0_off489 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2266 : Index := Scalar.indexCast v2181
  let c14_1228 : Index := 14#32
  ![v2266.toNat, 14]
def k0_off490 (v2267 : BitVec 32) : Fin 2 → Nat :=
  let c0_i32_1230 : BitVec 32 := 0#32
  ![v2267.toNat, 0]

def k0_off491 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2272 : Index := Scalar.indexCast v2181
  let c15_1231 : Index := 15#32
  ![v2272.toNat, 15]
def k0_off492 (v2273 : BitVec 32) : Fin 2 → Nat :=
  let c0_i32_1233 : BitVec 32 := 0#32
  ![v2273.toNat, 0]

def k0_off493 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2278 : Index := Scalar.indexCast v2181
  let c16_1234 : Index := 16#32
  ![v2278.toNat, 16]
def k0_off494 (v2279 : BitVec 32) : Fin 2 → Nat :=
  let c0_i32_1236 : BitVec 32 := 0#32
  ![v2279.toNat, 0]

def k0_off495 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2284 : Index := Scalar.indexCast v2181
  let c17_1237 : Index := 17#32
  ![v2284.toNat, 17]
def k0_off496 (v2285 : BitVec 32) : Fin 2 → Nat :=
  let c0_i32_1239 : BitVec 32 := 0#32
  ![v2285.toNat, 0]

def k0_off497 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2290 : Index := Scalar.indexCast v2181
  let c18_1240 : Index := 18#32
  ![v2290.toNat, 18]
def k0_off498 (v2291 : BitVec 32) : Fin 2 → Nat :=
  let c0_i32_1242 : BitVec 32 := 0#32
  ![v2291.toNat, 0]

def k0_off499 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2296 : Index := Scalar.indexCast v2181
  let c19_1243 : Index := 19#32
  ![v2296.toNat, 19]
def k0_off500 (v2297 : BitVec 32) : Fin 2 → Nat :=
  let c0_i32_1245 : BitVec 32 := 0#32
  ![v2297.toNat, 0]

def k0_off501 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2302 : Index := Scalar.indexCast v2181
  let c20_1246 : Index := 20#32
  ![v2302.toNat, 20]
def k0_off502 (v2303 : BitVec 32) : Fin 2 → Nat :=
  let c0_i32_1248 : BitVec 32 := 0#32
  ![v2303.toNat, 0]

def k0_off503 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2308 : Index := Scalar.indexCast v2181
  let c21_1249 : Index := 21#32
  ![v2308.toNat, 21]
def k0_off504 (v2309 : BitVec 32) : Fin 2 → Nat :=
  let c0_i32_1251 : BitVec 32 := 0#32
  ![v2309.toNat, 0]

def k0_off505 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2314 : Index := Scalar.indexCast v2181
  let c22_1252 : Index := 22#32
  ![v2314.toNat, 22]
def k0_off506 (v2315 : BitVec 32) : Fin 2 → Nat :=
  let c0_i32_1254 : BitVec 32 := 0#32
  ![v2315.toNat, 0]

def k0_off507 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2320 : Index := Scalar.indexCast v2181
  let c23_1255 : Index := 23#32
  ![v2320.toNat, 23]
def k0_off508 (v2321 : BitVec 32) : Fin 2 → Nat :=
  let c0_i32_1257 : BitVec 32 := 0#32
  ![v2321.toNat, 0]

def k0_off509 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2326 : Index := Scalar.indexCast v2181
  let c24_1258 : Index := 24#32
  ![v2326.toNat, 24]
def k0_off510 (v2327 : BitVec 32) : Fin 2 → Nat :=
  let c0_i32_1260 : BitVec 32 := 0#32
  ![v2327.toNat, 0]

def k0_off511 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2332 : Index := Scalar.indexCast v2181
  let c25_1261 : Index := 25#32
  ![v2332.toNat, 25]
def k0_off512 (v2333 : BitVec 32) : Fin 2 → Nat :=
  let c0_i32_1263 : BitVec 32 := 0#32
  ![v2333.toNat, 0]

def k0_off513 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2338 : Index := Scalar.indexCast v2181
  let c26_1264 : Index := 26#32
  ![v2338.toNat, 26]
def k0_off514 (v2339 : BitVec 32) : Fin 2 → Nat :=
  let c0_i32_1266 : BitVec 32 := 0#32
  ![v2339.toNat, 0]

def k0_off515 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2344 : Index := Scalar.indexCast v2181
  let c27_1267 : Index := 27#32
  ![v2344.toNat, 27]
def k0_off516 (v2345 : BitVec 32) : Fin 2 → Nat :=
  let c0_i32_1269 : BitVec 32 := 0#32
  ![v2345.toNat, 0]

def k0_off517 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2350 : Index := Scalar.indexCast v2181
  let c28_1270 : Index := 28#32
  ![v2350.toNat, 28]
def k0_off518 (v2351 : BitVec 32) : Fin 2 → Nat :=
  let c0_i32_1272 : BitVec 32 := 0#32
  ![v2351.toNat, 0]

def k0_off519 (i : grid0.Coords) : Fin 2 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2356 : Index := Scalar.indexCast v2181
  let c29_1273 : Index := 29#32
  ![v2356.toNat, 29]
def k0_off520 (v2357 : BitVec 32) : Fin 2 → Nat :=
  let c0_i32_1275 : BitVec 32 := 0#32
  ![v2357.toNat, 0]

def k0_off521 (i : grid0.Coords) : Fin 1 → Nat :=
  let arg0 : BitVec 32 := BitVec.ofNat 32 (i 0).val
  let c8_i32_1184 : BitVec 32 := 8#32
  let v2180 : BitVec 32 := Scalar.muli arg0 c8_i32_1184
  let c5_i32_1185 : BitVec 32 := 5#32
  let v2181 : BitVec 32 := Scalar.addi v2180 c5_i32_1185
  let v2362 : Index := Scalar.indexCast v2181
  ![v2362.toNat]
def k0_off522 (v2363 : BitVec 32) : Fin 2 → Nat :=
  let c0_i32_1277 : BitVec 32 := 0#32
  ![v2363.toNat, 0]

def k0_chk186 (v2363 : BitVec 32) : Prop :=
  (∀ a, (k0_off522 v2363) a + S1x10000.size a ≤ S200x10000.size a)
instance k0_chk186.dec : ∀ (v2363 : BitVec 32), Decidable (k0_chk186 v2363) := fun v2363 => decidable_of_iff' _ (Iff.of_eq (k0_chk186.eq_1 v2363))
theorem k0_off522_inb : ∀ (v2363 : BitVec 32) (k0_hw186 : k0_chk186 v2363), ∀ a, (k0_off522 v2363) a + S1x10000.size a ≤ S200x10000.size a := fun v2363 k0_hw186 => k0_hw186

def k0_off523 (v2183 : BitVec 32) : Fin 2 → Nat :=
  let c0_i32_1279 : BitVec 32 := 0#32
  ![v2183.toNat, 0]

def k0_chk156 (v2183 : BitVec 32) : Prop :=
  (∀ a, (k0_off462 v2183) a + S1x10000.size a ≤ S3000x10000.size a) ∧
  (∀ a, (k0_off523 v2183) a + S1x10000.size a ≤ S3000x10000.size a)
instance k0_chk156.dec : ∀ (v2183 : BitVec 32), Decidable (k0_chk156 v2183) := fun v2183 => decidable_of_iff' _ (Iff.of_eq (k0_chk156.eq_1 v2183))
theorem k0_off462_inb : ∀ (v2183 : BitVec 32) (k0_hw156 : k0_chk156 v2183), ∀ a, (k0_off462 v2183) a + S1x10000.size a ≤ S3000x10000.size a := fun v2183 k0_hw156 => k0_hw156.1
theorem k0_off523_inb : ∀ (v2183 : BitVec 32) (k0_hw156 : k0_chk156 v2183), ∀ a, (k0_off523 v2183) a + S1x10000.size a ≤ S3000x10000.size a := fun v2183 k0_hw156 => k0_hw156.2

def k0_off524 (v2189 : BitVec 32) : Fin 2 → Nat :=
  let c0_i32_1281 : BitVec 32 := 0#32
  ![v2189.toNat, 0]

def k0_chk157 (v2189 : BitVec 32) : Prop :=
  (∀ a, (k0_off464 v2189) a + S1x10000.size a ≤ S3000x10000.size a) ∧
  (∀ a, (k0_off524 v2189) a + S1x10000.size a ≤ S3000x10000.size a)
instance k0_chk157.dec : ∀ (v2189 : BitVec 32), Decidable (k0_chk157 v2189) := fun v2189 => decidable_of_iff' _ (Iff.of_eq (k0_chk157.eq_1 v2189))
theorem k0_off464_inb : ∀ (v2189 : BitVec 32) (k0_hw157 : k0_chk157 v2189), ∀ a, (k0_off464 v2189) a + S1x10000.size a ≤ S3000x10000.size a := fun v2189 k0_hw157 => k0_hw157.1
theorem k0_off524_inb : ∀ (v2189 : BitVec 32) (k0_hw157 : k0_chk157 v2189), ∀ a, (k0_off524 v2189) a + S1x10000.size a ≤ S3000x10000.size a := fun v2189 k0_hw157 => k0_hw157.2

def k0_off525 (v2195 : BitVec 32) : Fin 2 → Nat :=
  let c0_i32_1283 : BitVec 32 := 0#32
  ![v2195.toNat, 0]

def k0_chk158 (v2195 : BitVec 32) : Prop :=
  (∀ a, (k0_off466 v2195) a + S1x10000.size a ≤ S3000x10000.size a) ∧
  (∀ a, (k0_off525 v2195) a + S1x10000.size a ≤ S3000x10000.size a)
instance k0_chk158.dec : ∀ (v2195 : BitVec 32), Decidable (k0_chk158 v2195) := fun v2195 => decidable_of_iff' _ (Iff.of_eq (k0_chk158.eq_1 v2195))
theorem k0_off466_inb : ∀ (v2195 : BitVec 32) (k0_hw158 : k0_chk158 v2195), ∀ a, (k0_off466 v2195) a + S1x10000.size a ≤ S3000x10000.size a := fun v2195 k0_hw158 => k0_hw158.1
theorem k0_off525_inb : ∀ (v2195 : BitVec 32) (k0_hw158 : k0_chk158 v2195), ∀ a, (k0_off525 v2195) a + S1x10000.size a ≤ S3000x10000.size a := fun v2195 k0_hw158 => k0_hw158.2

def k0_off526 (v2201 : BitVec 32) : Fin 2 → Nat :=
  let c0_i32_1285 : BitVec 32 := 0#32
  ![v2201.toNat, 0]

def k0_chk159 (v2201 : BitVec 32) : Prop :=
  (∀ a, (k0_off468 v2201) a + S1x10000.size a ≤ S3000x10000.size a) ∧
  (∀ a, (k0_off526 v2201) a + S1x10000.size a ≤ S3000x10000.size a)
instance k0_chk159.dec : ∀ (v2201 : BitVec 32), Decidable (k0_chk159 v2201) := fun v2201 => decidable_of_iff' _ (Iff.of_eq (k0_chk159.eq_1 v2201))
theorem k0_off468_inb : ∀ (v2201 : BitVec 32) (k0_hw159 : k0_chk159 v2201), ∀ a, (k0_off468 v2201) a + S1x10000.size a ≤ S3000x10000.size a := fun v2201 k0_hw159 => k0_hw159.1
theorem k0_off526_inb : ∀ (v2201 : BitVec 32) (k0_hw159 : k0_chk159 v2201), ∀ a, (k0_off526 v2201) a + S1x10000.size a ≤ S3000x10000.size a := fun v2201 k0_hw159 => k0_hw159.2

def k0_off527 (v2207 : BitVec 32) : Fin 2 → Nat :=
  let c0_i32_1287 : BitVec 32 := 0#32
  ![v2207.toNat, 0]

def k0_chk160 (v2207 : BitVec 32) : Prop :=
  (∀ a, (k0_off470 v2207) a + S1x10000.size a ≤ S3000x10000.size a) ∧
  (∀ a, (k0_off527 v2207) a + S1x10000.size a ≤ S3000x10000.size a)
instance k0_chk160.dec : ∀ (v2207 : BitVec 32), Decidable (k0_chk160 v2207) := fun v2207 => decidable_of_iff' _ (Iff.of_eq (k0_chk160.eq_1 v2207))
theorem k0_off470_inb : ∀ (v2207 : BitVec 32) (k0_hw160 : k0_chk160 v2207), ∀ a, (k0_off470 v2207) a + S1x10000.size a ≤ S3000x10000.size a := fun v2207 k0_hw160 => k0_hw160.1
theorem k0_off527_inb : ∀ (v2207 : BitVec 32) (k0_hw160 : k0_chk160 v2207), ∀ a, (k0_off527 v2207) a + S1x10000.size a ≤ S3000x10000.size a := fun v2207 k0_hw160 => k0_hw160.2

def k0_off528 (v2213 : BitVec 32) : Fin 2 → Nat :=
  let c0_i32_1289 : BitVec 32 := 0#32
  ![v2213.toNat, 0]

def k0_chk161 (v2213 : BitVec 32) : Prop :=
  (∀ a, (k0_off472 v2213) a + S1x10000.size a ≤ S3000x10000.size a) ∧
  (∀ a, (k0_off528 v2213) a + S1x10000.size a ≤ S3000x10000.size a)
instance k0_chk161.dec : ∀ (v2213 : BitVec 32), Decidable (k0_chk161 v2213) := fun v2213 => decidable_of_iff' _ (Iff.of_eq (k0_chk161.eq_1 v2213))
theorem k0_off472_inb : ∀ (v2213 : BitVec 32) (k0_hw161 : k0_chk161 v2213), ∀ a, (k0_off472 v2213) a + S1x10000.size a ≤ S3000x10000.size a := fun v2213 k0_hw161 => k0_hw161.1
theorem k0_off528_inb : ∀ (v2213 : BitVec 32) (k0_hw161 : k0_chk161 v2213), ∀ a, (k0_off528 v2213) a + S1x10000.size a ≤ S3000x10000.size a := fun v2213 k0_hw161 => k0_hw161.2

def k0_off529 (v2219 : BitVec 32) : Fin 2 → Nat :=
  let c0_i32_1291 : BitVec 32 := 0#32
  ![v2219.toNat, 0]

def k0_chk162 (v2219 : BitVec 32) : Prop :=
  (∀ a, (k0_off474 v2219) a + S1x10000.size a ≤ S3000x10000.size a) ∧
  (∀ a, (k0_off529 v2219) a + S1x10000.size a ≤ S3000x10000.size a)
instance k0_chk162.dec : ∀ (v2219 : BitVec 32), Decidable (k0_chk162 v2219) := fun v2219 => decidable_of_iff' _ (Iff.of_eq (k0_chk162.eq_1 v2219))
theorem k0_off474_inb : ∀ (v2219 : BitVec 32) (k0_hw162 : k0_chk162 v2219), ∀ a, (k0_off474 v2219) a + S1x10000.size a ≤ S3000x10000.size a := fun v2219 k0_hw162 => k0_hw162.1
theorem k0_off529_inb : ∀ (v2219 : BitVec 32) (k0_hw162 : k0_chk162 v2219), ∀ a, (k0_off529 v2219) a + S1x10000.size a ≤ S3000x10000.size a := fun v2219 k0_hw162 => k0_hw162.2

def k0_off530 (v2225 : BitVec 32) : Fin 2 → Nat :=
  let c0_i32_1293 : BitVec 32 := 0#32
  ![v2225.toNat, 0]

def k0_chk163 (v2225 : BitVec 32) : Prop :=
  (∀ a, (k0_off476 v2225) a + S1x10000.size a ≤ S3000x10000.size a) ∧
  (∀ a, (k0_off530 v2225) a + S1x10000.size a ≤ S3000x10000.size a)
instance k0_chk163.dec : ∀ (v2225 : BitVec 32), Decidable (k0_chk163 v2225) := fun v2225 => decidable_of_iff' _ (Iff.of_eq (k0_chk163.eq_1 v2225))
theorem k0_off476_inb : ∀ (v2225 : BitVec 32) (k0_hw163 : k0_chk163 v2225), ∀ a, (k0_off476 v2225) a + S1x10000.size a ≤ S3000x10000.size a := fun v2225 k0_hw163 => k0_hw163.1
theorem k0_off530_inb : ∀ (v2225 : BitVec 32) (k0_hw163 : k0_chk163 v2225), ∀ a, (k0_off530 v2225) a + S1x10000.size a ≤ S3000x10000.size a := fun v2225 k0_hw163 => k0_hw163.2

def k0_off531 (v2231 : BitVec 32) : Fin 2 → Nat :=
  let c0_i32_1295 : BitVec 32 := 0#32
  ![v2231.toNat, 0]

def k0_chk164 (v2231 : BitVec 32) : Prop :=
  (∀ a, (k0_off478 v2231) a + S1x10000.size a ≤ S3000x10000.size a) ∧
  (∀ a, (k0_off531 v2231) a + S1x10000.size a ≤ S3000x10000.size a)
instance k0_chk164.dec : ∀ (v2231 : BitVec 32), Decidable (k0_chk164 v2231) := fun v2231 => decidable_of_iff' _ (Iff.of_eq (k0_chk164.eq_1 v2231))
theorem k0_off478_inb : ∀ (v2231 : BitVec 32) (k0_hw164 : k0_chk164 v2231), ∀ a, (k0_off478 v2231) a + S1x10000.size a ≤ S3000x10000.size a := fun v2231 k0_hw164 => k0_hw164.1
theorem k0_off531_inb : ∀ (v2231 : BitVec 32) (k0_hw164 : k0_chk164 v2231), ∀ a, (k0_off531 v2231) a + S1x10000.size a ≤ S3000x10000.size a := fun v2231 k0_hw164 => k0_hw164.2

def k0_off532 (v2237 : BitVec 32) : Fin 2 → Nat :=
  let c0_i32_1297 : BitVec 32 := 0#32
  ![v2237.toNat, 0]

def k0_chk165 (v2237 : BitVec 32) : Prop :=
  (∀ a, (k0_off480 v2237) a + S1x10000.size a ≤ S3000x10000.size a) ∧
  (∀ a, (k0_off532 v2237) a + S1x10000.size a ≤ S3000x10000.size a)
instance k0_chk165.dec : ∀ (v2237 : BitVec 32), Decidable (k0_chk165 v2237) := fun v2237 => decidable_of_iff' _ (Iff.of_eq (k0_chk165.eq_1 v2237))
theorem k0_off480_inb : ∀ (v2237 : BitVec 32) (k0_hw165 : k0_chk165 v2237), ∀ a, (k0_off480 v2237) a + S1x10000.size a ≤ S3000x10000.size a := fun v2237 k0_hw165 => k0_hw165.1
theorem k0_off532_inb : ∀ (v2237 : BitVec 32) (k0_hw165 : k0_chk165 v2237), ∀ a, (k0_off532 v2237) a + S1x10000.size a ≤ S3000x10000.size a := fun v2237 k0_hw165 => k0_hw165.2

def k0_off533 (v2243 : BitVec 32) : Fin 2 → Nat :=
  let c0_i32_1299 : BitVec 32 := 0#32
  ![v2243.toNat, 0]

def k0_chk166 (v2243 : BitVec 32) : Prop :=
  (∀ a, (k0_off482 v2243) a + S1x10000.size a ≤ S3000x10000.size a) ∧
  (∀ a, (k0_off533 v2243) a + S1x10000.size a ≤ S3000x10000.size a)
instance k0_chk166.dec : ∀ (v2243 : BitVec 32), Decidable (k0_chk166 v2243) := fun v2243 => decidable_of_iff' _ (Iff.of_eq (k0_chk166.eq_1 v2243))
theorem k0_off482_inb : ∀ (v2243 : BitVec 32) (k0_hw166 : k0_chk166 v2243), ∀ a, (k0_off482 v2243) a + S1x10000.size a ≤ S3000x10000.size a := fun v2243 k0_hw166 => k0_hw166.1
theorem k0_off533_inb : ∀ (v2243 : BitVec 32) (k0_hw166 : k0_chk166 v2243), ∀ a, (k0_off533 v2243) a + S1x10000.size a ≤ S3000x10000.size a := fun v2243 k0_hw166 => k0_hw166.2

def k0_off534 (v2249 : BitVec 32) : Fin 2 → Nat :=
  let c0_i32_1301 : BitVec 32 := 0#32
  ![v2249.toNat, 0]

def k0_chk167 (v2249 : BitVec 32) : Prop :=
  (∀ a, (k0_off484 v2249) a + S1x10000.size a ≤ S3000x10000.size a) ∧
  (∀ a, (k0_off534 v2249) a + S1x10000.size a ≤ S3000x10000.size a)
instance k0_chk167.dec : ∀ (v2249 : BitVec 32), Decidable (k0_chk167 v2249) := fun v2249 => decidable_of_iff' _ (Iff.of_eq (k0_chk167.eq_1 v2249))
theorem k0_off484_inb : ∀ (v2249 : BitVec 32) (k0_hw167 : k0_chk167 v2249), ∀ a, (k0_off484 v2249) a + S1x10000.size a ≤ S3000x10000.size a := fun v2249 k0_hw167 => k0_hw167.1
theorem k0_off534_inb : ∀ (v2249 : BitVec 32) (k0_hw167 : k0_chk167 v2249), ∀ a, (k0_off534 v2249) a + S1x10000.size a ≤ S3000x10000.size a := fun v2249 k0_hw167 => k0_hw167.2

def k0_off535 (v2255 : BitVec 32) : Fin 2 → Nat :=
  let c0_i32_1303 : BitVec 32 := 0#32
  ![v2255.toNat, 0]

def k0_chk168 (v2255 : BitVec 32) : Prop :=
  (∀ a, (k0_off486 v2255) a + S1x10000.size a ≤ S3000x10000.size a) ∧
  (∀ a, (k0_off535 v2255) a + S1x10000.size a ≤ S3000x10000.size a)
instance k0_chk168.dec : ∀ (v2255 : BitVec 32), Decidable (k0_chk168 v2255) := fun v2255 => decidable_of_iff' _ (Iff.of_eq (k0_chk168.eq_1 v2255))
theorem k0_off486_inb : ∀ (v2255 : BitVec 32) (k0_hw168 : k0_chk168 v2255), ∀ a, (k0_off486 v2255) a + S1x10000.size a ≤ S3000x10000.size a := fun v2255 k0_hw168 => k0_hw168.1
theorem k0_off535_inb : ∀ (v2255 : BitVec 32) (k0_hw168 : k0_chk168 v2255), ∀ a, (k0_off535 v2255) a + S1x10000.size a ≤ S3000x10000.size a := fun v2255 k0_hw168 => k0_hw168.2

def k0_off536 (v2261 : BitVec 32) : Fin 2 → Nat :=
  let c0_i32_1305 : BitVec 32 := 0#32
  ![v2261.toNat, 0]

def k0_chk169 (v2261 : BitVec 32) : Prop :=
  (∀ a, (k0_off488 v2261) a + S1x10000.size a ≤ S3000x10000.size a) ∧
  (∀ a, (k0_off536 v2261) a + S1x10000.size a ≤ S3000x10000.size a)
instance k0_chk169.dec : ∀ (v2261 : BitVec 32), Decidable (k0_chk169 v2261) := fun v2261 => decidable_of_iff' _ (Iff.of_eq (k0_chk169.eq_1 v2261))
theorem k0_off488_inb : ∀ (v2261 : BitVec 32) (k0_hw169 : k0_chk169 v2261), ∀ a, (k0_off488 v2261) a + S1x10000.size a ≤ S3000x10000.size a := fun v2261 k0_hw169 => k0_hw169.1
theorem k0_off536_inb : ∀ (v2261 : BitVec 32) (k0_hw169 : k0_chk169 v2261), ∀ a, (k0_off536 v2261) a + S1x10000.size a ≤ S3000x10000.size a := fun v2261 k0_hw169 => k0_hw169.2

def k0_off537 (v2267 : BitVec 32) : Fin 2 → Nat :=
  let c0_i32_1307 : BitVec 32 := 0#32
  ![v2267.toNat, 0]

def k0_chk170 (v2267 : BitVec 32) : Prop :=
  (∀ a, (k0_off490 v2267) a + S1x10000.size a ≤ S3000x10000.size a) ∧
  (∀ a, (k0_off537 v2267) a + S1x10000.size a ≤ S3000x10000.size a)
instance k0_chk170.dec : ∀ (v2267 : BitVec 32), Decidable (k0_chk170 v2267) := fun v2267 => decidable_of_iff' _ (Iff.of_eq (k0_chk170.eq_1 v2267))
theorem k0_off490_inb : ∀ (v2267 : BitVec 32) (k0_hw170 : k0_chk170 v2267), ∀ a, (k0_off490 v2267) a + S1x10000.size a ≤ S3000x10000.size a := fun v2267 k0_hw170 => k0_hw170.1
theorem k0_off537_inb : ∀ (v2267 : BitVec 32) (k0_hw170 : k0_chk170 v2267), ∀ a, (k0_off537 v2267) a + S1x10000.size a ≤ S3000x10000.size a := fun v2267 k0_hw170 => k0_hw170.2

def k0_off538 (v2273 : BitVec 32) : Fin 2 → Nat :=
  let c0_i32_1309 : BitVec 32 := 0#32
  ![v2273.toNat, 0]

def k0_chk171 (v2273 : BitVec 32) : Prop :=
  (∀ a, (k0_off492 v2273) a + S1x10000.size a ≤ S3000x10000.size a) ∧
  (∀ a, (k0_off538 v2273) a + S1x10000.size a ≤ S3000x10000.size a)
instance k0_chk171.dec : ∀ (v2273 : BitVec 32), Decidable (k0_chk171 v2273) := fun v2273 => decidable_of_iff' _ (Iff.of_eq (k0_chk171.eq_1 v2273))
theorem k0_off492_inb : ∀ (v2273 : BitVec 32) (k0_hw171 : k0_chk171 v2273), ∀ a, (k0_off492 v2273) a + S1x10000.size a ≤ S3000x10000.size a := fun v2273 k0_hw171 => k0_hw171.1
theorem k0_off538_inb : ∀ (v2273 : BitVec 32) (k0_hw171 : k0_chk171 v2273), ∀ a, (k0_off538 v2273) a + S1x10000.size a ≤ S3000x10000.size a := fun v2273 k0_hw171 => k0_hw171.2

def k0_off539 (v2279 : BitVec 32) : Fin 2 → Nat :=
  let c0_i32_1311 : BitVec 32 := 0#32
  ![v2279.toNat, 0]

def k0_chk172 (v2279 : BitVec 32) : Prop :=
  (∀ a, (k0_off494 v2279) a + S1x10000.size a ≤ S3000x10000.size a) ∧
  (∀ a, (k0_off539 v2279) a + S1x10000.size a ≤ S3000x10000.size a)
instance k0_chk172.dec : ∀ (v2279 : BitVec 32), Decidable (k0_chk172 v2279) := fun v2279 => decidable_of_iff' _ (Iff.of_eq (k0_chk172.eq_1 v2279))
theorem k0_off494_inb : ∀ (v2279 : BitVec 32) (k0_hw172 : k0_chk172 v2279), ∀ a, (k0_off494 v2279) a + S1x10000.size a ≤ S3000x10000.size a := fun v2279 k0_hw172 => k0_hw172.1
theorem k0_off539_inb : ∀ (v2279 : BitVec 32) (k0_hw172 : k0_chk172 v2279), ∀ a, (k0_off539 v2279) a + S1x10000.size a ≤ S3000x10000.size a := fun v2279 k0_hw172 => k0_hw172.2

def k0_off540 (v2285 : BitVec 32) : Fin 2 → Nat :=
  let c0_i32_1313 : BitVec 32 := 0#32
  ![v2285.toNat, 0]

def k0_chk173 (v2285 : BitVec 32) : Prop :=
  (∀ a, (k0_off496 v2285) a + S1x10000.size a ≤ S3000x10000.size a) ∧
  (∀ a, (k0_off540 v2285) a + S1x10000.size a ≤ S3000x10000.size a)
instance k0_chk173.dec : ∀ (v2285 : BitVec 32), Decidable (k0_chk173 v2285) := fun v2285 => decidable_of_iff' _ (Iff.of_eq (k0_chk173.eq_1 v2285))
theorem k0_off496_inb : ∀ (v2285 : BitVec 32) (k0_hw173 : k0_chk173 v2285), ∀ a, (k0_off496 v2285) a + S1x10000.size a ≤ S3000x10000.size a := fun v2285 k0_hw173 => k0_hw173.1
theorem k0_off540_inb : ∀ (v2285 : BitVec 32) (k0_hw173 : k0_chk173 v2285), ∀ a, (k0_off540 v2285) a + S1x10000.size a ≤ S3000x10000.size a := fun v2285 k0_hw173 => k0_hw173.2

def k0_off541 (v2291 : BitVec 32) : Fin 2 → Nat :=
  let c0_i32_1315 : BitVec 32 := 0#32
  ![v2291.toNat, 0]

def k0_chk174 (v2291 : BitVec 32) : Prop :=
  (∀ a, (k0_off498 v2291) a + S1x10000.size a ≤ S3000x10000.size a) ∧
  (∀ a, (k0_off541 v2291) a + S1x10000.size a ≤ S3000x10000.size a)
instance k0_chk174.dec : ∀ (v2291 : BitVec 32), Decidable (k0_chk174 v2291) := fun v2291 => decidable_of_iff' _ (Iff.of_eq (k0_chk174.eq_1 v2291))
theorem k0_off498_inb : ∀ (v2291 : BitVec 32) (k0_hw174 : k0_chk174 v2291), ∀ a, (k0_off498 v2291) a + S1x10000.size a ≤ S3000x10000.size a := fun v2291 k0_hw174 => k0_hw174.1
theorem k0_off541_inb : ∀ (v2291 : BitVec 32) (k0_hw174 : k0_chk174 v2291), ∀ a, (k0_off541 v2291) a + S1x10000.size a ≤ S3000x10000.size a := fun v2291 k0_hw174 => k0_hw174.2

def k0_off542 (v2297 : BitVec 32) : Fin 2 → Nat :=
  let c0_i32_1317 : BitVec 32 := 0#32
  ![v2297.toNat, 0]

def k0_chk175 (v2297 : BitVec 32) : Prop :=
  (∀ a, (k0_off500 v2297) a + S1x10000.size a ≤ S3000x10000.size a) ∧
  (∀ a, (k0_off542 v2297) a + S1x10000.size a ≤ S3000x10000.size a)
instance k0_chk175.dec : ∀ (v2297 : BitVec 32), Decidable (k0_chk175 v2297) := fun v2297 => decidable_of_iff' _ (Iff.of_eq (k0_chk175.eq_1 v2297))
theorem k0_off500_inb : ∀ (v2297 : BitVec 32) (k0_hw175 : k0_chk175 v2297), ∀ a, (k0_off500 v2297) a + S1x10000.size a ≤ S3000x10000.size a := fun v2297 k0_hw175 => k0_hw175.1
theorem k0_off542_inb : ∀ (v2297 : BitVec 32) (k0_hw175 : k0_chk175 v2297), ∀ a, (k0_off542 v2297) a + S1x10000.size a ≤ S3000x10000.size a := fun v2297 k0_hw175 => k0_hw175.2

def k0_off543 (v2303 : BitVec 32) : Fin 2 → Nat :=
  let c0_i32_1319 : BitVec 32 := 0#32
  ![v2303.toNat, 0]

def k0_chk176 (v2303 : BitVec 32) : Prop :=
  (∀ a, (k0_off502 v2303) a + S1x10000.size a ≤ S3000x10000.size a) ∧
  (∀ a, (k0_off543 v2303) a + S1x10000.size a ≤ S3000x10000.size a)
instance k0_chk176.dec : ∀ (v2303 : BitVec 32), Decidable (k0_chk176 v2303) := fun v2303 => decidable_of_iff' _ (Iff.of_eq (k0_chk176.eq_1 v2303))
theorem k0_off502_inb : ∀ (v2303 : BitVec 32) (k0_hw176 : k0_chk176 v2303), ∀ a, (k0_off502 v2303) a + S1x10000.size a ≤ S3000x10000.size a := fun v2303 k0_hw176 => k0_hw176.1
theorem k0_off543_inb : ∀ (v2303 : BitVec 32) (k0_hw176 : k0_chk176 v2303), ∀ a, (k0_off543 v2303) a + S1x10000.size a ≤ S3000x10000.size a := fun v2303 k0_hw176 => k0_hw176.2

def k0_off544 (v2309 : BitVec 32) : Fin 2 → Nat :=
  let c0_i32_1321 : BitVec 32 := 0#32
  ![v2309.toNat, 0]

def k0_chk177 (v2309 : BitVec 32) : Prop :=
  (∀ a, (k0_off504 v2309) a + S1x10000.size a ≤ S3000x10000.size a) ∧
  (∀ a, (k0_off544 v2309) a + S1x10000.size a ≤ S3000x10000.size a)
instance k0_chk177.dec : ∀ (v2309 : BitVec 32), Decidable (k0_chk177 v2309) := fun v2309 => decidable_of_iff' _ (Iff.of_eq (k0_chk177.eq_1 v2309))
theorem k0_off504_inb : ∀ (v2309 : BitVec 32) (k0_hw177 : k0_chk177 v2309), ∀ a, (k0_off504 v2309) a + S1x10000.size a ≤ S3000x10000.size a := fun v2309 k0_hw177 => k0_hw177.1
theorem k0_off544_inb : ∀ (v2309 : BitVec 32) (k0_hw177 : k0_chk177 v2309), ∀ a, (k0_off544 v2309) a + S1x10000.size a ≤ S3000x10000.size a := fun v2309 k0_hw177 => k0_hw177.2

def k0_off545 (v2315 : BitVec 32) : Fin 2 → Nat :=
  let c0_i32_1323 : BitVec 32 := 0#32
  ![v2315.toNat, 0]

def k0_chk178 (v2315 : BitVec 32) : Prop :=
  (∀ a, (k0_off506 v2315) a + S1x10000.size a ≤ S3000x10000.size a) ∧
  (∀ a, (k0_off545 v2315) a + S1x10000.size a ≤ S3000x10000.size a)
instance k0_chk178.dec : ∀ (v2315 : BitVec 32), Decidable (k0_chk178 v2315) := fun v2315 => decidable_of_iff' _ (Iff.of_eq (k0_chk178.eq_1 v2315))
theorem k0_off506_inb : ∀ (v2315 : BitVec 32) (k0_hw178 : k0_chk178 v2315), ∀ a, (k0_off506 v2315) a + S1x10000.size a ≤ S3000x10000.size a := fun v2315 k0_hw178 => k0_hw178.1
theorem k0_off545_inb : ∀ (v2315 : BitVec 32) (k0_hw178 : k0_chk178 v2315), ∀ a, (k0_off545 v2315) a + S1x10000.size a ≤ S3000x10000.size a := fun v2315 k0_hw178 => k0_hw178.2

def k0_off546 (v2321 : BitVec 32) : Fin 2 → Nat :=
  let c0_i32_1325 : BitVec 32 := 0#32
  ![v2321.toNat, 0]

def k0_chk179 (v2321 : BitVec 32) : Prop :=
  (∀ a, (k0_off508 v2321) a + S1x10000.size a ≤ S3000x10000.size a) ∧
  (∀ a, (k0_off546 v2321) a + S1x10000.size a ≤ S3000x10000.size a)
instance k0_chk179.dec : ∀ (v2321 : BitVec 32), Decidable (k0_chk179 v2321) := fun v2321 => decidable_of_iff' _ (Iff.of_eq (k0_chk179.eq_1 v2321))
theorem k0_off508_inb : ∀ (v2321 : BitVec 32) (k0_hw179 : k0_chk179 v2321), ∀ a, (k0_off508 v2321) a + S1x10000.size a ≤ S3000x10000.size a := fun v2321 k0_hw179 => k0_hw179.1
theorem k0_off546_inb : ∀ (v2321 : BitVec 32) (k0_hw179 : k0_chk179 v2321), ∀ a, (k0_off546 v2321) a + S1x10000.size a ≤ S3000x10000.size a := fun v2321 k0_hw179 => k0_hw179.2

def k0_off547 (v2327 : BitVec 32) : Fin 2 → Nat :=
  let c0_i32_1327 : BitVec 32 := 0#32
  ![v2327.toNat, 0]

def k0_chk180 (v2327 : BitVec 32) : Prop :=
  (∀ a, (k0_off510 v2327) a + S1x10000.size a ≤ S3000x10000.size a) ∧
  (∀ a, (k0_off547 v2327) a + S1x10000.size a ≤ S3000x10000.size a)
instance k0_chk180.dec : ∀ (v2327 : BitVec 32), Decidable (k0_chk180 v2327) := fun v2327 => decidable_of_iff' _ (Iff.of_eq (k0_chk180.eq_1 v2327))
theorem k0_off510_inb : ∀ (v2327 : BitVec 32) (k0_hw180 : k0_chk180 v2327), ∀ a, (k0_off510 v2327) a + S1x10000.size a ≤ S3000x10000.size a := fun v2327 k0_hw180 => k0_hw180.1
theorem k0_off547_inb : ∀ (v2327 : BitVec 32) (k0_hw180 : k0_chk180 v2327), ∀ a, (k0_off547 v2327) a + S1x10000.size a ≤ S3000x10000.size a := fun v2327 k0_hw180 => k0_hw180.2

def k0_off548 (v2333 : BitVec 32) : Fin 2 → Nat :=
  let c0_i32_1329 : BitVec 32 := 0#32
  ![v2333.toNat, 0]

def k0_chk181 (v2333 : BitVec 32) : Prop :=
  (∀ a, (k0_off512 v2333) a + S1x10000.size a ≤ S3000x10000.size a) ∧
  (∀ a, (k0_off548 v2333) a + S1x10000.size a ≤ S3000x10000.size a)
instance k0_chk181.dec : ∀ (v2333 : BitVec 32), Decidable (k0_chk181 v2333) := fun v2333 => decidable_of_iff' _ (Iff.of_eq (k0_chk181.eq_1 v2333))
theorem k0_off512_inb : ∀ (v2333 : BitVec 32) (k0_hw181 : k0_chk181 v2333), ∀ a, (k0_off512 v2333) a + S1x10000.size a ≤ S3000x10000.size a := fun v2333 k0_hw181 => k0_hw181.1
theorem k0_off548_inb : ∀ (v2333 : BitVec 32) (k0_hw181 : k0_chk181 v2333), ∀ a, (k0_off548 v2333) a + S1x10000.size a ≤ S3000x10000.size a := fun v2333 k0_hw181 => k0_hw181.2

def k0_off549 (v2339 : BitVec 32) : Fin 2 → Nat :=
  let c0_i32_1331 : BitVec 32 := 0#32
  ![v2339.toNat, 0]

def k0_chk182 (v2339 : BitVec 32) : Prop :=
  (∀ a, (k0_off514 v2339) a + S1x10000.size a ≤ S3000x10000.size a) ∧
  (∀ a, (k0_off549 v2339) a + S1x10000.size a ≤ S3000x10000.size a)
instance k0_chk182.dec : ∀ (v2339 : BitVec 32), Decidable (k0_chk182 v2339) := fun v2339 => decidable_of_iff' _ (Iff.of_eq (k0_chk182.eq_1 v2339))
theorem k0_off514_inb : ∀ (v2339 : BitVec 32) (k0_hw182 : k0_chk182 v2339), ∀ a, (k0_off514 v2339) a + S1x10000.size a ≤ S3000x10000.size a := fun v2339 k0_hw182 => k0_hw182.1
theorem k0_off549_inb : ∀ (v2339 : BitVec 32) (k0_hw182 : k0_chk182 v2339), ∀ a, (k0_off549 v2339) a + S1x10000.size a ≤ S3000x10000.size a := fun v2339 k0_hw182 => k0_hw182.2

def k0_off550 (v2345 : BitVec 32) : Fin 2 → Nat :=
  let c0_i32_1333 : BitVec 32 := 0#32
  ![v2345.toNat, 0]

def k0_chk183 (v2345 : BitVec 32) : Prop :=
  (∀ a, (k0_off516 v2345) a + S1x10000.size a ≤ S3000x10000.size a) ∧
  (∀ a, (k0_off550 v2345) a + S1x10000.size a ≤ S3000x10000.size a)
instance k0_chk183.dec : ∀ (v2345 : BitVec 32), Decidable (k0_chk183 v2345) := fun v2345 => decidable_of_iff' _ (Iff.of_eq (k0_chk183.eq_1 v2345))
theorem k0_off516_inb : ∀ (v2345 : BitVec 32) (k0_hw183 : k0_chk183 v2345), ∀ a, (k0_off516 v2345) a + S1x10000.size a ≤ S3000x10000.size a := fun v2345 k0_hw183 => k0_hw183.1
theorem k0_off550_inb : ∀ (v2345 : BitVec 32) (k0_hw183 : k0_chk183 v2345), ∀ a, (k0_off550 v2345) a + S1x10000.size a ≤ S3000x10000.size a := fun v2345 k0_hw183 => k0_hw183.2

def k0_off551 (v2351 : BitVec 32) : Fin 2 → Nat :=
  let c0_i32_1335 : BitVec 32 := 0#32
  ![v2351.toNat, 0]

def k0_chk184 (v2351 : BitVec 32) : Prop :=
  (∀ a, (k0_off518 v2351) a + S1x10000.size a ≤ S3000x10000.size a) ∧
  (∀ a, (k0_off551 v2351) a + S1x10000.size a ≤ S3000x10000.size a)
instance k0_chk184.dec : ∀ (v2351 : BitVec 32), Decidable (k0_chk184 v2351) := fun v2351 => decidable_of_iff' _ (Iff.of_eq (k0_chk184.eq_1 v2351))
theorem k0_off518_inb : ∀ (v2351 : BitVec 32) (k0_hw184 : k0_chk184 v2351), ∀ a, (k0_off518 v2351) a + S1x10000.size a ≤ S3000x10000.size a := fun v2351 k0_hw184 => k0_hw184.1
theorem k0_off551_inb : ∀ (v2351 : BitVec 32) (k0_hw184 : k0_chk184 v2351), ∀ a, (k0_off551 v2351) a + S1x10000.size a ≤ S3000x10000.size a := fun v2351 k0_hw184 => k0_hw184.2

def k0_off552 (v2357 : BitVec 32) : Fin 2 → Nat :=
  let c0_i32_1337 : BitVec 32 := 0#32
  ![v2357.toNat, 0]

def k0_chk185 (v2357 : BitVec 32) : Prop :=
  (∀ a, (k0_off520 v2357) a + S1x10000.size a ≤ S3000x10000.size a) ∧
  (∀ a, (k0_off552 v2357) a + S1x10000.size a ≤ S3000x10000.size a)
instance k0_chk185.dec : ∀ (v2357 : BitVec 32), Decidable (k0_chk185 v2357) := fun v2357 => decidable_of_iff' _ (Iff.of_eq (k0_chk185.eq_1 v2357))
theorem k0_off520_inb : ∀ (v2357 : BitVec 32) (k0_hw185 : k0_chk185 v2357), ∀ a, (k0_off520 v2357) a + S1x10000.size a ≤ S3000x10000.size a := fun v2357 k0_hw185 => k0_hw185.1
theorem k0_off552_inb : ∀ (v2357 : BitVec 32) (k0_hw185 : k0_chk185 v2357), ∀ a, (k0_off552 v2357) a + S1x10000.size a ≤ S3000x10000.size a := fun v2357 k0_hw185 => k0_hw185.2

def k0_off553 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2618 : Index := Scalar.indexCast v2617
  let c0_1435 : Index := 0#32
  ![v2618.toNat, 0]
def k0_off554 (v2619 : BitVec 32) : Fin 2 → Nat :=
  let c0_i32_1437 : BitVec 32 := 0#32
  ![v2619.toNat, 0]

def k0_off555 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2624 : Index := Scalar.indexCast v2617
  let c1_1438 : Index := 1#32
  ![v2624.toNat, 1]
def k0_off556 (v2625 : BitVec 32) : Fin 2 → Nat :=
  let c0_i32_1440 : BitVec 32 := 0#32
  ![v2625.toNat, 0]

def k0_off557 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2630 : Index := Scalar.indexCast v2617
  let c2_1441 : Index := 2#32
  ![v2630.toNat, 2]
def k0_off558 (v2631 : BitVec 32) : Fin 2 → Nat :=
  let c0_i32_1443 : BitVec 32 := 0#32
  ![v2631.toNat, 0]

def k0_off559 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2636 : Index := Scalar.indexCast v2617
  let c3_1444 : Index := 3#32
  ![v2636.toNat, 3]
def k0_off560 (v2637 : BitVec 32) : Fin 2 → Nat :=
  let c0_i32_1446 : BitVec 32 := 0#32
  ![v2637.toNat, 0]

def k0_off561 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2642 : Index := Scalar.indexCast v2617
  let c4_1447 : Index := 4#32
  ![v2642.toNat, 4]
def k0_off562 (v2643 : BitVec 32) : Fin 2 → Nat :=
  let c0_i32_1449 : BitVec 32 := 0#32
  ![v2643.toNat, 0]

def k0_off563 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2648 : Index := Scalar.indexCast v2617
  let c5_1450 : Index := 5#32
  ![v2648.toNat, 5]
def k0_off564 (v2649 : BitVec 32) : Fin 2 → Nat :=
  let c0_i32_1452 : BitVec 32 := 0#32
  ![v2649.toNat, 0]

def k0_off565 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2654 : Index := Scalar.indexCast v2617
  let c6_1453 : Index := 6#32
  ![v2654.toNat, 6]
def k0_off566 (v2655 : BitVec 32) : Fin 2 → Nat :=
  let c0_i32_1455 : BitVec 32 := 0#32
  ![v2655.toNat, 0]

def k0_off567 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2660 : Index := Scalar.indexCast v2617
  let c7_1456 : Index := 7#32
  ![v2660.toNat, 7]
def k0_off568 (v2661 : BitVec 32) : Fin 2 → Nat :=
  let c0_i32_1458 : BitVec 32 := 0#32
  ![v2661.toNat, 0]

def k0_off569 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2666 : Index := Scalar.indexCast v2617
  let c8_1459 : Index := 8#32
  ![v2666.toNat, 8]
def k0_off570 (v2667 : BitVec 32) : Fin 2 → Nat :=
  let c0_i32_1461 : BitVec 32 := 0#32
  ![v2667.toNat, 0]

def k0_off571 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2672 : Index := Scalar.indexCast v2617
  let c9_1462 : Index := 9#32
  ![v2672.toNat, 9]
def k0_off572 (v2673 : BitVec 32) : Fin 2 → Nat :=
  let c0_i32_1464 : BitVec 32 := 0#32
  ![v2673.toNat, 0]

def k0_off573 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2678 : Index := Scalar.indexCast v2617
  let c10_1465 : Index := 10#32
  ![v2678.toNat, 10]
def k0_off574 (v2679 : BitVec 32) : Fin 2 → Nat :=
  let c0_i32_1467 : BitVec 32 := 0#32
  ![v2679.toNat, 0]

def k0_off575 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2684 : Index := Scalar.indexCast v2617
  let c11_1468 : Index := 11#32
  ![v2684.toNat, 11]
def k0_off576 (v2685 : BitVec 32) : Fin 2 → Nat :=
  let c0_i32_1470 : BitVec 32 := 0#32
  ![v2685.toNat, 0]

def k0_off577 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2690 : Index := Scalar.indexCast v2617
  let c12_1471 : Index := 12#32
  ![v2690.toNat, 12]
def k0_off578 (v2691 : BitVec 32) : Fin 2 → Nat :=
  let c0_i32_1473 : BitVec 32 := 0#32
  ![v2691.toNat, 0]

def k0_off579 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2696 : Index := Scalar.indexCast v2617
  let c13_1474 : Index := 13#32
  ![v2696.toNat, 13]
def k0_off580 (v2697 : BitVec 32) : Fin 2 → Nat :=
  let c0_i32_1476 : BitVec 32 := 0#32
  ![v2697.toNat, 0]

def k0_off581 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2702 : Index := Scalar.indexCast v2617
  let c14_1477 : Index := 14#32
  ![v2702.toNat, 14]
def k0_off582 (v2703 : BitVec 32) : Fin 2 → Nat :=
  let c0_i32_1479 : BitVec 32 := 0#32
  ![v2703.toNat, 0]

def k0_off583 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2708 : Index := Scalar.indexCast v2617
  let c15_1480 : Index := 15#32
  ![v2708.toNat, 15]
def k0_off584 (v2709 : BitVec 32) : Fin 2 → Nat :=
  let c0_i32_1482 : BitVec 32 := 0#32
  ![v2709.toNat, 0]

def k0_off585 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2714 : Index := Scalar.indexCast v2617
  let c16_1483 : Index := 16#32
  ![v2714.toNat, 16]
def k0_off586 (v2715 : BitVec 32) : Fin 2 → Nat :=
  let c0_i32_1485 : BitVec 32 := 0#32
  ![v2715.toNat, 0]

def k0_off587 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2720 : Index := Scalar.indexCast v2617
  let c17_1486 : Index := 17#32
  ![v2720.toNat, 17]
def k0_off588 (v2721 : BitVec 32) : Fin 2 → Nat :=
  let c0_i32_1488 : BitVec 32 := 0#32
  ![v2721.toNat, 0]

def k0_off589 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2726 : Index := Scalar.indexCast v2617
  let c18_1489 : Index := 18#32
  ![v2726.toNat, 18]
def k0_off590 (v2727 : BitVec 32) : Fin 2 → Nat :=
  let c0_i32_1491 : BitVec 32 := 0#32
  ![v2727.toNat, 0]

def k0_off591 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2732 : Index := Scalar.indexCast v2617
  let c19_1492 : Index := 19#32
  ![v2732.toNat, 19]
def k0_off592 (v2733 : BitVec 32) : Fin 2 → Nat :=
  let c0_i32_1494 : BitVec 32 := 0#32
  ![v2733.toNat, 0]

def k0_off593 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2738 : Index := Scalar.indexCast v2617
  let c20_1495 : Index := 20#32
  ![v2738.toNat, 20]
def k0_off594 (v2739 : BitVec 32) : Fin 2 → Nat :=
  let c0_i32_1497 : BitVec 32 := 0#32
  ![v2739.toNat, 0]

def k0_off595 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2744 : Index := Scalar.indexCast v2617
  let c21_1498 : Index := 21#32
  ![v2744.toNat, 21]
def k0_off596 (v2745 : BitVec 32) : Fin 2 → Nat :=
  let c0_i32_1500 : BitVec 32 := 0#32
  ![v2745.toNat, 0]

def k0_off597 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2750 : Index := Scalar.indexCast v2617
  let c22_1501 : Index := 22#32
  ![v2750.toNat, 22]
def k0_off598 (v2751 : BitVec 32) : Fin 2 → Nat :=
  let c0_i32_1503 : BitVec 32 := 0#32
  ![v2751.toNat, 0]

def k0_off599 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2756 : Index := Scalar.indexCast v2617
  let c23_1504 : Index := 23#32
  ![v2756.toNat, 23]
def k0_off600 (v2757 : BitVec 32) : Fin 2 → Nat :=
  let c0_i32_1506 : BitVec 32 := 0#32
  ![v2757.toNat, 0]

def k0_off601 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2762 : Index := Scalar.indexCast v2617
  let c24_1507 : Index := 24#32
  ![v2762.toNat, 24]
def k0_off602 (v2763 : BitVec 32) : Fin 2 → Nat :=
  let c0_i32_1509 : BitVec 32 := 0#32
  ![v2763.toNat, 0]

def k0_off603 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2768 : Index := Scalar.indexCast v2617
  let c25_1510 : Index := 25#32
  ![v2768.toNat, 25]
def k0_off604 (v2769 : BitVec 32) : Fin 2 → Nat :=
  let c0_i32_1512 : BitVec 32 := 0#32
  ![v2769.toNat, 0]

def k0_off605 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2774 : Index := Scalar.indexCast v2617
  let c26_1513 : Index := 26#32
  ![v2774.toNat, 26]
def k0_off606 (v2775 : BitVec 32) : Fin 2 → Nat :=
  let c0_i32_1515 : BitVec 32 := 0#32
  ![v2775.toNat, 0]

def k0_off607 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2780 : Index := Scalar.indexCast v2617
  let c27_1516 : Index := 27#32
  ![v2780.toNat, 27]
def k0_off608 (v2781 : BitVec 32) : Fin 2 → Nat :=
  let c0_i32_1518 : BitVec 32 := 0#32
  ![v2781.toNat, 0]

def k0_off609 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2786 : Index := Scalar.indexCast v2617
  let c28_1519 : Index := 28#32
  ![v2786.toNat, 28]
def k0_off610 (v2787 : BitVec 32) : Fin 2 → Nat :=
  let c0_i32_1521 : BitVec 32 := 0#32
  ![v2787.toNat, 0]

def k0_off611 (i : grid0.Coords) : Fin 2 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2792 : Index := Scalar.indexCast v2617
  let c29_1522 : Index := 29#32
  ![v2792.toNat, 29]
def k0_off612 (v2793 : BitVec 32) : Fin 2 → Nat :=
  let c0_i32_1524 : BitVec 32 := 0#32
  ![v2793.toNat, 0]

def k0_off613 (i : grid0.Coords) : Fin 1 → Nat :=
  let arg0 : BitVec 32 := BitVec.ofNat 32 (i 0).val
  let c8_i32_1433 : BitVec 32 := 8#32
  let v2616 : BitVec 32 := Scalar.muli arg0 c8_i32_1433
  let c6_i32_1434 : BitVec 32 := 6#32
  let v2617 : BitVec 32 := Scalar.addi v2616 c6_i32_1434
  let v2798 : Index := Scalar.indexCast v2617
  ![v2798.toNat]
def k0_off614 (v2799 : BitVec 32) : Fin 2 → Nat :=
  let c0_i32_1526 : BitVec 32 := 0#32
  ![v2799.toNat, 0]

def k0_chk217 (v2799 : BitVec 32) : Prop :=
  (∀ a, (k0_off614 v2799) a + S1x10000.size a ≤ S200x10000.size a)
instance k0_chk217.dec : ∀ (v2799 : BitVec 32), Decidable (k0_chk217 v2799) := fun v2799 => decidable_of_iff' _ (Iff.of_eq (k0_chk217.eq_1 v2799))
theorem k0_off614_inb : ∀ (v2799 : BitVec 32) (k0_hw217 : k0_chk217 v2799), ∀ a, (k0_off614 v2799) a + S1x10000.size a ≤ S200x10000.size a := fun v2799 k0_hw217 => k0_hw217

def k0_off615 (v2619 : BitVec 32) : Fin 2 → Nat :=
  let c0_i32_1528 : BitVec 32 := 0#32
  ![v2619.toNat, 0]

def k0_chk187 (v2619 : BitVec 32) : Prop :=
  (∀ a, (k0_off554 v2619) a + S1x10000.size a ≤ S3000x10000.size a) ∧
  (∀ a, (k0_off615 v2619) a + S1x10000.size a ≤ S3000x10000.size a)
instance k0_chk187.dec : ∀ (v2619 : BitVec 32), Decidable (k0_chk187 v2619) := fun v2619 => decidable_of_iff' _ (Iff.of_eq (k0_chk187.eq_1 v2619))
theorem k0_off554_inb : ∀ (v2619 : BitVec 32) (k0_hw187 : k0_chk187 v2619), ∀ a, (k0_off554 v2619) a + S1x10000.size a ≤ S3000x10000.size a := fun v2619 k0_hw187 => k0_hw187.1
theorem k0_off615_inb : ∀ (v2619 : BitVec 32) (k0_hw187 : k0_chk187 v2619), ∀ a, (k0_off615 v2619) a + S1x10000.size a ≤ S3000x10000.size a := fun v2619 k0_hw187 => k0_hw187.2

def k0_off616 (v2625 : BitVec 32) : Fin 2 → Nat :=
  let c0_i32_1530 : BitVec 32 := 0#32
  ![v2625.toNat, 0]

def k0_chk188 (v2625 : BitVec 32) : Prop :=
  (∀ a, (k0_off556 v2625) a + S1x10000.size a ≤ S3000x10000.size a) ∧
  (∀ a, (k0_off616 v2625) a + S1x10000.size a ≤ S3000x10000.size a)
instance k0_chk188.dec : ∀ (v2625 : BitVec 32), Decidable (k0_chk188 v2625) := fun v2625 => decidable_of_iff' _ (Iff.of_eq (k0_chk188.eq_1 v2625))
theorem k0_off556_inb : ∀ (v2625 : BitVec 32) (k0_hw188 : k0_chk188 v2625), ∀ a, (k0_off556 v2625) a + S1x10000.size a ≤ S3000x10000.size a := fun v2625 k0_hw188 => k0_hw188.1
theorem k0_off616_inb : ∀ (v2625 : BitVec 32) (k0_hw188 : k0_chk188 v2625), ∀ a, (k0_off616 v2625) a + S1x10000.size a ≤ S3000x10000.size a := fun v2625 k0_hw188 => k0_hw188.2

def k0_off617 (v2631 : BitVec 32) : Fin 2 → Nat :=
  let c0_i32_1532 : BitVec 32 := 0#32
  ![v2631.toNat, 0]

def k0_chk189 (v2631 : BitVec 32) : Prop :=
  (∀ a, (k0_off558 v2631) a + S1x10000.size a ≤ S3000x10000.size a) ∧
  (∀ a, (k0_off617 v2631) a + S1x10000.size a ≤ S3000x10000.size a)
instance k0_chk189.dec : ∀ (v2631 : BitVec 32), Decidable (k0_chk189 v2631) := fun v2631 => decidable_of_iff' _ (Iff.of_eq (k0_chk189.eq_1 v2631))
theorem k0_off558_inb : ∀ (v2631 : BitVec 32) (k0_hw189 : k0_chk189 v2631), ∀ a, (k0_off558 v2631) a + S1x10000.size a ≤ S3000x10000.size a := fun v2631 k0_hw189 => k0_hw189.1
theorem k0_off617_inb : ∀ (v2631 : BitVec 32) (k0_hw189 : k0_chk189 v2631), ∀ a, (k0_off617 v2631) a + S1x10000.size a ≤ S3000x10000.size a := fun v2631 k0_hw189 => k0_hw189.2

def k0_off618 (v2637 : BitVec 32) : Fin 2 → Nat :=
  let c0_i32_1534 : BitVec 32 := 0#32
  ![v2637.toNat, 0]

def k0_chk190 (v2637 : BitVec 32) : Prop :=
  (∀ a, (k0_off560 v2637) a + S1x10000.size a ≤ S3000x10000.size a) ∧
  (∀ a, (k0_off618 v2637) a + S1x10000.size a ≤ S3000x10000.size a)
instance k0_chk190.dec : ∀ (v2637 : BitVec 32), Decidable (k0_chk190 v2637) := fun v2637 => decidable_of_iff' _ (Iff.of_eq (k0_chk190.eq_1 v2637))
theorem k0_off560_inb : ∀ (v2637 : BitVec 32) (k0_hw190 : k0_chk190 v2637), ∀ a, (k0_off560 v2637) a + S1x10000.size a ≤ S3000x10000.size a := fun v2637 k0_hw190 => k0_hw190.1
theorem k0_off618_inb : ∀ (v2637 : BitVec 32) (k0_hw190 : k0_chk190 v2637), ∀ a, (k0_off618 v2637) a + S1x10000.size a ≤ S3000x10000.size a := fun v2637 k0_hw190 => k0_hw190.2

def k0_off619 (v2643 : BitVec 32) : Fin 2 → Nat :=
  let c0_i32_1536 : BitVec 32 := 0#32
  ![v2643.toNat, 0]

def k0_chk191 (v2643 : BitVec 32) : Prop :=
  (∀ a, (k0_off562 v2643) a + S1x10000.size a ≤ S3000x10000.size a) ∧
  (∀ a, (k0_off619 v2643) a + S1x10000.size a ≤ S3000x10000.size a)
instance k0_chk191.dec : ∀ (v2643 : BitVec 32), Decidable (k0_chk191 v2643) := fun v2643 => decidable_of_iff' _ (Iff.of_eq (k0_chk191.eq_1 v2643))
theorem k0_off562_inb : ∀ (v2643 : BitVec 32) (k0_hw191 : k0_chk191 v2643), ∀ a, (k0_off562 v2643) a + S1x10000.size a ≤ S3000x10000.size a := fun v2643 k0_hw191 => k0_hw191.1
theorem k0_off619_inb : ∀ (v2643 : BitVec 32) (k0_hw191 : k0_chk191 v2643), ∀ a, (k0_off619 v2643) a + S1x10000.size a ≤ S3000x10000.size a := fun v2643 k0_hw191 => k0_hw191.2

def k0_off620 (v2649 : BitVec 32) : Fin 2 → Nat :=
  let c0_i32_1538 : BitVec 32 := 0#32
  ![v2649.toNat, 0]

def k0_chk192 (v2649 : BitVec 32) : Prop :=
  (∀ a, (k0_off564 v2649) a + S1x10000.size a ≤ S3000x10000.size a) ∧
  (∀ a, (k0_off620 v2649) a + S1x10000.size a ≤ S3000x10000.size a)
instance k0_chk192.dec : ∀ (v2649 : BitVec 32), Decidable (k0_chk192 v2649) := fun v2649 => decidable_of_iff' _ (Iff.of_eq (k0_chk192.eq_1 v2649))
theorem k0_off564_inb : ∀ (v2649 : BitVec 32) (k0_hw192 : k0_chk192 v2649), ∀ a, (k0_off564 v2649) a + S1x10000.size a ≤ S3000x10000.size a := fun v2649 k0_hw192 => k0_hw192.1
theorem k0_off620_inb : ∀ (v2649 : BitVec 32) (k0_hw192 : k0_chk192 v2649), ∀ a, (k0_off620 v2649) a + S1x10000.size a ≤ S3000x10000.size a := fun v2649 k0_hw192 => k0_hw192.2

def k0_off621 (v2655 : BitVec 32) : Fin 2 → Nat :=
  let c0_i32_1540 : BitVec 32 := 0#32
  ![v2655.toNat, 0]

def k0_chk193 (v2655 : BitVec 32) : Prop :=
  (∀ a, (k0_off566 v2655) a + S1x10000.size a ≤ S3000x10000.size a) ∧
  (∀ a, (k0_off621 v2655) a + S1x10000.size a ≤ S3000x10000.size a)
instance k0_chk193.dec : ∀ (v2655 : BitVec 32), Decidable (k0_chk193 v2655) := fun v2655 => decidable_of_iff' _ (Iff.of_eq (k0_chk193.eq_1 v2655))
theorem k0_off566_inb : ∀ (v2655 : BitVec 32) (k0_hw193 : k0_chk193 v2655), ∀ a, (k0_off566 v2655) a + S1x10000.size a ≤ S3000x10000.size a := fun v2655 k0_hw193 => k0_hw193.1
theorem k0_off621_inb : ∀ (v2655 : BitVec 32) (k0_hw193 : k0_chk193 v2655), ∀ a, (k0_off621 v2655) a + S1x10000.size a ≤ S3000x10000.size a := fun v2655 k0_hw193 => k0_hw193.2

def k0_off622 (v2661 : BitVec 32) : Fin 2 → Nat :=
  let c0_i32_1542 : BitVec 32 := 0#32
  ![v2661.toNat, 0]

def k0_chk194 (v2661 : BitVec 32) : Prop :=
  (∀ a, (k0_off568 v2661) a + S1x10000.size a ≤ S3000x10000.size a) ∧
  (∀ a, (k0_off622 v2661) a + S1x10000.size a ≤ S3000x10000.size a)
instance k0_chk194.dec : ∀ (v2661 : BitVec 32), Decidable (k0_chk194 v2661) := fun v2661 => decidable_of_iff' _ (Iff.of_eq (k0_chk194.eq_1 v2661))
theorem k0_off568_inb : ∀ (v2661 : BitVec 32) (k0_hw194 : k0_chk194 v2661), ∀ a, (k0_off568 v2661) a + S1x10000.size a ≤ S3000x10000.size a := fun v2661 k0_hw194 => k0_hw194.1
theorem k0_off622_inb : ∀ (v2661 : BitVec 32) (k0_hw194 : k0_chk194 v2661), ∀ a, (k0_off622 v2661) a + S1x10000.size a ≤ S3000x10000.size a := fun v2661 k0_hw194 => k0_hw194.2

def k0_off623 (v2667 : BitVec 32) : Fin 2 → Nat :=
  let c0_i32_1544 : BitVec 32 := 0#32
  ![v2667.toNat, 0]

def k0_chk195 (v2667 : BitVec 32) : Prop :=
  (∀ a, (k0_off570 v2667) a + S1x10000.size a ≤ S3000x10000.size a) ∧
  (∀ a, (k0_off623 v2667) a + S1x10000.size a ≤ S3000x10000.size a)
instance k0_chk195.dec : ∀ (v2667 : BitVec 32), Decidable (k0_chk195 v2667) := fun v2667 => decidable_of_iff' _ (Iff.of_eq (k0_chk195.eq_1 v2667))
theorem k0_off570_inb : ∀ (v2667 : BitVec 32) (k0_hw195 : k0_chk195 v2667), ∀ a, (k0_off570 v2667) a + S1x10000.size a ≤ S3000x10000.size a := fun v2667 k0_hw195 => k0_hw195.1
theorem k0_off623_inb : ∀ (v2667 : BitVec 32) (k0_hw195 : k0_chk195 v2667), ∀ a, (k0_off623 v2667) a + S1x10000.size a ≤ S3000x10000.size a := fun v2667 k0_hw195 => k0_hw195.2

def k0_off624 (v2673 : BitVec 32) : Fin 2 → Nat :=
  let c0_i32_1546 : BitVec 32 := 0#32
  ![v2673.toNat, 0]

def k0_chk196 (v2673 : BitVec 32) : Prop :=
  (∀ a, (k0_off572 v2673) a + S1x10000.size a ≤ S3000x10000.size a) ∧
  (∀ a, (k0_off624 v2673) a + S1x10000.size a ≤ S3000x10000.size a)
instance k0_chk196.dec : ∀ (v2673 : BitVec 32), Decidable (k0_chk196 v2673) := fun v2673 => decidable_of_iff' _ (Iff.of_eq (k0_chk196.eq_1 v2673))
theorem k0_off572_inb : ∀ (v2673 : BitVec 32) (k0_hw196 : k0_chk196 v2673), ∀ a, (k0_off572 v2673) a + S1x10000.size a ≤ S3000x10000.size a := fun v2673 k0_hw196 => k0_hw196.1
theorem k0_off624_inb : ∀ (v2673 : BitVec 32) (k0_hw196 : k0_chk196 v2673), ∀ a, (k0_off624 v2673) a + S1x10000.size a ≤ S3000x10000.size a := fun v2673 k0_hw196 => k0_hw196.2

def k0_off625 (v2679 : BitVec 32) : Fin 2 → Nat :=
  let c0_i32_1548 : BitVec 32 := 0#32
  ![v2679.toNat, 0]

def k0_chk197 (v2679 : BitVec 32) : Prop :=
  (∀ a, (k0_off574 v2679) a + S1x10000.size a ≤ S3000x10000.size a) ∧
  (∀ a, (k0_off625 v2679) a + S1x10000.size a ≤ S3000x10000.size a)
instance k0_chk197.dec : ∀ (v2679 : BitVec 32), Decidable (k0_chk197 v2679) := fun v2679 => decidable_of_iff' _ (Iff.of_eq (k0_chk197.eq_1 v2679))
theorem k0_off574_inb : ∀ (v2679 : BitVec 32) (k0_hw197 : k0_chk197 v2679), ∀ a, (k0_off574 v2679) a + S1x10000.size a ≤ S3000x10000.size a := fun v2679 k0_hw197 => k0_hw197.1
theorem k0_off625_inb : ∀ (v2679 : BitVec 32) (k0_hw197 : k0_chk197 v2679), ∀ a, (k0_off625 v2679) a + S1x10000.size a ≤ S3000x10000.size a := fun v2679 k0_hw197 => k0_hw197.2

def k0_off626 (v2685 : BitVec 32) : Fin 2 → Nat :=
  let c0_i32_1550 : BitVec 32 := 0#32
  ![v2685.toNat, 0]

def k0_chk198 (v2685 : BitVec 32) : Prop :=
  (∀ a, (k0_off576 v2685) a + S1x10000.size a ≤ S3000x10000.size a) ∧
  (∀ a, (k0_off626 v2685) a + S1x10000.size a ≤ S3000x10000.size a)
instance k0_chk198.dec : ∀ (v2685 : BitVec 32), Decidable (k0_chk198 v2685) := fun v2685 => decidable_of_iff' _ (Iff.of_eq (k0_chk198.eq_1 v2685))
theorem k0_off576_inb : ∀ (v2685 : BitVec 32) (k0_hw198 : k0_chk198 v2685), ∀ a, (k0_off576 v2685) a + S1x10000.size a ≤ S3000x10000.size a := fun v2685 k0_hw198 => k0_hw198.1
theorem k0_off626_inb : ∀ (v2685 : BitVec 32) (k0_hw198 : k0_chk198 v2685), ∀ a, (k0_off626 v2685) a + S1x10000.size a ≤ S3000x10000.size a := fun v2685 k0_hw198 => k0_hw198.2

def k0_off627 (v2691 : BitVec 32) : Fin 2 → Nat :=
  let c0_i32_1552 : BitVec 32 := 0#32
  ![v2691.toNat, 0]

def k0_chk199 (v2691 : BitVec 32) : Prop :=
  (∀ a, (k0_off578 v2691) a + S1x10000.size a ≤ S3000x10000.size a) ∧
  (∀ a, (k0_off627 v2691) a + S1x10000.size a ≤ S3000x10000.size a)
instance k0_chk199.dec : ∀ (v2691 : BitVec 32), Decidable (k0_chk199 v2691) := fun v2691 => decidable_of_iff' _ (Iff.of_eq (k0_chk199.eq_1 v2691))
theorem k0_off578_inb : ∀ (v2691 : BitVec 32) (k0_hw199 : k0_chk199 v2691), ∀ a, (k0_off578 v2691) a + S1x10000.size a ≤ S3000x10000.size a := fun v2691 k0_hw199 => k0_hw199.1
theorem k0_off627_inb : ∀ (v2691 : BitVec 32) (k0_hw199 : k0_chk199 v2691), ∀ a, (k0_off627 v2691) a + S1x10000.size a ≤ S3000x10000.size a := fun v2691 k0_hw199 => k0_hw199.2

def k0_off628 (v2697 : BitVec 32) : Fin 2 → Nat :=
  let c0_i32_1554 : BitVec 32 := 0#32
  ![v2697.toNat, 0]

def k0_chk200 (v2697 : BitVec 32) : Prop :=
  (∀ a, (k0_off580 v2697) a + S1x10000.size a ≤ S3000x10000.size a) ∧
  (∀ a, (k0_off628 v2697) a + S1x10000.size a ≤ S3000x10000.size a)
instance k0_chk200.dec : ∀ (v2697 : BitVec 32), Decidable (k0_chk200 v2697) := fun v2697 => decidable_of_iff' _ (Iff.of_eq (k0_chk200.eq_1 v2697))
theorem k0_off580_inb : ∀ (v2697 : BitVec 32) (k0_hw200 : k0_chk200 v2697), ∀ a, (k0_off580 v2697) a + S1x10000.size a ≤ S3000x10000.size a := fun v2697 k0_hw200 => k0_hw200.1
theorem k0_off628_inb : ∀ (v2697 : BitVec 32) (k0_hw200 : k0_chk200 v2697), ∀ a, (k0_off628 v2697) a + S1x10000.size a ≤ S3000x10000.size a := fun v2697 k0_hw200 => k0_hw200.2

def k0_off629 (v2703 : BitVec 32) : Fin 2 → Nat :=
  let c0_i32_1556 : BitVec 32 := 0#32
  ![v2703.toNat, 0]

def k0_chk201 (v2703 : BitVec 32) : Prop :=
  (∀ a, (k0_off582 v2703) a + S1x10000.size a ≤ S3000x10000.size a) ∧
  (∀ a, (k0_off629 v2703) a + S1x10000.size a ≤ S3000x10000.size a)
instance k0_chk201.dec : ∀ (v2703 : BitVec 32), Decidable (k0_chk201 v2703) := fun v2703 => decidable_of_iff' _ (Iff.of_eq (k0_chk201.eq_1 v2703))
theorem k0_off582_inb : ∀ (v2703 : BitVec 32) (k0_hw201 : k0_chk201 v2703), ∀ a, (k0_off582 v2703) a + S1x10000.size a ≤ S3000x10000.size a := fun v2703 k0_hw201 => k0_hw201.1
theorem k0_off629_inb : ∀ (v2703 : BitVec 32) (k0_hw201 : k0_chk201 v2703), ∀ a, (k0_off629 v2703) a + S1x10000.size a ≤ S3000x10000.size a := fun v2703 k0_hw201 => k0_hw201.2

def k0_off630 (v2709 : BitVec 32) : Fin 2 → Nat :=
  let c0_i32_1558 : BitVec 32 := 0#32
  ![v2709.toNat, 0]

def k0_chk202 (v2709 : BitVec 32) : Prop :=
  (∀ a, (k0_off584 v2709) a + S1x10000.size a ≤ S3000x10000.size a) ∧
  (∀ a, (k0_off630 v2709) a + S1x10000.size a ≤ S3000x10000.size a)
instance k0_chk202.dec : ∀ (v2709 : BitVec 32), Decidable (k0_chk202 v2709) := fun v2709 => decidable_of_iff' _ (Iff.of_eq (k0_chk202.eq_1 v2709))
theorem k0_off584_inb : ∀ (v2709 : BitVec 32) (k0_hw202 : k0_chk202 v2709), ∀ a, (k0_off584 v2709) a + S1x10000.size a ≤ S3000x10000.size a := fun v2709 k0_hw202 => k0_hw202.1
theorem k0_off630_inb : ∀ (v2709 : BitVec 32) (k0_hw202 : k0_chk202 v2709), ∀ a, (k0_off630 v2709) a + S1x10000.size a ≤ S3000x10000.size a := fun v2709 k0_hw202 => k0_hw202.2

def k0_off631 (v2715 : BitVec 32) : Fin 2 → Nat :=
  let c0_i32_1560 : BitVec 32 := 0#32
  ![v2715.toNat, 0]

def k0_chk203 (v2715 : BitVec 32) : Prop :=
  (∀ a, (k0_off586 v2715) a + S1x10000.size a ≤ S3000x10000.size a) ∧
  (∀ a, (k0_off631 v2715) a + S1x10000.size a ≤ S3000x10000.size a)
instance k0_chk203.dec : ∀ (v2715 : BitVec 32), Decidable (k0_chk203 v2715) := fun v2715 => decidable_of_iff' _ (Iff.of_eq (k0_chk203.eq_1 v2715))
theorem k0_off586_inb : ∀ (v2715 : BitVec 32) (k0_hw203 : k0_chk203 v2715), ∀ a, (k0_off586 v2715) a + S1x10000.size a ≤ S3000x10000.size a := fun v2715 k0_hw203 => k0_hw203.1
theorem k0_off631_inb : ∀ (v2715 : BitVec 32) (k0_hw203 : k0_chk203 v2715), ∀ a, (k0_off631 v2715) a + S1x10000.size a ≤ S3000x10000.size a := fun v2715 k0_hw203 => k0_hw203.2

def k0_off632 (v2721 : BitVec 32) : Fin 2 → Nat :=
  let c0_i32_1562 : BitVec 32 := 0#32
  ![v2721.toNat, 0]

def k0_chk204 (v2721 : BitVec 32) : Prop :=
  (∀ a, (k0_off588 v2721) a + S1x10000.size a ≤ S3000x10000.size a) ∧
  (∀ a, (k0_off632 v2721) a + S1x10000.size a ≤ S3000x10000.size a)
instance k0_chk204.dec : ∀ (v2721 : BitVec 32), Decidable (k0_chk204 v2721) := fun v2721 => decidable_of_iff' _ (Iff.of_eq (k0_chk204.eq_1 v2721))
theorem k0_off588_inb : ∀ (v2721 : BitVec 32) (k0_hw204 : k0_chk204 v2721), ∀ a, (k0_off588 v2721) a + S1x10000.size a ≤ S3000x10000.size a := fun v2721 k0_hw204 => k0_hw204.1
theorem k0_off632_inb : ∀ (v2721 : BitVec 32) (k0_hw204 : k0_chk204 v2721), ∀ a, (k0_off632 v2721) a + S1x10000.size a ≤ S3000x10000.size a := fun v2721 k0_hw204 => k0_hw204.2

def k0_off633 (v2727 : BitVec 32) : Fin 2 → Nat :=
  let c0_i32_1564 : BitVec 32 := 0#32
  ![v2727.toNat, 0]

def k0_chk205 (v2727 : BitVec 32) : Prop :=
  (∀ a, (k0_off590 v2727) a + S1x10000.size a ≤ S3000x10000.size a) ∧
  (∀ a, (k0_off633 v2727) a + S1x10000.size a ≤ S3000x10000.size a)
instance k0_chk205.dec : ∀ (v2727 : BitVec 32), Decidable (k0_chk205 v2727) := fun v2727 => decidable_of_iff' _ (Iff.of_eq (k0_chk205.eq_1 v2727))
theorem k0_off590_inb : ∀ (v2727 : BitVec 32) (k0_hw205 : k0_chk205 v2727), ∀ a, (k0_off590 v2727) a + S1x10000.size a ≤ S3000x10000.size a := fun v2727 k0_hw205 => k0_hw205.1
theorem k0_off633_inb : ∀ (v2727 : BitVec 32) (k0_hw205 : k0_chk205 v2727), ∀ a, (k0_off633 v2727) a + S1x10000.size a ≤ S3000x10000.size a := fun v2727 k0_hw205 => k0_hw205.2

def k0_off634 (v2733 : BitVec 32) : Fin 2 → Nat :=
  let c0_i32_1566 : BitVec 32 := 0#32
  ![v2733.toNat, 0]

def k0_chk206 (v2733 : BitVec 32) : Prop :=
  (∀ a, (k0_off592 v2733) a + S1x10000.size a ≤ S3000x10000.size a) ∧
  (∀ a, (k0_off634 v2733) a + S1x10000.size a ≤ S3000x10000.size a)
instance k0_chk206.dec : ∀ (v2733 : BitVec 32), Decidable (k0_chk206 v2733) := fun v2733 => decidable_of_iff' _ (Iff.of_eq (k0_chk206.eq_1 v2733))
theorem k0_off592_inb : ∀ (v2733 : BitVec 32) (k0_hw206 : k0_chk206 v2733), ∀ a, (k0_off592 v2733) a + S1x10000.size a ≤ S3000x10000.size a := fun v2733 k0_hw206 => k0_hw206.1
theorem k0_off634_inb : ∀ (v2733 : BitVec 32) (k0_hw206 : k0_chk206 v2733), ∀ a, (k0_off634 v2733) a + S1x10000.size a ≤ S3000x10000.size a := fun v2733 k0_hw206 => k0_hw206.2

def k0_off635 (v2739 : BitVec 32) : Fin 2 → Nat :=
  let c0_i32_1568 : BitVec 32 := 0#32
  ![v2739.toNat, 0]

def k0_chk207 (v2739 : BitVec 32) : Prop :=
  (∀ a, (k0_off594 v2739) a + S1x10000.size a ≤ S3000x10000.size a) ∧
  (∀ a, (k0_off635 v2739) a + S1x10000.size a ≤ S3000x10000.size a)
instance k0_chk207.dec : ∀ (v2739 : BitVec 32), Decidable (k0_chk207 v2739) := fun v2739 => decidable_of_iff' _ (Iff.of_eq (k0_chk207.eq_1 v2739))
theorem k0_off594_inb : ∀ (v2739 : BitVec 32) (k0_hw207 : k0_chk207 v2739), ∀ a, (k0_off594 v2739) a + S1x10000.size a ≤ S3000x10000.size a := fun v2739 k0_hw207 => k0_hw207.1
theorem k0_off635_inb : ∀ (v2739 : BitVec 32) (k0_hw207 : k0_chk207 v2739), ∀ a, (k0_off635 v2739) a + S1x10000.size a ≤ S3000x10000.size a := fun v2739 k0_hw207 => k0_hw207.2

def k0_off636 (v2745 : BitVec 32) : Fin 2 → Nat :=
  let c0_i32_1570 : BitVec 32 := 0#32
  ![v2745.toNat, 0]

def k0_chk208 (v2745 : BitVec 32) : Prop :=
  (∀ a, (k0_off596 v2745) a + S1x10000.size a ≤ S3000x10000.size a) ∧
  (∀ a, (k0_off636 v2745) a + S1x10000.size a ≤ S3000x10000.size a)
instance k0_chk208.dec : ∀ (v2745 : BitVec 32), Decidable (k0_chk208 v2745) := fun v2745 => decidable_of_iff' _ (Iff.of_eq (k0_chk208.eq_1 v2745))
theorem k0_off596_inb : ∀ (v2745 : BitVec 32) (k0_hw208 : k0_chk208 v2745), ∀ a, (k0_off596 v2745) a + S1x10000.size a ≤ S3000x10000.size a := fun v2745 k0_hw208 => k0_hw208.1
theorem k0_off636_inb : ∀ (v2745 : BitVec 32) (k0_hw208 : k0_chk208 v2745), ∀ a, (k0_off636 v2745) a + S1x10000.size a ≤ S3000x10000.size a := fun v2745 k0_hw208 => k0_hw208.2

def k0_off637 (v2751 : BitVec 32) : Fin 2 → Nat :=
  let c0_i32_1572 : BitVec 32 := 0#32
  ![v2751.toNat, 0]

def k0_chk209 (v2751 : BitVec 32) : Prop :=
  (∀ a, (k0_off598 v2751) a + S1x10000.size a ≤ S3000x10000.size a) ∧
  (∀ a, (k0_off637 v2751) a + S1x10000.size a ≤ S3000x10000.size a)
instance k0_chk209.dec : ∀ (v2751 : BitVec 32), Decidable (k0_chk209 v2751) := fun v2751 => decidable_of_iff' _ (Iff.of_eq (k0_chk209.eq_1 v2751))
theorem k0_off598_inb : ∀ (v2751 : BitVec 32) (k0_hw209 : k0_chk209 v2751), ∀ a, (k0_off598 v2751) a + S1x10000.size a ≤ S3000x10000.size a := fun v2751 k0_hw209 => k0_hw209.1
theorem k0_off637_inb : ∀ (v2751 : BitVec 32) (k0_hw209 : k0_chk209 v2751), ∀ a, (k0_off637 v2751) a + S1x10000.size a ≤ S3000x10000.size a := fun v2751 k0_hw209 => k0_hw209.2

def k0_off638 (v2757 : BitVec 32) : Fin 2 → Nat :=
  let c0_i32_1574 : BitVec 32 := 0#32
  ![v2757.toNat, 0]

def k0_chk210 (v2757 : BitVec 32) : Prop :=
  (∀ a, (k0_off600 v2757) a + S1x10000.size a ≤ S3000x10000.size a) ∧
  (∀ a, (k0_off638 v2757) a + S1x10000.size a ≤ S3000x10000.size a)
instance k0_chk210.dec : ∀ (v2757 : BitVec 32), Decidable (k0_chk210 v2757) := fun v2757 => decidable_of_iff' _ (Iff.of_eq (k0_chk210.eq_1 v2757))
theorem k0_off600_inb : ∀ (v2757 : BitVec 32) (k0_hw210 : k0_chk210 v2757), ∀ a, (k0_off600 v2757) a + S1x10000.size a ≤ S3000x10000.size a := fun v2757 k0_hw210 => k0_hw210.1
theorem k0_off638_inb : ∀ (v2757 : BitVec 32) (k0_hw210 : k0_chk210 v2757), ∀ a, (k0_off638 v2757) a + S1x10000.size a ≤ S3000x10000.size a := fun v2757 k0_hw210 => k0_hw210.2

def k0_off639 (v2763 : BitVec 32) : Fin 2 → Nat :=
  let c0_i32_1576 : BitVec 32 := 0#32
  ![v2763.toNat, 0]

def k0_chk211 (v2763 : BitVec 32) : Prop :=
  (∀ a, (k0_off602 v2763) a + S1x10000.size a ≤ S3000x10000.size a) ∧
  (∀ a, (k0_off639 v2763) a + S1x10000.size a ≤ S3000x10000.size a)
instance k0_chk211.dec : ∀ (v2763 : BitVec 32), Decidable (k0_chk211 v2763) := fun v2763 => decidable_of_iff' _ (Iff.of_eq (k0_chk211.eq_1 v2763))
theorem k0_off602_inb : ∀ (v2763 : BitVec 32) (k0_hw211 : k0_chk211 v2763), ∀ a, (k0_off602 v2763) a + S1x10000.size a ≤ S3000x10000.size a := fun v2763 k0_hw211 => k0_hw211.1
theorem k0_off639_inb : ∀ (v2763 : BitVec 32) (k0_hw211 : k0_chk211 v2763), ∀ a, (k0_off639 v2763) a + S1x10000.size a ≤ S3000x10000.size a := fun v2763 k0_hw211 => k0_hw211.2

def k0_off640 (v2769 : BitVec 32) : Fin 2 → Nat :=
  let c0_i32_1578 : BitVec 32 := 0#32
  ![v2769.toNat, 0]

def k0_chk212 (v2769 : BitVec 32) : Prop :=
  (∀ a, (k0_off604 v2769) a + S1x10000.size a ≤ S3000x10000.size a) ∧
  (∀ a, (k0_off640 v2769) a + S1x10000.size a ≤ S3000x10000.size a)
instance k0_chk212.dec : ∀ (v2769 : BitVec 32), Decidable (k0_chk212 v2769) := fun v2769 => decidable_of_iff' _ (Iff.of_eq (k0_chk212.eq_1 v2769))
theorem k0_off604_inb : ∀ (v2769 : BitVec 32) (k0_hw212 : k0_chk212 v2769), ∀ a, (k0_off604 v2769) a + S1x10000.size a ≤ S3000x10000.size a := fun v2769 k0_hw212 => k0_hw212.1
theorem k0_off640_inb : ∀ (v2769 : BitVec 32) (k0_hw212 : k0_chk212 v2769), ∀ a, (k0_off640 v2769) a + S1x10000.size a ≤ S3000x10000.size a := fun v2769 k0_hw212 => k0_hw212.2

def k0_off641 (v2775 : BitVec 32) : Fin 2 → Nat :=
  let c0_i32_1580 : BitVec 32 := 0#32
  ![v2775.toNat, 0]

def k0_chk213 (v2775 : BitVec 32) : Prop :=
  (∀ a, (k0_off606 v2775) a + S1x10000.size a ≤ S3000x10000.size a) ∧
  (∀ a, (k0_off641 v2775) a + S1x10000.size a ≤ S3000x10000.size a)
instance k0_chk213.dec : ∀ (v2775 : BitVec 32), Decidable (k0_chk213 v2775) := fun v2775 => decidable_of_iff' _ (Iff.of_eq (k0_chk213.eq_1 v2775))
theorem k0_off606_inb : ∀ (v2775 : BitVec 32) (k0_hw213 : k0_chk213 v2775), ∀ a, (k0_off606 v2775) a + S1x10000.size a ≤ S3000x10000.size a := fun v2775 k0_hw213 => k0_hw213.1
theorem k0_off641_inb : ∀ (v2775 : BitVec 32) (k0_hw213 : k0_chk213 v2775), ∀ a, (k0_off641 v2775) a + S1x10000.size a ≤ S3000x10000.size a := fun v2775 k0_hw213 => k0_hw213.2

def k0_off642 (v2781 : BitVec 32) : Fin 2 → Nat :=
  let c0_i32_1582 : BitVec 32 := 0#32
  ![v2781.toNat, 0]

def k0_chk214 (v2781 : BitVec 32) : Prop :=
  (∀ a, (k0_off608 v2781) a + S1x10000.size a ≤ S3000x10000.size a) ∧
  (∀ a, (k0_off642 v2781) a + S1x10000.size a ≤ S3000x10000.size a)
instance k0_chk214.dec : ∀ (v2781 : BitVec 32), Decidable (k0_chk214 v2781) := fun v2781 => decidable_of_iff' _ (Iff.of_eq (k0_chk214.eq_1 v2781))
theorem k0_off608_inb : ∀ (v2781 : BitVec 32) (k0_hw214 : k0_chk214 v2781), ∀ a, (k0_off608 v2781) a + S1x10000.size a ≤ S3000x10000.size a := fun v2781 k0_hw214 => k0_hw214.1
theorem k0_off642_inb : ∀ (v2781 : BitVec 32) (k0_hw214 : k0_chk214 v2781), ∀ a, (k0_off642 v2781) a + S1x10000.size a ≤ S3000x10000.size a := fun v2781 k0_hw214 => k0_hw214.2

def k0_off643 (v2787 : BitVec 32) : Fin 2 → Nat :=
  let c0_i32_1584 : BitVec 32 := 0#32
  ![v2787.toNat, 0]

def k0_chk215 (v2787 : BitVec 32) : Prop :=
  (∀ a, (k0_off610 v2787) a + S1x10000.size a ≤ S3000x10000.size a) ∧
  (∀ a, (k0_off643 v2787) a + S1x10000.size a ≤ S3000x10000.size a)
instance k0_chk215.dec : ∀ (v2787 : BitVec 32), Decidable (k0_chk215 v2787) := fun v2787 => decidable_of_iff' _ (Iff.of_eq (k0_chk215.eq_1 v2787))
theorem k0_off610_inb : ∀ (v2787 : BitVec 32) (k0_hw215 : k0_chk215 v2787), ∀ a, (k0_off610 v2787) a + S1x10000.size a ≤ S3000x10000.size a := fun v2787 k0_hw215 => k0_hw215.1
theorem k0_off643_inb : ∀ (v2787 : BitVec 32) (k0_hw215 : k0_chk215 v2787), ∀ a, (k0_off643 v2787) a + S1x10000.size a ≤ S3000x10000.size a := fun v2787 k0_hw215 => k0_hw215.2

def k0_off644 (v2793 : BitVec 32) : Fin 2 → Nat :=
  let c0_i32_1586 : BitVec 32 := 0#32
  ![v2793.toNat, 0]

def k0_chk216 (v2793 : BitVec 32) : Prop :=
  (∀ a, (k0_off612 v2793) a + S1x10000.size a ≤ S3000x10000.size a) ∧
  (∀ a, (k0_off644 v2793) a + S1x10000.size a ≤ S3000x10000.size a)
instance k0_chk216.dec : ∀ (v2793 : BitVec 32), Decidable (k0_chk216 v2793) := fun v2793 => decidable_of_iff' _ (Iff.of_eq (k0_chk216.eq_1 v2793))
theorem k0_off612_inb : ∀ (v2793 : BitVec 32) (k0_hw216 : k0_chk216 v2793), ∀ a, (k0_off612 v2793) a + S1x10000.size a ≤ S3000x10000.size a := fun v2793 k0_hw216 => k0_hw216.1
theorem k0_off644_inb : ∀ (v2793 : BitVec 32) (k0_hw216 : k0_chk216 v2793), ∀ a, (k0_off644 v2793) a + S1x10000.size a ≤ S3000x10000.size a := fun v2793 k0_hw216 => k0_hw216.2

def k0_off645 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3054 : Index := Scalar.indexCast v3053
  let c0_1684 : Index := 0#32
  ![v3054.toNat, 0]
def k0_off646 (v3055 : BitVec 32) : Fin 2 → Nat :=
  let c0_i32_1686 : BitVec 32 := 0#32
  ![v3055.toNat, 0]

def k0_off647 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3060 : Index := Scalar.indexCast v3053
  let c1_1687 : Index := 1#32
  ![v3060.toNat, 1]
def k0_off648 (v3061 : BitVec 32) : Fin 2 → Nat :=
  let c0_i32_1689 : BitVec 32 := 0#32
  ![v3061.toNat, 0]

def k0_off649 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3066 : Index := Scalar.indexCast v3053
  let c2_1690 : Index := 2#32
  ![v3066.toNat, 2]
def k0_off650 (v3067 : BitVec 32) : Fin 2 → Nat :=
  let c0_i32_1692 : BitVec 32 := 0#32
  ![v3067.toNat, 0]

def k0_off651 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3072 : Index := Scalar.indexCast v3053
  let c3_1693 : Index := 3#32
  ![v3072.toNat, 3]
def k0_off652 (v3073 : BitVec 32) : Fin 2 → Nat :=
  let c0_i32_1695 : BitVec 32 := 0#32
  ![v3073.toNat, 0]

def k0_off653 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3078 : Index := Scalar.indexCast v3053
  let c4_1696 : Index := 4#32
  ![v3078.toNat, 4]
def k0_off654 (v3079 : BitVec 32) : Fin 2 → Nat :=
  let c0_i32_1698 : BitVec 32 := 0#32
  ![v3079.toNat, 0]

def k0_off655 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3084 : Index := Scalar.indexCast v3053
  let c5_1699 : Index := 5#32
  ![v3084.toNat, 5]
def k0_off656 (v3085 : BitVec 32) : Fin 2 → Nat :=
  let c0_i32_1701 : BitVec 32 := 0#32
  ![v3085.toNat, 0]

def k0_off657 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3090 : Index := Scalar.indexCast v3053
  let c6_1702 : Index := 6#32
  ![v3090.toNat, 6]
def k0_off658 (v3091 : BitVec 32) : Fin 2 → Nat :=
  let c0_i32_1704 : BitVec 32 := 0#32
  ![v3091.toNat, 0]

def k0_off659 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3096 : Index := Scalar.indexCast v3053
  let c7_1705 : Index := 7#32
  ![v3096.toNat, 7]
def k0_off660 (v3097 : BitVec 32) : Fin 2 → Nat :=
  let c0_i32_1707 : BitVec 32 := 0#32
  ![v3097.toNat, 0]

def k0_off661 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3102 : Index := Scalar.indexCast v3053
  let c8_1708 : Index := 8#32
  ![v3102.toNat, 8]
def k0_off662 (v3103 : BitVec 32) : Fin 2 → Nat :=
  let c0_i32_1710 : BitVec 32 := 0#32
  ![v3103.toNat, 0]

def k0_off663 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3108 : Index := Scalar.indexCast v3053
  let c9_1711 : Index := 9#32
  ![v3108.toNat, 9]
def k0_off664 (v3109 : BitVec 32) : Fin 2 → Nat :=
  let c0_i32_1713 : BitVec 32 := 0#32
  ![v3109.toNat, 0]

def k0_off665 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3114 : Index := Scalar.indexCast v3053
  let c10_1714 : Index := 10#32
  ![v3114.toNat, 10]
def k0_off666 (v3115 : BitVec 32) : Fin 2 → Nat :=
  let c0_i32_1716 : BitVec 32 := 0#32
  ![v3115.toNat, 0]

def k0_off667 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3120 : Index := Scalar.indexCast v3053
  let c11_1717 : Index := 11#32
  ![v3120.toNat, 11]
def k0_off668 (v3121 : BitVec 32) : Fin 2 → Nat :=
  let c0_i32_1719 : BitVec 32 := 0#32
  ![v3121.toNat, 0]

def k0_off669 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3126 : Index := Scalar.indexCast v3053
  let c12_1720 : Index := 12#32
  ![v3126.toNat, 12]
def k0_off670 (v3127 : BitVec 32) : Fin 2 → Nat :=
  let c0_i32_1722 : BitVec 32 := 0#32
  ![v3127.toNat, 0]

def k0_off671 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3132 : Index := Scalar.indexCast v3053
  let c13_1723 : Index := 13#32
  ![v3132.toNat, 13]
def k0_off672 (v3133 : BitVec 32) : Fin 2 → Nat :=
  let c0_i32_1725 : BitVec 32 := 0#32
  ![v3133.toNat, 0]

def k0_off673 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3138 : Index := Scalar.indexCast v3053
  let c14_1726 : Index := 14#32
  ![v3138.toNat, 14]
def k0_off674 (v3139 : BitVec 32) : Fin 2 → Nat :=
  let c0_i32_1728 : BitVec 32 := 0#32
  ![v3139.toNat, 0]

def k0_off675 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3144 : Index := Scalar.indexCast v3053
  let c15_1729 : Index := 15#32
  ![v3144.toNat, 15]
def k0_off676 (v3145 : BitVec 32) : Fin 2 → Nat :=
  let c0_i32_1731 : BitVec 32 := 0#32
  ![v3145.toNat, 0]

def k0_off677 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3150 : Index := Scalar.indexCast v3053
  let c16_1732 : Index := 16#32
  ![v3150.toNat, 16]
def k0_off678 (v3151 : BitVec 32) : Fin 2 → Nat :=
  let c0_i32_1734 : BitVec 32 := 0#32
  ![v3151.toNat, 0]

def k0_off679 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3156 : Index := Scalar.indexCast v3053
  let c17_1735 : Index := 17#32
  ![v3156.toNat, 17]
def k0_off680 (v3157 : BitVec 32) : Fin 2 → Nat :=
  let c0_i32_1737 : BitVec 32 := 0#32
  ![v3157.toNat, 0]

def k0_off681 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3162 : Index := Scalar.indexCast v3053
  let c18_1738 : Index := 18#32
  ![v3162.toNat, 18]
def k0_off682 (v3163 : BitVec 32) : Fin 2 → Nat :=
  let c0_i32_1740 : BitVec 32 := 0#32
  ![v3163.toNat, 0]

def k0_off683 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3168 : Index := Scalar.indexCast v3053
  let c19_1741 : Index := 19#32
  ![v3168.toNat, 19]
def k0_off684 (v3169 : BitVec 32) : Fin 2 → Nat :=
  let c0_i32_1743 : BitVec 32 := 0#32
  ![v3169.toNat, 0]

def k0_off685 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3174 : Index := Scalar.indexCast v3053
  let c20_1744 : Index := 20#32
  ![v3174.toNat, 20]
def k0_off686 (v3175 : BitVec 32) : Fin 2 → Nat :=
  let c0_i32_1746 : BitVec 32 := 0#32
  ![v3175.toNat, 0]

def k0_off687 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3180 : Index := Scalar.indexCast v3053
  let c21_1747 : Index := 21#32
  ![v3180.toNat, 21]
def k0_off688 (v3181 : BitVec 32) : Fin 2 → Nat :=
  let c0_i32_1749 : BitVec 32 := 0#32
  ![v3181.toNat, 0]

def k0_off689 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3186 : Index := Scalar.indexCast v3053
  let c22_1750 : Index := 22#32
  ![v3186.toNat, 22]
def k0_off690 (v3187 : BitVec 32) : Fin 2 → Nat :=
  let c0_i32_1752 : BitVec 32 := 0#32
  ![v3187.toNat, 0]

def k0_off691 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3192 : Index := Scalar.indexCast v3053
  let c23_1753 : Index := 23#32
  ![v3192.toNat, 23]
def k0_off692 (v3193 : BitVec 32) : Fin 2 → Nat :=
  let c0_i32_1755 : BitVec 32 := 0#32
  ![v3193.toNat, 0]

def k0_off693 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3198 : Index := Scalar.indexCast v3053
  let c24_1756 : Index := 24#32
  ![v3198.toNat, 24]
def k0_off694 (v3199 : BitVec 32) : Fin 2 → Nat :=
  let c0_i32_1758 : BitVec 32 := 0#32
  ![v3199.toNat, 0]

def k0_off695 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3204 : Index := Scalar.indexCast v3053
  let c25_1759 : Index := 25#32
  ![v3204.toNat, 25]
def k0_off696 (v3205 : BitVec 32) : Fin 2 → Nat :=
  let c0_i32_1761 : BitVec 32 := 0#32
  ![v3205.toNat, 0]

def k0_off697 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3210 : Index := Scalar.indexCast v3053
  let c26_1762 : Index := 26#32
  ![v3210.toNat, 26]
def k0_off698 (v3211 : BitVec 32) : Fin 2 → Nat :=
  let c0_i32_1764 : BitVec 32 := 0#32
  ![v3211.toNat, 0]

def k0_off699 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3216 : Index := Scalar.indexCast v3053
  let c27_1765 : Index := 27#32
  ![v3216.toNat, 27]
def k0_off700 (v3217 : BitVec 32) : Fin 2 → Nat :=
  let c0_i32_1767 : BitVec 32 := 0#32
  ![v3217.toNat, 0]

def k0_off701 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3222 : Index := Scalar.indexCast v3053
  let c28_1768 : Index := 28#32
  ![v3222.toNat, 28]
def k0_off702 (v3223 : BitVec 32) : Fin 2 → Nat :=
  let c0_i32_1770 : BitVec 32 := 0#32
  ![v3223.toNat, 0]

def k0_off703 (i : grid0.Coords) : Fin 2 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3228 : Index := Scalar.indexCast v3053
  let c29_1771 : Index := 29#32
  ![v3228.toNat, 29]
def k0_off704 (v3229 : BitVec 32) : Fin 2 → Nat :=
  let c0_i32_1773 : BitVec 32 := 0#32
  ![v3229.toNat, 0]

def k0_off705 (i : grid0.Coords) : Fin 1 → Nat :=
  let arg0 : BitVec 32 := BitVec.ofNat 32 (i 0).val
  let c8_i32_1682 : BitVec 32 := 8#32
  let v3052 : BitVec 32 := Scalar.muli arg0 c8_i32_1682
  let c7_i32_1683 : BitVec 32 := 7#32
  let v3053 : BitVec 32 := Scalar.addi v3052 c7_i32_1683
  let v3234 : Index := Scalar.indexCast v3053
  ![v3234.toNat]
def k0_off706 (v3235 : BitVec 32) : Fin 2 → Nat :=
  let c0_i32_1775 : BitVec 32 := 0#32
  ![v3235.toNat, 0]

def k0_chk248 (v3235 : BitVec 32) : Prop :=
  (∀ a, (k0_off706 v3235) a + S1x10000.size a ≤ S200x10000.size a)
instance k0_chk248.dec : ∀ (v3235 : BitVec 32), Decidable (k0_chk248 v3235) := fun v3235 => decidable_of_iff' _ (Iff.of_eq (k0_chk248.eq_1 v3235))
theorem k0_off706_inb : ∀ (v3235 : BitVec 32) (k0_hw248 : k0_chk248 v3235), ∀ a, (k0_off706 v3235) a + S1x10000.size a ≤ S200x10000.size a := fun v3235 k0_hw248 => k0_hw248

def k0_off707 (v3055 : BitVec 32) : Fin 2 → Nat :=
  let c0_i32_1777 : BitVec 32 := 0#32
  ![v3055.toNat, 0]

def k0_chk218 (v3055 : BitVec 32) : Prop :=
  (∀ a, (k0_off646 v3055) a + S1x10000.size a ≤ S3000x10000.size a) ∧
  (∀ a, (k0_off707 v3055) a + S1x10000.size a ≤ S3000x10000.size a)
instance k0_chk218.dec : ∀ (v3055 : BitVec 32), Decidable (k0_chk218 v3055) := fun v3055 => decidable_of_iff' _ (Iff.of_eq (k0_chk218.eq_1 v3055))
theorem k0_off646_inb : ∀ (v3055 : BitVec 32) (k0_hw218 : k0_chk218 v3055), ∀ a, (k0_off646 v3055) a + S1x10000.size a ≤ S3000x10000.size a := fun v3055 k0_hw218 => k0_hw218.1
theorem k0_off707_inb : ∀ (v3055 : BitVec 32) (k0_hw218 : k0_chk218 v3055), ∀ a, (k0_off707 v3055) a + S1x10000.size a ≤ S3000x10000.size a := fun v3055 k0_hw218 => k0_hw218.2

def k0_off708 (v3061 : BitVec 32) : Fin 2 → Nat :=
  let c0_i32_1779 : BitVec 32 := 0#32
  ![v3061.toNat, 0]

def k0_chk219 (v3061 : BitVec 32) : Prop :=
  (∀ a, (k0_off648 v3061) a + S1x10000.size a ≤ S3000x10000.size a) ∧
  (∀ a, (k0_off708 v3061) a + S1x10000.size a ≤ S3000x10000.size a)
instance k0_chk219.dec : ∀ (v3061 : BitVec 32), Decidable (k0_chk219 v3061) := fun v3061 => decidable_of_iff' _ (Iff.of_eq (k0_chk219.eq_1 v3061))
theorem k0_off648_inb : ∀ (v3061 : BitVec 32) (k0_hw219 : k0_chk219 v3061), ∀ a, (k0_off648 v3061) a + S1x10000.size a ≤ S3000x10000.size a := fun v3061 k0_hw219 => k0_hw219.1
theorem k0_off708_inb : ∀ (v3061 : BitVec 32) (k0_hw219 : k0_chk219 v3061), ∀ a, (k0_off708 v3061) a + S1x10000.size a ≤ S3000x10000.size a := fun v3061 k0_hw219 => k0_hw219.2

def k0_off709 (v3067 : BitVec 32) : Fin 2 → Nat :=
  let c0_i32_1781 : BitVec 32 := 0#32
  ![v3067.toNat, 0]

def k0_chk220 (v3067 : BitVec 32) : Prop :=
  (∀ a, (k0_off650 v3067) a + S1x10000.size a ≤ S3000x10000.size a) ∧
  (∀ a, (k0_off709 v3067) a + S1x10000.size a ≤ S3000x10000.size a)
instance k0_chk220.dec : ∀ (v3067 : BitVec 32), Decidable (k0_chk220 v3067) := fun v3067 => decidable_of_iff' _ (Iff.of_eq (k0_chk220.eq_1 v3067))
theorem k0_off650_inb : ∀ (v3067 : BitVec 32) (k0_hw220 : k0_chk220 v3067), ∀ a, (k0_off650 v3067) a + S1x10000.size a ≤ S3000x10000.size a := fun v3067 k0_hw220 => k0_hw220.1
theorem k0_off709_inb : ∀ (v3067 : BitVec 32) (k0_hw220 : k0_chk220 v3067), ∀ a, (k0_off709 v3067) a + S1x10000.size a ≤ S3000x10000.size a := fun v3067 k0_hw220 => k0_hw220.2

def k0_off710 (v3073 : BitVec 32) : Fin 2 → Nat :=
  let c0_i32_1783 : BitVec 32 := 0#32
  ![v3073.toNat, 0]

def k0_chk221 (v3073 : BitVec 32) : Prop :=
  (∀ a, (k0_off652 v3073) a + S1x10000.size a ≤ S3000x10000.size a) ∧
  (∀ a, (k0_off710 v3073) a + S1x10000.size a ≤ S3000x10000.size a)
instance k0_chk221.dec : ∀ (v3073 : BitVec 32), Decidable (k0_chk221 v3073) := fun v3073 => decidable_of_iff' _ (Iff.of_eq (k0_chk221.eq_1 v3073))
theorem k0_off652_inb : ∀ (v3073 : BitVec 32) (k0_hw221 : k0_chk221 v3073), ∀ a, (k0_off652 v3073) a + S1x10000.size a ≤ S3000x10000.size a := fun v3073 k0_hw221 => k0_hw221.1
theorem k0_off710_inb : ∀ (v3073 : BitVec 32) (k0_hw221 : k0_chk221 v3073), ∀ a, (k0_off710 v3073) a + S1x10000.size a ≤ S3000x10000.size a := fun v3073 k0_hw221 => k0_hw221.2

def k0_off711 (v3079 : BitVec 32) : Fin 2 → Nat :=
  let c0_i32_1785 : BitVec 32 := 0#32
  ![v3079.toNat, 0]

def k0_chk222 (v3079 : BitVec 32) : Prop :=
  (∀ a, (k0_off654 v3079) a + S1x10000.size a ≤ S3000x10000.size a) ∧
  (∀ a, (k0_off711 v3079) a + S1x10000.size a ≤ S3000x10000.size a)
instance k0_chk222.dec : ∀ (v3079 : BitVec 32), Decidable (k0_chk222 v3079) := fun v3079 => decidable_of_iff' _ (Iff.of_eq (k0_chk222.eq_1 v3079))
theorem k0_off654_inb : ∀ (v3079 : BitVec 32) (k0_hw222 : k0_chk222 v3079), ∀ a, (k0_off654 v3079) a + S1x10000.size a ≤ S3000x10000.size a := fun v3079 k0_hw222 => k0_hw222.1
theorem k0_off711_inb : ∀ (v3079 : BitVec 32) (k0_hw222 : k0_chk222 v3079), ∀ a, (k0_off711 v3079) a + S1x10000.size a ≤ S3000x10000.size a := fun v3079 k0_hw222 => k0_hw222.2

def k0_off712 (v3085 : BitVec 32) : Fin 2 → Nat :=
  let c0_i32_1787 : BitVec 32 := 0#32
  ![v3085.toNat, 0]

def k0_chk223 (v3085 : BitVec 32) : Prop :=
  (∀ a, (k0_off656 v3085) a + S1x10000.size a ≤ S3000x10000.size a) ∧
  (∀ a, (k0_off712 v3085) a + S1x10000.size a ≤ S3000x10000.size a)
instance k0_chk223.dec : ∀ (v3085 : BitVec 32), Decidable (k0_chk223 v3085) := fun v3085 => decidable_of_iff' _ (Iff.of_eq (k0_chk223.eq_1 v3085))
theorem k0_off656_inb : ∀ (v3085 : BitVec 32) (k0_hw223 : k0_chk223 v3085), ∀ a, (k0_off656 v3085) a + S1x10000.size a ≤ S3000x10000.size a := fun v3085 k0_hw223 => k0_hw223.1
theorem k0_off712_inb : ∀ (v3085 : BitVec 32) (k0_hw223 : k0_chk223 v3085), ∀ a, (k0_off712 v3085) a + S1x10000.size a ≤ S3000x10000.size a := fun v3085 k0_hw223 => k0_hw223.2

def k0_off713 (v3091 : BitVec 32) : Fin 2 → Nat :=
  let c0_i32_1789 : BitVec 32 := 0#32
  ![v3091.toNat, 0]

def k0_chk224 (v3091 : BitVec 32) : Prop :=
  (∀ a, (k0_off658 v3091) a + S1x10000.size a ≤ S3000x10000.size a) ∧
  (∀ a, (k0_off713 v3091) a + S1x10000.size a ≤ S3000x10000.size a)
instance k0_chk224.dec : ∀ (v3091 : BitVec 32), Decidable (k0_chk224 v3091) := fun v3091 => decidable_of_iff' _ (Iff.of_eq (k0_chk224.eq_1 v3091))
theorem k0_off658_inb : ∀ (v3091 : BitVec 32) (k0_hw224 : k0_chk224 v3091), ∀ a, (k0_off658 v3091) a + S1x10000.size a ≤ S3000x10000.size a := fun v3091 k0_hw224 => k0_hw224.1
theorem k0_off713_inb : ∀ (v3091 : BitVec 32) (k0_hw224 : k0_chk224 v3091), ∀ a, (k0_off713 v3091) a + S1x10000.size a ≤ S3000x10000.size a := fun v3091 k0_hw224 => k0_hw224.2

def k0_off714 (v3097 : BitVec 32) : Fin 2 → Nat :=
  let c0_i32_1791 : BitVec 32 := 0#32
  ![v3097.toNat, 0]

def k0_chk225 (v3097 : BitVec 32) : Prop :=
  (∀ a, (k0_off660 v3097) a + S1x10000.size a ≤ S3000x10000.size a) ∧
  (∀ a, (k0_off714 v3097) a + S1x10000.size a ≤ S3000x10000.size a)
instance k0_chk225.dec : ∀ (v3097 : BitVec 32), Decidable (k0_chk225 v3097) := fun v3097 => decidable_of_iff' _ (Iff.of_eq (k0_chk225.eq_1 v3097))
theorem k0_off660_inb : ∀ (v3097 : BitVec 32) (k0_hw225 : k0_chk225 v3097), ∀ a, (k0_off660 v3097) a + S1x10000.size a ≤ S3000x10000.size a := fun v3097 k0_hw225 => k0_hw225.1
theorem k0_off714_inb : ∀ (v3097 : BitVec 32) (k0_hw225 : k0_chk225 v3097), ∀ a, (k0_off714 v3097) a + S1x10000.size a ≤ S3000x10000.size a := fun v3097 k0_hw225 => k0_hw225.2

def k0_off715 (v3103 : BitVec 32) : Fin 2 → Nat :=
  let c0_i32_1793 : BitVec 32 := 0#32
  ![v3103.toNat, 0]

def k0_chk226 (v3103 : BitVec 32) : Prop :=
  (∀ a, (k0_off662 v3103) a + S1x10000.size a ≤ S3000x10000.size a) ∧
  (∀ a, (k0_off715 v3103) a + S1x10000.size a ≤ S3000x10000.size a)
instance k0_chk226.dec : ∀ (v3103 : BitVec 32), Decidable (k0_chk226 v3103) := fun v3103 => decidable_of_iff' _ (Iff.of_eq (k0_chk226.eq_1 v3103))
theorem k0_off662_inb : ∀ (v3103 : BitVec 32) (k0_hw226 : k0_chk226 v3103), ∀ a, (k0_off662 v3103) a + S1x10000.size a ≤ S3000x10000.size a := fun v3103 k0_hw226 => k0_hw226.1
theorem k0_off715_inb : ∀ (v3103 : BitVec 32) (k0_hw226 : k0_chk226 v3103), ∀ a, (k0_off715 v3103) a + S1x10000.size a ≤ S3000x10000.size a := fun v3103 k0_hw226 => k0_hw226.2

def k0_off716 (v3109 : BitVec 32) : Fin 2 → Nat :=
  let c0_i32_1795 : BitVec 32 := 0#32
  ![v3109.toNat, 0]

def k0_chk227 (v3109 : BitVec 32) : Prop :=
  (∀ a, (k0_off664 v3109) a + S1x10000.size a ≤ S3000x10000.size a) ∧
  (∀ a, (k0_off716 v3109) a + S1x10000.size a ≤ S3000x10000.size a)
instance k0_chk227.dec : ∀ (v3109 : BitVec 32), Decidable (k0_chk227 v3109) := fun v3109 => decidable_of_iff' _ (Iff.of_eq (k0_chk227.eq_1 v3109))
theorem k0_off664_inb : ∀ (v3109 : BitVec 32) (k0_hw227 : k0_chk227 v3109), ∀ a, (k0_off664 v3109) a + S1x10000.size a ≤ S3000x10000.size a := fun v3109 k0_hw227 => k0_hw227.1
theorem k0_off716_inb : ∀ (v3109 : BitVec 32) (k0_hw227 : k0_chk227 v3109), ∀ a, (k0_off716 v3109) a + S1x10000.size a ≤ S3000x10000.size a := fun v3109 k0_hw227 => k0_hw227.2

def k0_off717 (v3115 : BitVec 32) : Fin 2 → Nat :=
  let c0_i32_1797 : BitVec 32 := 0#32
  ![v3115.toNat, 0]

def k0_chk228 (v3115 : BitVec 32) : Prop :=
  (∀ a, (k0_off666 v3115) a + S1x10000.size a ≤ S3000x10000.size a) ∧
  (∀ a, (k0_off717 v3115) a + S1x10000.size a ≤ S3000x10000.size a)
instance k0_chk228.dec : ∀ (v3115 : BitVec 32), Decidable (k0_chk228 v3115) := fun v3115 => decidable_of_iff' _ (Iff.of_eq (k0_chk228.eq_1 v3115))
theorem k0_off666_inb : ∀ (v3115 : BitVec 32) (k0_hw228 : k0_chk228 v3115), ∀ a, (k0_off666 v3115) a + S1x10000.size a ≤ S3000x10000.size a := fun v3115 k0_hw228 => k0_hw228.1
theorem k0_off717_inb : ∀ (v3115 : BitVec 32) (k0_hw228 : k0_chk228 v3115), ∀ a, (k0_off717 v3115) a + S1x10000.size a ≤ S3000x10000.size a := fun v3115 k0_hw228 => k0_hw228.2

def k0_off718 (v3121 : BitVec 32) : Fin 2 → Nat :=
  let c0_i32_1799 : BitVec 32 := 0#32
  ![v3121.toNat, 0]

def k0_chk229 (v3121 : BitVec 32) : Prop :=
  (∀ a, (k0_off668 v3121) a + S1x10000.size a ≤ S3000x10000.size a) ∧
  (∀ a, (k0_off718 v3121) a + S1x10000.size a ≤ S3000x10000.size a)
instance k0_chk229.dec : ∀ (v3121 : BitVec 32), Decidable (k0_chk229 v3121) := fun v3121 => decidable_of_iff' _ (Iff.of_eq (k0_chk229.eq_1 v3121))
theorem k0_off668_inb : ∀ (v3121 : BitVec 32) (k0_hw229 : k0_chk229 v3121), ∀ a, (k0_off668 v3121) a + S1x10000.size a ≤ S3000x10000.size a := fun v3121 k0_hw229 => k0_hw229.1
theorem k0_off718_inb : ∀ (v3121 : BitVec 32) (k0_hw229 : k0_chk229 v3121), ∀ a, (k0_off718 v3121) a + S1x10000.size a ≤ S3000x10000.size a := fun v3121 k0_hw229 => k0_hw229.2

def k0_off719 (v3127 : BitVec 32) : Fin 2 → Nat :=
  let c0_i32_1801 : BitVec 32 := 0#32
  ![v3127.toNat, 0]

def k0_chk230 (v3127 : BitVec 32) : Prop :=
  (∀ a, (k0_off670 v3127) a + S1x10000.size a ≤ S3000x10000.size a) ∧
  (∀ a, (k0_off719 v3127) a + S1x10000.size a ≤ S3000x10000.size a)
instance k0_chk230.dec : ∀ (v3127 : BitVec 32), Decidable (k0_chk230 v3127) := fun v3127 => decidable_of_iff' _ (Iff.of_eq (k0_chk230.eq_1 v3127))
theorem k0_off670_inb : ∀ (v3127 : BitVec 32) (k0_hw230 : k0_chk230 v3127), ∀ a, (k0_off670 v3127) a + S1x10000.size a ≤ S3000x10000.size a := fun v3127 k0_hw230 => k0_hw230.1
theorem k0_off719_inb : ∀ (v3127 : BitVec 32) (k0_hw230 : k0_chk230 v3127), ∀ a, (k0_off719 v3127) a + S1x10000.size a ≤ S3000x10000.size a := fun v3127 k0_hw230 => k0_hw230.2

def k0_off720 (v3133 : BitVec 32) : Fin 2 → Nat :=
  let c0_i32_1803 : BitVec 32 := 0#32
  ![v3133.toNat, 0]

def k0_chk231 (v3133 : BitVec 32) : Prop :=
  (∀ a, (k0_off672 v3133) a + S1x10000.size a ≤ S3000x10000.size a) ∧
  (∀ a, (k0_off720 v3133) a + S1x10000.size a ≤ S3000x10000.size a)
instance k0_chk231.dec : ∀ (v3133 : BitVec 32), Decidable (k0_chk231 v3133) := fun v3133 => decidable_of_iff' _ (Iff.of_eq (k0_chk231.eq_1 v3133))
theorem k0_off672_inb : ∀ (v3133 : BitVec 32) (k0_hw231 : k0_chk231 v3133), ∀ a, (k0_off672 v3133) a + S1x10000.size a ≤ S3000x10000.size a := fun v3133 k0_hw231 => k0_hw231.1
theorem k0_off720_inb : ∀ (v3133 : BitVec 32) (k0_hw231 : k0_chk231 v3133), ∀ a, (k0_off720 v3133) a + S1x10000.size a ≤ S3000x10000.size a := fun v3133 k0_hw231 => k0_hw231.2

def k0_off721 (v3139 : BitVec 32) : Fin 2 → Nat :=
  let c0_i32_1805 : BitVec 32 := 0#32
  ![v3139.toNat, 0]

def k0_chk232 (v3139 : BitVec 32) : Prop :=
  (∀ a, (k0_off674 v3139) a + S1x10000.size a ≤ S3000x10000.size a) ∧
  (∀ a, (k0_off721 v3139) a + S1x10000.size a ≤ S3000x10000.size a)
instance k0_chk232.dec : ∀ (v3139 : BitVec 32), Decidable (k0_chk232 v3139) := fun v3139 => decidable_of_iff' _ (Iff.of_eq (k0_chk232.eq_1 v3139))
theorem k0_off674_inb : ∀ (v3139 : BitVec 32) (k0_hw232 : k0_chk232 v3139), ∀ a, (k0_off674 v3139) a + S1x10000.size a ≤ S3000x10000.size a := fun v3139 k0_hw232 => k0_hw232.1
theorem k0_off721_inb : ∀ (v3139 : BitVec 32) (k0_hw232 : k0_chk232 v3139), ∀ a, (k0_off721 v3139) a + S1x10000.size a ≤ S3000x10000.size a := fun v3139 k0_hw232 => k0_hw232.2

def k0_off722 (v3145 : BitVec 32) : Fin 2 → Nat :=
  let c0_i32_1807 : BitVec 32 := 0#32
  ![v3145.toNat, 0]

def k0_chk233 (v3145 : BitVec 32) : Prop :=
  (∀ a, (k0_off676 v3145) a + S1x10000.size a ≤ S3000x10000.size a) ∧
  (∀ a, (k0_off722 v3145) a + S1x10000.size a ≤ S3000x10000.size a)
instance k0_chk233.dec : ∀ (v3145 : BitVec 32), Decidable (k0_chk233 v3145) := fun v3145 => decidable_of_iff' _ (Iff.of_eq (k0_chk233.eq_1 v3145))
theorem k0_off676_inb : ∀ (v3145 : BitVec 32) (k0_hw233 : k0_chk233 v3145), ∀ a, (k0_off676 v3145) a + S1x10000.size a ≤ S3000x10000.size a := fun v3145 k0_hw233 => k0_hw233.1
theorem k0_off722_inb : ∀ (v3145 : BitVec 32) (k0_hw233 : k0_chk233 v3145), ∀ a, (k0_off722 v3145) a + S1x10000.size a ≤ S3000x10000.size a := fun v3145 k0_hw233 => k0_hw233.2

def k0_off723 (v3151 : BitVec 32) : Fin 2 → Nat :=
  let c0_i32_1809 : BitVec 32 := 0#32
  ![v3151.toNat, 0]

def k0_chk234 (v3151 : BitVec 32) : Prop :=
  (∀ a, (k0_off678 v3151) a + S1x10000.size a ≤ S3000x10000.size a) ∧
  (∀ a, (k0_off723 v3151) a + S1x10000.size a ≤ S3000x10000.size a)
instance k0_chk234.dec : ∀ (v3151 : BitVec 32), Decidable (k0_chk234 v3151) := fun v3151 => decidable_of_iff' _ (Iff.of_eq (k0_chk234.eq_1 v3151))
theorem k0_off678_inb : ∀ (v3151 : BitVec 32) (k0_hw234 : k0_chk234 v3151), ∀ a, (k0_off678 v3151) a + S1x10000.size a ≤ S3000x10000.size a := fun v3151 k0_hw234 => k0_hw234.1
theorem k0_off723_inb : ∀ (v3151 : BitVec 32) (k0_hw234 : k0_chk234 v3151), ∀ a, (k0_off723 v3151) a + S1x10000.size a ≤ S3000x10000.size a := fun v3151 k0_hw234 => k0_hw234.2

def k0_off724 (v3157 : BitVec 32) : Fin 2 → Nat :=
  let c0_i32_1811 : BitVec 32 := 0#32
  ![v3157.toNat, 0]

def k0_chk235 (v3157 : BitVec 32) : Prop :=
  (∀ a, (k0_off680 v3157) a + S1x10000.size a ≤ S3000x10000.size a) ∧
  (∀ a, (k0_off724 v3157) a + S1x10000.size a ≤ S3000x10000.size a)
instance k0_chk235.dec : ∀ (v3157 : BitVec 32), Decidable (k0_chk235 v3157) := fun v3157 => decidable_of_iff' _ (Iff.of_eq (k0_chk235.eq_1 v3157))
theorem k0_off680_inb : ∀ (v3157 : BitVec 32) (k0_hw235 : k0_chk235 v3157), ∀ a, (k0_off680 v3157) a + S1x10000.size a ≤ S3000x10000.size a := fun v3157 k0_hw235 => k0_hw235.1
theorem k0_off724_inb : ∀ (v3157 : BitVec 32) (k0_hw235 : k0_chk235 v3157), ∀ a, (k0_off724 v3157) a + S1x10000.size a ≤ S3000x10000.size a := fun v3157 k0_hw235 => k0_hw235.2

def k0_off725 (v3163 : BitVec 32) : Fin 2 → Nat :=
  let c0_i32_1813 : BitVec 32 := 0#32
  ![v3163.toNat, 0]

def k0_chk236 (v3163 : BitVec 32) : Prop :=
  (∀ a, (k0_off682 v3163) a + S1x10000.size a ≤ S3000x10000.size a) ∧
  (∀ a, (k0_off725 v3163) a + S1x10000.size a ≤ S3000x10000.size a)
instance k0_chk236.dec : ∀ (v3163 : BitVec 32), Decidable (k0_chk236 v3163) := fun v3163 => decidable_of_iff' _ (Iff.of_eq (k0_chk236.eq_1 v3163))
theorem k0_off682_inb : ∀ (v3163 : BitVec 32) (k0_hw236 : k0_chk236 v3163), ∀ a, (k0_off682 v3163) a + S1x10000.size a ≤ S3000x10000.size a := fun v3163 k0_hw236 => k0_hw236.1
theorem k0_off725_inb : ∀ (v3163 : BitVec 32) (k0_hw236 : k0_chk236 v3163), ∀ a, (k0_off725 v3163) a + S1x10000.size a ≤ S3000x10000.size a := fun v3163 k0_hw236 => k0_hw236.2

def k0_off726 (v3169 : BitVec 32) : Fin 2 → Nat :=
  let c0_i32_1815 : BitVec 32 := 0#32
  ![v3169.toNat, 0]

def k0_chk237 (v3169 : BitVec 32) : Prop :=
  (∀ a, (k0_off684 v3169) a + S1x10000.size a ≤ S3000x10000.size a) ∧
  (∀ a, (k0_off726 v3169) a + S1x10000.size a ≤ S3000x10000.size a)
instance k0_chk237.dec : ∀ (v3169 : BitVec 32), Decidable (k0_chk237 v3169) := fun v3169 => decidable_of_iff' _ (Iff.of_eq (k0_chk237.eq_1 v3169))
theorem k0_off684_inb : ∀ (v3169 : BitVec 32) (k0_hw237 : k0_chk237 v3169), ∀ a, (k0_off684 v3169) a + S1x10000.size a ≤ S3000x10000.size a := fun v3169 k0_hw237 => k0_hw237.1
theorem k0_off726_inb : ∀ (v3169 : BitVec 32) (k0_hw237 : k0_chk237 v3169), ∀ a, (k0_off726 v3169) a + S1x10000.size a ≤ S3000x10000.size a := fun v3169 k0_hw237 => k0_hw237.2

def k0_off727 (v3175 : BitVec 32) : Fin 2 → Nat :=
  let c0_i32_1817 : BitVec 32 := 0#32
  ![v3175.toNat, 0]

def k0_chk238 (v3175 : BitVec 32) : Prop :=
  (∀ a, (k0_off686 v3175) a + S1x10000.size a ≤ S3000x10000.size a) ∧
  (∀ a, (k0_off727 v3175) a + S1x10000.size a ≤ S3000x10000.size a)
instance k0_chk238.dec : ∀ (v3175 : BitVec 32), Decidable (k0_chk238 v3175) := fun v3175 => decidable_of_iff' _ (Iff.of_eq (k0_chk238.eq_1 v3175))
theorem k0_off686_inb : ∀ (v3175 : BitVec 32) (k0_hw238 : k0_chk238 v3175), ∀ a, (k0_off686 v3175) a + S1x10000.size a ≤ S3000x10000.size a := fun v3175 k0_hw238 => k0_hw238.1
theorem k0_off727_inb : ∀ (v3175 : BitVec 32) (k0_hw238 : k0_chk238 v3175), ∀ a, (k0_off727 v3175) a + S1x10000.size a ≤ S3000x10000.size a := fun v3175 k0_hw238 => k0_hw238.2

def k0_off728 (v3181 : BitVec 32) : Fin 2 → Nat :=
  let c0_i32_1819 : BitVec 32 := 0#32
  ![v3181.toNat, 0]

def k0_chk239 (v3181 : BitVec 32) : Prop :=
  (∀ a, (k0_off688 v3181) a + S1x10000.size a ≤ S3000x10000.size a) ∧
  (∀ a, (k0_off728 v3181) a + S1x10000.size a ≤ S3000x10000.size a)
instance k0_chk239.dec : ∀ (v3181 : BitVec 32), Decidable (k0_chk239 v3181) := fun v3181 => decidable_of_iff' _ (Iff.of_eq (k0_chk239.eq_1 v3181))
theorem k0_off688_inb : ∀ (v3181 : BitVec 32) (k0_hw239 : k0_chk239 v3181), ∀ a, (k0_off688 v3181) a + S1x10000.size a ≤ S3000x10000.size a := fun v3181 k0_hw239 => k0_hw239.1
theorem k0_off728_inb : ∀ (v3181 : BitVec 32) (k0_hw239 : k0_chk239 v3181), ∀ a, (k0_off728 v3181) a + S1x10000.size a ≤ S3000x10000.size a := fun v3181 k0_hw239 => k0_hw239.2

def k0_off729 (v3187 : BitVec 32) : Fin 2 → Nat :=
  let c0_i32_1821 : BitVec 32 := 0#32
  ![v3187.toNat, 0]

def k0_chk240 (v3187 : BitVec 32) : Prop :=
  (∀ a, (k0_off690 v3187) a + S1x10000.size a ≤ S3000x10000.size a) ∧
  (∀ a, (k0_off729 v3187) a + S1x10000.size a ≤ S3000x10000.size a)
instance k0_chk240.dec : ∀ (v3187 : BitVec 32), Decidable (k0_chk240 v3187) := fun v3187 => decidable_of_iff' _ (Iff.of_eq (k0_chk240.eq_1 v3187))
theorem k0_off690_inb : ∀ (v3187 : BitVec 32) (k0_hw240 : k0_chk240 v3187), ∀ a, (k0_off690 v3187) a + S1x10000.size a ≤ S3000x10000.size a := fun v3187 k0_hw240 => k0_hw240.1
theorem k0_off729_inb : ∀ (v3187 : BitVec 32) (k0_hw240 : k0_chk240 v3187), ∀ a, (k0_off729 v3187) a + S1x10000.size a ≤ S3000x10000.size a := fun v3187 k0_hw240 => k0_hw240.2

def k0_off730 (v3193 : BitVec 32) : Fin 2 → Nat :=
  let c0_i32_1823 : BitVec 32 := 0#32
  ![v3193.toNat, 0]

def k0_chk241 (v3193 : BitVec 32) : Prop :=
  (∀ a, (k0_off692 v3193) a + S1x10000.size a ≤ S3000x10000.size a) ∧
  (∀ a, (k0_off730 v3193) a + S1x10000.size a ≤ S3000x10000.size a)
instance k0_chk241.dec : ∀ (v3193 : BitVec 32), Decidable (k0_chk241 v3193) := fun v3193 => decidable_of_iff' _ (Iff.of_eq (k0_chk241.eq_1 v3193))
theorem k0_off692_inb : ∀ (v3193 : BitVec 32) (k0_hw241 : k0_chk241 v3193), ∀ a, (k0_off692 v3193) a + S1x10000.size a ≤ S3000x10000.size a := fun v3193 k0_hw241 => k0_hw241.1
theorem k0_off730_inb : ∀ (v3193 : BitVec 32) (k0_hw241 : k0_chk241 v3193), ∀ a, (k0_off730 v3193) a + S1x10000.size a ≤ S3000x10000.size a := fun v3193 k0_hw241 => k0_hw241.2

def k0_off731 (v3199 : BitVec 32) : Fin 2 → Nat :=
  let c0_i32_1825 : BitVec 32 := 0#32
  ![v3199.toNat, 0]

def k0_chk242 (v3199 : BitVec 32) : Prop :=
  (∀ a, (k0_off694 v3199) a + S1x10000.size a ≤ S3000x10000.size a) ∧
  (∀ a, (k0_off731 v3199) a + S1x10000.size a ≤ S3000x10000.size a)
instance k0_chk242.dec : ∀ (v3199 : BitVec 32), Decidable (k0_chk242 v3199) := fun v3199 => decidable_of_iff' _ (Iff.of_eq (k0_chk242.eq_1 v3199))
theorem k0_off694_inb : ∀ (v3199 : BitVec 32) (k0_hw242 : k0_chk242 v3199), ∀ a, (k0_off694 v3199) a + S1x10000.size a ≤ S3000x10000.size a := fun v3199 k0_hw242 => k0_hw242.1
theorem k0_off731_inb : ∀ (v3199 : BitVec 32) (k0_hw242 : k0_chk242 v3199), ∀ a, (k0_off731 v3199) a + S1x10000.size a ≤ S3000x10000.size a := fun v3199 k0_hw242 => k0_hw242.2

def k0_off732 (v3205 : BitVec 32) : Fin 2 → Nat :=
  let c0_i32_1827 : BitVec 32 := 0#32
  ![v3205.toNat, 0]

def k0_chk243 (v3205 : BitVec 32) : Prop :=
  (∀ a, (k0_off696 v3205) a + S1x10000.size a ≤ S3000x10000.size a) ∧
  (∀ a, (k0_off732 v3205) a + S1x10000.size a ≤ S3000x10000.size a)
instance k0_chk243.dec : ∀ (v3205 : BitVec 32), Decidable (k0_chk243 v3205) := fun v3205 => decidable_of_iff' _ (Iff.of_eq (k0_chk243.eq_1 v3205))
theorem k0_off696_inb : ∀ (v3205 : BitVec 32) (k0_hw243 : k0_chk243 v3205), ∀ a, (k0_off696 v3205) a + S1x10000.size a ≤ S3000x10000.size a := fun v3205 k0_hw243 => k0_hw243.1
theorem k0_off732_inb : ∀ (v3205 : BitVec 32) (k0_hw243 : k0_chk243 v3205), ∀ a, (k0_off732 v3205) a + S1x10000.size a ≤ S3000x10000.size a := fun v3205 k0_hw243 => k0_hw243.2

def k0_off733 (v3211 : BitVec 32) : Fin 2 → Nat :=
  let c0_i32_1829 : BitVec 32 := 0#32
  ![v3211.toNat, 0]

def k0_chk244 (v3211 : BitVec 32) : Prop :=
  (∀ a, (k0_off698 v3211) a + S1x10000.size a ≤ S3000x10000.size a) ∧
  (∀ a, (k0_off733 v3211) a + S1x10000.size a ≤ S3000x10000.size a)
instance k0_chk244.dec : ∀ (v3211 : BitVec 32), Decidable (k0_chk244 v3211) := fun v3211 => decidable_of_iff' _ (Iff.of_eq (k0_chk244.eq_1 v3211))
theorem k0_off698_inb : ∀ (v3211 : BitVec 32) (k0_hw244 : k0_chk244 v3211), ∀ a, (k0_off698 v3211) a + S1x10000.size a ≤ S3000x10000.size a := fun v3211 k0_hw244 => k0_hw244.1
theorem k0_off733_inb : ∀ (v3211 : BitVec 32) (k0_hw244 : k0_chk244 v3211), ∀ a, (k0_off733 v3211) a + S1x10000.size a ≤ S3000x10000.size a := fun v3211 k0_hw244 => k0_hw244.2

def k0_off734 (v3217 : BitVec 32) : Fin 2 → Nat :=
  let c0_i32_1831 : BitVec 32 := 0#32
  ![v3217.toNat, 0]

def k0_chk245 (v3217 : BitVec 32) : Prop :=
  (∀ a, (k0_off700 v3217) a + S1x10000.size a ≤ S3000x10000.size a) ∧
  (∀ a, (k0_off734 v3217) a + S1x10000.size a ≤ S3000x10000.size a)
instance k0_chk245.dec : ∀ (v3217 : BitVec 32), Decidable (k0_chk245 v3217) := fun v3217 => decidable_of_iff' _ (Iff.of_eq (k0_chk245.eq_1 v3217))
theorem k0_off700_inb : ∀ (v3217 : BitVec 32) (k0_hw245 : k0_chk245 v3217), ∀ a, (k0_off700 v3217) a + S1x10000.size a ≤ S3000x10000.size a := fun v3217 k0_hw245 => k0_hw245.1
theorem k0_off734_inb : ∀ (v3217 : BitVec 32) (k0_hw245 : k0_chk245 v3217), ∀ a, (k0_off734 v3217) a + S1x10000.size a ≤ S3000x10000.size a := fun v3217 k0_hw245 => k0_hw245.2

def k0_off735 (v3223 : BitVec 32) : Fin 2 → Nat :=
  let c0_i32_1833 : BitVec 32 := 0#32
  ![v3223.toNat, 0]

def k0_chk246 (v3223 : BitVec 32) : Prop :=
  (∀ a, (k0_off702 v3223) a + S1x10000.size a ≤ S3000x10000.size a) ∧
  (∀ a, (k0_off735 v3223) a + S1x10000.size a ≤ S3000x10000.size a)
instance k0_chk246.dec : ∀ (v3223 : BitVec 32), Decidable (k0_chk246 v3223) := fun v3223 => decidable_of_iff' _ (Iff.of_eq (k0_chk246.eq_1 v3223))
theorem k0_off702_inb : ∀ (v3223 : BitVec 32) (k0_hw246 : k0_chk246 v3223), ∀ a, (k0_off702 v3223) a + S1x10000.size a ≤ S3000x10000.size a := fun v3223 k0_hw246 => k0_hw246.1
theorem k0_off735_inb : ∀ (v3223 : BitVec 32) (k0_hw246 : k0_chk246 v3223), ∀ a, (k0_off735 v3223) a + S1x10000.size a ≤ S3000x10000.size a := fun v3223 k0_hw246 => k0_hw246.2

def k0_off736 (v3229 : BitVec 32) : Fin 2 → Nat :=
  let c0_i32_1835 : BitVec 32 := 0#32
  ![v3229.toNat, 0]

def k0_chk247 (v3229 : BitVec 32) : Prop :=
  (∀ a, (k0_off704 v3229) a + S1x10000.size a ≤ S3000x10000.size a) ∧
  (∀ a, (k0_off736 v3229) a + S1x10000.size a ≤ S3000x10000.size a)
instance k0_chk247.dec : ∀ (v3229 : BitVec 32), Decidable (k0_chk247 v3229) := fun v3229 => decidable_of_iff' _ (Iff.of_eq (k0_chk247.eq_1 v3229))
theorem k0_off704_inb : ∀ (v3229 : BitVec 32) (k0_hw247 : k0_chk247 v3229), ∀ a, (k0_off704 v3229) a + S1x10000.size a ≤ S3000x10000.size a := fun v3229 k0_hw247 => k0_hw247.1
theorem k0_off736_inb : ∀ (v3229 : BitVec 32) (k0_hw247 : k0_chk247 v3229), ∀ a, (k0_off736 v3229) a + S1x10000.size a ≤ S3000x10000.size a := fun v3229 k0_hw247 => k0_hw247.2

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S25x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S64x4x32_S64x1x31_0_0_0 : S64x4x32.Slices ![0, 0, 0] S64x1x31
  shapeCasts_S64x1x31_S64x31 : S64x1x31.ShapeCasts S64x31
  slices_S64x4x32_S64x1x1_0_0_31 : S64x4x32.Slices ![0, 0, 31] S64x1x1
  shapeCasts_S64x1x1_S64x1 : S64x1x1.ShapeCasts S64x1
  slices_S64x31_S64x30_0_1 : S64x31.Slices ![0, 1] S64x30
  bcast_S_S64x30 : S_.BroadcastsInDim S64x30 (![] : Fin 0 → Fin S64x30.rank)
  bcast_S_S64x1 : S_.BroadcastsInDim S64x1 (![] : Fin 0 → Fin S64x1.rank)
  shapeCasts_S64x1_S64 : S64x1.ShapeCasts S64
  slices_S32x10000_S25x10000_0_0 : S32x10000.Slices ![0, 0] S25x10000
  numel1_S1x1 : S1x1.numel = 1
  inb_S31_S1_0 : ∀ a, (![0] : Fin 1 → Nat) a + S1.size a ≤ S31.size a
  squeezes_S1_S_ : S1.Squeezes S_
  squeezes_S1x10000_S10000 : S1x10000.Squeezes S10000
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  numel1_S1 : S1.numel = 1
  inb_S31_S1_30 : ∀ a, (![30] : Fin 1 → Nat) a + S1.size a ≤ S31.size a
  inb_S10000_S10000_0 : ∀ a, (![0] : Fin 1 → Nat) a + S10000.size a ≤ S10000.size a
  h_S10000 : 0 < S10000.numel
  inb_S8x10000_S1x10000_0_0 : ∀ a, (![0, 0] : Fin 2 → Nat) a + S1x10000.size a ≤ S8x10000.size a
  h_S1x10000 : 0 < S1x10000.numel
  shapeCasts_S1x10000_S10000 : S1x10000.ShapeCasts S10000
  shapeCasts_S10000_S1x10000 : S10000.ShapeCasts S1x10000
  inb_S8x10000_S1x10000_1_0 : ∀ a, (![1, 0] : Fin 2 → Nat) a + S1x10000.size a ≤ S8x10000.size a
  inb_S8x10000_S1x10000_2_0 : ∀ a, (![2, 0] : Fin 2 → Nat) a + S1x10000.size a ≤ S8x10000.size a
  inb_S8x10000_S1x10000_3_0 : ∀ a, (![3, 0] : Fin 2 → Nat) a + S1x10000.size a ≤ S8x10000.size a
  inb_S8x10000_S1x10000_4_0 : ∀ a, (![4, 0] : Fin 2 → Nat) a + S1x10000.size a ≤ S8x10000.size a
  inb_S8x10000_S1x10000_5_0 : ∀ a, (![5, 0] : Fin 2 → Nat) a + S1x10000.size a ≤ S8x10000.size a
  inb_S8x10000_S1x10000_6_0 : ∀ a, (![6, 0] : Fin 2 → Nat) a + S1x10000.size a ≤ S8x10000.size a
  inb_S8x10000_S1x10000_7_0 : ∀ a, (![7, 0] : Fin 2 → Nat) a + S1x10000.size a ≤ S8x10000.size a
  inb_S8x10000_S8x10000_0_0 : ∀ a, (![0, 0] : Fin 2 → Nat) a + S8x10000.size a ≤ S8x10000.size a
  h_S8x10000 : 0 < S8x10000.numel
  shapeCasts_S8x10000_S8x1x10000 : S8x10000.ShapeCasts S8x1x10000
  concatenates_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x31x10000_d1 : Shape.Concatenates [S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000, S8x1x10000] S8x31x10000 1
  bitsLt_bf16_f32 : FTy.bits .bf16 < FTy.bits .f32
  inb_S25x10000_S25x10000_0_0 : ∀ a, (![0, 0] : Fin 2 → Nat) a + S25x10000.size a ≤ S25x10000.size a
  h_S25x10000 : 0 < S25x10000.numel
  shapeCasts_S25x10000_S25x10000 : S25x10000.ShapeCasts S25x10000
  slices_S8x31x10000_o0_0_0_S8x25x10000 : S8x31x10000.Slices ![0, 0, 0] S8x25x10000
  slices_S8x25x10000_o0_0_9994_S8x25x6 : S8x25x10000.Slices ![0, 0, 9994] S8x25x6
  slices_S8x25x10000_o0_0_0_S8x25x9994 : S8x25x10000.Slices ![0, 0, 0] S8x25x9994
  concatenates_S8x25x6_S8x25x9994_S8x25x10000_d2 : Shape.Concatenates [S8x25x6, S8x25x9994] S8x25x10000 2
  slices_S8x31x10000_o0_1_0_S8x25x10000 : S8x31x10000.Slices ![0, 1, 0] S8x25x10000
  slices_S8x25x10000_o0_0_9995_S8x25x5 : S8x25x10000.Slices ![0, 0, 9995] S8x25x5
  slices_S8x25x10000_o0_0_0_S8x25x9995 : S8x25x10000.Slices ![0, 0, 0] S8x25x9995
  concatenates_S8x25x5_S8x25x9995_S8x25x10000_d2 : Shape.Concatenates [S8x25x5, S8x25x9995] S8x25x10000 2
  slices_S8x31x10000_o0_2_0_S8x25x10000 : S8x31x10000.Slices ![0, 2, 0] S8x25x10000
  slices_S8x25x10000_o0_0_9996_S8x25x4 : S8x25x10000.Slices ![0, 0, 9996] S8x25x4
  slices_S8x25x10000_o0_0_0_S8x25x9996 : S8x25x10000.Slices ![0, 0, 0] S8x25x9996
  concatenates_S8x25x4_S8x25x9996_S8x25x10000_d2 : Shape.Concatenates [S8x25x4, S8x25x9996] S8x25x10000 2
  slices_S8x31x10000_o0_3_0_S8x25x10000 : S8x31x10000.Slices ![0, 3, 0] S8x25x10000
  slices_S8x25x10000_o0_0_9997_S8x25x3 : S8x25x10000.Slices ![0, 0, 9997] S8x25x3
  slices_S8x25x10000_o0_0_0_S8x25x9997 : S8x25x10000.Slices ![0, 0, 0] S8x25x9997
  concatenates_S8x25x3_S8x25x9997_S8x25x10000_d2 : Shape.Concatenates [S8x25x3, S8x25x9997] S8x25x10000 2
  slices_S8x31x10000_o0_4_0_S8x25x10000 : S8x31x10000.Slices ![0, 4, 0] S8x25x10000
  slices_S8x25x10000_o0_0_9998_S8x25x2 : S8x25x10000.Slices ![0, 0, 9998] S8x25x2
  slices_S8x25x10000_o0_0_0_S8x25x9998 : S8x25x10000.Slices ![0, 0, 0] S8x25x9998
  concatenates_S8x25x2_S8x25x9998_S8x25x10000_d2 : Shape.Concatenates [S8x25x2, S8x25x9998] S8x25x10000 2
  slices_S8x31x10000_o0_5_0_S8x25x10000 : S8x31x10000.Slices ![0, 5, 0] S8x25x10000
  slices_S8x25x10000_o0_0_9999_S8x25x1 : S8x25x10000.Slices ![0, 0, 9999] S8x25x1
  slices_S8x25x10000_o0_0_0_S8x25x9999 : S8x25x10000.Slices ![0, 0, 0] S8x25x9999
  concatenates_S8x25x1_S8x25x9999_S8x25x10000_d2 : Shape.Concatenates [S8x25x1, S8x25x9999] S8x25x10000 2
  slices_S8x31x10000_o0_6_0_S8x25x10000 : S8x31x10000.Slices ![0, 6, 0] S8x25x10000
  shapeCasts_S25x10000_S1x25x10000 : S25x10000.ShapeCasts S1x25x10000
  broadcasts_S1x25x10000_S8x25x10000 : S1x25x10000.Broadcasts S8x25x10000
  reduces_S8x25x10000_S8x10000 : S8x25x10000.Reduces [1] S8x10000
  hcc0_scratch62 : 3 + S31.numel ≤ 34
  hrank0 : 0 < grid0.rank
  k0_off1_inb : ∀ i : grid0.Coords, ∀ a, (k0_off1 i) a + S1x1.size a ≤ S64x30.size a
  k0_off3_inb : ∀ i : grid0.Coords, ∀ a, (k0_off3 i) a + S1x1.size a ≤ S64x30.size a
  k0_off5_inb : ∀ i : grid0.Coords, ∀ a, (k0_off5 i) a + S1x1.size a ≤ S64x30.size a
  k0_off7_inb : ∀ i : grid0.Coords, ∀ a, (k0_off7 i) a + S1x1.size a ≤ S64x30.size a
  k0_off9_inb : ∀ i : grid0.Coords, ∀ a, (k0_off9 i) a + S1x1.size a ≤ S64x30.size a
  k0_off11_inb : ∀ i : grid0.Coords, ∀ a, (k0_off11 i) a + S1x1.size a ≤ S64x30.size a
  k0_off13_inb : ∀ i : grid0.Coords, ∀ a, (k0_off13 i) a + S1x1.size a ≤ S64x30.size a
  k0_off15_inb : ∀ i : grid0.Coords, ∀ a, (k0_off15 i) a + S1x1.size a ≤ S64x30.size a
  k0_off17_inb : ∀ i : grid0.Coords, ∀ a, (k0_off17 i) a + S1x1.size a ≤ S64x30.size a
  k0_off19_inb : ∀ i : grid0.Coords, ∀ a, (k0_off19 i) a + S1x1.size a ≤ S64x30.size a
  k0_off21_inb : ∀ i : grid0.Coords, ∀ a, (k0_off21 i) a + S1x1.size a ≤ S64x30.size a
  k0_off23_inb : ∀ i : grid0.Coords, ∀ a, (k0_off23 i) a + S1x1.size a ≤ S64x30.size a
  k0_off25_inb : ∀ i : grid0.Coords, ∀ a, (k0_off25 i) a + S1x1.size a ≤ S64x30.size a
  k0_off27_inb : ∀ i : grid0.Coords, ∀ a, (k0_off27 i) a + S1x1.size a ≤ S64x30.size a
  k0_off29_inb : ∀ i : grid0.Coords, ∀ a, (k0_off29 i) a + S1x1.size a ≤ S64x30.size a
  k0_off31_inb : ∀ i : grid0.Coords, ∀ a, (k0_off31 i) a + S1x1.size a ≤ S64x30.size a
  k0_off33_inb : ∀ i : grid0.Coords, ∀ a, (k0_off33 i) a + S1x1.size a ≤ S64x30.size a
  k0_off35_inb : ∀ i : grid0.Coords, ∀ a, (k0_off35 i) a + S1x1.size a ≤ S64x30.size a
  k0_off37_inb : ∀ i : grid0.Coords, ∀ a, (k0_off37 i) a + S1x1.size a ≤ S64x30.size a
  k0_off39_inb : ∀ i : grid0.Coords, ∀ a, (k0_off39 i) a + S1x1.size a ≤ S64x30.size a
  k0_off41_inb : ∀ i : grid0.Coords, ∀ a, (k0_off41 i) a + S1x1.size a ≤ S64x30.size a
  k0_off43_inb : ∀ i : grid0.Coords, ∀ a, (k0_off43 i) a + S1x1.size a ≤ S64x30.size a
  k0_off45_inb : ∀ i : grid0.Coords, ∀ a, (k0_off45 i) a + S1x1.size a ≤ S64x30.size a
  k0_off47_inb : ∀ i : grid0.Coords, ∀ a, (k0_off47 i) a + S1x1.size a ≤ S64x30.size a
  k0_off49_inb : ∀ i : grid0.Coords, ∀ a, (k0_off49 i) a + S1x1.size a ≤ S64x30.size a
  k0_off51_inb : ∀ i : grid0.Coords, ∀ a, (k0_off51 i) a + S1x1.size a ≤ S64x30.size a
  k0_off53_inb : ∀ i : grid0.Coords, ∀ a, (k0_off53 i) a + S1x1.size a ≤ S64x30.size a
  k0_off55_inb : ∀ i : grid0.Coords, ∀ a, (k0_off55 i) a + S1x1.size a ≤ S64x30.size a
  k0_off57_inb : ∀ i : grid0.Coords, ∀ a, (k0_off57 i) a + S1x1.size a ≤ S64x30.size a
  k0_off59_inb : ∀ i : grid0.Coords, ∀ a, (k0_off59 i) a + S1x1.size a ≤ S64x30.size a
  k0_off61_inb : ∀ i : grid0.Coords, ∀ a, (k0_off61 i) a + S1.size a ≤ S64.size a
  k0_off93_inb : ∀ i : grid0.Coords, ∀ a, (k0_off93 i) a + S1x1.size a ≤ S64x30.size a
  k0_off95_inb : ∀ i : grid0.Coords, ∀ a, (k0_off95 i) a + S1x1.size a ≤ S64x30.size a
  k0_off97_inb : ∀ i : grid0.Coords, ∀ a, (k0_off97 i) a + S1x1.size a ≤ S64x30.size a
  k0_off99_inb : ∀ i : grid0.Coords, ∀ a, (k0_off99 i) a + S1x1.size a ≤ S64x30.size a
  k0_off101_inb : ∀ i : grid0.Coords, ∀ a, (k0_off101 i) a + S1x1.size a ≤ S64x30.size a
  k0_off103_inb : ∀ i : grid0.Coords, ∀ a, (k0_off103 i) a + S1x1.size a ≤ S64x30.size a
  k0_off105_inb : ∀ i : grid0.Coords, ∀ a, (k0_off105 i) a + S1x1.size a ≤ S64x30.size a
  k0_off107_inb : ∀ i : grid0.Coords, ∀ a, (k0_off107 i) a + S1x1.size a ≤ S64x30.size a
  k0_off109_inb : ∀ i : grid0.Coords, ∀ a, (k0_off109 i) a + S1x1.size a ≤ S64x30.size a
  k0_off111_inb : ∀ i : grid0.Coords, ∀ a, (k0_off111 i) a + S1x1.size a ≤ S64x30.size a
  k0_off113_inb : ∀ i : grid0.Coords, ∀ a, (k0_off113 i) a + S1x1.size a ≤ S64x30.size a
  k0_off115_inb : ∀ i : grid0.Coords, ∀ a, (k0_off115 i) a + S1x1.size a ≤ S64x30.size a
  k0_off117_inb : ∀ i : grid0.Coords, ∀ a, (k0_off117 i) a + S1x1.size a ≤ S64x30.size a
  k0_off119_inb : ∀ i : grid0.Coords, ∀ a, (k0_off119 i) a + S1x1.size a ≤ S64x30.size a
  k0_off121_inb : ∀ i : grid0.Coords, ∀ a, (k0_off121 i) a + S1x1.size a ≤ S64x30.size a
  k0_off123_inb : ∀ i : grid0.Coords, ∀ a, (k0_off123 i) a + S1x1.size a ≤ S64x30.size a
  k0_off125_inb : ∀ i : grid0.Coords, ∀ a, (k0_off125 i) a + S1x1.size a ≤ S64x30.size a
  k0_off127_inb : ∀ i : grid0.Coords, ∀ a, (k0_off127 i) a + S1x1.size a ≤ S64x30.size a
  k0_off129_inb : ∀ i : grid0.Coords, ∀ a, (k0_off129 i) a + S1x1.size a ≤ S64x30.size a
  k0_off131_inb : ∀ i : grid0.Coords, ∀ a, (k0_off131 i) a + S1x1.size a ≤ S64x30.size a
  k0_off133_inb : ∀ i : grid0.Coords, ∀ a, (k0_off133 i) a + S1x1.size a ≤ S64x30.size a
  k0_off135_inb : ∀ i : grid0.Coords, ∀ a, (k0_off135 i) a + S1x1.size a ≤ S64x30.size a
  k0_off137_inb : ∀ i : grid0.Coords, ∀ a, (k0_off137 i) a + S1x1.size a ≤ S64x30.size a
  k0_off139_inb : ∀ i : grid0.Coords, ∀ a, (k0_off139 i) a + S1x1.size a ≤ S64x30.size a
  k0_off141_inb : ∀ i : grid0.Coords, ∀ a, (k0_off141 i) a + S1x1.size a ≤ S64x30.size a
  k0_off143_inb : ∀ i : grid0.Coords, ∀ a, (k0_off143 i) a + S1x1.size a ≤ S64x30.size a
  k0_off145_inb : ∀ i : grid0.Coords, ∀ a, (k0_off145 i) a + S1x1.size a ≤ S64x30.size a
  k0_off147_inb : ∀ i : grid0.Coords, ∀ a, (k0_off147 i) a + S1x1.size a ≤ S64x30.size a
  k0_off149_inb : ∀ i : grid0.Coords, ∀ a, (k0_off149 i) a + S1x1.size a ≤ S64x30.size a
  k0_off151_inb : ∀ i : grid0.Coords, ∀ a, (k0_off151 i) a + S1x1.size a ≤ S64x30.size a
  k0_off153_inb : ∀ i : grid0.Coords, ∀ a, (k0_off153 i) a + S1.size a ≤ S64.size a
  k0_off185_inb : ∀ i : grid0.Coords, ∀ a, (k0_off185 i) a + S1x1.size a ≤ S64x30.size a
  k0_off187_inb : ∀ i : grid0.Coords, ∀ a, (k0_off187 i) a + S1x1.size a ≤ S64x30.size a
  k0_off189_inb : ∀ i : grid0.Coords, ∀ a, (k0_off189 i) a + S1x1.size a ≤ S64x30.size a
  k0_off191_inb : ∀ i : grid0.Coords, ∀ a, (k0_off191 i) a + S1x1.size a ≤ S64x30.size a
  k0_off193_inb : ∀ i : grid0.Coords, ∀ a, (k0_off193 i) a + S1x1.size a ≤ S64x30.size a
  k0_off195_inb : ∀ i : grid0.Coords, ∀ a, (k0_off195 i) a + S1x1.size a ≤ S64x30.size a
  k0_off197_inb : ∀ i : grid0.Coords, ∀ a, (k0_off197 i) a + S1x1.size a ≤ S64x30.size a
  k0_off199_inb : ∀ i : grid0.Coords, ∀ a, (k0_off199 i) a + S1x1.size a ≤ S64x30.size a
  k0_off201_inb : ∀ i : grid0.Coords, ∀ a, (k0_off201 i) a + S1x1.size a ≤ S64x30.size a
  k0_off203_inb : ∀ i : grid0.Coords, ∀ a, (k0_off203 i) a + S1x1.size a ≤ S64x30.size a
  k0_off205_inb : ∀ i : grid0.Coords, ∀ a, (k0_off205 i) a + S1x1.size a ≤ S64x30.size a
  k0_off207_inb : ∀ i : grid0.Coords, ∀ a, (k0_off207 i) a + S1x1.size a ≤ S64x30.size a
  k0_off209_inb : ∀ i : grid0.Coords, ∀ a, (k0_off209 i) a + S1x1.size a ≤ S64x30.size a
  k0_off211_inb : ∀ i : grid0.Coords, ∀ a, (k0_off211 i) a + S1x1.size a ≤ S64x30.size a
  k0_off213_inb : ∀ i : grid0.Coords, ∀ a, (k0_off213 i) a + S1x1.size a ≤ S64x30.size a
  k0_off215_inb : ∀ i : grid0.Coords, ∀ a, (k0_off215 i) a + S1x1.size a ≤ S64x30.size a
  k0_off217_inb : ∀ i : grid0.Coords, ∀ a, (k0_off217 i) a + S1x1.size a ≤ S64x30.size a
  k0_off219_inb : ∀ i : grid0.Coords, ∀ a, (k0_off219 i) a + S1x1.size a ≤ S64x30.size a
  k0_off221_inb : ∀ i : grid0.Coords, ∀ a, (k0_off221 i) a + S1x1.size a ≤ S64x30.size a
  k0_off223_inb : ∀ i : grid0.Coords, ∀ a, (k0_off223 i) a + S1x1.size a ≤ S64x30.size a
  k0_off225_inb : ∀ i : grid0.Coords, ∀ a, (k0_off225 i) a + S1x1.size a ≤ S64x30.size a
  k0_off227_inb : ∀ i : grid0.Coords, ∀ a, (k0_off227 i) a + S1x1.size a ≤ S64x30.size a
  k0_off229_inb : ∀ i : grid0.Coords, ∀ a, (k0_off229 i) a + S1x1.size a ≤ S64x30.size a
  k0_off231_inb : ∀ i : grid0.Coords, ∀ a, (k0_off231 i) a + S1x1.size a ≤ S64x30.size a
  k0_off233_inb : ∀ i : grid0.Coords, ∀ a, (k0_off233 i) a + S1x1.size a ≤ S64x30.size a
  k0_off235_inb : ∀ i : grid0.Coords, ∀ a, (k0_off235 i) a + S1x1.size a ≤ S64x30.size a
  k0_off237_inb : ∀ i : grid0.Coords, ∀ a, (k0_off237 i) a + S1x1.size a ≤ S64x30.size a
  k0_off239_inb : ∀ i : grid0.Coords, ∀ a, (k0_off239 i) a + S1x1.size a ≤ S64x30.size a
  k0_off241_inb : ∀ i : grid0.Coords, ∀ a, (k0_off241 i) a + S1x1.size a ≤ S64x30.size a
  k0_off243_inb : ∀ i : grid0.Coords, ∀ a, (k0_off243 i) a + S1x1.size a ≤ S64x30.size a
  k0_off245_inb : ∀ i : grid0.Coords, ∀ a, (k0_off245 i) a + S1.size a ≤ S64.size a
  k0_off277_inb : ∀ i : grid0.Coords, ∀ a, (k0_off277 i) a + S1x1.size a ≤ S64x30.size a
  k0_off279_inb : ∀ i : grid0.Coords, ∀ a, (k0_off279 i) a + S1x1.size a ≤ S64x30.size a
  k0_off281_inb : ∀ i : grid0.Coords, ∀ a, (k0_off281 i) a + S1x1.size a ≤ S64x30.size a
  k0_off283_inb : ∀ i : grid0.Coords, ∀ a, (k0_off283 i) a + S1x1.size a ≤ S64x30.size a
  k0_off285_inb : ∀ i : grid0.Coords, ∀ a, (k0_off285 i) a + S1x1.size a ≤ S64x30.size a
  k0_off287_inb : ∀ i : grid0.Coords, ∀ a, (k0_off287 i) a + S1x1.size a ≤ S64x30.size a
  k0_off289_inb : ∀ i : grid0.Coords, ∀ a, (k0_off289 i) a + S1x1.size a ≤ S64x30.size a
  k0_off291_inb : ∀ i : grid0.Coords, ∀ a, (k0_off291 i) a + S1x1.size a ≤ S64x30.size a
  k0_off293_inb : ∀ i : grid0.Coords, ∀ a, (k0_off293 i) a + S1x1.size a ≤ S64x30.size a
  k0_off295_inb : ∀ i : grid0.Coords, ∀ a, (k0_off295 i) a + S1x1.size a ≤ S64x30.size a
  k0_off297_inb : ∀ i : grid0.Coords, ∀ a, (k0_off297 i) a + S1x1.size a ≤ S64x30.size a
  k0_off299_inb : ∀ i : grid0.Coords, ∀ a, (k0_off299 i) a + S1x1.size a ≤ S64x30.size a
  k0_off301_inb : ∀ i : grid0.Coords, ∀ a, (k0_off301 i) a + S1x1.size a ≤ S64x30.size a
  k0_off303_inb : ∀ i : grid0.Coords, ∀ a, (k0_off303 i) a + S1x1.size a ≤ S64x30.size a
  k0_off305_inb : ∀ i : grid0.Coords, ∀ a, (k0_off305 i) a + S1x1.size a ≤ S64x30.size a
  k0_off307_inb : ∀ i : grid0.Coords, ∀ a, (k0_off307 i) a + S1x1.size a ≤ S64x30.size a
  k0_off309_inb : ∀ i : grid0.Coords, ∀ a, (k0_off309 i) a + S1x1.size a ≤ S64x30.size a
  k0_off311_inb : ∀ i : grid0.Coords, ∀ a, (k0_off311 i) a + S1x1.size a ≤ S64x30.size a
  k0_off313_inb : ∀ i : grid0.Coords, ∀ a, (k0_off313 i) a + S1x1.size a ≤ S64x30.size a
  k0_off315_inb : ∀ i : grid0.Coords, ∀ a, (k0_off315 i) a + S1x1.size a ≤ S64x30.size a
  k0_off317_inb : ∀ i : grid0.Coords, ∀ a, (k0_off317 i) a + S1x1.size a ≤ S64x30.size a
  k0_off319_inb : ∀ i : grid0.Coords, ∀ a, (k0_off319 i) a + S1x1.size a ≤ S64x30.size a
  k0_off321_inb : ∀ i : grid0.Coords, ∀ a, (k0_off321 i) a + S1x1.size a ≤ S64x30.size a
  k0_off323_inb : ∀ i : grid0.Coords, ∀ a, (k0_off323 i) a + S1x1.size a ≤ S64x30.size a
  k0_off325_inb : ∀ i : grid0.Coords, ∀ a, (k0_off325 i) a + S1x1.size a ≤ S64x30.size a
  k0_off327_inb : ∀ i : grid0.Coords, ∀ a, (k0_off327 i) a + S1x1.size a ≤ S64x30.size a
  k0_off329_inb : ∀ i : grid0.Coords, ∀ a, (k0_off329 i) a + S1x1.size a ≤ S64x30.size a
  k0_off331_inb : ∀ i : grid0.Coords, ∀ a, (k0_off331 i) a + S1x1.size a ≤ S64x30.size a
  k0_off333_inb : ∀ i : grid0.Coords, ∀ a, (k0_off333 i) a + S1x1.size a ≤ S64x30.size a
  k0_off335_inb : ∀ i : grid0.Coords, ∀ a, (k0_off335 i) a + S1x1.size a ≤ S64x30.size a
  k0_off337_inb : ∀ i : grid0.Coords, ∀ a, (k0_off337 i) a + S1.size a ≤ S64.size a
  k0_off369_inb : ∀ i : grid0.Coords, ∀ a, (k0_off369 i) a + S1x1.size a ≤ S64x30.size a
  k0_off371_inb : ∀ i : grid0.Coords, ∀ a, (k0_off371 i) a + S1x1.size a ≤ S64x30.size a
  k0_off373_inb : ∀ i : grid0.Coords, ∀ a, (k0_off373 i) a + S1x1.size a ≤ S64x30.size a
  k0_off375_inb : ∀ i : grid0.Coords, ∀ a, (k0_off375 i) a + S1x1.size a ≤ S64x30.size a
  k0_off377_inb : ∀ i : grid0.Coords, ∀ a, (k0_off377 i) a + S1x1.size a ≤ S64x30.size a
  k0_off379_inb : ∀ i : grid0.Coords, ∀ a, (k0_off379 i) a + S1x1.size a ≤ S64x30.size a
  k0_off381_inb : ∀ i : grid0.Coords, ∀ a, (k0_off381 i) a + S1x1.size a ≤ S64x30.size a
  k0_off383_inb : ∀ i : grid0.Coords, ∀ a, (k0_off383 i) a + S1x1.size a ≤ S64x30.size a
  k0_off385_inb : ∀ i : grid0.Coords, ∀ a, (k0_off385 i) a + S1x1.size a ≤ S64x30.size a
  k0_off387_inb : ∀ i : grid0.Coords, ∀ a, (k0_off387 i) a + S1x1.size a ≤ S64x30.size a
  k0_off389_inb : ∀ i : grid0.Coords, ∀ a, (k0_off389 i) a + S1x1.size a ≤ S64x30.size a
  k0_off391_inb : ∀ i : grid0.Coords, ∀ a, (k0_off391 i) a + S1x1.size a ≤ S64x30.size a
  k0_off393_inb : ∀ i : grid0.Coords, ∀ a, (k0_off393 i) a + S1x1.size a ≤ S64x30.size a
  k0_off395_inb : ∀ i : grid0.Coords, ∀ a, (k0_off395 i) a + S1x1.size a ≤ S64x30.size a
  k0_off397_inb : ∀ i : grid0.Coords, ∀ a, (k0_off397 i) a + S1x1.size a ≤ S64x30.size a
  k0_off399_inb : ∀ i : grid0.Coords, ∀ a, (k0_off399 i) a + S1x1.size a ≤ S64x30.size a
  k0_off401_inb : ∀ i : grid0.Coords, ∀ a, (k0_off401 i) a + S1x1.size a ≤ S64x30.size a
  k0_off403_inb : ∀ i : grid0.Coords, ∀ a, (k0_off403 i) a + S1x1.size a ≤ S64x30.size a
  k0_off405_inb : ∀ i : grid0.Coords, ∀ a, (k0_off405 i) a + S1x1.size a ≤ S64x30.size a
  k0_off407_inb : ∀ i : grid0.Coords, ∀ a, (k0_off407 i) a + S1x1.size a ≤ S64x30.size a
  k0_off409_inb : ∀ i : grid0.Coords, ∀ a, (k0_off409 i) a + S1x1.size a ≤ S64x30.size a
  k0_off411_inb : ∀ i : grid0.Coords, ∀ a, (k0_off411 i) a + S1x1.size a ≤ S64x30.size a
  k0_off413_inb : ∀ i : grid0.Coords, ∀ a, (k0_off413 i) a + S1x1.size a ≤ S64x30.size a
  k0_off415_inb : ∀ i : grid0.Coords, ∀ a, (k0_off415 i) a + S1x1.size a ≤ S64x30.size a
  k0_off417_inb : ∀ i : grid0.Coords, ∀ a, (k0_off417 i) a + S1x1.size a ≤ S64x30.size a
  k0_off419_inb : ∀ i : grid0.Coords, ∀ a, (k0_off419 i) a + S1x1.size a ≤ S64x30.size a
  k0_off421_inb : ∀ i : grid0.Coords, ∀ a, (k0_off421 i) a + S1x1.size a ≤ S64x30.size a
  k0_off423_inb : ∀ i : grid0.Coords, ∀ a, (k0_off423 i) a + S1x1.size a ≤ S64x30.size a
  k0_off425_inb : ∀ i : grid0.Coords, ∀ a, (k0_off425 i) a + S1x1.size a ≤ S64x30.size a
  k0_off427_inb : ∀ i : grid0.Coords, ∀ a, (k0_off427 i) a + S1x1.size a ≤ S64x30.size a
  k0_off429_inb : ∀ i : grid0.Coords, ∀ a, (k0_off429 i) a + S1.size a ≤ S64.size a
  k0_off461_inb : ∀ i : grid0.Coords, ∀ a, (k0_off461 i) a + S1x1.size a ≤ S64x30.size a
  k0_off463_inb : ∀ i : grid0.Coords, ∀ a, (k0_off463 i) a + S1x1.size a ≤ S64x30.size a
  k0_off465_inb : ∀ i : grid0.Coords, ∀ a, (k0_off465 i) a + S1x1.size a ≤ S64x30.size a
  k0_off467_inb : ∀ i : grid0.Coords, ∀ a, (k0_off467 i) a + S1x1.size a ≤ S64x30.size a
  k0_off469_inb : ∀ i : grid0.Coords, ∀ a, (k0_off469 i) a + S1x1.size a ≤ S64x30.size a
  k0_off471_inb : ∀ i : grid0.Coords, ∀ a, (k0_off471 i) a + S1x1.size a ≤ S64x30.size a
  k0_off473_inb : ∀ i : grid0.Coords, ∀ a, (k0_off473 i) a + S1x1.size a ≤ S64x30.size a
  k0_off475_inb : ∀ i : grid0.Coords, ∀ a, (k0_off475 i) a + S1x1.size a ≤ S64x30.size a
  k0_off477_inb : ∀ i : grid0.Coords, ∀ a, (k0_off477 i) a + S1x1.size a ≤ S64x30.size a
  k0_off479_inb : ∀ i : grid0.Coords, ∀ a, (k0_off479 i) a + S1x1.size a ≤ S64x30.size a
  k0_off481_inb : ∀ i : grid0.Coords, ∀ a, (k0_off481 i) a + S1x1.size a ≤ S64x30.size a
  k0_off483_inb : ∀ i : grid0.Coords, ∀ a, (k0_off483 i) a + S1x1.size a ≤ S64x30.size a
  k0_off485_inb : ∀ i : grid0.Coords, ∀ a, (k0_off485 i) a + S1x1.size a ≤ S64x30.size a
  k0_off487_inb : ∀ i : grid0.Coords, ∀ a, (k0_off487 i) a + S1x1.size a ≤ S64x30.size a
  k0_off489_inb : ∀ i : grid0.Coords, ∀ a, (k0_off489 i) a + S1x1.size a ≤ S64x30.size a
  k0_off491_inb : ∀ i : grid0.Coords, ∀ a, (k0_off491 i) a + S1x1.size a ≤ S64x30.size a
  k0_off493_inb : ∀ i : grid0.Coords, ∀ a, (k0_off493 i) a + S1x1.size a ≤ S64x30.size a
  k0_off495_inb : ∀ i : grid0.Coords, ∀ a, (k0_off495 i) a + S1x1.size a ≤ S64x30.size a
  k0_off497_inb : ∀ i : grid0.Coords, ∀ a, (k0_off497 i) a + S1x1.size a ≤ S64x30.size a
  k0_off499_inb : ∀ i : grid0.Coords, ∀ a, (k0_off499 i) a + S1x1.size a ≤ S64x30.size a
  k0_off501_inb : ∀ i : grid0.Coords, ∀ a, (k0_off501 i) a + S1x1.size a ≤ S64x30.size a
  k0_off503_inb : ∀ i : grid0.Coords, ∀ a, (k0_off503 i) a + S1x1.size a ≤ S64x30.size a
  k0_off505_inb : ∀ i : grid0.Coords, ∀ a, (k0_off505 i) a + S1x1.size a ≤ S64x30.size a
  k0_off507_inb : ∀ i : grid0.Coords, ∀ a, (k0_off507 i) a + S1x1.size a ≤ S64x30.size a
  k0_off509_inb : ∀ i : grid0.Coords, ∀ a, (k0_off509 i) a + S1x1.size a ≤ S64x30.size a
  k0_off511_inb : ∀ i : grid0.Coords, ∀ a, (k0_off511 i) a + S1x1.size a ≤ S64x30.size a
  k0_off513_inb : ∀ i : grid0.Coords, ∀ a, (k0_off513 i) a + S1x1.size a ≤ S64x30.size a
  k0_off515_inb : ∀ i : grid0.Coords, ∀ a, (k0_off515 i) a + S1x1.size a ≤ S64x30.size a
  k0_off517_inb : ∀ i : grid0.Coords, ∀ a, (k0_off517 i) a + S1x1.size a ≤ S64x30.size a
  k0_off519_inb : ∀ i : grid0.Coords, ∀ a, (k0_off519 i) a + S1x1.size a ≤ S64x30.size a
  k0_off521_inb : ∀ i : grid0.Coords, ∀ a, (k0_off521 i) a + S1.size a ≤ S64.size a
  k0_off553_inb : ∀ i : grid0.Coords, ∀ a, (k0_off553 i) a + S1x1.size a ≤ S64x30.size a
  k0_off555_inb : ∀ i : grid0.Coords, ∀ a, (k0_off555 i) a + S1x1.size a ≤ S64x30.size a
  k0_off557_inb : ∀ i : grid0.Coords, ∀ a, (k0_off557 i) a + S1x1.size a ≤ S64x30.size a
  k0_off559_inb : ∀ i : grid0.Coords, ∀ a, (k0_off559 i) a + S1x1.size a ≤ S64x30.size a
  k0_off561_inb : ∀ i : grid0.Coords, ∀ a, (k0_off561 i) a + S1x1.size a ≤ S64x30.size a
  k0_off563_inb : ∀ i : grid0.Coords, ∀ a, (k0_off563 i) a + S1x1.size a ≤ S64x30.size a
  k0_off565_inb : ∀ i : grid0.Coords, ∀ a, (k0_off565 i) a + S1x1.size a ≤ S64x30.size a
  k0_off567_inb : ∀ i : grid0.Coords, ∀ a, (k0_off567 i) a + S1x1.size a ≤ S64x30.size a
  k0_off569_inb : ∀ i : grid0.Coords, ∀ a, (k0_off569 i) a + S1x1.size a ≤ S64x30.size a
  k0_off571_inb : ∀ i : grid0.Coords, ∀ a, (k0_off571 i) a + S1x1.size a ≤ S64x30.size a
  k0_off573_inb : ∀ i : grid0.Coords, ∀ a, (k0_off573 i) a + S1x1.size a ≤ S64x30.size a
  k0_off575_inb : ∀ i : grid0.Coords, ∀ a, (k0_off575 i) a + S1x1.size a ≤ S64x30.size a
  k0_off577_inb : ∀ i : grid0.Coords, ∀ a, (k0_off577 i) a + S1x1.size a ≤ S64x30.size a
  k0_off579_inb : ∀ i : grid0.Coords, ∀ a, (k0_off579 i) a + S1x1.size a ≤ S64x30.size a
  k0_off581_inb : ∀ i : grid0.Coords, ∀ a, (k0_off581 i) a + S1x1.size a ≤ S64x30.size a
  k0_off583_inb : ∀ i : grid0.Coords, ∀ a, (k0_off583 i) a + S1x1.size a ≤ S64x30.size a
  k0_off585_inb : ∀ i : grid0.Coords, ∀ a, (k0_off585 i) a + S1x1.size a ≤ S64x30.size a
  k0_off587_inb : ∀ i : grid0.Coords, ∀ a, (k0_off587 i) a + S1x1.size a ≤ S64x30.size a
  k0_off589_inb : ∀ i : grid0.Coords, ∀ a, (k0_off589 i) a + S1x1.size a ≤ S64x30.size a
  k0_off591_inb : ∀ i : grid0.Coords, ∀ a, (k0_off591 i) a + S1x1.size a ≤ S64x30.size a
  k0_off593_inb : ∀ i : grid0.Coords, ∀ a, (k0_off593 i) a + S1x1.size a ≤ S64x30.size a
  k0_off595_inb : ∀ i : grid0.Coords, ∀ a, (k0_off595 i) a + S1x1.size a ≤ S64x30.size a
  k0_off597_inb : ∀ i : grid0.Coords, ∀ a, (k0_off597 i) a + S1x1.size a ≤ S64x30.size a
  k0_off599_inb : ∀ i : grid0.Coords, ∀ a, (k0_off599 i) a + S1x1.size a ≤ S64x30.size a
  k0_off601_inb : ∀ i : grid0.Coords, ∀ a, (k0_off601 i) a + S1x1.size a ≤ S64x30.size a
  k0_off603_inb : ∀ i : grid0.Coords, ∀ a, (k0_off603 i) a + S1x1.size a ≤ S64x30.size a
  k0_off605_inb : ∀ i : grid0.Coords, ∀ a, (k0_off605 i) a + S1x1.size a ≤ S64x30.size a
  k0_off607_inb : ∀ i : grid0.Coords, ∀ a, (k0_off607 i) a + S1x1.size a ≤ S64x30.size a
  k0_off609_inb : ∀ i : grid0.Coords, ∀ a, (k0_off609 i) a + S1x1.size a ≤ S64x30.size a
  k0_off611_inb : ∀ i : grid0.Coords, ∀ a, (k0_off611 i) a + S1x1.size a ≤ S64x30.size a
  k0_off613_inb : ∀ i : grid0.Coords, ∀ a, (k0_off613 i) a + S1.size a ≤ S64.size a
  k0_off645_inb : ∀ i : grid0.Coords, ∀ a, (k0_off645 i) a + S1x1.size a ≤ S64x30.size a
  k0_off647_inb : ∀ i : grid0.Coords, ∀ a, (k0_off647 i) a + S1x1.size a ≤ S64x30.size a
  k0_off649_inb : ∀ i : grid0.Coords, ∀ a, (k0_off649 i) a + S1x1.size a ≤ S64x30.size a
  k0_off651_inb : ∀ i : grid0.Coords, ∀ a, (k0_off651 i) a + S1x1.size a ≤ S64x30.size a
  k0_off653_inb : ∀ i : grid0.Coords, ∀ a, (k0_off653 i) a + S1x1.size a ≤ S64x30.size a
  k0_off655_inb : ∀ i : grid0.Coords, ∀ a, (k0_off655 i) a + S1x1.size a ≤ S64x30.size a
  k0_off657_inb : ∀ i : grid0.Coords, ∀ a, (k0_off657 i) a + S1x1.size a ≤ S64x30.size a
  k0_off659_inb : ∀ i : grid0.Coords, ∀ a, (k0_off659 i) a + S1x1.size a ≤ S64x30.size a
  k0_off661_inb : ∀ i : grid0.Coords, ∀ a, (k0_off661 i) a + S1x1.size a ≤ S64x30.size a
  k0_off663_inb : ∀ i : grid0.Coords, ∀ a, (k0_off663 i) a + S1x1.size a ≤ S64x30.size a
  k0_off665_inb : ∀ i : grid0.Coords, ∀ a, (k0_off665 i) a + S1x1.size a ≤ S64x30.size a
  k0_off667_inb : ∀ i : grid0.Coords, ∀ a, (k0_off667 i) a + S1x1.size a ≤ S64x30.size a
  k0_off669_inb : ∀ i : grid0.Coords, ∀ a, (k0_off669 i) a + S1x1.size a ≤ S64x30.size a
  k0_off671_inb : ∀ i : grid0.Coords, ∀ a, (k0_off671 i) a + S1x1.size a ≤ S64x30.size a
  k0_off673_inb : ∀ i : grid0.Coords, ∀ a, (k0_off673 i) a + S1x1.size a ≤ S64x30.size a
  k0_off675_inb : ∀ i : grid0.Coords, ∀ a, (k0_off675 i) a + S1x1.size a ≤ S64x30.size a
  k0_off677_inb : ∀ i : grid0.Coords, ∀ a, (k0_off677 i) a + S1x1.size a ≤ S64x30.size a
  k0_off679_inb : ∀ i : grid0.Coords, ∀ a, (k0_off679 i) a + S1x1.size a ≤ S64x30.size a
  k0_off681_inb : ∀ i : grid0.Coords, ∀ a, (k0_off681 i) a + S1x1.size a ≤ S64x30.size a
  k0_off683_inb : ∀ i : grid0.Coords, ∀ a, (k0_off683 i) a + S1x1.size a ≤ S64x30.size a
  k0_off685_inb : ∀ i : grid0.Coords, ∀ a, (k0_off685 i) a + S1x1.size a ≤ S64x30.size a
  k0_off687_inb : ∀ i : grid0.Coords, ∀ a, (k0_off687 i) a + S1x1.size a ≤ S64x30.size a
  k0_off689_inb : ∀ i : grid0.Coords, ∀ a, (k0_off689 i) a + S1x1.size a ≤ S64x30.size a
  k0_off691_inb : ∀ i : grid0.Coords, ∀ a, (k0_off691 i) a + S1x1.size a ≤ S64x30.size a
  k0_off693_inb : ∀ i : grid0.Coords, ∀ a, (k0_off693 i) a + S1x1.size a ≤ S64x30.size a
  k0_off695_inb : ∀ i : grid0.Coords, ∀ a, (k0_off695 i) a + S1x1.size a ≤ S64x30.size a
  k0_off697_inb : ∀ i : grid0.Coords, ∀ a, (k0_off697 i) a + S1x1.size a ≤ S64x30.size a
  k0_off699_inb : ∀ i : grid0.Coords, ∀ a, (k0_off699 i) a + S1x1.size a ≤ S64x30.size a
  k0_off701_inb : ∀ i : grid0.Coords, ∀ a, (k0_off701 i) a + S1x1.size a ≤ S64x30.size a
  k0_off703_inb : ∀ i : grid0.Coords, ∀ a, (k0_off703 i) a + S1x1.size a ≤ S64x30.size a
  k0_off705_inb : ∀ i : grid0.Coords, ∀ a, (k0_off705 i) a + S1.size a ≤ S64.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S25x10000.size a ≤ S25x10000.size a
  hwx0_0 : ∀ i : grid0.Coords, EltTy.bits .f32 = 32 ∨ (Rect.block (s := S25x10000) S25x10000.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S8x10000.size a ≤ S64x10000.size a
  hwx0_1 : ∀ i : grid0.Coords, EltTy.bits .f32 = 32 ∨ (Rect.block (s := S64x10000) S8x10000.size (cc0_transform_3 i) (hinb0_1 i)).WholeWords (EltTy.packing .f32)

variable [Facts₀]

abbrev cc0_scratch62 : DmaSems sig S31 := SemArray.consecutive 3 S31 hcc0_scratch62

abbrev spec0_0 : Pipeline.WinSpec sig grid0.rank :=
  Pipeline.WinSpec.ofSpec (Memref.whole main_v24) S25x10000.size reads0_0 false true 1 stage0_0 sem0_0 nbuf0_0 hstage0_0

abbrev spec0_1 : Pipeline.WinSpec sig grid0.rank :=
  Pipeline.WinSpec.ofSpec (Memref.whole main_v25) S8x10000.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_2 | 1 => cc0_transform_3 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x4x32 : Shape := ⟨3, ![64, 4, 32]⟩
abbrev S32x10000 : Shape := ⟨2, ![32, 10000]⟩
abbrev S3000x10000 : Shape := ⟨2, ![3000, 10000]⟩
abbrev S200x10000 : Shape := ⟨2, ![200, 10000]⟩
abbrev S64x4x31 : Shape := ⟨3, ![64, 4, 31]⟩
abbrev S64x4x1 : Shape := ⟨3, ![64, 4, 1]⟩
abbrev S_ : Shape := ⟨0, ![]⟩
abbrev S64x4x31x1 : Shape := ⟨4, ![64, 4, 31, 1]⟩
abbrev S64x4x31x10000 : Shape := ⟨4, ![64, 4, 31, 10000]⟩
abbrev S64x4x1x1 : Shape := ⟨4, ![64, 4, 1, 1]⟩
abbrev S64x4x1x10000 : Shape := ⟨4, ![64, 4, 1, 10000]⟩
abbrev S64x4x32x10000 : Shape := ⟨4, ![64, 4, 32, 10000]⟩
abbrev S64x1x32x10000 : Shape := ⟨4, ![64, 1, 32, 10000]⟩
abbrev S64x32x10000 : Shape := ⟨3, ![64, 32, 10000]⟩
abbrev S64x25x10000 : Shape := ⟨3, ![64, 25, 10000]⟩
abbrev S64x25x6 : Shape := ⟨3, ![64, 25, 6]⟩
abbrev S64x25x9994 : Shape := ⟨3, ![64, 25, 9994]⟩
abbrev S64x25x5 : Shape := ⟨3, ![64, 25, 5]⟩
abbrev S64x25x9995 : Shape := ⟨3, ![64, 25, 9995]⟩
abbrev S64x25x4 : Shape := ⟨3, ![64, 25, 4]⟩
abbrev S64x25x9996 : Shape := ⟨3, ![64, 25, 9996]⟩
abbrev S64x25x3 : Shape := ⟨3, ![64, 25, 3]⟩
abbrev S64x25x9997 : Shape := ⟨3, ![64, 25, 9997]⟩
abbrev S64x25x2 : Shape := ⟨3, ![64, 25, 2]⟩
abbrev S64x25x9998 : Shape := ⟨3, ![64, 25, 9998]⟩
abbrev S64x25x1 : Shape := ⟨3, ![64, 25, 1]⟩
abbrev S64x25x9999 : Shape := ⟨3, ![64, 25, 9999]⟩
abbrev S64x25x0 : Shape := ⟨3, ![64, 25, 0]⟩
abbrev S25x10000 : Shape := ⟨2, ![25, 10000]⟩
abbrev S1x25x10000 : Shape := ⟨3, ![1, 25, 10000]⟩
abbrev S64x10000 : Shape := ⟨2, ![64, 10000]⟩

abbrev nBuf : Space → Nat
  | .hbm => 118
  | .vmem => 0
  | .smem => 0
  | _ => 0

abbrev bufTy : (tb : Table) → Fin (tcTables nBuf tb) → BufTy
  | .hbm, ⟨0, _⟩ => ⟨S64x4x32, .f32⟩
  | .hbm, ⟨1, _⟩ => ⟨S32x10000, .f32⟩
  | .hbm, ⟨2, _⟩ => ⟨S3000x10000, .f32⟩
  | .hbm, ⟨3, _⟩ => ⟨S200x10000, .f32⟩
  | .hbm, ⟨4, _⟩ => ⟨S64x4x31, .f32⟩
  | .hbm, ⟨5, _⟩ => ⟨S64x4x1, .f32⟩
  | .hbm, ⟨6, _⟩ => ⟨S_, .f32⟩
  | .hbm, ⟨7, _⟩ => ⟨S64x4x31, .f32⟩
  | .hbm, ⟨8, _⟩ => ⟨S64x4x31, .f32⟩
  | .hbm, ⟨9, _⟩ => ⟨S_, .f32⟩
  | .hbm, ⟨10, _⟩ => ⟨S64x4x31, .f32⟩
  | .hbm, ⟨11, _⟩ => ⟨S64x4x31, .f32⟩
  | .hbm, ⟨12, _⟩ => ⟨S_, .f32⟩
  | .hbm, ⟨13, _⟩ => ⟨S64x4x31, .f32⟩
  | .hbm, ⟨14, _⟩ => ⟨S64x4x31, .f32⟩
  | .hbm, ⟨15, _⟩ => ⟨S64x4x31, .f32⟩
  | .hbm, ⟨16, _⟩ => ⟨S64x4x31, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64x4x31, .i32⟩
  | .hbm, ⟨21, _⟩ => ⟨S64x4x31, .i32⟩
  | .hbm, ⟨22, _⟩ => ⟨S_, .i32⟩
  | .hbm, ⟨23, _⟩ => ⟨S64x4x31, .i32⟩
  | .hbm, ⟨24, _⟩ => ⟨S64x4x31, .i32⟩
  | .hbm, ⟨25, _⟩ => ⟨S_, .i32⟩
  | .hbm, ⟨26, _⟩ => ⟨S64x4x31, .i32⟩
  | .hbm, ⟨27, _⟩ => ⟨S64x4x31, .i1⟩
  | .hbm, ⟨28, _⟩ => ⟨S_, .i32⟩
  | .hbm, ⟨29, _⟩ => ⟨S64x4x31, .i32⟩
  | .hbm, ⟨30, _⟩ => ⟨S64x4x31, .i32⟩
  | .hbm, ⟨31, _⟩ => ⟨S64x4x31, .i32⟩
  | .hbm, ⟨32, _⟩ => ⟨S64x4x31x1, .i32⟩
  | .hbm, ⟨33, _⟩ => ⟨S64x4x31x10000, .f32⟩
  | .hbm, ⟨34, _⟩ => ⟨S_, .f32⟩
  | .hbm, ⟨35, _⟩ => ⟨S64x4x1, .f32⟩
  | .hbm, ⟨36, _⟩ => ⟨S64x4x1, .f32⟩
  | .hbm, ⟨37, _⟩ => ⟨S_, .f32⟩
  | .hbm, ⟨38, _⟩ => ⟨S64x4x1, .f32⟩
  | .hbm, ⟨39, _⟩ => ⟨S64x4x1, .f32⟩
  | .hbm, ⟨40, _⟩ => ⟨S_, .f32⟩
  | .hbm, ⟨41, _⟩ => ⟨S64x4x1, .f32⟩
  | .hbm, ⟨42, _⟩ => ⟨S64x4x1, .f32⟩
  | .hbm, ⟨43, _⟩ => ⟨S64x4x1, .f32⟩
  | .hbm, ⟨44, _⟩ => ⟨S64x4x1, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S64x4x1, .i32⟩
  | .hbm, ⟨49, _⟩ => ⟨S64x4x1, .i32⟩
  | .hbm, ⟨50, _⟩ => ⟨S_, .i32⟩
  | .hbm, ⟨51, _⟩ => ⟨S64x4x1, .i32⟩
  | .hbm, ⟨52, _⟩ => ⟨S64x4x1, .i32⟩
  | .hbm, ⟨53, _⟩ => ⟨S_, .i32⟩
  | .hbm, ⟨54, _⟩ => ⟨S64x4x1, .i32⟩
  | .hbm, ⟨55, _⟩ => ⟨S64x4x1, .i1⟩
  | .hbm, ⟨56, _⟩ => ⟨S_, .i32⟩
  | .hbm, ⟨57, _⟩ => ⟨S64x4x1, .i32⟩
  | .hbm, ⟨58, _⟩ => ⟨S64x4x1, .i32⟩
  | .hbm, ⟨59, _⟩ => ⟨S64x4x1, .i32⟩
  | .hbm, ⟨60, _⟩ => ⟨S64x4x1x1, .i32⟩
  | .hbm, ⟨61, _⟩ => ⟨S64x4x1x10000, .f32⟩
  | .hbm, ⟨62, _⟩ => ⟨S64x4x32x10000, .f32⟩
  | .hbm, ⟨63, _⟩ => ⟨S64x1x32x10000, .f32⟩
  | .hbm, ⟨64, _⟩ => ⟨S64x32x10000, .f32⟩
  | .hbm, ⟨65, _⟩ => ⟨S64x25x10000, .f32⟩
  | .hbm, ⟨66, _⟩ => ⟨S_, .f32⟩
  | .hbm, ⟨67, _⟩ => ⟨S64x25x10000, .f32⟩
  | .hbm, ⟨68, _⟩ => ⟨S64x25x10000, .f32⟩
  | .hbm, ⟨69, _⟩ => ⟨S64x25x6, .f32⟩
  | .hbm, ⟨70, _⟩ => ⟨S64x25x9994, .f32⟩
  | .hbm, ⟨71, _⟩ => ⟨S64x25x10000, .f32⟩
  | .hbm, ⟨72, _⟩ => ⟨S64x25x10000, .f32⟩
  | .hbm, ⟨73, _⟩ => ⟨S64x25x10000, .f32⟩
  | .hbm, ⟨74, _⟩ => ⟨S64x25x5, .f32⟩
  | .hbm, ⟨75, _⟩ => ⟨S64x25x9995, .f32⟩
  | .hbm, ⟨76, _⟩ => ⟨S64x25x10000, .f32⟩
  | .hbm, ⟨77, _⟩ => ⟨S64x25x10000, .f32⟩
  | .hbm, ⟨78, _⟩ => ⟨S64x25x10000, .f32⟩
  | .hbm, ⟨79, _⟩ => ⟨S64x25x4, .f32⟩
  | .hbm, ⟨80, _⟩ => ⟨S64x25x9996, .f32⟩
  | .hbm, ⟨81, _⟩ => ⟨S64x25x10000, .f32⟩
  | .hbm, ⟨82, _⟩ => ⟨S64x25x10000, .f32⟩
  | .hbm, ⟨83, _⟩ => ⟨S64x25x10000, .f32⟩
  | .hbm, ⟨84, _⟩ => ⟨S64x25x3, .f32⟩
  | .hbm, ⟨85, _⟩ => ⟨S64x25x9997, .f32⟩
  | .hbm, ⟨86, _⟩ => ⟨S64x25x10000, .f32⟩
  | .hbm, ⟨87, _⟩ => ⟨S64x25x10000, .f32⟩
  | .hbm, ⟨88, _⟩ => ⟨S64x25x10000, .f32⟩
  | .hbm, ⟨89, _⟩ => ⟨S64x25x2, .f32⟩
  | .hbm, ⟨90, _⟩ => ⟨S64x25x9998, .f32⟩
  | .hbm, ⟨91, _⟩ => ⟨S64x25x10000, .f32⟩
  | .hbm, ⟨92, _⟩ => ⟨S64x25x10000, .f32⟩
  | .hbm, ⟨93, _⟩ => ⟨S64x25x10000, .f32⟩
  | .hbm, ⟨94, _⟩ => ⟨S64x25x1, .f32⟩
  | .hbm, ⟨95, _⟩ => ⟨S64x25x9999, .f32⟩
  | .hbm, ⟨96, _⟩ => ⟨S64x25x10000, .f32⟩
  | .hbm, ⟨97, _⟩ => ⟨S64x25x10000, .f32⟩
  | .hbm, ⟨98, _⟩ => ⟨S64x25x10000, .f32⟩
  | .hbm, ⟨99, _⟩ => ⟨S64x25x10000, .f32⟩
  | .hbm, ⟨100, _⟩ => ⟨S64x25x0, .f32⟩
  | .hbm, ⟨101, _⟩ => ⟨S64x25x10000, .f32⟩
  | .hbm, ⟨102, _⟩ => ⟨S64x25x10000, .f32⟩
  | .hbm, ⟨103, _⟩ => ⟨S25x10000, .f32⟩
  | .hbm, ⟨104, _⟩ => ⟨S1x25x10000, .f32⟩
  | .hbm, ⟨105, _⟩ => ⟨S64x25x10000, .f32⟩
  | .hbm, ⟨106, _⟩ => ⟨S64x25x10000, .f32⟩
  | .hbm, ⟨107, _⟩ => ⟨S_, .f32⟩
  | .hbm, ⟨108, _⟩ => ⟨S64x10000, .f32⟩
  | .hbm, ⟨109, _⟩ => ⟨S_, .f32⟩
  | .hbm, ⟨110, _⟩ => ⟨S64x10000, .f32⟩
  | .hbm, ⟨111, _⟩ => ⟨S64x10000, .i1⟩
  | .hbm, ⟨112, _⟩ => ⟨S_, .f32⟩
  | .hbm, ⟨113, _⟩ => ⟨S_, .f32⟩
  | .hbm, ⟨114, _⟩ => ⟨S64x10000, .f32⟩
  | .hbm, ⟨115, _⟩ => ⟨S64x10000, .f32⟩
  | .hbm, ⟨116, _⟩ => ⟨S64x10000, .f32⟩
  | .hbm, ⟨117, _⟩ => ⟨S64x10000, .f32⟩
  | _, _ => ⟨S64x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_c_9 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v26 : Ref sig .tc := ⟨.hbm, 52, rfl⟩
abbrev main_c_10 : Ref sig .tc := ⟨.hbm, 53, rfl⟩
abbrev main_v27 : Ref sig .tc := ⟨.hbm, 54, rfl⟩
abbrev main_v28 : Ref sig .tc := ⟨.hbm, 55, rfl⟩
abbrev main_c_11 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_call4_v0 : Ref sig .tc := ⟨.hbm, 69, rfl⟩
abbrev main_call4_v1 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call5_v0 : Ref sig .tc := ⟨.hbm, 74, rfl⟩
abbrev main_call5_v1 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call6_v0 : Ref sig .tc := ⟨.hbm, 79, rfl⟩
abbrev main_call6_v1 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call7_v0 : Ref sig .tc := ⟨.hbm, 84, rfl⟩
abbrev main_call7_v1 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call8_v0 : Ref sig .tc := ⟨.hbm, 89, rfl⟩
abbrev main_call8_v1 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call9_v0 : Ref sig .tc := ⟨.hbm, 94, rfl⟩
abbrev main_call9_v1 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call10_v0 : Ref sig .tc := ⟨.hbm, 99, rfl⟩
abbrev main_call10_v1 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_cst_14 : Ref sig .tc := ⟨.hbm, 109, rfl⟩
abbrev main_v65 : Ref sig .tc := ⟨.hbm, 110, rfl⟩
abbrev main_v66 : Ref sig .tc := ⟨.hbm, 111, rfl⟩
abbrev main_cst_15 : Ref sig .tc := ⟨.hbm, 112, rfl⟩
abbrev main_cst_16 : Ref sig .tc := ⟨.hbm, 113, rfl⟩
abbrev main_call11_v0 : Ref sig .tc := ⟨.hbm, 114, rfl⟩
abbrev main_call11_v1 : Ref sig .tc := ⟨.hbm, 115, rfl⟩
abbrev main_v67 : Ref sig .tc := ⟨.hbm, 116, rfl⟩
abbrev main_v68 : Ref sig .tc := ⟨.hbm, 117, rfl⟩

abbrev nD : Nat := 1
abbrev τ : Topo := Topo.v7x

variable {F : FTy → Type} [FloatOps F]

class Facts₀ : Prop where
  slices_S64x4x32_S64x4x31_0_0_0 : S64x4x32.Slices ![0, 0, 0] S64x4x31
  slices_S64x4x32_S64x4x1_0_0_31 : S64x4x32.Slices ![0, 0, 31] S64x4x1
  bcast_S_S64x4x31 : S_.BroadcastsInDim S64x4x31 (![] : Fin 0 → Fin S64x4x31.rank)
  bcast_S64x4x31_S64x4x31x1_0_1_2 : S64x4x31.BroadcastsInDim S64x4x31x1 (![0, 1, 2] : Fin 3 → Fin S64x4x31x1.rank)
  bcast_S_S64x4x1 : S_.BroadcastsInDim S64x4x1 (![] : Fin 0 → Fin S64x4x1.rank)
  bcast_S64x4x1_S64x4x1x1_0_1_2 : S64x4x1.BroadcastsInDim S64x4x1x1 (![0, 1, 2] : Fin 3 → Fin S64x4x1x1.rank)
  concatenates_S64x4x31x10000_S64x4x1x10000_S64x4x32x10000_d2 : Shape.Concatenates [S64x4x31x10000, S64x4x1x10000] S64x4x32x10000 2
  slices_S64x4x32x10000_S64x1x32x10000_0_0_0_0 : S64x4x32x10000.Slices ![0, 0, 0, 0] S64x1x32x10000
  shapeCasts_S64x1x32x10000_S64x32x10000 : S64x1x32x10000.ShapeCasts S64x32x10000
  slices_S64x32x10000_S64x25x10000_0_0_0 : S64x32x10000.Slices ![0, 0, 0] S64x25x10000
  bcast_S_S64x25x10000 : S_.BroadcastsInDim S64x25x10000 (![] : Fin 0 → Fin S64x25x10000.rank)
  slices_S64x32x10000_S64x25x10000_0_1_0 : S64x32x10000.Slices ![0, 1, 0] S64x25x10000
  slices_S64x25x10000_S64x25x6_0_0_9994 : S64x25x10000.Slices ![0, 0, 9994] S64x25x6
  slices_S64x25x10000_S64x25x9994_0_0_0 : S64x25x10000.Slices ![0, 0, 0] S64x25x9994
  concatenates_S64x25x6_S64x25x9994_S64x25x10000_d2 : Shape.Concatenates [S64x25x6, S64x25x9994] S64x25x10000 2
  slices_S64x32x10000_S64x25x10000_0_2_0 : S64x32x10000.Slices ![0, 2, 0] S64x25x10000
  slices_S64x25x10000_S64x25x5_0_0_9995 : S64x25x10000.Slices ![0, 0, 9995] S64x25x5
  slices_S64x25x10000_S64x25x9995_0_0_0 : S64x25x10000.Slices ![0, 0, 0] S64x25x9995
  concatenates_S64x25x5_S64x25x9995_S64x25x10000_d2 : Shape.Concatenates [S64x25x5, S64x25x9995] S64x25x10000 2
  slices_S64x32x10000_S64x25x10000_0_3_0 : S64x32x10000.Slices ![0, 3, 0] S64x25x10000
  slices_S64x25x10000_S64x25x4_0_0_9996 : S64x25x10000.Slices ![0, 0, 9996] S64x25x4
  slices_S64x25x10000_S64x25x9996_0_0_0 : S64x25x10000.Slices ![0, 0, 0] S64x25x9996
  concatenates_S64x25x4_S64x25x9996_S64x25x10000_d2 : Shape.Concatenates [S64x25x4, S64x25x9996] S64x25x10000 2
  slices_S64x32x10000_S64x25x10000_0_4_0 : S64x32x10000.Slices ![0, 4, 0] S64x25x10000
  slices_S64x25x10000_S64x25x3_0_0_9997 : S64x25x10000.Slices ![0, 0, 9997] S64x25x3
  slices_S64x25x10000_S64x25x9997_0_0_0 : S64x25x10000.Slices ![0, 0, 0] S64x25x9997
  concatenates_S64x25x3_S64x25x9997_S64x25x10000_d2 : Shape.Concatenates [S64x25x3, S64x25x9997] S64x25x10000 2
  slices_S64x32x10000_S64x25x10000_0_5_0 : S64x32x10000.Slices ![0, 5, 0] S64x25x10000
  slices_S64x25x10000_S64x25x2_0_0_9998 : S64x25x10000.Slices ![0, 0, 9998] S64x25x2
  slices_S64x25x10000_S64x25x9998_0_0_0 : S64x25x10000.Slices ![0, 0, 0] S64x25x9998
  concatenates_S64x25x2_S64x25x9998_S64x25x10000_d2 : Shape.Concatenates [S64x25x2, S64x25x9998] S64x25x10000 2
  slices_S64x32x10000_S64x25x10000_0_6_0 : S64x32x10000.Slices ![0, 6, 0] S64x25x10000
  slices_S64x25x10000_S64x25x1_0_0_9999 : S64x25x10000.Slices ![0, 0, 9999] S64x25x1
  slices_S64x25x10000_S64x25x9999_0_0_0 : S64x25x10000.Slices ![0, 0, 0] S64x25x9999
  concatenates_S64x25x1_S64x25x9999_S64x25x10000_d2 : Shape.Concatenates [S64x25x1, S64x25x9999] S64x25x10000 2
  slices_S64x32x10000_S64x25x10000_0_7_0 : S64x32x10000.Slices ![0, 7, 0] S64x25x10000
  slices_S64x25x10000_S64x25x10000_0_0_0 : S64x25x10000.Slices ![0, 0, 0] S64x25x10000
  slices_S64x25x10000_S64x25x0_0_0_0 : S64x25x10000.Slices ![0, 0, 0] S64x25x0
  concatenates_S64x25x10000_S64x25x0_S64x25x10000_d2 : Shape.Concatenates [S64x25x10000, S64x25x0] S64x25x10000 2
  slices_S32x10000_S25x10000_0_0 : S32x10000.Slices ![0, 0] S25x10000
  bcast_S25x10000_S1x25x10000_1_2 : S25x10000.BroadcastsInDim S1x25x10000 (![1, 2] : Fin 2 → Fin S1x25x10000.rank)
  bcast_S1x25x10000_S64x25x10000_0_1_2 : S1x25x10000.BroadcastsInDim S64x25x10000 (![0, 1, 2] : Fin 3 → Fin S64x25x10000.rank)
  reducesTo_S64x25x10000_S64x10000_d1 : S64x25x10000.ReducesTo [1] S64x10000
  h_S_ : 0 < S_.numel
  bcast_S_S64x10000 : S_.BroadcastsInDim S64x10000 (![] : Fin 0 → Fin S64x10000.rank)
  gather_S3000x10000_S64x4x31x1_S64x4x31x10000_3_0_n_n_0_3_110000_wf : GatherDims.WF S3000x10000 S64x4x31x1 S64x4x31x10000 [3] [0] [] [0] [] 3 ![1, 10000]
  gather_S200x10000_S64x4x1x1_S64x4x1x10000_3_0_n_n_0_3_110000_wf : GatherDims.WF S200x10000 S64x4x1x1 S64x4x1x10000 [3] [0] [] [0] [] 3 ![1, 10000]

variable [Facts₀]

def gather_S3000x10000_S64x4x31x1_S64x4x31x10000_3_0_n_n_0_3_110000 : GatherDims S3000x10000 S64x4x31x1 S64x4x31x10000 where
  offsetDims := [3]
  collapsedSliceDims := [0]
  operandBatchingDims := []
  startIndicesBatchingDims := []
  startIndexMap := [0]
  indexVectorDim := 3
  sliceSizes := ![1, 10000]
  wf := gather_S3000x10000_S64x4x31x1_S64x4x31x10000_3_0_n_n_0_3_110000_wf
def gather_S200x10000_S64x4x1x1_S64x4x1x10000_3_0_n_n_0_3_110000 : GatherDims S200x10000 S64x4x1x1 S64x4x1x10000 where
  offsetDims := [3]
  collapsedSliceDims := [0]
  operandBatchingDims := []
  startIndicesBatchingDims := []
  startIndexMap := [0]
  indexVectorDim := 3
  sliceSizes := ![1, 10000]
  wf := gather_S200x10000_S64x4x1x1_S64x4x1x10000_3_0_n_n_0_3_110000_wf

class Facts : Prop extends Facts₀ where

variable [Facts]
-- ==== Proof.KDefs.lean ====
/- The operands of the one kernel of Kernel as the symbolic run holds them: the two index tables in scalar memory,
   the two level tables left in HBM, and the side conditions the body assumes of each index word, from a bound on
   the word. -/
import proofs.«428504_j90692529422509_4_alg».proof.Proof.Gen.Kernel.Launch
import proofs.«428504_j90692529422509_4_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The motion-level index table (64 x 30 words) and the heart-rate-level index table (64 words), whole. -/
abbrev tbM0_0 : Memref sig .tc .smem S64x30 .i32 := Memref.whole main_v13
abbrev htbM0_0 : tbM0_0.IsWhole := Memref.isWhole_whole _
abbrev tbM0_1 : Memref sig .tc .smem S64 .i32 := Memref.whole main_v23
abbrev htbM0_1 : tbM0_1.IsWhole := Memref.isWhole_whole _
/-- A table's buffer on core c, and the half of it the body reads from. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The motion-level table (3000 rows) and the heart-rate-level table (200 rows), left in HBM, whole. -/
abbrev hbM0_0 : Memref sig .tc .hbm S3000x10000 .f32 := Memref.whole main_arg2
abbrev hbM0_1 : Memref sig .tc .hbm S200x10000 .f32 := Memref.whole main_arg3
abbrev HbBuf0 (c : Dev nD) {sp : Space} {S : Shape} {e : EltTy} (M : Memref sig .tc sp S e) : Type := Buf (Elt F) (M.view.loc (c : Thread nD τ))
/-- An HBM operand held whole at a share. -/
abbrev hbTok (c : Dev nD) {sp : Space} {S : Shape} {e : EltTy} (M : Memref sig .tc sp S e) (q : PosShare TreeShare) (f : HbBuf0 (F := F) c M) : sProp 𝕄 :=
  M.view.loc (c : Thread nD τ) ↦{q} f
abbrev hbPt0 (c : Dev nD) {sp : Space} {S : Shape} {e : EltTy} (M : Memref sig .tc sp S e) (f : HbBuf0 (F := F) c M) : sProp 𝕄 :=
  hbTok c M fullShare f

/-- Thirty row copies out of the motion-level table are in flight at once, so the table is held as one read share per
    copy (numbered as the copies' semaphore cells are) and the remainder. -/
abbrev motionToks (c : Dev nD) (f : HbBuf0 (F := F) c hbM0_0) : sProp 𝕄 :=
  iprop(hbTok c hbM0_0 (Transfers.shareDrop fullShare 33) f
    ∗ hbTok c hbM0_0 (Transfers.shareTok fullShare 33 0) f
    ∗ hbTok c hbM0_0 (Transfers.shareTok fullShare 33 1) f
    ∗ hbTok c hbM0_0 (Transfers.shareTok fullShare 33 2) f
    ∗ hbTok c hbM0_0 (Transfers.shareTok fullShare 33 3) f
    ∗ hbTok c hbM0_0 (Transfers.shareTok fullShare 33 4) f
    ∗ hbTok c hbM0_0 (Transfers.shareTok fullShare 33 5) f
    ∗ hbTok c hbM0_0 (Transfers.shareTok fullShare 33 6) f
    ∗ hbTok c hbM0_0 (Transfers.shareTok fullShare 33 7) f
    ∗ hbTok c hbM0_0 (Transfers.shareTok fullShare 33 8) f
    ∗ hbTok c hbM0_0 (Transfers.shareTok fullShare 33 9) f
    ∗ hbTok c hbM0_0 (Transfers.shareTok fullShare 33 10) f
    ∗ hbTok c hbM0_0 (Transfers.shareTok fullShare 33 11) f
    ∗ hbTok c hbM0_0 (Transfers.shareTok fullShare 33 12) f
    ∗ hbTok c hbM0_0 (Transfers.shareTok fullShare 33 13) f
    ∗ hbTok c hbM0_0 (Transfers.shareTok fullShare 33 14) f
    ∗ hbTok c hbM0_0 (Transfers.shareTok fullShare 33 15) f
    ∗ hbTok c hbM0_0 (Transfers.shareTok fullShare 33 16) f
    ∗ hbTok c hbM0_0 (Transfers.shareTok fullShare 33 17) f
    ∗ hbTok c hbM0_0 (Transfers.shareTok fullShare 33 18) f
    ∗ hbTok c hbM0_0 (Transfers.shareTok fullShare 33 19) f
    ∗ hbTok c hbM0_0 (Transfers.shareTok fullShare 33 20) f
    ∗ hbTok c hbM0_0 (Transfers.shareTok fullShare 33 21) f
    ∗ hbTok c hbM0_0 (Transfers.shareTok fullShare 33 22) f
    ∗ hbTok c hbM0_0 (Transfers.shareTok fullShare 33 23) f
    ∗ hbTok c hbM0_0 (Transfers.shareTok fullShare 33 24) f
    ∗ hbTok c hbM0_0 (Transfers.shareTok fullShare 33 25) f
    ∗ hbTok c hbM0_0 (Transfers.shareTok fullShare 33 26) f
    ∗ hbTok c hbM0_0 (Transfers.shareTok fullShare 33 27) f
    ∗ hbTok c hbM0_0 (Transfers.shareTok fullShare 33 28) f
    ∗ hbTok c hbM0_0 (Transfers.shareTok fullShare 33 29) f
    ∗ hbTok c hbM0_0 (Transfers.shareTok fullShare 33 30) f
    ∗ hbTok c hbM0_0 (Transfers.shareTok fullShare 33 31) f
    ∗ hbTok c hbM0_0 (Transfers.shareTok fullShare 33 32) f)

theorem toks_univ (Φ : Fin 33 → sProp 𝕄) :
    bigSep Finset.univ Φ = iprop(Φ (0 : Fin 33) ∗ Φ (1 : Fin 33) ∗ Φ (2 : Fin 33) ∗ Φ (3 : Fin 33) ∗ Φ (4 : Fin 33) ∗ Φ (5 : Fin 33) ∗ Φ (6 : Fin 33) ∗ Φ (7 : Fin 33) ∗ Φ (8 : Fin 33) ∗ Φ (9 : Fin 33) ∗ Φ (10 : Fin 33) ∗ Φ (11 : Fin 33) ∗ Φ (12 : Fin 33) ∗ Φ (13 : Fin 33) ∗ Φ (14 : Fin 33) ∗ Φ (15 : Fin 33) ∗ Φ (16 : Fin 33) ∗ Φ (17 : Fin 33) ∗ Φ (18 : Fin 33) ∗ Φ (19 : Fin 33) ∗ Φ (20 : Fin 33) ∗ Φ (21 : Fin 33) ∗ Φ (22 : Fin 33) ∗ Φ (23 : Fin 33) ∗ Φ (24 : Fin 33) ∗ Φ (25 : Fin 33) ∗ Φ (26 : Fin 33) ∗ Φ (27 : Fin 33) ∗ Φ (28 : Fin 33) ∗ Φ (29 : Fin 33) ∗ Φ (30 : Fin 33) ∗ Φ (31 : Fin 33) ∗ Φ (32 : Fin 33)) :=
  bigSep_univ_eq_bigSepL [(0 : Fin 33), (1 : Fin 33), (2 : Fin 33), (3 : Fin 33), (4 : Fin 33), (5 : Fin 33), (6 : Fin 33), (7 : Fin 33), (8 : Fin 33), (9 : Fin 33), (10 : Fin 33), (11 : Fin 33), (12 : Fin 33), (13 : Fin 33), (14 : Fin 33), (15 : Fin 33), (16 : Fin 33), (17 : Fin 33), (18 : Fin 33), (19 : Fin 33), (20 : Fin 33), (21 : Fin 33), (22 : Fin 33), (23 : Fin 33), (24 : Fin 33), (25 : Fin 33), (26 : Fin 33), (27 : Fin 33), (28 : Fin 33), (29 : Fin 33), (30 : Fin 33), (31 : Fin 33), (32 : Fin 33)] (by decide) (by decide) Φ

theorem motion_split (c : Dev nD) (f : HbBuf0 (F := F) c hbM0_0) : hbPt0 c hbM0_0 f ⊢ motionToks c f :=
  (Transfers.pointsTo_toks_split (Ix := Unit) (Name := ℕ) (U := Pipeline.UD sig nD τ) (Lvl := ℕ) fullShare 33).trans
    (Entails.of_eq (by rw [toks_univ]))

theorem motion_join (c : Dev nD) (f : HbBuf0 (F := F) c hbM0_0) : motionToks c f ⊢ hbPt0 c hbM0_0 f :=
  (Entails.of_eq (by rw [toks_univ])).trans
    (Transfers.pointsTo_toks_join (Ix := Unit) (Name := ℕ) (U := Pipeline.UD sig nD τ) (Lvl := ℕ) fullShare 33)

/-- A row index below 3000 addresses a whole row of the motion-level table: the two range facts the body assumes of
    a motion index word (once for the copy's start, once for its wait). -/
theorem chkM (w : BitVec 32) (h : w.toNat < 3000) :
    (∀ a : Fin 2, (![w.toNat, 0] : Fin 2 → Nat) a + S1x10000.size a ≤ S3000x10000.size a)
    ∧ (∀ a : Fin 2, (![w.toNat, 0] : Fin 2 → Nat) a + S1x10000.size a ≤ S3000x10000.size a) := by
  have h1 : ∀ a : Fin 2, (![w.toNat, 0] : Fin 2 → Nat) a + S1x10000.size a ≤ S3000x10000.size a := fun a =>
    match a with
    | ⟨0, _⟩ => (show w.toNat + 1 ≤ 3000 from by omega)
    | ⟨1, _⟩ => (show 0 + 10000 ≤ 10000 from by omega)
  exact ⟨h1, h1⟩

/-- The same for the heart-rate-level table's 200 rows: one fact, or two. -/
theorem chkH1 (w : BitVec 32) (h : w.toNat < 200) :
    (∀ a : Fin 2, (![w.toNat, 0] : Fin 2 → Nat) a + S1x10000.size a ≤ S200x10000.size a) := fun a =>
    match a with
    | ⟨0, _⟩ => (show w.toNat + 1 ≤ 200 from by omega)
    | ⟨1, _⟩ => (show 0 + 10000 ≤ 10000 from by omega)
theorem chkH2 (w : BitVec 32) (h : w.toNat < 200) :
    (∀ a : Fin 2, (![w.toNat, 0] : Fin 2 → Nat) a + S1x10000.size a ≤ S200x10000.size a)
    ∧ (∀ a : Fin 2, (![w.toNat, 0] : Fin 2 → Nat) a + S1x10000.size a ≤ S200x10000.size a) :=
  ⟨chkH1 w h, chkH1 w h⟩

end Cert.Kernel.Fr

end
-- ==== Proof.KSetup.lean ====
/- Around the region of Kernel: what the arrays hold when the region is entered (the host lines that compute the two
   index tables and slice the keys), the tables as the region's prefetched contents, and the region invariant conjunct
   by conjunct: the 62 scratch buffers, the generator register, the 31 copy semaphores at zero, the two level tables
   at their launch contents, the tables' read halves. -/
import proofs.«428504_j90692529422509_4_alg».proof.Proof.KDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core c's TensorCore buffers when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: the tables' side condition is empty. -/
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The keys window's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The current staging memrefs at point t, as the pipeline passes them. -/
abbrev ms0_0 (t : Fin (cfgM m).N) : Memref sig .tc .vmem S25x10000 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x10000 .f32 := spec0_1.stage ((cfgM m).slots t 1)
abbrev hs0_1 (t : Fin (cfgM m).N) : (ms0_1 m t).IsWhole := hstage0_1 (((cfgM m).slots t 1).cast nbuf0_1)
/-- One staging buffer of the output window, through which its contents are stated. -/
abbrev VO0_1 : View sig .tc .vmem S8x10000 .f32 := (Memref.whole cc0_stg1_0 : Memref sig .tc .vmem S8x10000 .f32).view

/-! ## The invariant, conjunct by conjunct -/

theorem scopedRest0_eq (c : Dev nD) :
    (Pipeline.scopedRest (Ix := Unit) (Name := ℕ) (U := Pipeline.UD sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f)
          ∗ (∃ f : Buf (Elt F) ((c : Thread nD τ).loc cc0_scratch5), ((c : Thread nD τ).loc cc0_scratch5) ↦{fullShare} f)
          ∗ (∃ f : Buf (Elt F) ((c : Thread nD τ).loc cc0_scratch6), ((c : Thread nD τ).loc cc0_scratch6) ↦{fullShare} f)
          ∗ (∃ f : Buf (Elt F) ((c : Thread nD τ).loc cc0_scratch7), ((c : Thread nD τ).loc cc0_scratch7) ↦{fullShare} f)
          ∗ (∃ f : Buf (Elt F) ((c : Thread nD τ).loc cc0_scratch8), ((c : Thread nD τ).loc cc0_scratch8) ↦{fullShare} f)
          ∗ (∃ f : Buf (Elt F) ((c : Thread nD τ).loc cc0_scratch9), ((c : Thread nD τ).loc cc0_scratch9) ↦{fullShare} f)
          ∗ (∃ f : Buf (Elt F) ((c : Thread nD τ).loc cc0_scratch10), ((c : Thread nD τ).loc cc0_scratch10) ↦{fullShare} f)
          ∗ (∃ f : Buf (Elt F) ((c : Thread nD τ).loc cc0_scratch11), ((c : Thread nD τ).loc cc0_scratch11) ↦{fullShare} f)
          ∗ (∃ f : Buf (Elt F) ((c : Thread nD τ).loc cc0_scratch12), ((c : Thread nD τ).loc cc0_scratch12) ↦{fullShare} f)
          ∗ (∃ f : Buf (Elt F) ((c : Thread nD τ).loc cc0_scratch13), ((c : Thread nD τ).loc cc0_scratch13) ↦{fullShare} f)
          ∗ (∃ f : Buf (Elt F) ((c : Thread nD τ).loc cc0_scratch14), ((c : Thread nD τ).loc cc0_scratch14) ↦{fullShare} f)
          ∗ (∃ f : Buf (Elt F) ((c : Thread nD τ).loc cc0_scratch15), ((c : Thread nD τ).loc cc0_scratch15) ↦{fullShare} f)
          ∗ (∃ f : Buf (Elt F) ((c : Thread nD τ).loc cc0_scratch16), ((c : Thread nD τ).loc cc0_scratch16) ↦{fullShare} f)
          ∗ (∃ f : Buf (Elt F) ((c : Thread nD τ).loc cc0_scratch17), ((c : Thread nD τ).loc cc0_scratch17) ↦{fullShare} f)
          ∗ (∃ f : Buf (Elt F) ((c : Thread nD τ).loc cc0_scratch18), ((c : Thread nD τ).loc cc0_scratch18) ↦{fullShare} f)
          ∗ (∃ f : Buf (Elt F) ((c : Thread nD τ).loc cc0_scratch19), ((c : Thread nD τ).loc cc0_scratch19) ↦{fullShare} f)
          ∗ (∃ f : Buf (Elt F) ((c : Thread nD τ).loc cc0_scratch20), ((c : Thread nD τ).loc cc0_scratch20) ↦{fullShare} f)
          ∗ (∃ f : Buf (Elt F) ((c : Thread nD τ).loc cc0_scratch21), ((c : Thread nD τ).loc cc0_scratch21) ↦{fullShare} f)
          ∗ (∃ f : Buf (Elt F) ((c : Thread nD τ).loc cc0_scratch22), ((c : Thread nD τ).loc cc0_scratch22) ↦{fullShare} f)
          ∗ (∃ f : Buf (Elt F) ((c : Thread nD τ).loc cc0_scratch23), ((c : Thread nD τ).loc cc0_scratch23) ↦{fullShare} f)
          ∗ (∃ f : Buf (Elt F) ((c : Thread nD τ).loc cc0_scratch24), ((c : Thread nD τ).loc cc0_scratch24) ↦{fullShare} f)
          ∗ (∃ f : Buf (Elt F) ((c : Thread nD τ).loc cc0_scratch25), ((c : Thread nD τ).loc cc0_scratch25) ↦{fullShare} f)
          ∗ (∃ f : Buf (Elt F) ((c : Thread nD τ).loc cc0_scratch26), ((c : Thread nD τ).loc cc0_scratch26) ↦{fullShare} f)
          ∗ (∃ f : Buf (Elt F) ((c : Thread nD τ).loc cc0_scratch27), ((c : Thread nD τ).loc cc0_scratch27) ↦{fullShare} f)
          ∗ (∃ f : Buf (Elt F) ((c : Thread nD τ).loc cc0_scratch28), ((c : Thread nD τ).loc cc0_scratch28) ↦{fullShare} f)
          ∗ (∃ f : Buf (Elt F) ((c : Thread nD τ).loc cc0_scratch29), ((c : Thread nD τ).loc cc0_scratch29) ↦{fullShare} f)
          ∗ (∃ f : Buf (Elt F) ((c : Thread nD τ).loc cc0_scratch30), ((c : Thread nD τ).loc cc0_scratch30) ↦{fullShare} f)
          ∗ (∃ f : Buf (Elt F) ((c : Thread nD τ).loc cc0_scratch31), ((c : Thread nD τ).loc cc0_scratch31) ↦{fullShare} f)
          ∗ (∃ f : Buf (Elt F) ((c : Thread nD τ).loc cc0_scratch32), ((c : Thread nD τ).loc cc0_scratch32) ↦{fullShare} f)
          ∗ (∃ f : Buf (Elt F) ((c : Thread nD τ).loc cc0_scratch33), ((c : Thread nD τ).loc cc0_scratch33) ↦{fullShare} f)
          ∗ (∃ f : Buf (Elt F) ((c : Thread nD τ).loc cc0_scratch34), ((c : Thread nD τ).loc cc0_scratch34) ↦{fullShare} f)
          ∗ (∃ f : Buf (Elt F) ((c : Thread nD τ).loc cc0_scratch35), ((c : Thread nD τ).loc cc0_scratch35) ↦{fullShare} f)
          ∗ (∃ f : Buf (Elt F) ((c : Thread nD τ).loc cc0_scratch36), ((c : Thread nD τ).loc cc0_scratch36) ↦{fullShare} f)
          ∗ (∃ f : Buf (Elt F) ((c : Thread nD τ).loc cc0_scratch37), ((c : Thread nD τ).loc cc0_scratch37) ↦{fullShare} f)
          ∗ (∃ f : Buf (Elt F) ((c : Thread nD τ).loc cc0_scratch38), ((c : Thread nD τ).loc cc0_scratch38) ↦{fullShare} f)
          ∗ (∃ f : Buf (Elt F) ((c : Thread nD τ).loc cc0_scratch39), ((c : Thread nD τ).loc cc0_scratch39) ↦{fullShare} f)
          ∗ (∃ f : Buf (Elt F) ((c : Thread nD τ).loc cc0_scratch40), ((c : Thread nD τ).loc cc0_scratch40) ↦{fullShare} f)
          ∗ (∃ f : Buf (Elt F) ((c : Thread nD τ).loc cc0_scratch41), ((c : Thread nD τ).loc cc0_scratch41) ↦{fullShare} f)
          ∗ (∃ f : Buf (Elt F) ((c : Thread nD τ).loc cc0_scratch42), ((c : Thread nD τ).loc cc0_scratch42) ↦{fullShare} f)
          ∗ (∃ f : Buf (Elt F) ((c : Thread nD τ).loc cc0_scratch43), ((c : Thread nD τ).loc cc0_scratch43) ↦{fullShare} f)
          ∗ (∃ f : Buf (Elt F) ((c : Thread nD τ).loc cc0_scratch44), ((c : Thread nD τ).loc cc0_scratch44) ↦{fullShare} f)
          ∗ (∃ f : Buf (Elt F) ((c : Thread nD τ).loc cc0_scratch45), ((c : Thread nD τ).loc cc0_scratch45) ↦{fullShare} f)
          ∗ (∃ f : Buf (Elt F) ((c : Thread nD τ).loc cc0_scratch46), ((c : Thread nD τ).loc cc0_scratch46) ↦{fullShare} f)
          ∗ (∃ f : Buf (Elt F) ((c : Thread nD τ).loc cc0_scratch47), ((c : Thread nD τ).loc cc0_scratch47) ↦{fullShare} f)
          ∗ (∃ f : Buf (Elt F) ((c : Thread nD τ).loc cc0_scratch48), ((c : Thread nD τ).loc cc0_scratch48) ↦{fullShare} f)
          ∗ (∃ f : Buf (Elt F) ((c : Thread nD τ).loc cc0_scratch49), ((c : Thread nD τ).loc cc0_scratch49) ↦{fullShare} f)
          ∗ (∃ f : Buf (Elt F) ((c : Thread nD τ).loc cc0_scratch50), ((c : Thread nD τ).loc cc0_scratch50) ↦{fullShare} f)
          ∗ (∃ f : Buf (Elt F) ((c : Thread nD τ).loc cc0_scratch51), ((c : Thread nD τ).loc cc0_scratch51) ↦{fullShare} f)
          ∗ (∃ f : Buf (Elt F) ((c : Thread nD τ).loc cc0_scratch52), ((c : Thread nD τ).loc cc0_scratch52) ↦{fullShare} f)
          ∗ (∃ f : Buf (Elt F) ((c : Thread nD τ).loc cc0_scratch53), ((c : Thread nD τ).loc cc0_scratch53) ↦{fullShare} f)
          ∗ (∃ f : Buf (Elt F) ((c : Thread nD τ).loc cc0_scratch54), ((c : Thread nD τ).loc cc0_scratch54) ↦{fullShare} f)
          ∗ (∃ f : Buf (Elt F) ((c : Thread nD τ).loc cc0_scratch55), ((c : Thread nD τ).loc cc0_scratch55) ↦{fullShare} f)
          ∗ (∃ f : Buf (Elt F) ((c : Thread nD τ).loc cc0_scratch56), ((c : Thread nD τ).loc cc0_scratch56) ↦{fullShare} f)
          ∗ (∃ f : Buf (Elt F) ((c : Thread nD τ).loc cc0_scratch57), ((c : Thread nD τ).loc cc0_scratch57) ↦{fullShare} f)
          ∗ (∃ f : Buf (Elt F) ((c : Thread nD τ).loc cc0_scratch58), ((c : Thread nD τ).loc cc0_scratch58) ↦{fullShare} f)
          ∗ (∃ f : Buf (Elt F) ((c : Thread nD τ).loc cc0_scratch59), ((c : Thread nD τ).loc cc0_scratch59) ↦{fullShare} f)
          ∗ (∃ f : Buf (Elt F) ((c : Thread nD τ).loc cc0_scratch60), ((c : Thread nD τ).loc cc0_scratch60) ↦{fullShare} f)
          ∗ (∃ f : Buf (Elt F) ((c : Thread nD τ).loc cc0_scratch61), ((c : Thread nD τ).loc cc0_scratch61) ↦{fullShare} f)) :=
  Pipeline.scopedRest_eq_of_list spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23, cc0_scratch24, cc0_scratch25, cc0_scratch26, cc0_scratch27, cc0_scratch28, cc0_scratch29, cc0_scratch30, cc0_scratch31, cc0_scratch32, cc0_scratch33, cc0_scratch34, cc0_scratch35, cc0_scratch36, cc0_scratch37, cc0_scratch38, cc0_scratch39, cc0_scratch40, cc0_scratch41, cc0_scratch42, cc0_scratch43, cc0_scratch44, cc0_scratch45, cc0_scratch46, cc0_scratch47, cc0_scratch48, cc0_scratch49, cc0_scratch50, cc0_scratch51, cc0_scratch52, cc0_scratch53, cc0_scratch54, cc0_scratch55, cc0_scratch56, cc0_scratch57, cc0_scratch58, cc0_scratch59, cc0_scratch60, cc0_scratch61] (by decide) (by decide)

/-- The kernel's own copy semaphores: cells 3 to 33 of the pool. -/
abbrev osem0 : Fin 31 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 31 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]; rfl

/-- The two level tables: unscoped, no window's array, no prefetched table. -/
def H0 : Finset (Ref sig .tc) := {main_arg2, main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

set_option maxHeartbeats 8000000 in
theorem PhiD0_eq (c : Dev nD) :
    (Pipeline.ΦD osem0 spec0 H0 (V m) c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d)
          ∗ (∃ d, owns (c : Thread nD τ) (Memref.whole cc0_scratch8) fullShare d)
          ∗ (∃ d, owns (c : Thread nD τ) (Memref.whole cc0_scratch9) fullShare d)
          ∗ (∃ d, owns (c : Thread nD τ) (Memref.whole cc0_scratch10) fullShare d)
          ∗ (∃ d, owns (c : Thread nD τ) (Memref.whole cc0_scratch11) fullShare d)
          ∗ (∃ d, owns (c : Thread nD τ) (Memref.whole cc0_scratch12) fullShare d)
          ∗ (∃ d, owns (c : Thread nD τ) (Memref.whole cc0_scratch13) fullShare d)
          ∗ (∃ d, owns (c : Thread nD τ) (Memref.whole cc0_scratch14) fullShare d)
          ∗ (∃ d, owns (c : Thread nD τ) (Memref.whole cc0_scratch15) fullShare d)
          ∗ (∃ d, owns (c : Thread nD τ) (Memref.whole cc0_scratch16) fullShare d)
          ∗ (∃ d, owns (c : Thread nD τ) (Memref.whole cc0_scratch17) fullShare d)
          ∗ (∃ d, owns (c : Thread nD τ) (Memref.whole cc0_scratch18) fullShare d)
          ∗ (∃ d, owns (c : Thread nD τ) (Memref.whole cc0_scratch19) fullShare d)
          ∗ (∃ d, owns (c : Thread nD τ) (Memref.whole cc0_scratch20) fullShare d)
          ∗ (∃ d, owns (c : Thread nD τ) (Memref.whole cc0_scratch21) fullShare d)
          ∗ (∃ d, owns (c : Thread nD τ) (Memref.whole cc0_scratch22) fullShare d)
          ∗ (∃ d, owns (c : Thread nD τ) (Memref.whole cc0_scratch23) fullShare d)
          ∗ (∃ d, owns (c : Thread nD τ) (Memref.whole cc0_scratch24) fullShare d)
          ∗ (∃ d, owns (c : Thread nD τ) (Memref.whole cc0_scratch25) fullShare d)
          ∗ (∃ d, owns (c : Thread nD τ) (Memref.whole cc0_scratch26) fullShare d)
          ∗ (∃ d, owns (c : Thread nD τ) (Memref.whole cc0_scratch27) fullShare d)
          ∗ (∃ d, owns (c : Thread nD τ) (Memref.whole cc0_scratch28) fullShare d)
          ∗ (∃ d, owns (c : Thread nD τ) (Memref.whole cc0_scratch29) fullShare d)
          ∗ (∃ d, owns (c : Thread nD τ) (Memref.whole cc0_scratch30) fullShare d)
          ∗ (∃ d, owns (c : Thread nD τ) (Memref.whole cc0_scratch31) fullShare d)
          ∗ (∃ d, owns (c : Thread nD τ) (Memref.whole cc0_scratch32) fullShare d)
          ∗ (∃ d, owns (c : Thread nD τ) (Memref.whole cc0_scratch33) fullShare d)
          ∗ (∃ d, owns (c : Thread nD τ) (Memref.whole cc0_scratch34) fullShare d)
          ∗ (∃ d, owns (c : Thread nD τ) (Memref.whole cc0_scratch35) fullShare d)
          ∗ (∃ d, owns (c : Thread nD τ) (Memref.whole cc0_scratch36) fullShare d)
          ∗ (∃ d, owns (c : Thread nD τ) (Memref.whole cc0_scratch37) fullShare d)
          ∗ (∃ d, owns (c : Thread nD τ) (Memref.whole cc0_scratch38) fullShare d)
          ∗ (∃ d, owns (c : Thread nD τ) (Memref.whole cc0_scratch39) fullShare d)
          ∗ (∃ d, owns (c : Thread nD τ) (Memref.whole cc0_scratch40) fullShare d)
          ∗ (∃ d, owns (c : Thread nD τ) (Memref.whole cc0_scratch41) fullShare d)
          ∗ (∃ d, owns (c : Thread nD τ) (Memref.whole cc0_scratch42) fullShare d)
          ∗ (∃ d, owns (c : Thread nD τ) (Memref.whole cc0_scratch43) fullShare d)
          ∗ (∃ d, owns (c : Thread nD τ) (Memref.whole cc0_scratch44) fullShare d)
          ∗ (∃ d, owns (c : Thread nD τ) (Memref.whole cc0_scratch45) fullShare d)
          ∗ (∃ d, owns (c : Thread nD τ) (Memref.whole cc0_scratch46) fullShare d)
          ∗ (∃ d, owns (c : Thread nD τ) (Memref.whole cc0_scratch47) fullShare d)
          ∗ (∃ d, owns (c : Thread nD τ) (Memref.whole cc0_scratch48) fullShare d)
          ∗ (∃ d, owns (c : Thread nD τ) (Memref.whole cc0_scratch49) fullShare d)
          ∗ (∃ d, owns (c : Thread nD τ) (Memref.whole cc0_scratch50) fullShare d)
          ∗ (∃ d, owns (c : Thread nD τ) (Memref.whole cc0_scratch51) fullShare d)
          ∗ (∃ d, owns (c : Thread nD τ) (Memref.whole cc0_scratch52) fullShare d)
          ∗ (∃ d, owns (c : Thread nD τ) (Memref.whole cc0_scratch53) fullShare d)
          ∗ (∃ d, owns (c : Thread nD τ) (Memref.whole cc0_scratch54) fullShare d)
          ∗ (∃ d, owns (c : Thread nD τ) (Memref.whole cc0_scratch55) fullShare d)
          ∗ (∃ d, owns (c : Thread nD τ) (Memref.whole cc0_scratch56) fullShare d)
          ∗ (∃ d, owns (c : Thread nD τ) (Memref.whole cc0_scratch57) fullShare d)
          ∗ (∃ d, owns (c : Thread nD τ) (Memref.whole cc0_scratch58) fullShare d)
          ∗ (∃ d, owns (c : Thread nD τ) (Memref.whole cc0_scratch59) fullShare d)
          ∗ (∃ d, owns (c : Thread nD τ) (Memref.whole cc0_scratch60) fullShare d)
          ∗ (∃ d, owns (c : Thread nD τ) (Memref.whole cc0_scratch61) fullShare d))
          ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0)
          ∗ iprop(hbPt0 c hbM0_0 (V m c main_arg2) ∗ hbPt0 c hbM0_1 (V m c main_arg3))) := by
  rw [Pipeline.ΦD_eq, scopedRest0_eq, ownSems00_eq, hbmPts0_eq]; simp only [owns_whole]; try rfl

/-! ## The frame claim's post from the frame run's -/

theorem frame_of (dats : (p : Fin 1) → (c : Dev nD) → Dat τ (Elt F) Unit ℕ (Pipeline.UD sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c)⟩) h

end Cert.Kernel.Fr

end
-- ==== Proof.KRun.lean ====
/- The symbolic run of the kernel body of Kernel at one grid point: from the two staging buffers, the 62 scratch rows and
   collectors, the two index tables, the 31 copy semaphores at zero and the two level tables, the body runs to its end
   giving everything back, the output block written; what the stores leave there is the witness the run finds. -/
import proofs.«428504_j90692529422509_4_alg».proof.Proof.KDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
noncomputable def kernelRun0 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) :
    { L1 : List (View.Piece (Elt F) S8x10000 .f32) //
      ∀ (W : Waits sig Unit) (K : PUnit → sProp 𝕄),
        iprop(owns (c : Thread nD τ) arg5 fullShare x0
            ∗ (∃ d, owns (c : Thread nD τ) arg6 fullShare d)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)
            ∗ (∃ d, owns (c : Thread nD τ) (Memref.whole cc0_scratch3) fullShare d)
            ∗ (∃ d, owns (c : Thread nD τ) (Memref.whole cc0_scratch4) fullShare d)
            ∗ (∃ d, owns (c : Thread nD τ) (Memref.whole cc0_scratch5) fullShare d)
            ∗ (∃ d, owns (c : Thread nD τ) (Memref.whole cc0_scratch6) fullShare d)
            ∗ (∃ d, owns (c : Thread nD τ) (Memref.whole cc0_scratch7) fullShare d)
            ∗ (∃ d, owns (c : Thread nD τ) (Memref.whole cc0_scratch8) fullShare d)
            ∗ (∃ d, owns (c : Thread nD τ) (Memref.whole cc0_scratch9) fullShare d)
            ∗ (∃ d, owns (c : Thread nD τ) (Memref.whole cc0_scratch10) fullShare d)
            ∗ (∃ d, owns (c : Thread nD τ) (Memref.whole cc0_scratch11) fullShare d)
            ∗ (∃ d, owns (c : Thread nD τ) (Memref.whole cc0_scratch12) fullShare d)
            ∗ (∃ d, owns (c : Thread nD τ) (Memref.whole cc0_scratch13) fullShare d)
            ∗ (∃ d, owns (c : Thread nD τ) (Memref.whole cc0_scratch14) fullShare d)
            ∗ (∃ d, owns (c : Thread nD τ) (Memref.whole cc0_scratch15) fullShare d)
            ∗ (∃ d, owns (c : Thread nD τ) (Memref.whole cc0_scratch16) fullShare d)
            ∗ (∃ d, owns (c : Thread nD τ) (Memref.whole cc0_scratch17) fullShare d)
            ∗ (∃ d, owns (c : Thread nD τ) (Memref.whole cc0_scratch18) fullShare d)
            ∗ (∃ d, owns (c : Thread nD τ) (Memref.whole cc0_scratch19) fullShare d)
            ∗ (∃ d, owns (c : Thread nD τ) (Memref.whole cc0_scratch20) fullShare d)
            ∗ (∃ d, owns (c : Thread nD τ) (Memref.whole cc0_scratch21) fullShare d)
            ∗ (∃ d, owns (c : Thread nD τ) (Memref.whole cc0_scratch22) fullShare d)
            ∗ (∃ d, owns (c : Thread nD τ) (Memref.whole cc0_scratch23) fullShare d)
            ∗ (∃ d, owns (c : Thread nD τ) (Memref.whole cc0_scratch24) fullShare d)
            ∗ (∃ d, owns (c : Thread nD τ) (Memref.whole cc0_scratch25) fullShare d)
            ∗ (∃ d, owns (c : Thread nD τ) (Memref.whole cc0_scratch26) fullShare d)
            ∗ (∃ d, owns (c : Thread nD τ) (Memref.whole cc0_scratch27) fullShare d)
            ∗ (∃ d, owns (c : Thread nD τ) (Memref.whole cc0_scratch28) fullShare d)
            ∗ (∃ d, owns (c : Thread nD τ) (Memref.whole cc0_scratch29) fullShare d)
            ∗ (∃ d, owns (c : Thread nD τ) (Memref.whole cc0_scratch30) fullShare d)
            ∗ (∃ d, owns (c : Thread nD τ) (Memref.whole cc0_scratch31) fullShare d)
            ∗ (∃ d, owns (c : Thread nD τ) (Memref.whole cc0_scratch32) fullShare d)
            ∗ (∃ d, owns (c : Thread nD τ) (Memref.whole cc0_scratch33) fullShare d)
            ∗ (∃ d, owns (c : Thread nD τ) (Memref.whole cc0_scratch34) fullShare d)
            ∗ (∃ d, owns (c : Thread nD τ) (Memref.whole cc0_scratch35) fullShare d)
            ∗ (∃ d, owns (c : Thread nD τ) (Memref.whole cc0_scratch36) fullShare d)
            ∗ (∃ d, owns (c : Thread nD τ) (Memref.whole cc0_scratch37) fullShare d)
            ∗ (∃ d, owns (c : Thread nD τ) (Memref.whole cc0_scratch38) fullShare d)
            ∗ (∃ d, owns (c : Thread nD τ) (Memref.whole cc0_scratch39) fullShare d)
            ∗ (∃ d, owns (c : Thread nD τ) (Memref.whole cc0_scratch40) fullShare d)
            ∗ (∃ d, owns (c : Thread nD τ) (Memref.whole cc0_scratch41) fullShare d)
            ∗ (∃ d, owns (c : Thread nD τ) (Memref.whole cc0_scratch42) fullShare d)
            ∗ (∃ d, owns (c : Thread nD τ) (Memref.whole cc0_scratch43) fullShare d)
            ∗ (∃ d, owns (c : Thread nD τ) (Memref.whole cc0_scratch44) fullShare d)
            ∗ (∃ d, owns (c : Thread nD τ) (Memref.whole cc0_scratch45) fullShare d)
            ∗ (∃ d, owns (c : Thread nD τ) (Memref.whole cc0_scratch46) fullShare d)
            ∗ (∃ d, owns (c : Thread nD τ) (Memref.whole cc0_scratch47) fullShare d)
            ∗ (∃ d, owns (c : Thread nD τ) (Memref.whole cc0_scratch48) fullShare d)
            ∗ (∃ d, owns (c : Thread nD τ) (Memref.whole cc0_scratch49) fullShare d)
            ∗ (∃ d, owns (c : Thread nD τ) (Memref.whole cc0_scratch50) fullShare d)
            ∗ (∃ d, owns (c : Thread nD τ) (Memref.whole cc0_scratch51) fullShare d)
            ∗ (∃ d, owns (c : Thread nD τ) (Memref.whole cc0_scratch52) fullShare d)
            ∗ (∃ d, owns (c : Thread nD τ) (Memref.whole cc0_scratch53) fullShare d)
            ∗ (∃ d, owns (c : Thread nD τ) (Memref.whole cc0_scratch54) fullShare d)
            ∗ (∃ d, owns (c : Thread nD τ) (Memref.whole cc0_scratch55) fullShare d)
            ∗ (∃ d, owns (c : Thread nD τ) (Memref.whole cc0_scratch56) fullShare d)
            ∗ (∃ d, owns (c : Thread nD τ) (Memref.whole cc0_scratch57) fullShare d)
            ∗ (∃ d, owns (c : Thread nD τ) (Memref.whole cc0_scratch58) fullShare d)
            ∗ (∃ d, owns (c : Thread nD τ) (Memref.whole cc0_scratch59) fullShare d)
            ∗ (∃ d, owns (c : Thread nD τ) (Memref.whole cc0_scratch60) fullShare d)
            ∗ (∃ d, owns (c : Thread nD τ) (Memref.whole cc0_scratch61) fullShare d)
            ∗ tbPt0 c tbM0_0 xt0
            ∗ tbPt0 c tbM0_1 xt1
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 31) 0
            ∗ semVal ((c : Thread nD τ), SemLoc.dma 32) 0
            ∗ semVal ((c : Thread nD τ), SemLoc.dma 33) 0
            ∗ hbPt0 c hbM0_0 fh0
            ∗ hbPt0 c hbM0_1 fh1
            ∗ owes (c : Thread nD τ) 0 W
            ∗ (iprop(owns (c : Thread nD τ) arg5 fullShare x0
                ∗ (∃ f, arg6.view.loc (c : Thread nD τ) ↦[arg6.view.set]{fullShare} arg6.view.writes (Elt F) f L1)
                ∗ (∃ d, owns (c : Thread nD τ) (Memref.whole cc0_scratch0) fullShare d)
                ∗ (∃ d, owns (c : Thread nD τ) (Memref.whole cc0_scratch1) fullShare d)
                ∗ (∃ d, owns (c : Thread nD τ) (Memref.whole cc0_scratch2) fullShare d)
                ∗ (∃ d, owns (c : Thread nD τ) (Memref.whole cc0_scratch3) fullShare d)
                ∗ (∃ d, owns (c : Thread nD τ) (Memref.whole cc0_scratch4) fullShare d)
                ∗ (∃ d, owns (c : Thread nD τ) (Memref.whole cc0_scratch5) fullShare d)
                ∗ (∃ d, owns (c : Thread nD τ) (Memref.whole cc0_scratch6) fullShare d)
                ∗ (∃ d, owns (c : Thread nD τ) (Memref.whole cc0_scratch7) fullShare d)
                ∗ (∃ d, owns (c : Thread nD τ) (Memref.whole cc0_scratch8) fullShare d)
                ∗ (∃ d, owns (c : Thread nD τ) (Memref.whole cc0_scratch9) fullShare d)
                ∗ (∃ d, owns (c : Thread nD τ) (Memref.whole cc0_scratch10) fullShare d)
                ∗ (∃ d, owns (c : Thread nD τ) (Memref.whole cc0_scratch11) fullShare d)
                ∗ (∃ d, owns (c : Thread nD τ) (Memref.whole cc0_scratch12) fullShare d)
                ∗ (∃ d, owns (c : Thread nD τ) (Memref.whole cc0_scratch13) fullShare d)
                ∗ (∃ d, owns (c : Thread nD τ) (Memref.whole cc0_scratch14) fullShare d)
                ∗ (∃ d, owns (c : Thread nD τ) (Memref.whole cc0_scratch15) fullShare d)
                ∗ (∃ d, owns (c : Thread nD τ) (Memref.whole cc0_scratch16) fullShare d)
                ∗ (∃ d, owns (c : Thread nD τ) (Memref.whole cc0_scratch17) fullShare d)
                ∗ (∃ d, owns (c : Thread nD τ) (Memref.whole cc0_scratch18) fullShare d)
                ∗ (∃ d, owns (c : Thread nD τ) (Memref.whole cc0_scratch19) fullShare d)
                ∗ (∃ d, owns (c : Thread nD τ) (Memref.whole cc0_scratch20) fullShare d)
                ∗ (∃ d, owns (c : Thread nD τ) (Memref.whole cc0_scratch21) fullShare d)
                ∗ (∃ d, owns (c : Thread nD τ) (Memref.whole cc0_scratch22) fullShare d)
                ∗ (∃ d, owns (c : Thread nD τ) (Memref.whole cc0_scratch23) fullShare d)
                ∗ (∃ d, owns (c : Thread nD τ) (Memref.whole cc0_scratch24) fullShare d)
                ∗ (∃ d, owns (c : Thread nD τ) (Memref.whole cc0_scratch25) fullShare d)
                ∗ (∃ d, owns (c : Thread nD τ) (Memref.whole cc0_scratch26) fullShare d)
                ∗ (∃ d, owns (c : Thread nD τ) (Memref.whole cc0_scratch27) fullShare d)
                ∗ (∃ d, owns (c : Thread nD τ) (Memref.whole cc0_scratch28) fullShare d)
                ∗ (∃ d, owns (c : Thread nD τ) (Memref.whole cc0_scratch29) fullShare d)
                ∗ (∃ d, owns (c : Thread nD τ) (Memref.whole cc0_scratch30) fullShare d)
                ∗ (∃ d, owns (c : Thread nD τ) (Memref.whole cc0_scratch31) fullShare d)
                ∗ (∃ d, owns (c : Thread nD τ) (Memref.whole cc0_scratch32) fullShare d)
                ∗ (∃ d, owns (c : Thread nD τ) (Memref.whole cc0_scratch33) fullShare d)
                ∗ (∃ d, owns (c : Thread nD τ) (Memref.whole cc0_scratch34) fullShare d)
                ∗ (∃ d, owns (c : Thread nD τ) (Memref.whole cc0_scratch35) fullShare d)
                ∗ (∃ d, owns (c : Thread nD τ) (Memref.whole cc0_scratch36) fullShare d)
                ∗ (∃ d, owns (c : Thread nD τ) (Memref.whole cc0_scratch37) fullShare d)
                ∗ (∃ d, owns (c : Thread nD τ) (Memref.whole cc0_scratch38) fullShare d)
                ∗ (∃ d, owns (c : Thread nD τ) (Memref.whole cc0_scratch39) fullShare d)
                ∗ (∃ d, owns (c : Thread nD τ) (Memref.whole cc0_scratch40) fullShare d)
                ∗ (∃ d, owns (c : Thread nD τ) (Memref.whole cc0_scratch41) fullShare d)
                ∗ (∃ d, owns (c : Thread nD τ) (Memref.whole cc0_scratch42) fullShare d)
                ∗ (∃ d, owns (c : Thread nD τ) (Memref.whole cc0_scratch43) fullShare d)
                ∗ (∃ d, owns (c : Thread nD τ) (Memref.whole cc0_scratch44) fullShare d)
                ∗ (∃ d, owns (c : Thread nD τ) (Memref.whole cc0_scratch45) fullShare d)
                ∗ (∃ d, owns (c : Thread nD τ) (Memref.whole cc0_scratch46) fullShare d)
                ∗ (∃ d, owns (c : Thread nD τ) (Memref.whole cc0_scratch47) fullShare d)
                ∗ (∃ d, owns (c : Thread nD τ) (Memref.whole cc0_scratch48) fullShare d)
                ∗ (∃ d, owns (c : Thread nD τ) (Memref.whole cc0_scratch49) fullShare d)
                ∗ (∃ d, owns (c : Thread nD τ) (Memref.whole cc0_scratch50) fullShare d)
                ∗ (∃ d, owns (c : Thread nD τ) (Memref.whole cc0_scratch51) fullShare d)
                ∗ (∃ d, owns (c : Thread nD τ) (Memref.whole cc0_scratch52) fullShare d)
                ∗ (∃ d, owns (c : Thread nD τ) (Memref.whole cc0_scratch53) fullShare d)
                ∗ (∃ d, owns (c : Thread nD τ) (Memref.whole cc0_scratch54) fullShare d)
                ∗ (∃ d, owns (c : Thread nD τ) (Memref.whole cc0_scratch55) fullShare d)
                ∗ (∃ d, owns (c : Thread nD τ) (Memref.whole cc0_scratch56) fullShare d)
                ∗ (∃ d, owns (c : Thread nD τ) (Memref.whole cc0_scratch57) fullShare d)
                ∗ (∃ d, owns (c : Thread nD τ) (Memref.whole cc0_scratch58) fullShare d)
                ∗ (∃ d, owns (c : Thread nD τ) (Memref.whole cc0_scratch59) fullShare d)
                ∗ (∃ d, owns (c : Thread nD τ) (Memref.whole cc0_scratch60) fullShare d)
                ∗ (∃ d, owns (c : Thread nD τ) (Memref.whole cc0_scratch61) fullShare d)
                ∗ tbPt0 c tbM0_0 xt0
                ∗ tbPt0 c tbM0_1 xt1
                ∗ semVal ((c : Thread nD τ), SemLoc.dma 3) 0
                ∗ semVal ((c : Thread nD τ), SemLoc.dma 4) 0
                ∗ semVal ((c : Thread nD τ), SemLoc.dma 5) 0
                ∗ semVal ((c : Thread nD τ), SemLoc.dma 6) 0
                ∗ semVal ((c : Thread nD τ), SemLoc.dma 7) 0
                ∗ semVal ((c : Thread nD τ), SemLoc.dma 8) 0
                ∗ semVal ((c : Thread nD τ), SemLoc.dma 9) 0
                ∗ semVal ((c : Thread nD τ), SemLoc.dma 10) 0
                ∗ semVal ((c : Thread nD τ), SemLoc.dma 11) 0
                ∗ semVal ((c : Thread nD τ), SemLoc.dma 12) 0
                ∗ semVal ((c : Thread nD τ), SemLoc.dma 13) 0
                ∗ semVal ((c : Thread nD τ), SemLoc.dma 14) 0
                ∗ semVal ((c : Thread nD τ), SemLoc.dma 15) 0
                ∗ semVal ((c : Thread nD τ), SemLoc.dma 16) 0
                ∗ semVal ((c : Thread nD τ), SemLoc.dma 17) 0
                ∗ semVal ((c : Thread nD τ), SemLoc.dma 18) 0
                ∗ semVal ((c : Thread nD τ), SemLoc.dma 19) 0
                ∗ semVal ((c : Thread nD τ), SemLoc.dma 20) 0
                ∗ semVal ((c : Thread nD τ), SemLoc.dma 21) 0
                ∗ semVal ((c : Thread nD τ), SemLoc.dma 22) 0
                ∗ semVal ((c : Thread nD τ), SemLoc.dma 23) 0
                ∗ semVal ((c : Thread nD τ), SemLoc.dma 24) 0
                ∗ semVal ((c : Thread nD τ), SemLoc.dma 25) 0
                ∗ semVal ((c : Thread nD τ), SemLoc.dma 26) 0
                ∗ semVal ((c : Thread nD τ), SemLoc.dma 27) 0
                ∗ semVal ((c : Thread nD τ), SemLoc.dma 28) 0
                ∗ semVal ((c : Thread nD τ), SemLoc.dma 29) 0
                ∗ semVal ((c : Thread nD τ), SemLoc.dma 30) 0
                ∗ semVal ((c : Thread nD τ), SemLoc.dma 31) 0
                ∗ semVal ((c : Thread nD τ), SemLoc.dma 32) 0
                ∗ semVal ((c : Thread nD τ), SemLoc.dma 33) 0
                ∗ hbPt0 c hbM0_0 fh0
                ∗ hbPt0 c hbM0_1 fh1
                ∗ (∃ W', owes (c : Thread nD τ) 0 W')) -∗ K ⟨⟩))
          ⊢ wp frame (wpE (defs₀ (F := F)) Variants.none c none) Set.univ (cc0__hdc_kernel i tbM0_0 htbM0_0 tbM0_1 htbM0_1 hbM0_0 (Memref.isWhole_whole _) hbM0_1 (Memref.isWhole_whole _) arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) cc0_scratch62) K } := by
  refine ⟨?_, fun W K => ?run⟩
  case run =>
    simp only [cc0__hdc_kernel_eq_skeleton]; unfold cc0__hdc_kernel_skel
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩, ⟨%ds21, %fs21, -, HS21⟩, ⟨%ds22, %fs22, -, HS22⟩, ⟨%ds23, %fs23, -, HS23⟩, ⟨%ds24, %fs24, -, HS24⟩, ⟨%ds25, %fs25, -, HS25⟩, ⟨%ds26, %fs26, -, HS26⟩, ⟨%ds27, %fs27, -, HS27⟩, ⟨%ds28, %fs28, -, HS28⟩, ⟨%ds29, %fs29, -, HS29⟩, ⟨%ds30, %fs30, -, HS30⟩, ⟨%ds31, %fs31, -, HS31⟩, ⟨%ds32, %fs32, -, HS32⟩, ⟨%ds33, %fs33, -, HS33⟩, ⟨%ds34, %fs34, -, HS34⟩, ⟨%ds35, %fs35, -, HS35⟩, ⟨%ds36, %fs36, -, HS36⟩, ⟨%ds37, %fs37, -, HS37⟩, ⟨%ds38, %fs38, -, HS38⟩, ⟨%ds39, %fs39, -, HS39⟩, ⟨%ds40, %fs40, -, HS40⟩, ⟨%ds41, %fs41, -, HS41⟩, ⟨%ds42, %fs42, -, HS42⟩, ⟨%ds43, %fs43, -, HS43⟩, ⟨%ds44, %fs44, -, HS44⟩, ⟨%ds45, %fs45, -, HS45⟩, ⟨%ds46, %fs46, -, HS46⟩, ⟨%ds47, %fs47, -, HS47⟩, ⟨%ds48, %fs48, -, HS48⟩, ⟨%ds49, %fs49, -, HS49⟩, ⟨%ds50, %fs50, -, HS50⟩, ⟨%ds51, %fs51, -, HS51⟩, ⟨%ds52, %fs52, -, HS52⟩, ⟨%ds53, %fs53, -, HS53⟩, ⟨%ds54, %fs54, -, HS54⟩, ⟨%ds55, %fs55, -, HS55⟩, ⟨%ds56, %fs56, -, HS56⟩, ⟨%ds57, %fs57, -, HS57⟩, ⟨%ds58, %fs58, -, HS58⟩, ⟨%ds59, %fs59, -, HS59⟩, ⟨%ds60, %fs60, -, HS60⟩, ⟨%ds61, %fs61, -, HS61⟩, HT0, HT1, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hh0, Hh1, HW, Hk⟩
    obtain rfl := harg5.eq_unread hf0
    ihave Hh0' := (motion_split c fh0) $$ Hh0
    icases Hh0' with ⟨HCr, HC0, HC1, HC2, HC3, HC4, HC5, HC6, HC7, HC8, HC9, HC10, HC11, HC12, HC13, HC14, HC15, HC16, HC17, HC18, HC19, HC20, HC21, HC22, HC23, HC24, HC25, HC26, HC27, HC28, HC29, HC30, HC31, HC32⟩
    sl_exec_parts (disch := first | sl_exact chkM _ (hT0 _) | sl_exact chkH1 _ (hT1 _) | sl_exact chkH2 _ (hT1 _))
    sl_step
    iapply Hk
    isplitl [H0]
    · iexists _; isplitr; · ipureintro; exact harg5.read_unread _
      iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    isplitl [HS20]
    · iexists _, _; isplitr; swap; · iexact HS20
      ipureintro; rfl
    isplitl [HS21]
    · iexists _, _; isplitr; swap; · iexact HS21
      ipureintro; rfl
    isplitl [HS22]
    · iexists _, _; isplitr; swap; · iexact HS22
      ipureintro; rfl
    isplitl [HS23]
    · iexists _, _; isplitr; swap; · iexact HS23
      ipureintro; rfl
    isplitl [HS24]
    · iexists _, _; isplitr; swap; · iexact HS24
      ipureintro; rfl
    isplitl [HS25]
    · iexists _, _; isplitr; swap; · iexact HS25
      ipureintro; rfl
    isplitl [HS26]
    · iexists _, _; isplitr; swap; · iexact HS26
      ipureintro; rfl
    isplitl [HS27]
    · iexists _, _; isplitr; swap; · iexact HS27
      ipureintro; rfl
    isplitl [HS28]
    · iexists _, _; isplitr; swap; · iexact HS28
      ipureintro; rfl
    isplitl [HS29]
    · iexists _, _; isplitr; swap; · iexact HS29
      ipureintro; rfl
    isplitl [HS30]
    · iexists _, _; isplitr; swap; · iexact HS30
      ipureintro; rfl
    isplitl [HS31]
    · iexists _, _; isplitr; swap; · iexact HS31
      ipureintro; rfl
    isplitl [HS32]
    · iexists _, _; isplitr; swap; · iexact HS32
      ipureintro; rfl
    isplitl [HS33]
    · iexists _, _; isplitr; swap; · iexact HS33
      ipureintro; rfl
    isplitl [HS34]
    · iexists _, _; isplitr; swap; · iexact HS34
      ipureintro; rfl
    isplitl [HS35]
    · iexists _, _; isplitr; swap; · iexact HS35
      ipureintro; rfl
    isplitl [HS36]
    · iexists _, _; isplitr; swap; · iexact HS36
      ipureintro; rfl
    isplitl [HS37]
    · iexists _, _; isplitr; swap; · iexact HS37
      ipureintro; rfl
    isplitl [HS38]
    · iexists _, _; isplitr; swap; · iexact HS38
      ipureintro; rfl
    isplitl [HS39]
    · iexists _, _; isplitr; swap; · iexact HS39
      ipureintro; rfl
    isplitl [HS40]
    · iexists _, _; isplitr; swap; · iexact HS40
      ipureintro; rfl
    isplitl [HS41]
    · iexists _, _; isplitr; swap; · iexact HS41
      ipureintro; rfl
    isplitl [HS42]
    · iexists _, _; isplitr; swap; · iexact HS42
      ipureintro; rfl
    isplitl [HS43]
    · iexists _, _; isplitr; swap; · iexact HS43
      ipureintro; rfl
    isplitl [HS44]
    · iexists _, _; isplitr; swap; · iexact HS44
      ipureintro; rfl
    isplitl [HS45]
    · iexists _, _; isplitr; swap; · iexact HS45
      ipureintro; rfl
    isplitl [HS46]
    · iexists _, _; isplitr; swap; · iexact HS46
      ipureintro; rfl
    isplitl [HS47]
    · iexists _, _; isplitr; swap; · iexact HS47
      ipureintro; rfl
    isplitl [HS48]
    · iexists _, _; isplitr; swap; · iexact HS48
      ipureintro; rfl
    isplitl [HS49]
    · iexists _, _; isplitr; swap; · iexact HS49
      ipureintro; rfl
    isplitl [HS50]
    · iexists _, _; isplitr; swap; · iexact HS50
      ipureintro; rfl
    isplitl [HS51]
    · iexists _, _; isplitr; swap; · iexact HS51
      ipureintro; rfl
    isplitl [HS52]
    · iexists _, _; isplitr; swap; · iexact HS52
      ipureintro; rfl
    isplitl [HS53]
    · iexists _, _; isplitr; swap; · iexact HS53
      ipureintro; rfl
    isplitl [HS54]
    · iexists _, _; isplitr; swap; · iexact HS54
      ipureintro; rfl
    isplitl [HS55]
    · iexists _, _; isplitr; swap; · iexact HS55
      ipureintro; rfl
    isplitl [HS56]
    · iexists _, _; isplitr; swap; · iexact HS56
      ipureintro; rfl
    isplitl [HS57]
    · iexists _, _; isplitr; swap; · iexact HS57
      ipureintro; rfl
    isplitl [HS58]
    · iexists _, _; isplitr; swap; · iexact HS58
      ipureintro; rfl
    isplitl [HS59]
    · iexists _, _; isplitr; swap; · iexact HS59
      ipureintro; rfl
    isplitl [HS60]
    · iexists _, _; isplitr; swap; · iexact HS60
      ipureintro; rfl
    isplitl [HS61]
    · iexists _, _; isplitr; swap; · iexact HS61
      ipureintro; rfl
    isplitl [HT0]; · iexact HT0
    isplitl [HT1]; · iexact HT1
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [HCr HC0 HC1 HC2 HC3 HC4 HC5 HC6 HC7 HC8 HC9 HC10 HC11 HC12 HC13 HC14 HC15 HC16 HC17 HC18 HC19 HC20 HC21 HC22 HC23 HC24 HC25 HC26 HC27 HC28 HC29 HC30 HC31 HC32]
    · iapply (motion_join c fh0)
      isplitl [HCr]; · iexact HCr
      isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      isplitl [HC24]; · iexact HC24
      isplitl [HC25]; · iexact HC25
      isplitl [HC26]; · iexact HC26
      isplitl [HC27]; · iexact HC27
      isplitl [HC28]; · iexact HC28
      isplitl [HC29]; · iexact HC29
      isplitl [HC30]; · iexact HC30
      isplitl [HC31]; · iexact HC31
      iexact HC32
    isplitl [Hh1]; · iexact Hh1
    iexists _; iexact HW

end Cert.Kernel.Fr

end
-- ==== Proof.KOut.lean ====
/- What the body of Kernel leaves in the output block at one grid point: the run's one store covers the block, and the
   block read back is that store's value. -/
import proofs.«428504_j90692529422509_4_alg».proof.Proof.KSetup
import proofs.«428504_j90692529422509_4_alg».proof.Proof.KRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The run's one store writes the whole output block. -/
theorem cover0_1 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) (y : S8x10000.Idx) :
    ∃ pc ∈ (kernelRun0 c i arg5 harg5 arg6 harg6 x0 xt0 xt1 fh0 fh1 hT0 hT1).1, y ∈ pc.1.set :=
  View.cover_of_tiledL (kernelRun0 c i arg5 harg5 arg6 harg6 x0 xt0 xt1 fh0 fh1 hT0 hT1).1 S8x10000.size (by sl_kernel_rfl) y

/-- What the run leaves in the output's staging buffer: its pieces read back over junk. -/
def out0_1 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) : Vec F S8x10000 .f32 :=
  VO0_1.read (Elt F) (VO0_1.writes (Elt F) VO0_1.junk (kernelRun0 c i arg5 harg5 arg6 harg6 x0 xt0 xt1 fh0 fh1 hT0 hT1).1)

end Cert.Kernel.Fr

end
-- ==== Proof.KFrame.lean ====
/- The frame of Kernel: what the output block holds after the body at each grid point (the run's pieces read back), the
   pipeline's proof data, the body obligation at a generic point, the launch, and the frame claim — under the two
   bounds on the index tables' words, which the host lines' clip gives. -/
import proofs.«428504_j90692529422509_4_alg».proof.Proof.KOut

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel body at point t, on what the pipeline calls it with: the tables and the level tables whole, the two
    windows' current staging buffers, the scratch buffers and the semaphore array. -/
abbrev bodyAt0 (a : (pcfg0 (F := F)).Adm) (t : Fin (cfg0 a).N) : Prog (TpuEff nD τ sig (Elt F) Λ₀ .tc) PUnit :=
  cc0__hdc_kernel (grid0.coords t) tbM0_0 htbM0_0 tbM0_1 htbM0_1 hbM0_0 (Memref.isWhole_whole _) hbM0_1 (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) cc0_scratch62

/-- The output window is written back at every point, whatever the tables hold (its index map reads none). -/
theorem flush0_1 (a : (pcfg0 (F := F)).Adm) : ∀ t : Fin (cfg0 a).N, ((cfg0 a).win 1).flush t = true :=
  (by decide +kernel : ∀ t : Fin grid0.N, Pipeline.Window.flushOf grid0 true cc0_transform_3 t = true)

variable (m : (ℓ : Loc nD τ sig) → Buf (Elt F) ℓ) (ρ : Dev nD → PrngReg)

/-- The bounds on the index words the region is entered with: below 3000 and below 200. -/
structure TblOk : Prop where
  h0 : ∀ y : S64x30.Idx, (tbM0_0.view.read (Elt F) (tbl m 0) y : BitVec 32).toNat < 3000
  h1 : ∀ y : S64.Idx, (tbM0_1.view.read (Elt F) (tbl m 1) y : BitVec 32).toNat < 200

variable {m} in
/-- What the output block holds after the body at point t. -/
def outsAt0 (hT : TblOk m) (c : Dev nD) (t : Fin (cfgM m).N) : Vec F S8x10000 .f32 :=
  out0_1 c (grid0.coords t) (ms0_0 m t) (hs0_0 m t) (ms0_1 m t) (hs0_1 m t) (iblk m c 0 t) (tbl m 0) (tbl m 1) (V m c main_arg2) (V m c main_arg3) hT.h0 hT.h1

variable {m} in
/-- The proof data: the arrays as the region finds them; after the body the keys' buffer at its block and the output's at
    outsAt0; the invariant the scratch, the register, the cells at zero, the level tables and the index tables' halves. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => (outsAt0 hT c t)
  Φ _ := iprop(Pipeline.ΦD osem0 spec0 H0 (V m) c ∗ Pipeline.ΦT pre0 (tbl m) c)
  q _ := fullShare
  owed _ := 0

variable {m} in
theorem A_eq (hT : TblOk m) (c : Dev nD) (w : Fin (cfgM m).W) : (dats hT 0 c).A w = V m c (Pipeline.arrRef spec0 w) := by
  dsimp only [dats]
variable {m} in
theorem after0_0 (hT : TblOk m) (c : Dev nD) (t : Fin (cfgM m).N) : (dats hT 0 c).after 0 t = iblk m c 0 t := by dsimp only [dats]; try rfl
variable {m} in
theorem after0_1 (hT : TblOk m) (c : Dev nD) (t : Fin (cfgM m).N) : (dats hT 0 c).after 1 t = (outsAt0 hT c t) := by dsimp only [dats]; try rfl
variable {m} in
theorem before0_0 (hT : TblOk m) (c : Dev nD) (t : Fin (cfgM m).N) (d) : (dats hT 0 c).before 0 t d = iblk m c 0 t :=
  before0_0_of m (dats hT 0 c) (A_eq hT c 0) (after0_0 hT c) t d

variable {m} in
def bodyPre (hT : TblOk m) (c : Dev nD) (t : Fin (cfgM m).N) : sProp 𝕄 :=
  iprop((dats hT 0 c).Φ t.castSucc ∗ (dats hT 0 c).owesAt () t.castSucc
    ∗ (∃ d, owns (c : Thread nD τ) (ms0_0 m t) fullShare ((dats hT 0 c).before 0 t d))
    ∗ (∃ d, owns (c : Thread nD τ) (ms0_1 m t) fullShare ((dats hT 0 c).before 1 t d)))
variable {m} in
def bodyPost (hT : TblOk m) (c : Dev nD) (t : Fin (cfgM m).N) : sProp 𝕄 :=
  iprop((dats hT 0 c).Φ t.succ ∗ (dats hT 0 c).owesAt () t.succ
    ∗ owns (c : Thread nD τ) (ms0_0 m t) fullShare ((dats hT 0 c).after 0 t)
    ∗ owns (c : Thread nD τ) (ms0_1 m t) fullShare ((dats hT 0 c).after 1 t))

variable {m} in
set_option maxHeartbeats 40000000 in
/-- The body at any point: the invariant hands the run its scratch, cells, level tables and index tables and takes them
    back as they were; the keys' buffer holds its block; the output's buffer ends at the run's pieces. -/
theorem sound_body (hT : TblOk m) (c : Dev nD) (t : Fin (cfgM m).N) :
    bodyPre hT c t ⊢ wp frame (wpE (defs₀ (F := F)) Variants.none c none) Set.univ (bodyAt0 (adm m) t) (fun _ => bodyPost hT c t) := by
  unfold bodyPre bodyPost bodyAt0
  simp only [before0_0]
  rw [show (dats hT 0 c).Φ t.succ = (dats hT 0 c).Φ t.castSucc from rfl,
    after0_0, after0_1]
  rw [show (dats hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats hT 0 c).owed t.castSucc = 0 from rfl, show (dats hT 0 c).owed t.succ = 0 from rfl]
  unfold outsAt0
  unfold out0_1
  iintro ⟨⟨⟨⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61⟩, Hg, ⟨Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33⟩, ⟨Hh0, Hh1⟩⟩, ⟨HT0, HT1⟩⟩, ⟨%W, -, HW⟩, ⟨%d0, H0⟩, ⟨%d1, H1⟩⟩
  iapply ((kernelRun0 c (grid0.coords t) _ _ _ _ (iblk m c 0 t) (tbl m 0) (tbl m 1) (V m c main_arg2) (V m c main_arg3) hT.h0 hT.h1).2 W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  isplitl [HS26]; · iexact HS26
  isplitl [HS27]; · iexact HS27
  isplitl [HS28]; · iexact HS28
  isplitl [HS29]; · iexact HS29
  isplitl [HS30]; · iexact HS30
  isplitl [HS31]; · iexact HS31
  isplitl [HS32]; · iexact HS32
  isplitl [HS33]; · iexact HS33
  isplitl [HS34]; · iexact HS34
  isplitl [HS35]; · iexact HS35
  isplitl [HS36]; · iexact HS36
  isplitl [HS37]; · iexact HS37
  isplitl [HS38]; · iexact HS38
  isplitl [HS39]; · iexact HS39
  isplitl [HS40]; · iexact HS40
  isplitl [HS41]; · iexact HS41
  isplitl [HS42]; · iexact HS42
  isplitl [HS43]; · iexact HS43
  isplitl [HS44]; · iexact HS44
  isplitl [HS45]; · iexact HS45
  isplitl [HS46]; · iexact HS46
  isplitl [HS47]; · iexact HS47
  isplitl [HS48]; · iexact HS48
  isplitl [HS49]; · iexact HS49
  isplitl [HS50]; · iexact HS50
  isplitl [HS51]; · iexact HS51
  isplitl [HS52]; · iexact HS52
  isplitl [HS53]; · iexact HS53
  isplitl [HS54]; · iexact HS54
  isplitl [HS55]; · iexact HS55
  isplitl [HS56]; · iexact HS56
  isplitl [HS57]; · iexact HS57
  isplitl [HS58]; · iexact HS58
  isplitl [HS59]; · iexact HS59
  isplitl [HS60]; · iexact HS60
  isplitl [HS61]; · iexact HS61
  isplitl [HT0]; · iexact HT0
  isplitl [HT1]; · iexact HT1
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hh0]; · iexact Hh0
  isplitl [Hh1]; · iexact Hh1
  isplitl [HW]; · iexact HW
  iintro ⟨H0, ⟨%e1, H1⟩, HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HT0, HT1, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hh0, Hh1, ⟨%W', HW'⟩⟩
  isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 Hg Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hh0 Hh1 HT0 HT1]
  · isplitr [HT0 HT1]
    · isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        isplitl [HS17]; · iexact HS17
        isplitl [HS18]; · iexact HS18
        isplitl [HS19]; · iexact HS19
        isplitl [HS20]; · iexact HS20
        isplitl [HS21]; · iexact HS21
        isplitl [HS22]; · iexact HS22
        isplitl [HS23]; · iexact HS23
        isplitl [HS24]; · iexact HS24
        isplitl [HS25]; · iexact HS25
        isplitl [HS26]; · iexact HS26
        isplitl [HS27]; · iexact HS27
        isplitl [HS28]; · iexact HS28
        isplitl [HS29]; · iexact HS29
        isplitl [HS30]; · iexact HS30
        isplitl [HS31]; · iexact HS31
        isplitl [HS32]; · iexact HS32
        isplitl [HS33]; · iexact HS33
        isplitl [HS34]; · iexact HS34
        isplitl [HS35]; · iexact HS35
        isplitl [HS36]; · iexact HS36
        isplitl [HS37]; · iexact HS37
        isplitl [HS38]; · iexact HS38
        isplitl [HS39]; · iexact HS39
        isplitl [HS40]; · iexact HS40
        isplitl [HS41]; · iexact HS41
        isplitl [HS42]; · iexact HS42
        isplitl [HS43]; · iexact HS43
        isplitl [HS44]; · iexact HS44
        isplitl [HS45]; · iexact HS45
        isplitl [HS46]; · iexact HS46
        isplitl [HS47]; · iexact HS47
        isplitl [HS48]; · iexact HS48
        isplitl [HS49]; · iexact HS49
        isplitl [HS50]; · iexact HS50
        isplitl [HS51]; · iexact HS51
        isplitl [HS52]; · iexact HS52
        isplitl [HS53]; · iexact HS53
        isplitl [HS54]; · iexact HS54
        isplitl [HS55]; · iexact HS55
        isplitl [HS56]; · iexact HS56
        isplitl [HS57]; · iexact HS57
        isplitl [HS58]; · iexact HS58
        isplitl [HS59]; · iexact HS59
        isplitl [HS60]; · iexact HS60
        iexact HS61
      isplitl [Hg]; · iexact Hg
      isplitl [Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33]
      · isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        iexact Hq33
      isplitl [Hh0]; · iexact Hh0
      iexact Hh1
    · isplitl [HT0]; · iexact HT0
      iexact HT1
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover0_1 c _ _ _ _ _ _ _ _ _ _ _ _)

variable {m} in
set_option maxRecDepth 1000000 in
set_option maxHeartbeats 40000000 in
theorem body_obligation (hT : TblOk m) (c : Dev nD) : BodyObligation (dats (F := F) hT 0 c) (defs₀ (F := F)) Variants.none () Set.univ := fun t => by
  rw [bigSep_W0, bigSep_W0]
  exact sound_body hT c t

variable {m} in
set_option maxRecDepth 1000000 in
set_option backward.isDefEq.respectTransparency.types false in
theorem run_main (hT : TblOk m) : θ_run defs (onTc (τ := τ) (main (F := F))) (s₀ m ρ) (Pipeline.FramePost (Pipeline.pin pcfgs fun _ => adm m) (dats hT) 0 (V m)) :=
  Pipeline.θ_run_frameP_dma pcfgs (fun _ => adm m) (dats hT) (0 : Fin 1) launch0 osem0 defs₀ Variants.none ownSemFacts0 H0 H0_sub m ρ main
    (hbody := fun c => (body_obligation hT c).loose) (hshare := fun c => (dats hT 0 c).share_full fun _ => rfl)
    (howed := fun _ _ => rfl) (V := V m) (hmain := hmain m Variants.none) (hA := A_eq hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

variable {m} in
/-- The frame claim's post, at any F, under the tables' bounds. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats hT) (run_main ρ hT)

end Cert.Kernel.Fr

end
-- ==== Proof.Spec.lean ====
/- The mathematics both programs compute, index by index, over the extended reals.
   A sample's channel c (1 to 31) is encoded as a row of a level table: the row whose number is the channel value
   moved to [0, levels-1], rounded and clipped. The 7-gram of window w at lane d is the product of the rows of channels
   w+1 … w+7, the j-th rotated right by 6-j lanes; the windows' products are bound with the keys, summed, and the sign of
   the sum (+1 where positive, else -1) is the sample's hypervector. -/
import Idealize.ShloMosaic.PureOps.Ideal
import Idealize.ShloMosaic.Lib.ValueIdx

noncomputable section

namespace Cert.Hdc

open Idealize.ShloMosaic Idealize.ShloMosaic.ValueIdx
open scoped BigOperators

abbrev S0 : Shape := ⟨0, ![]⟩

/-- The level index of a channel value x: ((x - lo) / den) * sc rounded to the nearest even integer, converted to a
    32-bit word and clipped into [0, hi] (signed) — the operations the host lines apply, at one element. -/
def wordOf {F : FTy → Type} [FloatOps F] (lo den sc : BitVec 32) (hi : BitVec 32) (x : F .f32) : BitVec 32 :=
  (minsi (constantI S0 32 hi) (maxsi (constantI S0 32 0#32)
    (fptosi 32 (Host.roundeven (mulf (Host.divf (subf (fun _ => x) (constant (F := F) S0 .f32 lo)) (constant (F := F) S0 .f32 den)) (constant (F := F) S0 .f32 sc)))
      : IVec S0 32))) ix0

/-- The motion channels' index: (x + 3) / 6 * 2999, clipped to [0, 2999]; the heart-rate channel's: (x - 50) / 150 * 199,
    clipped to [0, 199]. -/
abbrev wordM {F : FTy → Type} [FloatOps F] (x : F .f32) : BitVec 32 := wordOf 0xC0400000#32 0x40C00000#32 0x453B7000#32 2999#32 x
abbrev wordH {F : FTy → Type} [FloatOps F] (x : F .f32) : BitVec 32 := wordOf 0x42480000#32 0x43160000#32 0x43470000#32 199#32 x

/-- The row of an N-row level table an index word selects: read signed, clamped into the table. -/
def rowOf {N : Nat} (hN : 0 < N) (tab : (⟨2, ![N, 10000]⟩ : Shape).Idx → EReal) (w : BitVec 32) (d : Fin 10000) : EReal :=
  tab (ix2 ⟨min w.toInt.toNat (N - 1), by omega⟩ d)

/-- Lane d rotated right by s: the lane a rotation by s reads at d. -/
def rot (s : Nat) (d : Fin 10000) : Fin 10000 := ⟨(d.val + 10000 - s % 10000) % 10000, Nat.mod_lt _ (by decide)⟩

/-- The 7-gram of window w: the rows of channels w … w+6 (of the 31 used channels), the j-th rotated by 6-j. -/
def ngram (row : Fin 31 → Fin 10000 → EReal) (w : Fin 25) (d : Fin 10000) : EReal :=
  (((((row ⟨w.val, by omega⟩ (rot 6 d) * row ⟨w.val + 1, by omega⟩ (rot 5 d)) * row ⟨w.val + 2, by omega⟩ (rot 4 d))
    * row ⟨w.val + 3, by omega⟩ (rot 3 d)) * row ⟨w.val + 4, by omega⟩ (rot 2 d)) * row ⟨w.val + 5, by omega⟩ (rot 1 d))
    * row ⟨w.val + 6, by omega⟩ (rot 0 d)

/-- The windows' products bound with the keys and summed. -/
def wsum (keys : Fin 25 → Fin 10000 → EReal) (row : Fin 31 → Fin 10000 → EReal) (d : Fin 10000) : EReal :=
  ∑ w : Fin 25, keys w d * ngram row w d

/-- +1 where the sum is positive, else -1. -/
def sgn (s : EReal) : EReal :=
  Scalar.select (FloatOps.cmpf (F := Ideal) (φ := .f32) .ogt s (Ideal.ofBits .f32 0x00000000#32))
    (Ideal.ofBits .f32 0x3F800000#32) (Ideal.ofBits .f32 0xBF800000#32)

/-- A sample's hypervector at lane d. -/
def hv (keys : Fin 25 → Fin 10000 → EReal) (row : Fin 31 → Fin 10000 → EReal) (d : Fin 10000) : EReal :=
  sgn (wsum keys row d)

/-- The 31 used channels' rows for a sample whose channel values are x (index 0 … 31): channels 1 … 30 from the
    motion-level table, channel 31 from the heart-rate-level table. -/
def rowsOf (mt : (⟨2, ![3000, 10000]⟩ : Shape).Idx → EReal) (ht : (⟨2, ![200, 10000]⟩ : Shape).Idx → EReal)
    (x : Fin 32 → EReal) (c : Fin 31) (d : Fin 10000) : EReal :=
  if h : c.val < 30 then rowOf (by decide) mt (wordM (F := Ideal) (x ⟨c.val + 1, by omega⟩)) d
  else rowOf (by decide) ht (wordH (F := Ideal) (x ⟨31, by decide⟩)) d

/-- The whole result: sample b's hypervector from the first timestep's channels, the first 25 keys and the two tables. -/
def G (ch : (⟨3, ![64, 4, 32]⟩ : Shape).Idx → EReal) (keys : (⟨2, ![32, 10000]⟩ : Shape).Idx → EReal)
    (mt : (⟨2, ![3000, 10000]⟩ : Shape).Idx → EReal) (ht : (⟨2, ![200, 10000]⟩ : Shape).Idx → EReal)
    (i : (⟨2, ![64, 10000]⟩ : Shape).Idx) : EReal :=
  hv (fun w d => keys (ix2 ⟨w.val, by omega⟩ d)) (rowsOf mt ht fun k => ch (ix3 (i 0) 0 k)) (i 1)

end Cert.Hdc

end
-- ==== Proof.KHost.lean ====
/- What the host lines leave for the region of Kernel: the two index tables hold, at every sample, the level
   index of the sample's channel value (the shift, scale, rounding and clip read at one element), each index is
   inside its level table, and the keys window's block is the first 25 rows of the keys. -/
import proofs.«428504_j90692529422509_4_alg».proof.Proof.KSetup
import proofs.«428504_j90692529422509_4_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.WordArith

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The clip -/

/-- A word clipped into [0, hi] (signed), read as a natural number, is at most hi. -/
theorem clip_toNat_le (hi x : BitVec 32) (hhi : hi.toNat < 2 ^ 31) :
    (IntOp.minsi hi (IntOp.maxsi 0#32 x)).toNat ≤ hi.toNat := by
  have h1 : (IntOp.maxsi 0#32 x).toNat < 2 ^ 31 := by
    have := WordArith.two_mul_toNat_maxsi_zero_lt x
    rw [Scalar.maxsi] at this; omega
  rw [WordArith.toNat_minsi_of_lt hi _ hhi h1]
  exact Nat.min_le_left _ _

/-! ## The host lines, read at the two index tables and at the keys block -/

/-- The chain of one channel's level index over a whole array X of channel values: shift by lo, divide by den,
    scale by sc, round to nearest even, convert to a word, clip into [0, hi]. -/
abbrev idxChain {S : Shape} (hb : S_.BroadcastsInDim S (![] : Fin 0 → Fin S.rank)) (lo den sc hi : BitVec 32) (X : FVec F S .f32) : IVec S 32 :=
  minsi (broadcastInDim S ![] hb (constantI S_ 32 hi))
    (maxsi (broadcastInDim S ![] hb (constantI S_ 32 0#32))
      (fptosi 32 (Host.roundeven (mulf (Host.divf (subf X (broadcastInDim S ![] hb (constant (F := F) S_ .f32 lo)))
        (broadcastInDim S ![] hb (constant (F := F) S_ .f32 den))) (broadcastInDim S ![] hb (constant (F := F) S_ .f32 sc))))))

/-- Read at one element, the chain is the specification's level index of that element. -/
theorem idxChain_apply {S : Shape} (hb : S_.BroadcastsInDim S (![] : Fin 0 → Fin S.rank)) (lo den sc hi : BitVec 32) (X : FVec F S .f32) (y : S.Idx) :
    idxChain hb lo den sc hi X y = Cert.Hdc.wordOf (F := F) lo den sc hi (X y) := rfl

/-- Read at one element, the chain is a clip into [0, hi]. -/
theorem idxChain_le {S : Shape} (hb : S_.BroadcastsInDim S (![] : Fin 0 → Fin S.rank)) (lo den sc hi : BitVec 32) (hhi : hi.toNat < 2 ^ 31) (X : FVec F S .f32) (y : S.Idx) :
    (idxChain hb lo den sc hi X y).toNat ≤ hi.toNat :=
  clip_toNat_le hi _ hhi

/-- Channels 1 to 30 of the first timestep, as the host lines slice them out of the samples. -/
abbrev chM (A : (⟨S64x4x32, .f32⟩ : BufTy).Contents (Elt F)) : FVec F S64x30 .f32 :=
  extractStridedSlice S64x30 ![0, 1]
    (shapeCast S64x31 (extractStridedSlice S64x1x31 ![0, 0, 0] A slices_S64x4x32_S64x1x31_0_0_0) shapeCasts_S64x1x31_S64x31)
    slices_S64x31_S64x30_0_1

/-- Channel 31 of the first timestep, as the host lines slice it out. -/
abbrev chH (A : (⟨S64x4x32, .f32⟩ : BufTy).Contents (Elt F)) : FVec F S64x1 .f32 :=
  shapeCast S64x1 (extractStridedSlice S64x1x1 ![0, 0, 31] A slices_S64x4x32_S64x1x1_0_0_31) shapeCasts_S64x1x1_S64x1

set_option maxHeartbeats 2000000 in
/-- The motion index table when the region is entered. -/
theorem V_v13 (c : Dev nD) : (V m c main_v13 : IVec S64x30 32)
    = idxChain bcast_S_S64x30 0xC0400000#32 0x40C00000#32 0x453B7000#32 2999#32 (chM (m (c, Proc.tc.devRef main_arg0))) := by
  generalize hR : idxChain bcast_S_S64x30 0xC0400000#32 0x40C00000#32 0x453B7000#32 2999#32 (chM (m (c, Proc.tc.devRef main_arg0))) = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rw [← hR]; rfl

set_option maxHeartbeats 2000000 in
/-- The heart-rate index table when the region is entered. -/
theorem V_v23 (c : Dev nD) : (V m c main_v23 : IVec S64 32)
    = shapeCast S64 (idxChain bcast_S_S64x1 0x42480000#32 0x43160000#32 0x43470000#32 199#32 (chH (m (c, Proc.tc.devRef main_arg0)))) shapeCasts_S64x1_S64 := by
  generalize hR : shapeCast S64 (idxChain bcast_S_S64x1 0x42480000#32 0x43160000#32 0x43470000#32 199#32 (chH (m (c, Proc.tc.devRef main_arg0)))) shapeCasts_S64x1_S64 = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rw [← hR]; rfl

/-- The keys array of the region when it is entered: the first 25 rows of the keys. -/
theorem V_v24 (c : Dev nD) : (V m c main_v24 : FVec F S25x10000 .f32)
    = extractStridedSlice S25x10000 ![0, 0] (m (c, Proc.tc.devRef main_arg1)) slices_S32x10000_S25x10000_0_0 := by
  generalize hR : extractStridedSlice S25x10000 ![0, 0] (m (c, Proc.tc.devRef main_arg1)) slices_S32x10000_S25x10000_0_0 = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  subst hR; rfl

/-! ## The index tables: their bounds -/

/-- The motion index table the region reads is the chain over channels 1 to 30 of the first timestep. -/
theorem tbl0_eq : (tbM0_0.view.read (Elt F) (tbl m 0) : IVec S64x30 32)
    = idxChain bcast_S_S64x30 0xC0400000#32 0x40C00000#32 0x453B7000#32 2999#32 (chM (m ((0 : Dev nD), Proc.tc.devRef main_arg0))) :=
  V_v13 m 0

/-- The heart-rate index table the region reads is the chain over channel 31 of the first timestep, as a vector. -/
theorem tbl1_eq : (tbM0_1.view.read (Elt F) (tbl m 1) : IVec S64 32)
    = shapeCast S64 (idxChain bcast_S_S64x1 0x42480000#32 0x43160000#32 0x43470000#32 199#32 (chH (m ((0 : Dev nD), Proc.tc.devRef main_arg0)))) shapeCasts_S64x1_S64 :=
  V_v23 m 0

/-- Sample b's entry of the heart-rate index table is the chain's entry (b, 0). -/
theorem tbl1_at (b : Fin 64) : (tbM0_1.view.read (Elt F) (tbl m 1) : IVec S64 32) (ValueIdx.ix1 b)
    = idxChain bcast_S_S64x1 0x42480000#32 0x43160000#32 0x43470000#32 199#32 (chH (m ((0 : Dev nD), Proc.tc.devRef main_arg0))) (ValueIdx.ix2 b (0 : Fin 1)) :=
  (congrFun (tbl1_eq m) (ValueIdx.ix1 b)).trans
    (shapeCast_apply _ shapeCasts_S64x1_S64 (ValueIdx.ix1 b) (ValueIdx.ix2 b (0 : Fin 1)) (by
      rw [Shape.rowMajor_val_two, Shape.rowMajor_val_one]; show b.val * 1 + 0 = b.val; omega))

/-- Every motion index is a row of the 3000-row table. -/
theorem tbl0_lt (y : S64x30.Idx) : (tbM0_0.view.read (Elt F) (tbl m 0) y : BitVec 32).toNat < 3000 :=
  (congrArg BitVec.toNat (congrFun (tbl0_eq m) y)).trans_lt
    (Nat.lt_of_le_of_lt (idxChain_le bcast_S_S64x30 _ _ _ 2999#32 (by decide) _ y) (by decide))

/-- Every heart-rate index is a row of the 200-row table. -/
theorem tbl1_lt (y : S64.Idx) : (tbM0_1.view.read (Elt F) (tbl m 1) y : BitVec 32).toNat < 200 := by
  rw [ValueIdx.eq_ix1 y]
  exact (congrArg BitVec.toNat (tbl1_at m (y 0))).trans_lt
    (Nat.lt_of_le_of_lt (idxChain_le bcast_S_S64x1 _ _ _ 199#32 (by decide) _ _) (by decide))

/-! ## The index tables: their words -/

/-- Channels 1 to 30 read at (b, c): the sample's channel c + 1 of the first timestep. -/
theorem chM_apply (A : (⟨S64x4x32, .f32⟩ : BufTy).Contents (Elt F)) (b : Fin 64) (c : Fin 30) :
    chM A (ValueIdx.ix2 b c) = A (ValueIdx.ix3 b (0 : Fin 4) (⟨c.val + 1, by omega⟩ : Fin 32)) := by
  refine (extractStridedSlice_apply (s := S64x31) (t := S64x30) ![0, 1] _ slices_S64x31_S64x30_0_1 (ValueIdx.ix2 b c) (ValueIdx.ix2 b (⟨c.val + 1, by omega⟩ : Fin 31))
    (fun a => match a with
      | ⟨0, _⟩ => (show b.val = 0 + b.val from by omega)
      | ⟨1, _⟩ => (show c.val + 1 = 1 + c.val from by omega))).trans ?_
  refine (shapeCast_apply (s := S64x1x31) (t := S64x31) _ shapeCasts_S64x1x31_S64x31 (ValueIdx.ix2 b (⟨c.val + 1, by omega⟩ : Fin 31))
    (ValueIdx.ix3 b (0 : Fin 1) (⟨c.val + 1, by omega⟩ : Fin 31)) (by
      rw [Shape.rowMajor_val_three, Shape.rowMajor_val_two]
      show (b.val * 1 + 0) * 31 + (c.val + 1) = b.val * 31 + (c.val + 1); omega)).trans ?_
  exact extractStridedSlice_apply (s := S64x4x32) (t := S64x1x31) ![0, 0, 0] A slices_S64x4x32_S64x1x31_0_0_0 (ValueIdx.ix3 b (0 : Fin 1) (⟨c.val + 1, by omega⟩ : Fin 31))
    (ValueIdx.ix3 b (0 : Fin 4) (⟨c.val + 1, by omega⟩ : Fin 32))
    (fun a => match a with
      | ⟨0, _⟩ => (show b.val = 0 + b.val from by omega)
      | ⟨1, _⟩ => (show 0 = 0 + 0 from rfl)
      | ⟨2, _⟩ => (show c.val + 1 = 0 + (c.val + 1) from by omega))

/-- Channel 31 read at (b, 0): the sample's channel 31 of the first timestep. -/
theorem chH_apply (A : (⟨S64x4x32, .f32⟩ : BufTy).Contents (Elt F)) (b : Fin 64) :
    chH A (ValueIdx.ix2 b (0 : Fin 1)) = A (ValueIdx.ix3 b (0 : Fin 4) (⟨31, by decide⟩ : Fin 32)) := by
  refine (shapeCast_apply (s := S64x1x1) (t := S64x1) _ shapeCasts_S64x1x1_S64x1 (ValueIdx.ix2 b (0 : Fin 1))
    (ValueIdx.ix3 b (0 : Fin 1) (0 : Fin 1)) (by
      rw [Shape.rowMajor_val_three, Shape.rowMajor_val_two]
      show (b.val * 1 + 0) * 1 + 0 = b.val * 1 + 0; omega)).trans ?_
  exact extractStridedSlice_apply (s := S64x4x32) (t := S64x1x1) ![0, 0, 31] A slices_S64x4x32_S64x1x1_0_0_31 (ValueIdx.ix3 b (0 : Fin 1) (0 : Fin 1))
    (ValueIdx.ix3 b (0 : Fin 4) (⟨31, by decide⟩ : Fin 32))
    (fun a => match a with
      | ⟨0, _⟩ => (show b.val = 0 + b.val from by omega)
      | ⟨1, _⟩ => (show 0 = 0 + 0 from rfl)
      | ⟨2, _⟩ => (show 31 = 31 + 0 from rfl))

/-- Sample b's motion index of channel c + 1 is the specification's level index of that channel value. -/
theorem tbl0_word (b : Fin 64) (c : Fin 30) :
    tbM0_0.view.read (Elt F) (tbl m 0) (ValueIdx.ix2 b c)
      = Cert.Hdc.wordM (F := F) (m (((0 : Dev nD) : Thread nD τ).loc main_arg0) (ValueIdx.ix3 b (0 : Fin 4) (⟨c.val + 1, by omega⟩ : Fin 32))) :=
  (congrFun (tbl0_eq m) (ValueIdx.ix2 b c)).trans
    ((idxChain_apply bcast_S_S64x30 _ _ _ _ _ (ValueIdx.ix2 b c)).trans
      (congrArg (Cert.Hdc.wordOf (F := F) 0xC0400000#32 0x40C00000#32 0x453B7000#32 2999#32) (chM_apply _ b c)))

/-- Sample b's heart-rate index is the specification's level index of its channel 31. -/
theorem tbl1_word (b : Fin 64) :
    tbM0_1.view.read (Elt F) (tbl m 1) (ValueIdx.ix1 b)
      = Cert.Hdc.wordH (F := F) (m (((0 : Dev nD) : Thread nD τ).loc main_arg0) (ValueIdx.ix3 b (0 : Fin 4) (⟨31, by decide⟩ : Fin 32))) :=
  (tbl1_at m b).trans
    ((idxChain_apply bcast_S_S64x1 _ _ _ _ _ (ValueIdx.ix2 b (0 : Fin 1))).trans
      (congrArg (Cert.Hdc.wordOf (F := F) 0x42480000#32 0x43160000#32 0x43470000#32 199#32) (chH_apply _ b)))

/-! ## The keys block -/

/-- The keys window's block is, at every point of the grid, the first 25 rows of the keys. -/
theorem keys_blk (c : Dev nD) (t : Fin (cfgM m).N) (w : Fin 25) (d : Fin 10000) :
    (iblk m c 0 t : Vec F S25x10000 .f32) (ValueIdx.ix2 w d)
      = m ((c : Thread nD τ).loc main_arg1) (ValueIdx.ix2 (⟨w.val, by omega⟩ : Fin 32) d) := by
  refine ((congrFun (V_v24 m c) _).trans ?_ : (iblk m c 0 t : Vec F S25x10000 .f32) (ValueIdx.ix2 w d) = _)
  exact extractStridedSlice_apply (s := S32x10000) (t := S25x10000) ![0, 0] _ slices_S32x10000_S25x10000_0_0 _ (ValueIdx.ix2 (⟨w.val, by omega⟩ : Fin 32) d)
    (fun a => match a with
      | ⟨0, _⟩ => (show w.val = 0 + (0 * 25 + 1 * w.val) from by omega)
      | ⟨1, _⟩ => (show d.val = 0 + (0 * 10000 + 1 * d.val) from by omega))

end Cert.Kernel.Fr

end
-- ==== Proof.KIDefs.lean ====
/- The operands of the one kernel of KernelIdeal as the symbolic run holds them: the two index tables in scalar memory,
   the two level tables left in HBM, and the side conditions the body assumes of each index word, from a bound on
   the word. -/
import proofs.«428504_j90692529422509_4_alg».proof.Proof.Gen.KernelIdeal.Launch
import proofs.«428504_j90692529422509_4_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The motion-level index table (64 x 30 words) and the heart-rate-level index table (64 words), whole. -/
abbrev tbM0_0 : Memref sig .tc .smem S64x30 .i32 := Memref.whole main_v13
abbrev htbM0_0 : tbM0_0.IsWhole := Memref.isWhole_whole _
abbrev tbM0_1 : Memref sig .tc .smem S64 .i32 := Memref.whole main_v23
abbrev htbM0_1 : tbM0_1.IsWhole := Memref.isWhole_whole _
/-- A table's buffer on core c, and the half of it the body reads from. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The motion-level table (3000 rows) and the heart-rate-level table (200 rows), left in HBM, whole. -/
abbrev hbM0_0 : Memref sig .tc .hbm S3000x10000 .f32 := Memref.whole main_arg2
abbrev hbM0_1 : Memref sig .tc .hbm S200x10000 .f32 := Memref.whole main_arg3
abbrev HbBuf0 (c : Dev nD) {sp : Space} {S : Shape} {e : EltTy} (M : Memref sig .tc sp S e) : Type := Buf (Elt F) (M.view.loc (c : Thread nD τ))
/-- An HBM operand held whole at a share. -/
abbrev hbTok (c : Dev nD) {sp : Space} {S : Shape} {e : EltTy} (M : Memref sig .tc sp S e) (q : PosShare TreeShare) (f : HbBuf0 (F := F) c M) : sProp 𝕄 :=
  M.view.loc (c : Thread nD τ) ↦{q} f
abbrev hbPt0 (c : Dev nD) {sp : Space} {S : Shape} {e : EltTy} (M : Memref sig .tc sp S e) (f : HbBuf0 (F := F) c M) : sProp 𝕄 :=
  hbTok c M fullShare f

/-- Thirty row copies out of the motion-level table are in flight at once, so the table is held as one read share per
    copy (numbered as the copies' semaphore cells are) and the remainder. -/
abbrev motionToks (c : Dev nD) (f : HbBuf0 (F := F) c hbM0_0) : sProp 𝕄 :=
  iprop(hbTok c hbM0_0 (Transfers.shareDrop fullShare 33) f
    ∗ hbTok c hbM0_0 (Transfers.shareTok fullShare 33 0) f
    ∗ hbTok c hbM0_0 (Transfers.shareTok fullShare 33 1) f
    ∗ hbTok c hbM0_0 (Transfers.shareTok fullShare 33 2) f
    ∗ hbTok c hbM0_0 (Transfers.shareTok fullShare 33 3) f
    ∗ hbTok c hbM0_0 (Transfers.shareTok fullShare 33 4) f
    ∗ hbTok c hbM0_0 (Transfers.shareTok fullShare 33 5) f
    ∗ hbTok c hbM0_0 (Transfers.shareTok fullShare 33 6) f
    ∗ hbTok c hbM0_0 (Transfers.shareTok fullShare 33 7) f
    ∗ hbTok c hbM0_0 (Transfers.shareTok fullShare 33 8) f
    ∗ hbTok c hbM0_0 (Transfers.shareTok fullShare 33 9) f
    ∗ hbTok c hbM0_0 (Transfers.shareTok fullShare 33 10) f
    ∗ hbTok c hbM0_0 (Transfers.shareTok fullShare 33 11) f
    ∗ hbTok c hbM0_0 (Transfers.shareTok fullShare 33 12) f
    ∗ hbTok c hbM0_0 (Transfers.shareTok fullShare 33 13) f
    ∗ hbTok c hbM0_0 (Transfers.shareTok fullShare 33 14) f
    ∗ hbTok c hbM0_0 (Transfers.shareTok fullShare 33 15) f
    ∗ hbTok c hbM0_0 (Transfers.shareTok fullShare 33 16) f
    ∗ hbTok c hbM0_0 (Transfers.shareTok fullShare 33 17) f
    ∗ hbTok c hbM0_0 (Transfers.shareTok fullShare 33 18) f
    ∗ hbTok c hbM0_0 (Transfers.shareTok fullShare 33 19) f
    ∗ hbTok c hbM0_0 (Transfers.shareTok fullShare 33 20) f
    ∗ hbTok c hbM0_0 (Transfers.shareTok fullShare 33 21) f
    ∗ hbTok c hbM0_0 (Transfers.shareTok fullShare 33 22) f
    ∗ hbTok c hbM0_0 (Transfers.shareTok fullShare 33 23) f
    ∗ hbTok c hbM0_0 (Transfers.shareTok fullShare 33 24) f
    ∗ hbTok c hbM0_0 (Transfers.shareTok fullShare 33 25) f
    ∗ hbTok c hbM0_0 (Transfers.shareTok fullShare 33 26) f
    ∗ hbTok c hbM0_0 (Transfers.shareTok fullShare 33 27) f
    ∗ hbTok c hbM0_0 (Transfers.shareTok fullShare 33 28) f
    ∗ hbTok c hbM0_0 (Transfers.shareTok fullShare 33 29) f
    ∗ hbTok c hbM0_0 (Transfers.shareTok fullShare 33 30) f
    ∗ hbTok c hbM0_0 (Transfers.shareTok fullShare 33 31) f
    ∗ hbTok c hbM0_0 (Transfers.shareTok fullShare 33 32) f)

theorem toks_univ (Φ : Fin 33 → sProp 𝕄) :
    bigSep Finset.univ Φ = iprop(Φ (0 : Fin 33) ∗ Φ (1 : Fin 33) ∗ Φ (2 : Fin 33) ∗ Φ (3 : Fin 33) ∗ Φ (4 : Fin 33) ∗ Φ (5 : Fin 33) ∗ Φ (6 : Fin 33) ∗ Φ (7 : Fin 33) ∗ Φ (8 : Fin 33) ∗ Φ (9 : Fin 33) ∗ Φ (10 : Fin 33) ∗ Φ (11 : Fin 33) ∗ Φ (12 : Fin 33) ∗ Φ (13 : Fin 33) ∗ Φ (14 : Fin 33) ∗ Φ (15 : Fin 33) ∗ Φ (16 : Fin 33) ∗ Φ (17 : Fin 33) ∗ Φ (18 : Fin 33) ∗ Φ (19 : Fin 33) ∗ Φ (20 : Fin 33) ∗ Φ (21 : Fin 33) ∗ Φ (22 : Fin 33) ∗ Φ (23 : Fin 33) ∗ Φ (24 : Fin 33) ∗ Φ (25 : Fin 33) ∗ Φ (26 : Fin 33) ∗ Φ (27 : Fin 33) ∗ Φ (28 : Fin 33) ∗ Φ (29 : Fin 33) ∗ Φ (30 : Fin 33) ∗ Φ (31 : Fin 33) ∗ Φ (32 : Fin 33)) :=
  bigSep_univ_eq_bigSepL [(0 : Fin 33), (1 : Fin 33), (2 : Fin 33), (3 : Fin 33), (4 : Fin 33), (5 : Fin 33), (6 : Fin 33), (7 : Fin 33), (8 : Fin 33), (9 : Fin 33), (10 : Fin 33), (11 : Fin 33), (12 : Fin 33), (13 : Fin 33), (14 : Fin 33), (15 : Fin 33), (16 : Fin 33), (17 : Fin 33), (18 : Fin 33), (19 : Fin 33), (20 : Fin 33), (21 : Fin 33), (22 : Fin 33), (23 : Fin 33), (24 : Fin 33), (25 : Fin 33), (26 : Fin 33), (27 : Fin 33), (28 : Fin 33), (29 : Fin 33), (30 : Fin 33), (31 : Fin 33), (32 : Fin 33)] (by decide) (by decide) Φ

theorem motion_split (c : Dev nD) (f : HbBuf0 (F := F) c hbM0_0) : hbPt0 c hbM0_0 f ⊢ motionToks c f :=
  (Transfers.pointsTo_toks_split (Ix := Unit) (Name := ℕ) (U := Pipeline.UD sig nD τ) (Lvl := ℕ) fullShare 33).trans
    (Entails.of_eq (by rw [toks_univ]))

theorem motion_join (c : Dev nD) (f : HbBuf0 (F := F) c hbM0_0) : motionToks c f ⊢ hbPt0 c hbM0_0 f :=
  (Entails.of_eq (by rw [toks_univ])).trans
    (Transfers.pointsTo_toks_join (Ix := Unit) (Name := ℕ) (U := Pipeline.UD sig nD τ) (Lvl := ℕ) fullShare 33)

/-- A row index below 3000 addresses a whole row of the motion-level table: the two range facts the body assumes of
    a motion index word (once for the copy's start, once for its wait). -/
theorem chkM (w : BitVec 32) (h : w.toNat < 3000) :
    (∀ a : Fin 2, (![w.toNat, 0] : Fin 2 → Nat) a + S1x10000.size a ≤ S3000x10000.size a)
    ∧ (∀ a : Fin 2, (![w.toNat, 0] : Fin 2 → Nat) a + S1x10000.size a ≤ S3000x10000.size a) := by
  have h1 : ∀ a : Fin 2, (![w.toNat, 0] : Fin 2 → Nat) a + S1x10000.size a ≤ S3000x10000.size a := fun a =>
    match a with
    | ⟨0, _⟩ => (show w.toNat + 1 ≤ 3000 from by omega)
    | ⟨1, _⟩ => (show 0 + 10000 ≤ 10000 from by omega)
  exact ⟨h1, h1⟩

/-- The same for the heart-rate-level table's 200 rows: one fact, or two. -/
theorem chkH1 (w : BitVec 32) (h : w.toNat < 200) :
    (∀ a : Fin 2, (![w.toNat, 0] : Fin 2 → Nat) a + S1x10000.size a ≤ S200x10000.size a) := fun a =>
    match a with
    | ⟨0, _⟩ => (show w.toNat + 1 ≤ 200 from by omega)
    | ⟨1, _⟩ => (show 0 + 10000 ≤ 10000 from by omega)
theorem chkH2 (w : BitVec 32) (h : w.toNat < 200) :
    (∀ a : Fin 2, (![w.toNat, 0] : Fin 2 → Nat) a + S1x10000.size a ≤ S200x10000.size a)
    ∧ (∀ a : Fin 2, (![w.toNat, 0] : Fin 2 → Nat) a + S1x10000.size a ≤ S200x10000.size a) :=
  ⟨chkH1 w h, chkH1 w h⟩

end Cert.KernelIdeal.Fr

end
-- ==== Proof.KISetup.lean ====
/- Around the region of KernelIdeal: what the arrays hold when the region is entered (the host lines that compute the two
   index tables and slice the keys), the tables as the region's prefetched contents, and the region invariant conjunct
   by conjunct: the 62 scratch buffers, the generator register, the 31 copy semaphores at zero, the two level tables
   at their launch contents, the tables' read halves. -/
import proofs.«428504_j90692529422509_4_alg».proof.Proof.KIDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core c's TensorCore buffers when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table: the tables' side condition is empty. -/
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The keys window's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The current staging memrefs at point t, as the pipeline passes them. -/
abbrev ms0_0 (t : Fin (cfgM m).N) : Memref sig .tc .vmem S25x10000 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x10000 .f32 := spec0_1.stage ((cfgM m).slots t 1)
abbrev hs0_1 (t : Fin (cfgM m).N) : (ms0_1 m t).IsWhole := hstage0_1 (((cfgM m).slots t 1).cast nbuf0_1)
/-- One staging buffer of the output window, through which its contents are stated. -/
abbrev VO0_1 : View sig .tc .vmem S8x10000 .f32 := (Memref.whole cc0_stg1_0 : Memref sig .tc .vmem S8x10000 .f32).view

/-! ## The invariant, conjunct by conjunct -/

theorem scopedRest0_eq (c : Dev nD) :
    (Pipeline.scopedRest (Ix := Unit) (Name := ℕ) (U := Pipeline.UD sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f)
          ∗ (∃ f : Buf (Elt F) ((c : Thread nD τ).loc cc0_scratch5), ((c : Thread nD τ).loc cc0_scratch5) ↦{fullShare} f)
          ∗ (∃ f : Buf (Elt F) ((c : Thread nD τ).loc cc0_scratch6), ((c : Thread nD τ).loc cc0_scratch6) ↦{fullShare} f)
          ∗ (∃ f : Buf (Elt F) ((c : Thread nD τ).loc cc0_scratch7), ((c : Thread nD τ).loc cc0_scratch7) ↦{fullShare} f)
          ∗ (∃ f : Buf (Elt F) ((c : Thread nD τ).loc cc0_scratch8), ((c : Thread nD τ).loc cc0_scratch8) ↦{fullShare} f)
          ∗ (∃ f : Buf (Elt F) ((c : Thread nD τ).loc cc0_scratch9), ((c : Thread nD τ).loc cc0_scratch9) ↦{fullShare} f)
          ∗ (∃ f : Buf (Elt F) ((c : Thread nD τ).loc cc0_scratch10), ((c : Thread nD τ).loc cc0_scratch10) ↦{fullShare} f)
          ∗ (∃ f : Buf (Elt F) ((c : Thread nD τ).loc cc0_scratch11), ((c : Thread nD τ).loc cc0_scratch11) ↦{fullShare} f)
          ∗ (∃ f : Buf (Elt F) ((c : Thread nD τ).loc cc0_scratch12), ((c : Thread nD τ).loc cc0_scratch12) ↦{fullShare} f)
          ∗ (∃ f : Buf (Elt F) ((c : Thread nD τ).loc cc0_scratch13), ((c : Thread nD τ).loc cc0_scratch13) ↦{fullShare} f)
          ∗ (∃ f : Buf (Elt F) ((c : Thread nD τ).loc cc0_scratch14), ((c : Thread nD τ).loc cc0_scratch14) ↦{fullShare} f)
          ∗ (∃ f : Buf (Elt F) ((c : Thread nD τ).loc cc0_scratch15), ((c : Thread nD τ).loc cc0_scratch15) ↦{fullShare} f)
          ∗ (∃ f : Buf (Elt F) ((c : Thread nD τ).loc cc0_scratch16), ((c : Thread nD τ).loc cc0_scratch16) ↦{fullShare} f)
          ∗ (∃ f : Buf (Elt F) ((c : Thread nD τ).loc cc0_scratch17), ((c : Thread nD τ).loc cc0_scratch17) ↦{fullShare} f)
          ∗ (∃ f : Buf (Elt F) ((c : Thread nD τ).loc cc0_scratch18), ((c : Thread nD τ).loc cc0_scratch18) ↦{fullShare} f)
          ∗ (∃ f : Buf (Elt F) ((c : Thread nD τ).loc cc0_scratch19), ((c : Thread nD τ).loc cc0_scratch19) ↦{fullShare} f)
          ∗ (∃ f : Buf (Elt F) ((c : Thread nD τ).loc cc0_scratch20), ((c : Thread nD τ).loc cc0_scratch20) ↦{fullShare} f)
          ∗ (∃ f : Buf (Elt F) ((c : Thread nD τ).loc cc0_scratch21), ((c : Thread nD τ).loc cc0_scratch21) ↦{fullShare} f)
          ∗ (∃ f : Buf (Elt F) ((c : Thread nD τ).loc cc0_scratch22), ((c : Thread nD τ).loc cc0_scratch22) ↦{fullShare} f)
          ∗ (∃ f : Buf (Elt F) ((c : Thread nD τ).loc cc0_scratch23), ((c : Thread nD τ).loc cc0_scratch23) ↦{fullShare} f)
          ∗ (∃ f : Buf (Elt F) ((c : Thread nD τ).loc cc0_scratch24), ((c : Thread nD τ).loc cc0_scratch24) ↦{fullShare} f)
          ∗ (∃ f : Buf (Elt F) ((c : Thread nD τ).loc cc0_scratch25), ((c : Thread nD τ).loc cc0_scratch25) ↦{fullShare} f)
          ∗ (∃ f : Buf (Elt F) ((c : Thread nD τ).loc cc0_scratch26), ((c : Thread nD τ).loc cc0_scratch26) ↦{fullShare} f)
          ∗ (∃ f : Buf (Elt F) ((c : Thread nD τ).loc cc0_scratch27), ((c : Thread nD τ).loc cc0_scratch27) ↦{fullShare} f)
          ∗ (∃ f : Buf (Elt F) ((c : Thread nD τ).loc cc0_scratch28), ((c : Thread nD τ).loc cc0_scratch28) ↦{fullShare} f)
          ∗ (∃ f : Buf (Elt F) ((c : Thread nD τ).loc cc0_scratch29), ((c : Thread nD τ).loc cc0_scratch29) ↦{fullShare} f)
          ∗ (∃ f : Buf (Elt F) ((c : Thread nD τ).loc cc0_scratch30), ((c : Thread nD τ).loc cc0_scratch30) ↦{fullShare} f)
          ∗ (∃ f : Buf (Elt F) ((c : Thread nD τ).loc cc0_scratch31), ((c : Thread nD τ).loc cc0_scratch31) ↦{fullShare} f)
          ∗ (∃ f : Buf (Elt F) ((c : Thread nD τ).loc cc0_scratch32), ((c : Thread nD τ).loc cc0_scratch32) ↦{fullShare} f)
          ∗ (∃ f : Buf (Elt F) ((c : Thread nD τ).loc cc0_scratch33), ((c : Thread nD τ).loc cc0_scratch33) ↦{fullShare} f)
          ∗ (∃ f : Buf (Elt F) ((c : Thread nD τ).loc cc0_scratch34), ((c : Thread nD τ).loc cc0_scratch34) ↦{fullShare} f)
          ∗ (∃ f : Buf (Elt F) ((c : Thread nD τ).loc cc0_scratch35), ((c : Thread nD τ).loc cc0_scratch35) ↦{fullShare} f)
          ∗ (∃ f : Buf (Elt F) ((c : Thread nD τ).loc cc0_scratch36), ((c : Thread nD τ).loc cc0_scratch36) ↦{fullShare} f)
          ∗ (∃ f : Buf (Elt F) ((c : Thread nD τ).loc cc0_scratch37), ((c : Thread nD τ).loc cc0_scratch37) ↦{fullShare} f)
          ∗ (∃ f : Buf (Elt F) ((c : Thread nD τ).loc cc0_scratch38), ((c : Thread nD τ).loc cc0_scratch38) ↦{fullShare} f)
          ∗ (∃ f : Buf (Elt F) ((c : Thread nD τ).loc cc0_scratch39), ((c : Thread nD τ).loc cc0_scratch39) ↦{fullShare} f)
          ∗ (∃ f : Buf (Elt F) ((c : Thread nD τ).loc cc0_scratch40), ((c : Thread nD τ).loc cc0_scratch40) ↦{fullShare} f)
          ∗ (∃ f : Buf (Elt F) ((c : Thread nD τ).loc cc0_scratch41), ((c : Thread nD τ).loc cc0_scratch41) ↦{fullShare} f)
          ∗ (∃ f : Buf (Elt F) ((c : Thread nD τ).loc cc0_scratch42), ((c : Thread nD τ).loc cc0_scratch42) ↦{fullShare} f)
          ∗ (∃ f : Buf (Elt F) ((c : Thread nD τ).loc cc0_scratch43), ((c : Thread nD τ).loc cc0_scratch43) ↦{fullShare} f)
          ∗ (∃ f : Buf (Elt F) ((c : Thread nD τ).loc cc0_scratch44), ((c : Thread nD τ).loc cc0_scratch44) ↦{fullShare} f)
          ∗ (∃ f : Buf (Elt F) ((c : Thread nD τ).loc cc0_scratch45), ((c : Thread nD τ).loc cc0_scratch45) ↦{fullShare} f)
          ∗ (∃ f : Buf (Elt F) ((c : Thread nD τ).loc cc0_scratch46), ((c : Thread nD τ).loc cc0_scratch46) ↦{fullShare} f)
          ∗ (∃ f : Buf (Elt F) ((c : Thread nD τ).loc cc0_scratch47), ((c : Thread nD τ).loc cc0_scratch47) ↦{fullShare} f)
          ∗ (∃ f : Buf (Elt F) ((c : Thread nD τ).loc cc0_scratch48), ((c : Thread nD τ).loc cc0_scratch48) ↦{fullShare} f)
          ∗ (∃ f : Buf (Elt F) ((c : Thread nD τ).loc cc0_scratch49), ((c : Thread nD τ).loc cc0_scratch49) ↦{fullShare} f)
          ∗ (∃ f : Buf (Elt F) ((c : Thread nD τ).loc cc0_scratch50), ((c : Thread nD τ).loc cc0_scratch50) ↦{fullShare} f)
          ∗ (∃ f : Buf (Elt F) ((c : Thread nD τ).loc cc0_scratch51), ((c : Thread nD τ).loc cc0_scratch51) ↦{fullShare} f)
          ∗ (∃ f : Buf (Elt F) ((c : Thread nD τ).loc cc0_scratch52), ((c : Thread nD τ).loc cc0_scratch52) ↦{fullShare} f)
          ∗ (∃ f : Buf (Elt F) ((c : Thread nD τ).loc cc0_scratch53), ((c : Thread nD τ).loc cc0_scratch53) ↦{fullShare} f)
          ∗ (∃ f : Buf (Elt F) ((c : Thread nD τ).loc cc0_scratch54), ((c : Thread nD τ).loc cc0_scratch54) ↦{fullShare} f)
          ∗ (∃ f : Buf (Elt F) ((c : Thread nD τ).loc cc0_scratch55), ((c : Thread nD τ).loc cc0_scratch55) ↦{fullShare} f)
          ∗ (∃ f : Buf (Elt F) ((c : Thread nD τ).loc cc0_scratch56), ((c : Thread nD τ).loc cc0_scratch56) ↦{fullShare} f)
          ∗ (∃ f : Buf (Elt F) ((c : Thread nD τ).loc cc0_scratch57), ((c : Thread nD τ).loc cc0_scratch57) ↦{fullShare} f)
          ∗ (∃ f : Buf (Elt F) ((c : Thread nD τ).loc cc0_scratch58), ((c : Thread nD τ).loc cc0_scratch58) ↦{fullShare} f)
          ∗ (∃ f : Buf (Elt F) ((c : Thread nD τ).loc cc0_scratch59), ((c : Thread nD τ).loc cc0_scratch59) ↦{fullShare} f)
          ∗ (∃ f : Buf (Elt F) ((c : Thread nD τ).loc cc0_scratch60), ((c : Thread nD τ).loc cc0_scratch60) ↦{fullShare} f)
          ∗ (∃ f : Buf (Elt F) ((c : Thread nD τ).loc cc0_scratch61), ((c : Thread nD τ).loc cc0_scratch61) ↦{fullShare} f)) :=
  Pipeline.scopedRest_eq_of_list spec0 c [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23, cc0_scratch24, cc0_scratch25, cc0_scratch26, cc0_scratch27, cc0_scratch28, cc0_scratch29, cc0_scratch30, cc0_scratch31, cc0_scratch32, cc0_scratch33, cc0_scratch34, cc0_scratch35, cc0_scratch36, cc0_scratch37, cc0_scratch38, cc0_scratch39, cc0_scratch40, cc0_scratch41, cc0_scratch42, cc0_scratch43, cc0_scratch44, cc0_scratch45, cc0_scratch46, cc0_scratch47, cc0_scratch48, cc0_scratch49, cc0_scratch50, cc0_scratch51, cc0_scratch52, cc0_scratch53, cc0_scratch54, cc0_scratch55, cc0_scratch56, cc0_scratch57, cc0_scratch58, cc0_scratch59, cc0_scratch60, cc0_scratch61] (by decide) (by decide)

/-- The kernel's own copy semaphores: cells 3 to 33 of the pool. -/
abbrev osem0 : Fin 31 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 31 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]; rfl

/-- The two level tables: unscoped, no window's array, no prefetched table. -/
def H0 : Finset (Ref sig .tc) := {main_arg2, main_arg3}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

set_option maxHeartbeats 8000000 in
theorem PhiD0_eq (c : Dev nD) :
    (Pipeline.ΦD osem0 spec0 H0 (V m) c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d)
          ∗ (∃ d, owns (c : Thread nD τ) (Memref.whole cc0_scratch8) fullShare d)
          ∗ (∃ d, owns (c : Thread nD τ) (Memref.whole cc0_scratch9) fullShare d)
          ∗ (∃ d, owns (c : Thread nD τ) (Memref.whole cc0_scratch10) fullShare d)
          ∗ (∃ d, owns (c : Thread nD τ) (Memref.whole cc0_scratch11) fullShare d)
          ∗ (∃ d, owns (c : Thread nD τ) (Memref.whole cc0_scratch12) fullShare d)
          ∗ (∃ d, owns (c : Thread nD τ) (Memref.whole cc0_scratch13) fullShare d)
          ∗ (∃ d, owns (c : Thread nD τ) (Memref.whole cc0_scratch14) fullShare d)
          ∗ (∃ d, owns (c : Thread nD τ) (Memref.whole cc0_scratch15) fullShare d)
          ∗ (∃ d, owns (c : Thread nD τ) (Memref.whole cc0_scratch16) fullShare d)
          ∗ (∃ d, owns (c : Thread nD τ) (Memref.whole cc0_scratch17) fullShare d)
          ∗ (∃ d, owns (c : Thread nD τ) (Memref.whole cc0_scratch18) fullShare d)
          ∗ (∃ d, owns (c : Thread nD τ) (Memref.whole cc0_scratch19) fullShare d)
          ∗ (∃ d, owns (c : Thread nD τ) (Memref.whole cc0_scratch20) fullShare d)
          ∗ (∃ d, owns (c : Thread nD τ) (Memref.whole cc0_scratch21) fullShare d)
          ∗ (∃ d, owns (c : Thread nD τ) (Memref.whole cc0_scratch22) fullShare d)
          ∗ (∃ d, owns (c : Thread nD τ) (Memref.whole cc0_scratch23) fullShare d)
          ∗ (∃ d, owns (c : Thread nD τ) (Memref.whole cc0_scratch24) fullShare d)
          ∗ (∃ d, owns (c : Thread nD τ) (Memref.whole cc0_scratch25) fullShare d)
          ∗ (∃ d, owns (c : Thread nD τ) (Memref.whole cc0_scratch26) fullShare d)
          ∗ (∃ d, owns (c : Thread nD τ) (Memref.whole cc0_scratch27) fullShare d)
          ∗ (∃ d, owns (c : Thread nD τ) (Memref.whole cc0_scratch28) fullShare d)
          ∗ (∃ d, owns (c : Thread nD τ) (Memref.whole cc0_scratch29) fullShare d)
          ∗ (∃ d, owns (c : Thread nD τ) (Memref.whole cc0_scratch30) fullShare d)
          ∗ (∃ d, owns (c : Thread nD τ) (Memref.whole cc0_scratch31) fullShare d)
          ∗ (∃ d, owns (c : Thread nD τ) (Memref.whole cc0_scratch32) fullShare d)
          ∗ (∃ d, owns (c : Thread nD τ) (Memref.whole cc0_scratch33) fullShare d)
          ∗ (∃ d, owns (c : Thread nD τ) (Memref.whole cc0_scratch34) fullShare d)
          ∗ (∃ d, owns (c : Thread nD τ) (Memref.whole cc0_scratch35) fullShare d)
          ∗ (∃ d, owns (c : Thread nD τ) (Memref.whole cc0_scratch36) fullShare d)
          ∗ (∃ d, owns (c : Thread nD τ) (Memref.whole cc0_scratch37) fullShare d)
          ∗ (∃ d, owns (c : Thread nD τ) (Memref.whole cc0_scratch38) fullShare d)
          ∗ (∃ d, owns (c : Thread nD τ) (Memref.whole cc0_scratch39) fullShare d)
          ∗ (∃ d, owns (c : Thread nD τ) (Memref.whole cc0_scratch40) fullShare d)
          ∗ (∃ d, owns (c : Thread nD τ) (Memref.whole cc0_scratch41) fullShare d)
          ∗ (∃ d, owns (c : Thread nD τ) (Memref.whole cc0_scratch42) fullShare d)
          ∗ (∃ d, owns (c : Thread nD τ) (Memref.whole cc0_scratch43) fullShare d)
          ∗ (∃ d, owns (c : Thread nD τ) (Memref.whole cc0_scratch44) fullShare d)
          ∗ (∃ d, owns (c : Thread nD τ) (Memref.whole cc0_scratch45) fullShare d)
          ∗ (∃ d, owns (c : Thread nD τ) (Memref.whole cc0_scratch46) fullShare d)
          ∗ (∃ d, owns (c : Thread nD τ) (Memref.whole cc0_scratch47) fullShare d)
          ∗ (∃ d, owns (c : Thread nD τ) (Memref.whole cc0_scratch48) fullShare d)
          ∗ (∃ d, owns (c : Thread nD τ) (Memref.whole cc0_scratch49) fullShare d)
          ∗ (∃ d, owns (c : Thread nD τ) (Memref.whole cc0_scratch50) fullShare d)
          ∗ (∃ d, owns (c : Thread nD τ) (Memref.whole cc0_scratch51) fullShare d)
          ∗ (∃ d, owns (c : Thread nD τ) (Memref.whole cc0_scratch52) fullShare d)
          ∗ (∃ d, owns (c : Thread nD τ) (Memref.whole cc0_scratch53) fullShare d)
          ∗ (∃ d, owns (c : Thread nD τ) (Memref.whole cc0_scratch54) fullShare d)
          ∗ (∃ d, owns (c : Thread nD τ) (Memref.whole cc0_scratch55) fullShare d)
          ∗ (∃ d, owns (c : Thread nD τ) (Memref.whole cc0_scratch56) fullShare d)
          ∗ (∃ d, owns (c : Thread nD τ) (Memref.whole cc0_scratch57) fullShare d)
          ∗ (∃ d, owns (c : Thread nD τ) (Memref.whole cc0_scratch58) fullShare d)
          ∗ (∃ d, owns (c : Thread nD τ) (Memref.whole cc0_scratch59) fullShare d)
          ∗ (∃ d, owns (c : Thread nD τ) (Memref.whole cc0_scratch60) fullShare d)
          ∗ (∃ d, owns (c : Thread nD τ) (Memref.whole cc0_scratch61) fullShare d))
          ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0)
          ∗ iprop(hbPt0 c hbM0_0 (V m c main_arg2) ∗ hbPt0 c hbM0_1 (V m c main_arg3))) := by
  rw [Pipeline.ΦD_eq, scopedRest0_eq, ownSems00_eq, hbmPts0_eq]; simp only [owns_whole]; try rfl

/-! ## The frame claim's post from the frame run's -/

theorem frame_of (dats : (p : Fin 1) → (c : Dev nD) → Dat τ (Elt F) Unit ℕ (Pipeline.UD sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c)⟩) h

end Cert.KernelIdeal.Fr

end
-- ==== Proof.KIRun.lean ====
/- The symbolic run of the kernel body of KernelIdeal at one grid point: from the two staging buffers, the 62 scratch rows and
   collectors, the two index tables, the 31 copy semaphores at zero and the two level tables, the body runs to its end
   giving everything back, the output block written; what the stores leave there is the witness the run finds. -/
import proofs.«428504_j90692529422509_4_alg».proof.Proof.KIDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
noncomputable def kernelRun0 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) :
    { L1 : List (View.Piece (Elt F) S8x10000 .f32) //
      ∀ (W : Waits sig Unit) (K : PUnit → sProp 𝕄),
        iprop(owns (c : Thread nD τ) arg5 fullShare x0
            ∗ (∃ d, owns (c : Thread nD τ) arg6 fullShare d)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)
            ∗ (∃ d, owns (c : Thread nD τ) (Memref.whole cc0_scratch3) fullShare d)
            ∗ (∃ d, owns (c : Thread nD τ) (Memref.whole cc0_scratch4) fullShare d)
            ∗ (∃ d, owns (c : Thread nD τ) (Memref.whole cc0_scratch5) fullShare d)
            ∗ (∃ d, owns (c : Thread nD τ) (Memref.whole cc0_scratch6) fullShare d)
            ∗ (∃ d, owns (c : Thread nD τ) (Memref.whole cc0_scratch7) fullShare d)
            ∗ (∃ d, owns (c : Thread nD τ) (Memref.whole cc0_scratch8) fullShare d)
            ∗ (∃ d, owns (c : Thread nD τ) (Memref.whole cc0_scratch9) fullShare d)
            ∗ (∃ d, owns (c : Thread nD τ) (Memref.whole cc0_scratch10) fullShare d)
            ∗ (∃ d, owns (c : Thread nD τ) (Memref.whole cc0_scratch11) fullShare d)
            ∗ (∃ d, owns (c : Thread nD τ) (Memref.whole cc0_scratch12) fullShare d)
            ∗ (∃ d, owns (c : Thread nD τ) (Memref.whole cc0_scratch13) fullShare d)
            ∗ (∃ d, owns (c : Thread nD τ) (Memref.whole cc0_scratch14) fullShare d)
            ∗ (∃ d, owns (c : Thread nD τ) (Memref.whole cc0_scratch15) fullShare d)
            ∗ (∃ d, owns (c : Thread nD τ) (Memref.whole cc0_scratch16) fullShare d)
            ∗ (∃ d, owns (c : Thread nD τ) (Memref.whole cc0_scratch17) fullShare d)
            ∗ (∃ d, owns (c : Thread nD τ) (Memref.whole cc0_scratch18) fullShare d)
            ∗ (∃ d, owns (c : Thread nD τ) (Memref.whole cc0_scratch19) fullShare d)
            ∗ (∃ d, owns (c : Thread nD τ) (Memref.whole cc0_scratch20) fullShare d)
            ∗ (∃ d, owns (c : Thread nD τ) (Memref.whole cc0_scratch21) fullShare d)
            ∗ (∃ d, owns (c : Thread nD τ) (Memref.whole cc0_scratch22) fullShare d)
            ∗ (∃ d, owns (c : Thread nD τ) (Memref.whole cc0_scratch23) fullShare d)
            ∗ (∃ d, owns (c : Thread nD τ) (Memref.whole cc0_scratch24) fullShare d)
            ∗ (∃ d, owns (c : Thread nD τ) (Memref.whole cc0_scratch25) fullShare d)
            ∗ (∃ d, owns (c : Thread nD τ) (Memref.whole cc0_scratch26) fullShare d)
            ∗ (∃ d, owns (c : Thread nD τ) (Memref.whole cc0_scratch27) fullShare d)
            ∗ (∃ d, owns (c : Thread nD τ) (Memref.whole cc0_scratch28) fullShare d)
            ∗ (∃ d, owns (c : Thread nD τ) (Memref.whole cc0_scratch29) fullShare d)
            ∗ (∃ d, owns (c : Thread nD τ) (Memref.whole cc0_scratch30) fullShare d)
            ∗ (∃ d, owns (c : Thread nD τ) (Memref.whole cc0_scratch31) fullShare d)
            ∗ (∃ d, owns (c : Thread nD τ) (Memref.whole cc0_scratch32) fullShare d)
            ∗ (∃ d, owns (c : Thread nD τ) (Memref.whole cc0_scratch33) fullShare d)
            ∗ (∃ d, owns (c : Thread nD τ) (Memref.whole cc0_scratch34) fullShare d)
            ∗ (∃ d, owns (c : Thread nD τ) (Memref.whole cc0_scratch35) fullShare d)
            ∗ (∃ d, owns (c : Thread nD τ) (Memref.whole cc0_scratch36) fullShare d)
            ∗ (∃ d, owns (c : Thread nD τ) (Memref.whole cc0_scratch37) fullShare d)
            ∗ (∃ d, owns (c : Thread nD τ) (Memref.whole cc0_scratch38) fullShare d)
            ∗ (∃ d, owns (c : Thread nD τ) (Memref.whole cc0_scratch39) fullShare d)
            ∗ (∃ d, owns (c : Thread nD τ) (Memref.whole cc0_scratch40) fullShare d)
            ∗ (∃ d, owns (c : Thread nD τ) (Memref.whole cc0_scratch41) fullShare d)
            ∗ (∃ d, owns (c : Thread nD τ) (Memref.whole cc0_scratch42) fullShare d)
            ∗ (∃ d, owns (c : Thread nD τ) (Memref.whole cc0_scratch43) fullShare d)
            ∗ (∃ d, owns (c : Thread nD τ) (Memref.whole cc0_scratch44) fullShare d)
            ∗ (∃ d, owns (c : Thread nD τ) (Memref.whole cc0_scratch45) fullShare d)
            ∗ (∃ d, owns (c : Thread nD τ) (Memref.whole cc0_scratch46) fullShare d)
            ∗ (∃ d, owns (c : Thread nD τ) (Memref.whole cc0_scratch47) fullShare d)
            ∗ (∃ d, owns (c : Thread nD τ) (Memref.whole cc0_scratch48) fullShare d)
            ∗ (∃ d, owns (c : Thread nD τ) (Memref.whole cc0_scratch49) fullShare d)
            ∗ (∃ d, owns (c : Thread nD τ) (Memref.whole cc0_scratch50) fullShare d)
            ∗ (∃ d, owns (c : Thread nD τ) (Memref.whole cc0_scratch51) fullShare d)
            ∗ (∃ d, owns (c : Thread nD τ) (Memref.whole cc0_scratch52) fullShare d)
            ∗ (∃ d, owns (c : Thread nD τ) (Memref.whole cc0_scratch53) fullShare d)
            ∗ (∃ d, owns (c : Thread nD τ) (Memref.whole cc0_scratch54) fullShare d)
            ∗ (∃ d, owns (c : Thread nD τ) (Memref.whole cc0_scratch55) fullShare d)
            ∗ (∃ d, owns (c : Thread nD τ) (Memref.whole cc0_scratch56) fullShare d)
            ∗ (∃ d, owns (c : Thread nD τ) (Memref.whole cc0_scratch57) fullShare d)
            ∗ (∃ d, owns (c : Thread nD τ) (Memref.whole cc0_scratch58) fullShare d)
            ∗ (∃ d, owns (c : Thread nD τ) (Memref.whole cc0_scratch59) fullShare d)
            ∗ (∃ d, owns (c : Thread nD τ) (Memref.whole cc0_scratch60) fullShare d)
            ∗ (∃ d, owns (c : Thread nD τ) (Memref.whole cc0_scratch61) fullShare d)
            ∗ tbPt0 c tbM0_0 xt0
            ∗ tbPt0 c tbM0_1 xt1
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 31) 0
            ∗ semVal ((c : Thread nD τ), SemLoc.dma 32) 0
            ∗ semVal ((c : Thread nD τ), SemLoc.dma 33) 0
            ∗ hbPt0 c hbM0_0 fh0
            ∗ hbPt0 c hbM0_1 fh1
            ∗ owes (c : Thread nD τ) 0 W
            ∗ (iprop(owns (c : Thread nD τ) arg5 fullShare x0
                ∗ (∃ f, arg6.view.loc (c : Thread nD τ) ↦[arg6.view.set]{fullShare} arg6.view.writes (Elt F) f L1)
                ∗ (∃ d, owns (c : Thread nD τ) (Memref.whole cc0_scratch0) fullShare d)
                ∗ (∃ d, owns (c : Thread nD τ) (Memref.whole cc0_scratch1) fullShare d)
                ∗ (∃ d, owns (c : Thread nD τ) (Memref.whole cc0_scratch2) fullShare d)
                ∗ (∃ d, owns (c : Thread nD τ) (Memref.whole cc0_scratch3) fullShare d)
                ∗ (∃ d, owns (c : Thread nD τ) (Memref.whole cc0_scratch4) fullShare d)
                ∗ (∃ d, owns (c : Thread nD τ) (Memref.whole cc0_scratch5) fullShare d)
                ∗ (∃ d, owns (c : Thread nD τ) (Memref.whole cc0_scratch6) fullShare d)
                ∗ (∃ d, owns (c : Thread nD τ) (Memref.whole cc0_scratch7) fullShare d)
                ∗ (∃ d, owns (c : Thread nD τ) (Memref.whole cc0_scratch8) fullShare d)
                ∗ (∃ d, owns (c : Thread nD τ) (Memref.whole cc0_scratch9) fullShare d)
                ∗ (∃ d, owns (c : Thread nD τ) (Memref.whole cc0_scratch10) fullShare d)
                ∗ (∃ d, owns (c : Thread nD τ) (Memref.whole cc0_scratch11) fullShare d)
                ∗ (∃ d, owns (c : Thread nD τ) (Memref.whole cc0_scratch12) fullShare d)
                ∗ (∃ d, owns (c : Thread nD τ) (Memref.whole cc0_scratch13) fullShare d)
                ∗ (∃ d, owns (c : Thread nD τ) (Memref.whole cc0_scratch14) fullShare d)
                ∗ (∃ d, owns (c : Thread nD τ) (Memref.whole cc0_scratch15) fullShare d)
                ∗ (∃ d, owns (c : Thread nD τ) (Memref.whole cc0_scratch16) fullShare d)
                ∗ (∃ d, owns (c : Thread nD τ) (Memref.whole cc0_scratch17) fullShare d)
                ∗ (∃ d, owns (c : Thread nD τ) (Memref.whole cc0_scratch18) fullShare d)
                ∗ (∃ d, owns (c : Thread nD τ) (Memref.whole cc0_scratch19) fullShare d)
                ∗ (∃ d, owns (c : Thread nD τ) (Memref.whole cc0_scratch20) fullShare d)
                ∗ (∃ d, owns (c : Thread nD τ) (Memref.whole cc0_scratch21) fullShare d)
                ∗ (∃ d, owns (c : Thread nD τ) (Memref.whole cc0_scratch22) fullShare d)
                ∗ (∃ d, owns (c : Thread nD τ) (Memref.whole cc0_scratch23) fullShare d)
                ∗ (∃ d, owns (c : Thread nD τ) (Memref.whole cc0_scratch24) fullShare d)
                ∗ (∃ d, owns (c : Thread nD τ) (Memref.whole cc0_scratch25) fullShare d)
                ∗ (∃ d, owns (c : Thread nD τ) (Memref.whole cc0_scratch26) fullShare d)
                ∗ (∃ d, owns (c : Thread nD τ) (Memref.whole cc0_scratch27) fullShare d)
                ∗ (∃ d, owns (c : Thread nD τ) (Memref.whole cc0_scratch28) fullShare d)
                ∗ (∃ d, owns (c : Thread nD τ) (Memref.whole cc0_scratch29) fullShare d)
                ∗ (∃ d, owns (c : Thread nD τ) (Memref.whole cc0_scratch30) fullShare d)
                ∗ (∃ d, owns (c : Thread nD τ) (Memref.whole cc0_scratch31) fullShare d)
                ∗ (∃ d, owns (c : Thread nD τ) (Memref.whole cc0_scratch32) fullShare d)
                ∗ (∃ d, owns (c : Thread nD τ) (Memref.whole cc0_scratch33) fullShare d)
                ∗ (∃ d, owns (c : Thread nD τ) (Memref.whole cc0_scratch34) fullShare d)
                ∗ (∃ d, owns (c : Thread nD τ) (Memref.whole cc0_scratch35) fullShare d)
                ∗ (∃ d, owns (c : Thread nD τ) (Memref.whole cc0_scratch36) fullShare d)
                ∗ (∃ d, owns (c : Thread nD τ) (Memref.whole cc0_scratch37) fullShare d)
                ∗ (∃ d, owns (c : Thread nD τ) (Memref.whole cc0_scratch38) fullShare d)
                ∗ (∃ d, owns (c : Thread nD τ) (Memref.whole cc0_scratch39) fullShare d)
                ∗ (∃ d, owns (c : Thread nD τ) (Memref.whole cc0_scratch40) fullShare d)
                ∗ (∃ d, owns (c : Thread nD τ) (Memref.whole cc0_scratch41) fullShare d)
                ∗ (∃ d, owns (c : Thread nD τ) (Memref.whole cc0_scratch42) fullShare d)
                ∗ (∃ d, owns (c : Thread nD τ) (Memref.whole cc0_scratch43) fullShare d)
                ∗ (∃ d, owns (c : Thread nD τ) (Memref.whole cc0_scratch44) fullShare d)
                ∗ (∃ d, owns (c : Thread nD τ) (Memref.whole cc0_scratch45) fullShare d)
                ∗ (∃ d, owns (c : Thread nD τ) (Memref.whole cc0_scratch46) fullShare d)
                ∗ (∃ d, owns (c : Thread nD τ) (Memref.whole cc0_scratch47) fullShare d)
                ∗ (∃ d, owns (c : Thread nD τ) (Memref.whole cc0_scratch48) fullShare d)
                ∗ (∃ d, owns (c : Thread nD τ) (Memref.whole cc0_scratch49) fullShare d)
                ∗ (∃ d, owns (c : Thread nD τ) (Memref.whole cc0_scratch50) fullShare d)
                ∗ (∃ d, owns (c : Thread nD τ) (Memref.whole cc0_scratch51) fullShare d)
                ∗ (∃ d, owns (c : Thread nD τ) (Memref.whole cc0_scratch52) fullShare d)
                ∗ (∃ d, owns (c : Thread nD τ) (Memref.whole cc0_scratch53) fullShare d)
                ∗ (∃ d, owns (c : Thread nD τ) (Memref.whole cc0_scratch54) fullShare d)
                ∗ (∃ d, owns (c : Thread nD τ) (Memref.whole cc0_scratch55) fullShare d)
                ∗ (∃ d, owns (c : Thread nD τ) (Memref.whole cc0_scratch56) fullShare d)
                ∗ (∃ d, owns (c : Thread nD τ) (Memref.whole cc0_scratch57) fullShare d)
                ∗ (∃ d, owns (c : Thread nD τ) (Memref.whole cc0_scratch58) fullShare d)
                ∗ (∃ d, owns (c : Thread nD τ) (Memref.whole cc0_scratch59) fullShare d)
                ∗ (∃ d, owns (c : Thread nD τ) (Memref.whole cc0_scratch60) fullShare d)
                ∗ (∃ d, owns (c : Thread nD τ) (Memref.whole cc0_scratch61) fullShare d)
                ∗ tbPt0 c tbM0_0 xt0
                ∗ tbPt0 c tbM0_1 xt1
                ∗ semVal ((c : Thread nD τ), SemLoc.dma 3) 0
                ∗ semVal ((c : Thread nD τ), SemLoc.dma 4) 0
                ∗ semVal ((c : Thread nD τ), SemLoc.dma 5) 0
                ∗ semVal ((c : Thread nD τ), SemLoc.dma 6) 0
                ∗ semVal ((c : Thread nD τ), SemLoc.dma 7) 0
                ∗ semVal ((c : Thread nD τ), SemLoc.dma 8) 0
                ∗ semVal ((c : Thread nD τ), SemLoc.dma 9) 0
                ∗ semVal ((c : Thread nD τ), SemLoc.dma 10) 0
                ∗ semVal ((c : Thread nD τ), SemLoc.dma 11) 0
                ∗ semVal ((c : Thread nD τ), SemLoc.dma 12) 0
                ∗ semVal ((c : Thread nD τ), SemLoc.dma 13) 0
                ∗ semVal ((c : Thread nD τ), SemLoc.dma 14) 0
                ∗ semVal ((c : Thread nD τ), SemLoc.dma 15) 0
                ∗ semVal ((c : Thread nD τ), SemLoc.dma 16) 0
                ∗ semVal ((c : Thread nD τ), SemLoc.dma 17) 0
                ∗ semVal ((c : Thread nD τ), SemLoc.dma 18) 0
                ∗ semVal ((c : Thread nD τ), SemLoc.dma 19) 0
                ∗ semVal ((c : Thread nD τ), SemLoc.dma 20) 0
                ∗ semVal ((c : Thread nD τ), SemLoc.dma 21) 0
                ∗ semVal ((c : Thread nD τ), SemLoc.dma 22) 0
                ∗ semVal ((c : Thread nD τ), SemLoc.dma 23) 0
                ∗ semVal ((c : Thread nD τ), SemLoc.dma 24) 0
                ∗ semVal ((c : Thread nD τ), SemLoc.dma 25) 0
                ∗ semVal ((c : Thread nD τ), SemLoc.dma 26) 0
                ∗ semVal ((c : Thread nD τ), SemLoc.dma 27) 0
                ∗ semVal ((c : Thread nD τ), SemLoc.dma 28) 0
                ∗ semVal ((c : Thread nD τ), SemLoc.dma 29) 0
                ∗ semVal ((c : Thread nD τ), SemLoc.dma 30) 0
                ∗ semVal ((c : Thread nD τ), SemLoc.dma 31) 0
                ∗ semVal ((c : Thread nD τ), SemLoc.dma 32) 0
                ∗ semVal ((c : Thread nD τ), SemLoc.dma 33) 0
                ∗ hbPt0 c hbM0_0 fh0
                ∗ hbPt0 c hbM0_1 fh1
                ∗ (∃ W', owes (c : Thread nD τ) 0 W')) -∗ K ⟨⟩))
          ⊢ wp frame (wpE (defs₀ (F := F)) Variants.none c none) Set.univ (cc0__hdc_kernel i tbM0_0 htbM0_0 tbM0_1 htbM0_1 hbM0_0 (Memref.isWhole_whole _) hbM0_1 (Memref.isWhole_whole _) arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) cc0_scratch62) K } := by
  refine ⟨?_, fun W K => ?run⟩
  case run =>
    simp only [cc0__hdc_kernel_eq_skeleton]; unfold cc0__hdc_kernel_skel
    unfold owns
    iintro ⟨⟨%f0, %hf0, H0⟩, ⟨%d1, %f1, -, H1⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩, ⟨%ds21, %fs21, -, HS21⟩, ⟨%ds22, %fs22, -, HS22⟩, ⟨%ds23, %fs23, -, HS23⟩, ⟨%ds24, %fs24, -, HS24⟩, ⟨%ds25, %fs25, -, HS25⟩, ⟨%ds26, %fs26, -, HS26⟩, ⟨%ds27, %fs27, -, HS27⟩, ⟨%ds28, %fs28, -, HS28⟩, ⟨%ds29, %fs29, -, HS29⟩, ⟨%ds30, %fs30, -, HS30⟩, ⟨%ds31, %fs31, -, HS31⟩, ⟨%ds32, %fs32, -, HS32⟩, ⟨%ds33, %fs33, -, HS33⟩, ⟨%ds34, %fs34, -, HS34⟩, ⟨%ds35, %fs35, -, HS35⟩, ⟨%ds36, %fs36, -, HS36⟩, ⟨%ds37, %fs37, -, HS37⟩, ⟨%ds38, %fs38, -, HS38⟩, ⟨%ds39, %fs39, -, HS39⟩, ⟨%ds40, %fs40, -, HS40⟩, ⟨%ds41, %fs41, -, HS41⟩, ⟨%ds42, %fs42, -, HS42⟩, ⟨%ds43, %fs43, -, HS43⟩, ⟨%ds44, %fs44, -, HS44⟩, ⟨%ds45, %fs45, -, HS45⟩, ⟨%ds46, %fs46, -, HS46⟩, ⟨%ds47, %fs47, -, HS47⟩, ⟨%ds48, %fs48, -, HS48⟩, ⟨%ds49, %fs49, -, HS49⟩, ⟨%ds50, %fs50, -, HS50⟩, ⟨%ds51, %fs51, -, HS51⟩, ⟨%ds52, %fs52, -, HS52⟩, ⟨%ds53, %fs53, -, HS53⟩, ⟨%ds54, %fs54, -, HS54⟩, ⟨%ds55, %fs55, -, HS55⟩, ⟨%ds56, %fs56, -, HS56⟩, ⟨%ds57, %fs57, -, HS57⟩, ⟨%ds58, %fs58, -, HS58⟩, ⟨%ds59, %fs59, -, HS59⟩, ⟨%ds60, %fs60, -, HS60⟩, ⟨%ds61, %fs61, -, HS61⟩, HT0, HT1, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hh0, Hh1, HW, Hk⟩
    obtain rfl := harg5.eq_unread hf0
    ihave Hh0' := (motion_split c fh0) $$ Hh0
    icases Hh0' with ⟨HCr, HC0, HC1, HC2, HC3, HC4, HC5, HC6, HC7, HC8, HC9, HC10, HC11, HC12, HC13, HC14, HC15, HC16, HC17, HC18, HC19, HC20, HC21, HC22, HC23, HC24, HC25, HC26, HC27, HC28, HC29, HC30, HC31, HC32⟩
    sl_exec_parts (disch := first | sl_exact chkM _ (hT0 _) | sl_exact chkH1 _ (hT1 _) | sl_exact chkH2 _ (hT1 _))
    sl_step
    iapply Hk
    isplitl [H0]
    · iexists _; isplitr; · ipureintro; exact harg5.read_unread _
      iexact H0
    isplitl [H1]; · iexists _; iexact H1
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    isplitl [HS20]
    · iexists _, _; isplitr; swap; · iexact HS20
      ipureintro; rfl
    isplitl [HS21]
    · iexists _, _; isplitr; swap; · iexact HS21
      ipureintro; rfl
    isplitl [HS22]
    · iexists _, _; isplitr; swap; · iexact HS22
      ipureintro; rfl
    isplitl [HS23]
    · iexists _, _; isplitr; swap; · iexact HS23
      ipureintro; rfl
    isplitl [HS24]
    · iexists _, _; isplitr; swap; · iexact HS24
      ipureintro; rfl
    isplitl [HS25]
    · iexists _, _; isplitr; swap; · iexact HS25
      ipureintro; rfl
    isplitl [HS26]
    · iexists _, _; isplitr; swap; · iexact HS26
      ipureintro; rfl
    isplitl [HS27]
    · iexists _, _; isplitr; swap; · iexact HS27
      ipureintro; rfl
    isplitl [HS28]
    · iexists _, _; isplitr; swap; · iexact HS28
      ipureintro; rfl
    isplitl [HS29]
    · iexists _, _; isplitr; swap; · iexact HS29
      ipureintro; rfl
    isplitl [HS30]
    · iexists _, _; isplitr; swap; · iexact HS30
      ipureintro; rfl
    isplitl [HS31]
    · iexists _, _; isplitr; swap; · iexact HS31
      ipureintro; rfl
    isplitl [HS32]
    · iexists _, _; isplitr; swap; · iexact HS32
      ipureintro; rfl
    isplitl [HS33]
    · iexists _, _; isplitr; swap; · iexact HS33
      ipureintro; rfl
    isplitl [HS34]
    · iexists _, _; isplitr; swap; · iexact HS34
      ipureintro; rfl
    isplitl [HS35]
    · iexists _, _; isplitr; swap; · iexact HS35
      ipureintro; rfl
    isplitl [HS36]
    · iexists _, _; isplitr; swap; · iexact HS36
      ipureintro; rfl
    isplitl [HS37]
    · iexists _, _; isplitr; swap; · iexact HS37
      ipureintro; rfl
    isplitl [HS38]
    · iexists _, _; isplitr; swap; · iexact HS38
      ipureintro; rfl
    isplitl [HS39]
    · iexists _, _; isplitr; swap; · iexact HS39
      ipureintro; rfl
    isplitl [HS40]
    · iexists _, _; isplitr; swap; · iexact HS40
      ipureintro; rfl
    isplitl [HS41]
    · iexists _, _; isplitr; swap; · iexact HS41
      ipureintro; rfl
    isplitl [HS42]
    · iexists _, _; isplitr; swap; · iexact HS42
      ipureintro; rfl
    isplitl [HS43]
    · iexists _, _; isplitr; swap; · iexact HS43
      ipureintro; rfl
    isplitl [HS44]
    · iexists _, _; isplitr; swap; · iexact HS44
      ipureintro; rfl
    isplitl [HS45]
    · iexists _, _; isplitr; swap; · iexact HS45
      ipureintro; rfl
    isplitl [HS46]
    · iexists _, _; isplitr; swap; · iexact HS46
      ipureintro; rfl
    isplitl [HS47]
    · iexists _, _; isplitr; swap; · iexact HS47
      ipureintro; rfl
    isplitl [HS48]
    · iexists _, _; isplitr; swap; · iexact HS48
      ipureintro; rfl
    isplitl [HS49]
    · iexists _, _; isplitr; swap; · iexact HS49
      ipureintro; rfl
    isplitl [HS50]
    · iexists _, _; isplitr; swap; · iexact HS50
      ipureintro; rfl
    isplitl [HS51]
    · iexists _, _; isplitr; swap; · iexact HS51
      ipureintro; rfl
    isplitl [HS52]
    · iexists _, _; isplitr; swap; · iexact HS52
      ipureintro; rfl
    isplitl [HS53]
    · iexists _, _; isplitr; swap; · iexact HS53
      ipureintro; rfl
    isplitl [HS54]
    · iexists _, _; isplitr; swap; · iexact HS54
      ipureintro; rfl
    isplitl [HS55]
    · iexists _, _; isplitr; swap; · iexact HS55
      ipureintro; rfl
    isplitl [HS56]
    · iexists _, _; isplitr; swap; · iexact HS56
      ipureintro; rfl
    isplitl [HS57]
    · iexists _, _; isplitr; swap; · iexact HS57
      ipureintro; rfl
    isplitl [HS58]
    · iexists _, _; isplitr; swap; · iexact HS58
      ipureintro; rfl
    isplitl [HS59]
    · iexists _, _; isplitr; swap; · iexact HS59
      ipureintro; rfl
    isplitl [HS60]
    · iexists _, _; isplitr; swap; · iexact HS60
      ipureintro; rfl
    isplitl [HS61]
    · iexists _, _; isplitr; swap; · iexact HS61
      ipureintro; rfl
    isplitl [HT0]; · iexact HT0
    isplitl [HT1]; · iexact HT1
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [HCr HC0 HC1 HC2 HC3 HC4 HC5 HC6 HC7 HC8 HC9 HC10 HC11 HC12 HC13 HC14 HC15 HC16 HC17 HC18 HC19 HC20 HC21 HC22 HC23 HC24 HC25 HC26 HC27 HC28 HC29 HC30 HC31 HC32]
    · iapply (motion_join c fh0)
      isplitl [HCr]; · iexact HCr
      isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      isplitl [HC24]; · iexact HC24
      isplitl [HC25]; · iexact HC25
      isplitl [HC26]; · iexact HC26
      isplitl [HC27]; · iexact HC27
      isplitl [HC28]; · iexact HC28
      isplitl [HC29]; · iexact HC29
      isplitl [HC30]; · iexact HC30
      isplitl [HC31]; · iexact HC31
      iexact HC32
    isplitl [Hh1]; · iexact Hh1
    iexists _; iexact HW

end Cert.KernelIdeal.Fr

end
-- ==== Proof.KIOut.lean ====
/- What the body of KernelIdeal leaves in the output block at one grid point: the run's one store covers the block, and the
   block read back is that store's value. -/
import proofs.«428504_j90692529422509_4_alg».proof.Proof.KISetup
import proofs.«428504_j90692529422509_4_alg».proof.Proof.KIRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The run's one store writes the whole output block. -/
theorem cover0_1 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) (y : S8x10000.Idx) :
    ∃ pc ∈ (kernelRun0 c i arg5 harg5 arg6 harg6 x0 xt0 xt1 fh0 fh1 hT0 hT1).1, y ∈ pc.1.set :=
  View.cover_of_tiledL (kernelRun0 c i arg5 harg5 arg6 harg6 x0 xt0 xt1 fh0 fh1 hT0 hT1).1 S8x10000.size (by sl_kernel_rfl) y

/-- What the run leaves in the output's staging buffer: its pieces read back over junk. -/
def out0_1 (c : Dev nD) (i : grid0.Coords)
    (arg5 : Memref sig .tc .vmem S25x10000 .f32) (harg5 : arg5.IsWhole) (arg6 : Memref sig .tc .vmem S8x10000 .f32) (harg6 : arg6.IsWhole)
    (x0 : Vec F S25x10000 .f32) (xt0 : TbBuf0 (F := F) c tbM0_0) (xt1 : TbBuf0 (F := F) c tbM0_1)
    (fh0 : HbBuf0 (F := F) c hbM0_0) (fh1 : HbBuf0 (F := F) c hbM0_1)
    (hT0 : ∀ y : S64x30.Idx, (tbM0_0.view.read (Elt F) xt0 y : BitVec 32).toNat < 3000)
    (hT1 : ∀ y : S64.Idx, (tbM0_1.view.read (Elt F) xt1 y : BitVec 32).toNat < 200) : Vec F S8x10000 .f32 :=
  VO0_1.read (Elt F) (VO0_1.writes (Elt F) VO0_1.junk (kernelRun0 c i arg5 harg5 arg6 harg6 x0 xt0 xt1 fh0 fh1 hT0 hT1).1)

end Cert.KernelIdeal.Fr

end
-- ==== Proof.KIFrame.lean ====
/- The frame of KernelIdeal: what the output block holds after the body at each grid point (the run's pieces read back), the
   pipeline's proof data, the body obligation at a generic point, the launch, and the frame claim — under the two
   bounds on the index tables' words, which the host lines' clip gives. -/
import proofs.«428504_j90692529422509_4_alg».proof.Proof.KIOut

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel body at point t, on what the pipeline calls it with: the tables and the level tables whole, the two
    windows' current staging buffers, the scratch buffers and the semaphore array. -/
abbrev bodyAt0 (a : (pcfg0 (F := F)).Adm) (t : Fin (cfg0 a).N) : Prog (TpuEff nD τ sig (Elt F) Λ₀ .tc) PUnit :=
  cc0__hdc_kernel (grid0.coords t) tbM0_0 htbM0_0 tbM0_1 htbM0_1 hbM0_0 (Memref.isWhole_whole _) hbM0_1 (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) cc0_scratch62

/-- The output window is written back at every point, whatever the tables hold (its index map reads none). -/
theorem flush0_1 (a : (pcfg0 (F := F)).Adm) : ∀ t : Fin (cfg0 a).N, ((cfg0 a).win 1).flush t = true :=
  (by decide +kernel : ∀ t : Fin grid0.N, Pipeline.Window.flushOf grid0 true cc0_transform_3 t = true)

variable (m : (ℓ : Loc nD τ sig) → Buf (Elt F) ℓ) (ρ : Dev nD → PrngReg)

/-- The bounds on the index words the region is entered with: below 3000 and below 200. -/
structure TblOk : Prop where
  h0 : ∀ y : S64x30.Idx, (tbM0_0.view.read (Elt F) (tbl m 0) y : BitVec 32).toNat < 3000
  h1 : ∀ y : S64.Idx, (tbM0_1.view.read (Elt F) (tbl m 1) y : BitVec 32).toNat < 200

variable {m} in
/-- What the output block holds after the body at point t. -/
def outsAt0 (hT : TblOk m) (c : Dev nD) (t : Fin (cfgM m).N) : Vec F S8x10000 .f32 :=
  out0_1 c (grid0.coords t) (ms0_0 m t) (hs0_0 m t) (ms0_1 m t) (hs0_1 m t) (iblk m c 0 t) (tbl m 0) (tbl m 1) (V m c main_arg2) (V m c main_arg3) hT.h0 hT.h1

variable {m} in
/-- The proof data: the arrays as the region finds them; after the body the keys' buffer at its block and the output's at
    outsAt0; the invariant the scratch, the register, the cells at zero, the level tables and the index tables' halves. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => (outsAt0 hT c t)
  Φ _ := iprop(Pipeline.ΦD osem0 spec0 H0 (V m) c ∗ Pipeline.ΦT pre0 (tbl m) c)
  q _ := fullShare
  owed _ := 0

variable {m} in
theorem A_eq (hT : TblOk m) (c : Dev nD) (w : Fin (cfgM m).W) : (dats hT 0 c).A w = V m c (Pipeline.arrRef spec0 w) := by
  dsimp only [dats]
variable {m} in
theorem after0_0 (hT : TblOk m) (c : Dev nD) (t : Fin (cfgM m).N) : (dats hT 0 c).after 0 t = iblk m c 0 t := by dsimp only [dats]; try rfl
variable {m} in
theorem after0_1 (hT : TblOk m) (c : Dev nD) (t : Fin (cfgM m).N) : (dats hT 0 c).after 1 t = (outsAt0 hT c t) := by dsimp only [dats]; try rfl
variable {m} in
theorem before0_0 (hT : TblOk m) (c : Dev nD) (t : Fin (cfgM m).N) (d) : (dats hT 0 c).before 0 t d = iblk m c 0 t :=
  before0_0_of m (dats hT 0 c) (A_eq hT c 0) (after0_0 hT c) t d

variable {m} in
def bodyPre (hT : TblOk m) (c : Dev nD) (t : Fin (cfgM m).N) : sProp 𝕄 :=
  iprop((dats hT 0 c).Φ t.castSucc ∗ (dats hT 0 c).owesAt () t.castSucc
    ∗ (∃ d, owns (c : Thread nD τ) (ms0_0 m t) fullShare ((dats hT 0 c).before 0 t d))
    ∗ (∃ d, owns (c : Thread nD τ) (ms0_1 m t) fullShare ((dats hT 0 c).before 1 t d)))
variable {m} in
def bodyPost (hT : TblOk m) (c : Dev nD) (t : Fin (cfgM m).N) : sProp 𝕄 :=
  iprop((dats hT 0 c).Φ t.succ ∗ (dats hT 0 c).owesAt () t.succ
    ∗ owns (c : Thread nD τ) (ms0_0 m t) fullShare ((dats hT 0 c).after 0 t)
    ∗ owns (c : Thread nD τ) (ms0_1 m t) fullShare ((dats hT 0 c).after 1 t))

variable {m} in
set_option maxHeartbeats 40000000 in
/-- The body at any point: the invariant hands the run its scratch, cells, level tables and index tables and takes them
    back as they were; the keys' buffer holds its block; the output's buffer ends at the run's pieces. -/
theorem sound_body (hT : TblOk m) (c : Dev nD) (t : Fin (cfgM m).N) :
    bodyPre hT c t ⊢ wp frame (wpE (defs₀ (F := F)) Variants.none c none) Set.univ (bodyAt0 (adm m) t) (fun _ => bodyPost hT c t) := by
  unfold bodyPre bodyPost bodyAt0
  simp only [before0_0]
  rw [show (dats hT 0 c).Φ t.succ = (dats hT 0 c).Φ t.castSucc from rfl,
    after0_0, after0_1]
  rw [show (dats hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats hT 0 c).owed t.castSucc = 0 from rfl, show (dats hT 0 c).owed t.succ = 0 from rfl]
  unfold outsAt0
  unfold out0_1
  iintro ⟨⟨⟨⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61⟩, Hg, ⟨Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33⟩, ⟨Hh0, Hh1⟩⟩, ⟨HT0, HT1⟩⟩, ⟨%W, -, HW⟩, ⟨%d0, H0⟩, ⟨%d1, H1⟩⟩
  iapply ((kernelRun0 c (grid0.coords t) _ _ _ _ (iblk m c 0 t) (tbl m 0) (tbl m 1) (V m c main_arg2) (V m c main_arg3) hT.h0 hT.h1).2 W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  isplitl [HS26]; · iexact HS26
  isplitl [HS27]; · iexact HS27
  isplitl [HS28]; · iexact HS28
  isplitl [HS29]; · iexact HS29
  isplitl [HS30]; · iexact HS30
  isplitl [HS31]; · iexact HS31
  isplitl [HS32]; · iexact HS32
  isplitl [HS33]; · iexact HS33
  isplitl [HS34]; · iexact HS34
  isplitl [HS35]; · iexact HS35
  isplitl [HS36]; · iexact HS36
  isplitl [HS37]; · iexact HS37
  isplitl [HS38]; · iexact HS38
  isplitl [HS39]; · iexact HS39
  isplitl [HS40]; · iexact HS40
  isplitl [HS41]; · iexact HS41
  isplitl [HS42]; · iexact HS42
  isplitl [HS43]; · iexact HS43
  isplitl [HS44]; · iexact HS44
  isplitl [HS45]; · iexact HS45
  isplitl [HS46]; · iexact HS46
  isplitl [HS47]; · iexact HS47
  isplitl [HS48]; · iexact HS48
  isplitl [HS49]; · iexact HS49
  isplitl [HS50]; · iexact HS50
  isplitl [HS51]; · iexact HS51
  isplitl [HS52]; · iexact HS52
  isplitl [HS53]; · iexact HS53
  isplitl [HS54]; · iexact HS54
  isplitl [HS55]; · iexact HS55
  isplitl [HS56]; · iexact HS56
  isplitl [HS57]; · iexact HS57
  isplitl [HS58]; · iexact HS58
  isplitl [HS59]; · iexact HS59
  isplitl [HS60]; · iexact HS60
  isplitl [HS61]; · iexact HS61
  isplitl [HT0]; · iexact HT0
  isplitl [HT1]; · iexact HT1
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hh0]; · iexact Hh0
  isplitl [Hh1]; · iexact Hh1
  isplitl [HW]; · iexact HW
  iintro ⟨H0, ⟨%e1, H1⟩, HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HT0, HT1, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hh0, Hh1, ⟨%W', HW'⟩⟩
  isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 Hg Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hh0 Hh1 HT0 HT1]
  · isplitr [HT0 HT1]
    · isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        isplitl [HS17]; · iexact HS17
        isplitl [HS18]; · iexact HS18
        isplitl [HS19]; · iexact HS19
        isplitl [HS20]; · iexact HS20
        isplitl [HS21]; · iexact HS21
        isplitl [HS22]; · iexact HS22
        isplitl [HS23]; · iexact HS23
        isplitl [HS24]; · iexact HS24
        isplitl [HS25]; · iexact HS25
        isplitl [HS26]; · iexact HS26
        isplitl [HS27]; · iexact HS27
        isplitl [HS28]; · iexact HS28
        isplitl [HS29]; · iexact HS29
        isplitl [HS30]; · iexact HS30
        isplitl [HS31]; · iexact HS31
        isplitl [HS32]; · iexact HS32
        isplitl [HS33]; · iexact HS33
        isplitl [HS34]; · iexact HS34
        isplitl [HS35]; · iexact HS35
        isplitl [HS36]; · iexact HS36
        isplitl [HS37]; · iexact HS37
        isplitl [HS38]; · iexact HS38
        isplitl [HS39]; · iexact HS39
        isplitl [HS40]; · iexact HS40
        isplitl [HS41]; · iexact HS41
        isplitl [HS42]; · iexact HS42
        isplitl [HS43]; · iexact HS43
        isplitl [HS44]; · iexact HS44
        isplitl [HS45]; · iexact HS45
        isplitl [HS46]; · iexact HS46
        isplitl [HS47]; · iexact HS47
        isplitl [HS48]; · iexact HS48
        isplitl [HS49]; · iexact HS49
        isplitl [HS50]; · iexact HS50
        isplitl [HS51]; · iexact HS51
        isplitl [HS52]; · iexact HS52
        isplitl [HS53]; · iexact HS53
        isplitl [HS54]; · iexact HS54
        isplitl [HS55]; · iexact HS55
        isplitl [HS56]; · iexact HS56
        isplitl [HS57]; · iexact HS57
        isplitl [HS58]; · iexact HS58
        isplitl [HS59]; · iexact HS59
        isplitl [HS60]; · iexact HS60
        iexact HS61
      isplitl [Hg]; · iexact Hg
      isplitl [Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33]
      · isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hq26]; · iexact Hq26
        isplitl [Hq27]; · iexact Hq27
        isplitl [Hq28]; · iexact Hq28
        isplitl [Hq29]; · iexact Hq29
        isplitl [Hq30]; · iexact Hq30
        isplitl [Hq31]; · iexact Hq31
        isplitl [Hq32]; · iexact Hq32
        iexact Hq33
      isplitl [Hh0]; · iexact Hh0
      iexact Hh1
    · isplitl [HT0]; · iexact HT0
      iexact HT1
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover0_1 c _ _ _ _ _ _ _ _ _ _ _ _)

variable {m} in
set_option maxRecDepth 1000000 in
set_option maxHeartbeats 40000000 in
theorem body_obligation (hT : TblOk m) (c : Dev nD) : BodyObligation (dats (F := F) hT 0 c) (defs₀ (F := F)) Variants.none () Set.univ := fun t => by
  rw [bigSep_W0, bigSep_W0]
  exact sound_body hT c t

variable {m} in
set_option maxRecDepth 1000000 in
set_option backward.isDefEq.respectTransparency.types false in
theorem run_main (hT : TblOk m) : θ_run defs (onTc (τ := τ) (main (F := F))) (s₀ m ρ) (Pipeline.FramePost (Pipeline.pin pcfgs fun _ => adm m) (dats hT) 0 (V m)) :=
  Pipeline.θ_run_frameP_dma pcfgs (fun _ => adm m) (dats hT) (0 : Fin 1) launch0 osem0 defs₀ Variants.none ownSemFacts0 H0 H0_sub m ρ main
    (hbody := fun c => (body_obligation hT c).loose) (hshare := fun c => (dats hT 0 c).share_full fun _ => rfl)
    (howed := fun _ _ => rfl) (V := V m) (hmain := hmain m Variants.none) (hA := A_eq hT) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

variable {m} in
/-- The frame claim's post, at any F, under the tables' bounds. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats hT) (run_main ρ hT)

end Cert.KernelIdeal.Fr

end
-- ==== Proof.KIHost.lean ====
/- What the host lines leave for the region of KernelIdeal: the two index tables hold, at every sample, the level
   index of the sample's channel value (the shift, scale, rounding and clip read at one element), each index is
   inside its level table, and the keys window's block is the first 25 rows of the keys. -/
import proofs.«428504_j90692529422509_4_alg».proof.Proof.KISetup
import proofs.«428504_j90692529422509_4_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.WordArith

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The clip -/

/-- A word clipped into [0, hi] (signed), read as a natural number, is at most hi. -/
theorem clip_toNat_le (hi x : BitVec 32) (hhi : hi.toNat < 2 ^ 31) :
    (IntOp.minsi hi (IntOp.maxsi 0#32 x)).toNat ≤ hi.toNat := by
  have h1 : (IntOp.maxsi 0#32 x).toNat < 2 ^ 31 := by
    have := WordArith.two_mul_toNat_maxsi_zero_lt x
    rw [Scalar.maxsi] at this; omega
  rw [WordArith.toNat_minsi_of_lt hi _ hhi h1]
  exact Nat.min_le_left _ _

/-! ## The host lines, read at the two index tables and at the keys block -/

/-- The chain of one channel's level index over a whole array X of channel values: shift by lo, divide by den,
    scale by sc, round to nearest even, convert to a word, clip into [0, hi]. -/
abbrev idxChain {S : Shape} (hb : S_.BroadcastsInDim S (![] : Fin 0 → Fin S.rank)) (lo den sc hi : BitVec 32) (X : FVec F S .f32) : IVec S 32 :=
  minsi (broadcastInDim S ![] hb (constantI S_ 32 hi))
    (maxsi (broadcastInDim S ![] hb (constantI S_ 32 0#32))
      (fptosi 32 (Host.roundeven (mulf (Host.divf (subf X (broadcastInDim S ![] hb (constant (F := F) S_ .f32 lo)))
        (broadcastInDim S ![] hb (constant (F := F) S_ .f32 den))) (broadcastInDim S ![] hb (constant (F := F) S_ .f32 sc))))))

/-- Read at one element, the chain is the specification's level index of that element. -/
theorem idxChain_apply {S : Shape} (hb : S_.BroadcastsInDim S (![] : Fin 0 → Fin S.rank)) (lo den sc hi : BitVec 32) (X : FVec F S .f32) (y : S.Idx) :
    idxChain hb lo den sc hi X y = Cert.Hdc.wordOf (F := F) lo den sc hi (X y) := rfl

/-- Read at one element, the chain is a clip into [0, hi]. -/
theorem idxChain_le {S : Shape} (hb : S_.BroadcastsInDim S (![] : Fin 0 → Fin S.rank)) (lo den sc hi : BitVec 32) (hhi : hi.toNat < 2 ^ 31) (X : FVec F S .f32) (y : S.Idx) :
    (idxChain hb lo den sc hi X y).toNat ≤ hi.toNat :=
  clip_toNat_le hi _ hhi

/-- Channels 1 to 30 of the first timestep, as the host lines slice them out of the samples. -/
abbrev chM (A : (⟨S64x4x32, .f32⟩ : BufTy).Contents (Elt F)) : FVec F S64x30 .f32 :=
  extractStridedSlice S64x30 ![0, 1]
    (shapeCast S64x31 (extractStridedSlice S64x1x31 ![0, 0, 0] A slices_S64x4x32_S64x1x31_0_0_0) shapeCasts_S64x1x31_S64x31)
    slices_S64x31_S64x30_0_1

/-- Channel 31 of the first timestep, as the host lines slice it out. -/
abbrev chH (A : (⟨S64x4x32, .f32⟩ : BufTy).Contents (Elt F)) : FVec F S64x1 .f32 :=
  shapeCast S64x1 (extractStridedSlice S64x1x1 ![0, 0, 31] A slices_S64x4x32_S64x1x1_0_0_31) shapeCasts_S64x1x1_S64x1

set_option maxHeartbeats 2000000 in
/-- The motion index table when the region is entered. -/
theorem V_v13 (c : Dev nD) : (V m c main_v13 : IVec S64x30 32)
    = idxChain bcast_S_S64x30 0xC0400000#32 0x40C00000#32 0x453B7000#32 2999#32 (chM (m (c, Proc.tc.devRef main_arg0))) := by
  generalize hR : idxChain bcast_S_S64x30 0xC0400000#32 0x40C00000#32 0x453B7000#32 2999#32 (chM (m (c, Proc.tc.devRef main_arg0))) = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rw [← hR]; rfl

set_option maxHeartbeats 2000000 in
/-- The heart-rate index table when the region is entered. -/
theorem V_v23 (c : Dev nD) : (V m c main_v23 : IVec S64 32)
    = shapeCast S64 (idxChain bcast_S_S64x1 0x42480000#32 0x43160000#32 0x43470000#32 199#32 (chH (m (c, Proc.tc.devRef main_arg0)))) shapeCasts_S64x1_S64 := by
  generalize hR : shapeCast S64 (idxChain bcast_S_S64x1 0x42480000#32 0x43160000#32 0x43470000#32 199#32 (chH (m (c, Proc.tc.devRef main_arg0)))) shapeCasts_S64x1_S64 = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rw [← hR]; rfl

/-- The keys array of the region when it is entered: the first 25 rows of the keys. -/
theorem V_v24 (c : Dev nD) : (V m c main_v24 : FVec F S25x10000 .f32)
    = extractStridedSlice S25x10000 ![0, 0] (m (c, Proc.tc.devRef main_arg1)) slices_S32x10000_S25x10000_0_0 := by
  generalize hR : extractStridedSlice S25x10000 ![0, 0] (m (c, Proc.tc.devRef main_arg1)) slices_S32x10000_S25x10000_0_0 = R
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  subst hR; rfl

/-! ## The index tables: their bounds -/

/-- The motion index table the region reads is the chain over channels 1 to 30 of the first timestep. -/
theorem tbl0_eq : (tbM0_0.view.read (Elt F) (tbl m 0) : IVec S64x30 32)
    = idxChain bcast_S_S64x30 0xC0400000#32 0x40C00000#32 0x453B7000#32 2999#32 (chM (m ((0 : Dev nD), Proc.tc.devRef main_arg0))) :=
  V_v13 m 0

/-- The heart-rate index table the region reads is the chain over channel 31 of the first timestep, as a vector. -/
theorem tbl1_eq : (tbM0_1.view.read (Elt F) (tbl m 1) : IVec S64 32)
    = shapeCast S64 (idxChain bcast_S_S64x1 0x42480000#32 0x43160000#32 0x43470000#32 199#32 (chH (m ((0 : Dev nD), Proc.tc.devRef main_arg0)))) shapeCasts_S64x1_S64 :=
  V_v23 m 0

/-- Sample b's entry of the heart-rate index table is the chain's entry (b, 0). -/
theorem tbl1_at (b : Fin 64) : (tbM0_1.view.read (Elt F) (tbl m 1) : IVec S64 32) (ValueIdx.ix1 b)
    = idxChain bcast_S_S64x1 0x42480000#32 0x43160000#32 0x43470000#32 199#32 (chH (m ((0 : Dev nD), Proc.tc.devRef main_arg0))) (ValueIdx.ix2 b (0 : Fin 1)) :=
  (congrFun (tbl1_eq m) (ValueIdx.ix1 b)).trans
    (shapeCast_apply _ shapeCasts_S64x1_S64 (ValueIdx.ix1 b) (ValueIdx.ix2 b (0 : Fin 1)) (by
      rw [Shape.rowMajor_val_two, Shape.rowMajor_val_one]; show b.val * 1 + 0 = b.val; omega))

/-- Every motion index is a row of the 3000-row table. -/
theorem tbl0_lt (y : S64x30.Idx) : (tbM0_0.view.read (Elt F) (tbl m 0) y : BitVec 32).toNat < 3000 :=
  (congrArg BitVec.toNat (congrFun (tbl0_eq m) y)).trans_lt
    (Nat.lt_of_le_of_lt (idxChain_le bcast_S_S64x30 _ _ _ 2999#32 (by decide) _ y) (by decide))

/-- Every heart-rate index is a row of the 200-row table. -/
theorem tbl1_lt (y : S64.Idx) : (tbM0_1.view.read (Elt F) (tbl m 1) y : BitVec 32).toNat < 200 := by
  rw [ValueIdx.eq_ix1 y]
  exact (congrArg BitVec.toNat (tbl1_at m (y 0))).trans_lt
    (Nat.lt_of_le_of_lt (idxChain_le bcast_S_S64x1 _ _ _ 199#32 (by decide) _ _) (by decide))

/-! ## The index tables: their words -/

/-- Channels 1 to 30 read at (b, c): the sample's channel c + 1 of the first timestep. -/
theorem chM_apply (A : (⟨S64x4x32, .f32⟩ : BufTy).Contents (Elt F)) (b : Fin 64) (c : Fin 30) :
    chM A (ValueIdx.ix2 b c) = A (ValueIdx.ix3 b (0 : Fin 4) (⟨c.val + 1, by omega⟩ : Fin 32)) := by
  refine (extractStridedSlice_apply (s := S64x31) (t := S64x30) ![0, 1] _ slices_S64x31_S64x30_0_1 (ValueIdx.ix2 b c) (ValueIdx.ix2 b (⟨c.val + 1, by omega⟩ : Fin 31))
    (fun a => match a with
      | ⟨0, _⟩ => (show b.val = 0 + b.val from by omega)
      | ⟨1, _⟩ => (show c.val + 1 = 1 + c.val from by omega))).trans ?_
  refine (shapeCast_apply (s := S64x1x31) (t := S64x31) _ shapeCasts_S64x1x31_S64x31 (ValueIdx.ix2 b (⟨c.val + 1, by omega⟩ : Fin 31))
    (ValueIdx.ix3 b (0 : Fin 1) (⟨c.val + 1, by omega⟩ : Fin 31)) (by
      rw [Shape.rowMajor_val_three, Shape.rowMajor_val_two]
      show (b.val * 1 + 0) * 31 + (c.val + 1) = b.val * 31 + (c.val + 1); omega)).trans ?_
  exact extractStridedSlice_apply (s := S64x4x32) (t := S64x1x31) ![0, 0, 0] A slices_S64x4x32_S64x1x31_0_0_0 (ValueIdx.ix3 b (0 : Fin 1) (⟨c.val + 1, by omega⟩ : Fin 31))
    (ValueIdx.ix3 b (0 : Fin 4) (⟨c.val + 1, by omega⟩ : Fin 32))
    (fun a => match a with
      | ⟨0, _⟩ => (show b.val = 0 + b.val from by omega)
      | ⟨1, _⟩ => (show 0 = 0 + 0 from rfl)
      | ⟨2, _⟩ => (show c.val + 1 = 0 + (c.val + 1) from by omega))

/-- Channel 31 read at (b, 0): the sample's channel 31 of the first timestep. -/
theorem chH_apply (A : (⟨S64x4x32, .f32⟩ : BufTy).Contents (Elt F)) (b : Fin 64) :
    chH A (ValueIdx.ix2 b (0 : Fin 1)) = A (ValueIdx.ix3 b (0 : Fin 4) (⟨31, by decide⟩ : Fin 32)) := by
  refine (shapeCast_apply (s := S64x1x1) (t := S64x1) _ shapeCasts_S64x1x1_S64x1 (ValueIdx.ix2 b (0 : Fin 1))
    (ValueIdx.ix3 b (0 : Fin 1) (0 : Fin 1)) (by
      rw [Shape.rowMajor_val_three, Shape.rowMajor_val_two]
      show (b.val * 1 + 0) * 1 + 0 = b.val * 1 + 0; omega)).trans ?_
  exact extractStridedSlice_apply (s := S64x4x32) (t := S64x1x1) ![0, 0, 31] A slices_S64x4x32_S64x1x1_0_0_31 (ValueIdx.ix3 b (0 : Fin 1) (0 : Fin 1))
    (ValueIdx.ix3 b (0 : Fin 4) (⟨31, by decide⟩ : Fin 32))
    (fun a => match a with
      | ⟨0, _⟩ => (show b.val = 0 + b.val from by omega)
      | ⟨1, _⟩ => (show 0 = 0 + 0 from rfl)
      | ⟨2, _⟩ => (show 31 = 31 + 0 from rfl))

/-- Sample b's motion index of channel c + 1 is the specification's level index of that channel value. -/
theorem tbl0_word (b : Fin 64) (c : Fin 30) :
    tbM0_0.view.read (Elt F) (tbl m 0) (ValueIdx.ix2 b c)
      = Cert.Hdc.wordM (F := F) (m (((0 : Dev nD) : Thread nD τ).loc main_arg0) (ValueIdx.ix3 b (0 : Fin 4) (⟨c.val + 1, by omega⟩ : Fin 32))) :=
  (congrFun (tbl0_eq m) (ValueIdx.ix2 b c)).trans
    ((idxChain_apply bcast_S_S64x30 _ _ _ _ _ (ValueIdx.ix2 b c)).trans
      (congrArg (Cert.Hdc.wordOf (F := F) 0xC0400000#32 0x40C00000#32 0x453B7000#32 2999#32) (chM_apply _ b c)))

/-- Sample b's heart-rate index is the specification's level index of its channel 31. -/
theorem tbl1_word (b : Fin 64) :
    tbM0_1.view.read (Elt F) (tbl m 1) (ValueIdx.ix1 b)
      = Cert.Hdc.wordH (F := F) (m (((0 : Dev nD) : Thread nD τ).loc main_arg0) (ValueIdx.ix3 b (0 : Fin 4) (⟨31, by decide⟩ : Fin 32))) :=
  (tbl1_at m b).trans
    ((idxChain_apply bcast_S_S64x1 _ _ _ _ _ (ValueIdx.ix2 b (0 : Fin 1))).trans
      (congrArg (Cert.Hdc.wordOf (F := F) 0x42480000#32 0x43160000#32 0x43470000#32 199#32) (chH_apply _ b)))

/-! ## The keys block -/

/-- The keys window's block is, at every point of the grid, the first 25 rows of the keys. -/
theorem keys_blk (c : Dev nD) (t : Fin (cfgM m).N) (w : Fin 25) (d : Fin 10000) :
    (iblk m c 0 t : Vec F S25x10000 .f32) (ValueIdx.ix2 w d)
      = m ((c : Thread nD τ).loc main_arg1) (ValueIdx.ix2 (⟨w.val, by omega⟩ : Fin 32) d) := by
  refine ((congrFun (V_v24 m c) _).trans ?_ : (iblk m c 0 t : Vec F S25x10000 .f32) (ValueIdx.ix2 w d) = _)
  exact extractStridedSlice_apply (s := S32x10000) (t := S25x10000) ![0, 0] _ slices_S32x10000_S25x10000_0_0 _ (ValueIdx.ix2 (⟨w.val, by omega⟩ : Fin 32) d)
    (fun a => match a with
      | ⟨0, _⟩ => (show w.val = 0 + (0 * 25 + 1 * w.val) from by omega)
      | ⟨1, _⟩ => (show d.val = 0 + (0 * 10000 + 1 * d.val) from by omega))

end Cert.KernelIdeal.Fr

end
-- ==== Proof.KIPay.lean ====
/- The kernel body's arithmetic at one index.
   The body holds the stack X of gathered rows (8 samples, 31 channels, 10000 lanes) and the keys block kx (25 windows,
   10000 lanes). For window w it multiplies the rows of channels w … w+6, the j-th rotated right by 6-j lanes (a rotation
   by s lanes puts the last s lanes in front of the first 10000-s), binds the product with key w, sums over the 25
   windows, and takes +1 where the sum is positive and -1 elsewhere. Read at (b, d) this is the hypervector of the keys
   and of sample b's rows at lane d. -/
import proofs.«428504_j90692529422509_4_alg».proof.Proof.Gen.KernelIdeal.Skeleton
import proofs.«428504_j90692529422509_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- Below the shift, the rotated lane is the lane plus the complement of the shift. -/
theorem rot_val_lt (s : Nat) (hs : s ≤ 10000) (d : Fin 10000) (h : d.val < s) :
    (Cert.Hdc.rot s d).val = 10000 - s + d.val := by
  show (d.val + 10000 - s % 10000) % 10000 = _
  have := d.isLt
  omega

/-- From the shift on, the rotated lane is the lane less the shift. -/
theorem rot_val_ge (s : Nat) (hs : s < 10000) (d : Fin 10000) (h : s ≤ d.val) :
    (Cert.Hdc.rot s d).val = d.val - s := by
  show (d.val + 10000 - s % 10000) % 10000 = _
  have := d.isLt
  omega

/-- A rotation by no lanes reads the lane itself. -/
theorem rot_zero (d : Fin 10000) : Cert.Hdc.rot 0 d = d := by
  apply Fin.ext
  show (d.val + 10000 - 0 % 10000) % 10000 = _
  have := d.isLt
  omega

/-- The 25 windows' rows starting at channel c, rotated right by s lanes: the last s lanes of the slice put in front
    of its first 10000 - s lanes. At (b, w, d) that is the stack at channel w + c and lane rot s d. -/
theorem rotated_apply {α : Type} (c s o : Nat) (hc : c + 25 ≤ 31) (hs : 0 < s) (hso : o + s = 10000)
    (X : S8x31x10000.Idx → α)
    (h1 : S8x31x10000.Slices ![0, c, 0] S8x25x10000)
    (h2 : S8x25x10000.Slices ![0, 0, o] ⟨3, ![8, 25, s]⟩)
    (h3 : S8x25x10000.Slices ![0, 0, 0] ⟨3, ![8, 25, o]⟩)
    (hcat : Shape.Concatenates [(⟨3, ![8, 25, s]⟩ : Shape), ⟨3, ![8, 25, o]⟩] S8x25x10000 2)
    (lb : Fin 8) (w : Fin 25) (d : Fin 10000) :
    concatenate S8x25x10000 2
        [⟨⟨3, ![8, 25, s]⟩, extractStridedSlice ⟨3, ![8, 25, s]⟩ ![0, 0, o] (extractStridedSlice S8x25x10000 ![0, c, 0] X h1) h2⟩,
         ⟨⟨3, ![8, 25, o]⟩, extractStridedSlice ⟨3, ![8, 25, o]⟩ ![0, 0, 0] (extractStridedSlice S8x25x10000 ![0, c, 0] X h1) h3⟩]
        hcat (ix3 lb w d)
      = X (ix3 lb ⟨w.val + c, by omega⟩ (Cert.Hdc.rot s d)) := by
  have hd := d.isLt
  by_cases hlt : d.val < s
  · have hr := rot_val_lt s (by omega) d hlt
    refine (concatenate_pair_apply_left (2 : Fin S8x25x10000.rank) _ _ hcat (ix3 lb w d) rfl
      (ix3 lb w (⟨d.val, hlt⟩ : Fin s)) (fun b => match b with | ⟨0, _⟩ => rfl | ⟨1, _⟩ => rfl | ⟨2, _⟩ => rfl)).trans ?_
    refine (extractStridedSlice_apply _ _ h2 _ (ix3 lb w (⟨o + d.val, by omega⟩ : Fin 10000))
      (fun b => match b with
        | ⟨0, _⟩ => by show lb.val = 0 + lb.val; omega
        | ⟨1, _⟩ => by show w.val = 0 + w.val; omega
        | ⟨2, _⟩ => by show o + d.val = o + d.val; rfl)).trans ?_
    refine extractStridedSlice_apply _ _ h1 _ _
      (fun b => match b with
        | ⟨0, _⟩ => by show lb.val = 0 + lb.val; omega
        | ⟨1, _⟩ => by show w.val + c = c + w.val; omega
        | ⟨2, _⟩ => by show (Cert.Hdc.rot s d).val = 0 + (o + d.val); omega)
  · have hge : s ≤ d.val := Nat.le_of_not_lt hlt
    have hr := rot_val_ge s (by omega) d hge
    refine (concatenate_pair_apply_right (2 : Fin S8x25x10000.rank) _ _ hcat (ix3 lb w d) rfl rfl
      (ix3 lb w (⟨d.val - s, by omega⟩ : Fin o))
      (fun b => match b with
        | ⟨0, _⟩ => fun _ => rfl
        | ⟨1, _⟩ => fun _ => rfl
        | ⟨2, _⟩ => fun hne => absurd rfl hne)
      (by show d.val - s + s = d.val; omega)).trans ?_
    refine (extractStridedSlice_apply _ _ h3 _ (ix3 lb w (⟨d.val - s, by omega⟩ : Fin 10000))
      (fun b => match b with
        | ⟨0, _⟩ => by show lb.val = 0 + lb.val; omega
        | ⟨1, _⟩ => by show w.val = 0 + w.val; omega
        | ⟨2, _⟩ => by show d.val - s = 0 + (d.val - s); omega)).trans ?_
    refine extractStridedSlice_apply _ _ h1 _ _
      (fun b => match b with
        | ⟨0, _⟩ => by show lb.val = 0 + lb.val; omega
        | ⟨1, _⟩ => by show w.val + c = c + w.val; omega
        | ⟨2, _⟩ => by show (Cert.Hdc.rot s d).val = 0 + (d.val - s); omega)

/-- The keys block given a leading unit axis and repeated over the 8 samples reads, at (b, w, d), the key (w, d). -/
theorem keys_apply {α : Type} (k : S25x10000.Idx → α) (h1 : S25x10000.ShapeCasts S1x25x10000)
    (h2 : S1x25x10000.Broadcasts S8x25x10000) (lb : Fin 8) (w : Fin 25) (d : Fin 10000) :
    broadcastTo S8x25x10000 (shapeCast S1x25x10000 k h1) h2 (ix3 lb w d) = k (ix2 w d) := by
  refine (broadcastTo_apply _ h2 (ix3 lb w d) (ix3 (0 : Fin 1) w d)
    (fun a => match a with | ⟨0, _⟩ => rfl | ⟨1, _⟩ => rfl | ⟨2, _⟩ => rfl)).trans ?_
  exact shapeCast_ab_1ab_apply k h1 0 w d

/-- The sum over the window axis, read at (b, d): the sum over the 25 windows of the source at (b, w, d). -/
theorem windowSum_apply (src : FVec Ideal S8x25x10000 .f32) (h : S8x25x10000.Reduces [1] S8x10000)
    (hφ : FKind.Formats .f32) (hacc : (0x00000000#32 : BitVec 32) = FKind.add.neutral .f32 hφ) (lb : Fin 8) (d : Fin 10000) :
    multiReduction (F := Ideal) .add [1] S8x10000 src 0x00000000#32 h hφ hacc (ix2 lb d) = ∑ w : Fin 25, src (ix3 lb w d) := by
  refine (Ideal.multiReduction_add_single src _ h hφ hacc (ix2 lb d)).trans ?_
  show ∑ w : Fin 25, src (h.lift (ix2 lb d) w) = _
  refine Finset.sum_congr rfl fun w _ => congrArg src ?_
  funext a
  match a with
  | ⟨0, _⟩ => rfl
  | ⟨1, _⟩ => rfl
  | ⟨2, _⟩ => rfl

/-- The end of the body over any keys block k and any product block P: the keys times the product, summed over the
    windows, compared with zero, +1 where greater and -1 elsewhere — the sign of the bound sum at (b, d). -/
theorem tail_apply (k : FVec Ideal S25x10000 .bf16) (P : FVec Ideal S8x25x10000 .bf16)
    (h1 : S25x10000.ShapeCasts S1x25x10000) (h2 : S1x25x10000.Broadcasts S8x25x10000) (hb : FTy.bits .bf16 < FTy.bits .f32)
    (h : S8x25x10000.Reduces [1] S8x10000) (hφ : FKind.Formats .f32)
    (hacc : (0x00000000#32 : BitVec 32) = FKind.add.neutral .f32 hφ) (lb : Fin 8) (d : Fin 10000) :
    select (cmpf .ogt
        (multiReduction (F := Ideal) .add [1] S8x10000
          (extf .f32 (mulf (broadcastTo S8x25x10000 (shapeCast S1x25x10000 k h1) h2) P) hb) 0x00000000#32 h hφ hacc)
        (broadcast S8x10000 (Scalar.ofBits (F := Ideal) .f32 0x00000000#32)))
      (broadcast S8x10000 (Scalar.ofBits (F := Ideal) .f32 0x3F800000#32))
      (broadcast S8x10000 (Scalar.ofBits (F := Ideal) .f32 0xBF800000#32)) (ix2 lb d)
      = Cert.Hdc.sgn (∑ w : Fin 25, k (ix2 w d) * P (ix3 lb w d)) := by
  show Cert.Hdc.sgn (multiReduction (F := Ideal) .add [1] S8x10000
          (extf .f32 (mulf (broadcastTo S8x25x10000 (shapeCast S1x25x10000 k h1) h2) P) hb) 0x00000000#32 h hφ hacc (ix2 lb d)) = _
  refine congrArg Cert.Hdc.sgn ((windowSum_apply _ h hφ hacc lb d).trans ?_)
  refine Finset.sum_congr rfl fun w _ => ?_
  show broadcastTo S8x25x10000 (shapeCast S1x25x10000 k h1) h2 (ix3 lb w d) * P (ix3 lb w d) = _
  rw [keys_apply k h1 h2 lb w d]

/-- A 7-fold product of blocks reads, at an index, as the product of the seven values there. -/
theorem mul7_apply (a1 a2 a3 a4 a5 a6 a7 : FVec Ideal S8x25x10000 .bf16) (j : S8x25x10000.Idx) :
    mulf (mulf (mulf (mulf (mulf (mulf a1 a2) a3) a4) a5) a6) a7 j
      = (((((a1 j * a2 j) * a3 j) * a4 j) * a5 j) * a6 j) * a7 j := rfl

/-- The unrotated slice at channel offset c reads the stack at channel w + c and the same lane. -/
theorem slice_apply {α : Type} (c : Nat) (hc : c + 25 ≤ 31) (X : S8x31x10000.Idx → α)
    (h1 : S8x31x10000.Slices ![0, c, 0] S8x25x10000) (lb : Fin 8) (w : Fin 25) (d : Fin 10000) :
    extractStridedSlice S8x25x10000 ![0, c, 0] X h1 (ix3 lb w d) = X (ix3 lb ⟨w.val + c, by omega⟩ d) :=
  extractStridedSlice_apply _ _ h1 _ _
    (fun b => match b with
      | ⟨0, _⟩ => by show lb.val = 0 + lb.val; omega
      | ⟨1, _⟩ => by show w.val + c = c + w.val; omega
      | ⟨2, _⟩ => by show d.val = 0 + d.val; omega)

/-- The keys block as loaded, recast to its own shape and narrowed: the same values. -/
theorem keys251_apply (kx : Vec Ideal S25x10000 .f32) (j : S25x10000.Idx) : k0_pay251 (F := Ideal) kx j = kx j := by
  unfold k0_pay251
  show shapeCast S25x10000 kx shapeCasts_S25x10000_S25x10000 j = kx j
  rw [shapeCast_self]

/-- The stored value at (b, d): the sign of the bound sum of the 7-grams of sample b's rows. -/
theorem pay_apply (X : FVec Ideal S8x31x10000 .bf16) (kx : Vec Ideal S25x10000 .f32) (lb : Fin 8) (d : Fin 10000) :
    k0_pay1 (F := Ideal) X (k0_pay251 kx) (k0_pay252 X) (k0_pay253 X) (k0_pay254 X) (ix2 lb d)
      = Cert.Hdc.hv (fun w dd => kx (ix2 w dd)) (fun cc dd => X (ix3 lb cc dd)) d := by
  unfold k0_pay1
  refine (tail_apply _ _ _ _ _ _ _ _ lb d).trans ?_
  unfold Cert.Hdc.hv Cert.Hdc.wsum
  refine congrArg Cert.Hdc.sgn (Finset.sum_congr rfl fun w _ => ?_)
  rw [keys251_apply]
  refine congrArg (kx (ix2 w d) * ·) ?_
  refine (mul7_apply _ _ _ _ _ _ _ _).trans ?_
  unfold Cert.Hdc.ngram k0_pay252 k0_pay254 k0_pay253
  refine congrArg₂ (· * ·) (congrArg₂ (· * ·) (congrArg₂ (· * ·) (congrArg₂ (· * ·) (congrArg₂ (· * ·)
    (congrArg₂ (· * ·) ?_ ?_) ?_) ?_) ?_) ?_) ?_
  · exact rotated_apply 0 6 9994 (by omega) (by omega) rfl X _ _ _ _ lb w d
  · exact rotated_apply 1 5 9995 (by omega) (by omega) rfl X _ _ _ _ lb w d
  · exact rotated_apply 2 4 9996 (by omega) (by omega) rfl X _ _ _ _ lb w d
  · exact rotated_apply 3 3 9997 (by omega) (by omega) rfl X _ _ _ _ lb w d
  · exact rotated_apply 4 2 9998 (by omega) (by omega) rfl X _ _ _ _ lb w d
  · exact rotated_apply 5 1 9999 (by omega) (by omega) rfl X _ _ _ _ lb w d
  · rw [rot_zero]
    exact slice_apply 6 (by omega) X _ lb w d

end Cert.KernelIdeal.Pay

end
-- ==== Proof.KIWord.lean ====
/- Two facts about index words.
   A 32-bit word whose value is below the number of rows N of a level table, N below 2^31, reads signed as itself, and
   clamping it into [0, N - 1] changes nothing: the row it selects is the row of that number.
   The row number of sample lb of block i, computed in 32-bit words as i * 8 + lb, does not wrap for i, lb below 8: it is
   the number 8 * i + lb. -/
import proofs.«428504_j90692529422509_4_alg».proof.Proof.Spec

noncomputable section

namespace Cert.Hdc

open Idealize.ShloMosaic Idealize.ShloMosaic.ValueIdx

/-- A word below the table's height (itself below 2^31) selects the row of its own number: read signed it is
    nonnegative, and the clamp into the table is the identity on it. -/
theorem rowOf_of_lt {N : Nat} (hN : 0 < N) (tab : (⟨2, ![N, 10000]⟩ : Shape).Idx → EReal) (w : BitVec 32)
    (h : w.toNat < N) (hN31 : N < 2 ^ 31) (d : Fin 10000) :
    rowOf hN tab w d = tab (ValueIdx.ix2 ⟨w.toNat, h⟩ d) := by
  unfold rowOf
  have e : min w.toInt.toNat (N - 1) = w.toNat := by
    have h1 : w.toInt = (w.toNat : Int) := BitVec.toInt_eq_toNat_of_lt (by omega)
    rw [h1, Int.toNat_natCast]
    omega
  exact congrArg tab (congrArg (fun r : Fin N => ValueIdx.ix2 r d) (Fin.ext e))

/-- The sample-row word: i * 8 + lb in 32-bit words, for i and lb below 8, is the number 8 * i + lb (no wrap). -/
theorem row_word (i lb : Nat) (hi : i < 8) (hlb : lb < 8) :
    (Scalar.indexCast (Scalar.addi (Scalar.muli (BitVec.ofNat 32 i) 8#32) (BitVec.ofNat 32 lb)) : BitVec 32).toNat
      = 8 * i + lb := by
  show (BitVec.ofNat 32 i * 8#32 + BitVec.ofNat 32 lb).toNat = 8 * i + lb
  rw [BitVec.toNat_add, BitVec.toNat_mul, BitVec.toNat_ofNat, BitVec.toNat_ofNat, BitVec.toNat_ofNat]
  omega

/-- The same as the pair of offsets (row, channel c) a read of a two-axis table takes. -/
theorem row_off2 (i lb c : Nat) (hi : i < 8) (hlb : lb < 8) :
    (![(Scalar.indexCast (Scalar.addi (Scalar.muli (BitVec.ofNat 32 i) 8#32) (BitVec.ofNat 32 lb)) : BitVec 32).toNat, c]
      : Fin 2 → Nat) = ![8 * i + lb, c] := by
  rw [row_word i lb hi hlb]

/-- The same as the one offset a read of a one-axis table takes. -/
theorem row_off1 (i lb : Nat) (hi : i < 8) (hlb : lb < 8) :
    (![(Scalar.indexCast (Scalar.addi (Scalar.muli (BitVec.ofNat 32 i) 8#32) (BitVec.ofNat 32 lb)) : BitVec 32).toNat]
      : Fin 1 → Nat) = ![8 * i + lb] := by
  rw [row_word i lb hi hlb]

end Cert.Hdc

end
-- ==== Proof.KIBlock0.lean ====
/- What the symbolic run of the kernel body leaves in the output block, part 0: the general facts.
   The 31 collectors stacked along a middle axis are read one collector at a time; a collector read back after its
   eight row stores is, row by row, the store of that row; a row store's value is the row pool's newest copy; a copy's
   payload is the level table's row its index word names; and the index word is the index table's entry at
   (sample row, channel). Each is stated once, over variables, for every channel and every sample row. -/
import proofs.«428504_j90692529422509_4_alg».proof.Proof.KIOut
import proofs.«428504_j90692529422509_4_alg».proof.Proof.KIPay
import proofs.«428504_j90692529422509_4_alg».proof.Proof.KIWord
import proofs.«428504_j90692529422509_4_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Lean Elab Tactic Meta in
/-- Opens the definitions of the collectors' lists of row stores (the list of k+1 stores is the k-th store put before
    the list of k stores), down to the literal list of eight stores; the stored values stay named. -/
elab "open_store_lists" : tactic => do
  let g ← getMainGoal
  let isList (n : Name) : Bool :=
    n.components.dropLast.any (· == `sl) && (match n with | .str _ last => last.startsWith "HS" | _ => false)
  let t ← instantiateMVars (← g.getType)
  let t' ← Meta.deltaExpand t isList
  replaceMainGoal [← g.replaceTargetDefEq t']

open Lean Elab Tactic Meta in
/-- Opens the definition of each named value of the run that stands in the goal, one level: the names inside the
    definitions stay. -/
elab "open_value" : tactic => do
  let g ← getMainGoal
  let isRunName (n : Name) : Bool := n.components.dropLast.any (· == `sl)
  let t ← instantiateMVars (← g.getType)
  let t' ← Core.transform t (pre := fun e => do
    let f := e.getAppFn
    if f.isConst && isRunName f.constName! then
      match ← delta? e with
      | some e' => return .done e'.headBeta
      | none => return .continue
    else return .continue)
  replaceMainGoal [← g.replaceTargetDefEq t']

/-- An [8, 10000] array cast to [8, 1, 10000] reads, at (b, u, d), the operand at (b, d). -/
theorem cast_8x1_apply (x : Vec Ideal S8x10000 .f32) (h : S8x10000.ShapeCasts S8x1x10000) (b : Fin 8) (u : Fin 1) (d : Fin 10000) :
    shapeCast S8x1x10000 x h (ix3 b u d) = x (ix2 b d) :=
  shapeCast_apply x h _ _ (by
    have hu : u.val = 0 := by omega
    rw [Shape.rowMajor_val_two, Shape.rowMajor_val_three]
    show b.val * 10000 + d.val = (b.val * 1 + u.val) * 10000 + d.val
    rw [hu]; omega)

/-- The 31 collectors stacked along a new middle axis: at (b, c, d) the c-th collector at (b, d). -/
theorem stack31_apply (v0 v1 v2 v3 v4 v5 v6 v7 v8 v9 v10 v11 v12 v13 v14 v15 v16 v17 v18 v19 v20 v21 v22 v23 v24 v25 v26 v27 v28 v29 v30 : Vec Ideal S8x10000 .f32) (b : Fin 8) (c : Fin 31) (d : Fin 10000) :
    k0_pay250 (F := Ideal) v0 v1 v2 v3 v4 v5 v6 v7 v8 v9 v10 v11 v12 v13 v14 v15 v16 v17 v18 v19 v20 v21 v22 v23 v24 v25 v26 v27 v28 v29 v30 (ix3 b c d)
      = (![v0, v1, v2, v3, v4, v5, v6, v7, v8, v9, v10, v11, v12, v13, v14, v15, v16, v17, v18, v19, v20, v21, v22, v23, v24, v25, v26, v27, v28, v29, v30] : Fin 31 → Vec Ideal S8x10000 .f32) c (ix2 b d) := by
  unfold k0_pay250
  refine Eq.trans (b := concatenate S8x31x10000 1 (List.ofFn fun n : Fin 31 => (⟨S8x1x10000, shapeCast S8x1x10000 ((![v0, v1, v2, v3, v4, v5, v6, v7, v8, v9, v10, v11, v12, v13, v14, v15, v16, v17, v18, v19, v20, v21, v22, v23, v24, v25, v26, v27, v28, v29, v30] : Fin 31 → Vec Ideal S8x10000 .f32) n) shapeCasts_S8x10000_S8x1x10000⟩ : (s : Shape) × (s.Idx → EReal))) concatenates_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x31x10000_d1 (ix3 b c d)) rfl ?_
  refine (concatenate_ofFn_unit_apply (t := S8x31x10000) (s₁ := S8x1x10000) 1 (fun n : Fin 31 => shapeCast S8x1x10000 ((![v0, v1, v2, v3, v4, v5, v6, v7, v8, v9, v10, v11, v12, v13, v14, v15, v16, v17, v18, v19, v20, v21, v22, v23, v24, v25, v26, v27, v28, v29, v30] : Fin 31 → Vec Ideal S8x10000 .f32) n) shapeCasts_S8x10000_S8x1x10000) concatenates_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x1x10000_S8x31x10000_d1 rfl rfl (ix3 b c d) c rfl (ix3 b 0 d) ?_).trans ?_
  · intro a ha
    match a, ha with
    | ⟨0, _⟩, _ => rfl
    | ⟨1, _⟩, ha => exact absurd rfl ha
    | ⟨2, _⟩, _ => rfl
  · exact cast_8x1_apply _ _ b 0 d

/-- Under a last store of one whole row r of an [8, 10000] buffer, row r reads the store's one row; -/
theorem canon_row_hit (r : Nat) (inb : ∀ a, (![r, 0] : Fin 2 → Nat) a + S1x10000.size a ≤ S8x10000.size a)
    (p : Vec Ideal S1x10000 .f32) (L : List (View.Piece (Elt Ideal) S8x10000 .f32)) (l : Nat) (hl : l < 8) (dd : Fin 10000) (h : l = r) :
    View.canon ((⟨Rect.unit (s := S8x10000) ![r, 0] S1x10000.size inb, p⟩ : View.Piece (Elt Ideal) S8x10000 .f32) :: L) (ix2 ⟨l, hl⟩ dd)
      = p (ix2 0 dd) := by
  subst h
  have e : (Rect.unit (s := S8x10000) ![l, 0] S1x10000.size inb).emb (ix2 (0 : Fin 1) dd) = (ix2 ⟨l, hl⟩ dd : S8x10000.Idx) := by
    funext a; apply Fin.ext
    match a with
    | ⟨0, _⟩ => show l + 1 * 0 = l; omega
    | ⟨1, _⟩ => show 0 + 1 * dd.val = dd.val; omega
  exact (congrArg (View.canon _) e.symm).trans
    (View.canon_cons_emb (Rect.unit (s := S8x10000) ![l, 0] S1x10000.size inb) p L (ix2 (0 : Fin 1) dd))

/-- any other row reads what the earlier stores left. -/
theorem canon_row_miss (r : Nat) (inb : ∀ a, (![r, 0] : Fin 2 → Nat) a + S1x10000.size a ≤ S8x10000.size a)
    (p : Vec Ideal S1x10000 .f32) (L : List (View.Piece (Elt Ideal) S8x10000 .f32)) (l : Nat) (hl : l < 8) (dd : Fin 10000) (h : l ≠ r) :
    View.canon ((⟨Rect.unit (s := S8x10000) ![r, 0] S1x10000.size inb, p⟩ : View.Piece (Elt Ideal) S8x10000 .f32) :: L) (ix2 ⟨l, hl⟩ dd)
      = View.canon L (ix2 ⟨l, hl⟩ dd) :=
  View.canon_cons_of_not_mem _ L fun hm => by
    have hm' : (ix2 ⟨l, hl⟩ dd : S8x10000.Idx) ∈ (Rect.unit (s := S8x10000) ![r, 0] S1x10000.size inb).set := hm
    have h0 : r ≤ l ∧ l < r + 1 := (Rect.mem_set_unit (inb := inb)).mp hm' (0 : Fin 2)
    omega

/-- A collector read back whole after its eight row stores: row lb is the lb-th store's one row. -/
theorem collector_apply {sig' : RefSig} {κ : Kind} {sp : Space} (v : View sig' κ sp S8x10000 .f32)
    (inb0 : ∀ a, (![0, 0] : Fin 2 → Nat) a + S1x10000.size a ≤ S8x10000.size a)
    (inb1 : ∀ a, (![1, 0] : Fin 2 → Nat) a + S1x10000.size a ≤ S8x10000.size a)
    (inb2 : ∀ a, (![2, 0] : Fin 2 → Nat) a + S1x10000.size a ≤ S8x10000.size a)
    (inb3 : ∀ a, (![3, 0] : Fin 2 → Nat) a + S1x10000.size a ≤ S8x10000.size a)
    (inb4 : ∀ a, (![4, 0] : Fin 2 → Nat) a + S1x10000.size a ≤ S8x10000.size a)
    (inb5 : ∀ a, (![5, 0] : Fin 2 → Nat) a + S1x10000.size a ≤ S8x10000.size a)
    (inb6 : ∀ a, (![6, 0] : Fin 2 → Nat) a + S1x10000.size a ≤ S8x10000.size a)
    (inb7 : ∀ a, (![7, 0] : Fin 2 → Nat) a + S1x10000.size a ≤ S8x10000.size a)
    (inbL : ∀ a, (![0, 0] : Fin 2 → Nat) a + S8x10000.size a ≤ S8x10000.size a)
    (p0 p1 p2 p3 p4 p5 p6 p7 : Vec Ideal S1x10000 .f32) (lb : Fin 8) (dd : Fin 10000) :
    v.readCov (Val := Elt Ideal)
      [⟨Rect.unit (s := S8x10000) ![7, 0] S1x10000.size inb7, p7⟩,
        ⟨Rect.unit (s := S8x10000) ![6, 0] S1x10000.size inb6, p6⟩,
        ⟨Rect.unit (s := S8x10000) ![5, 0] S1x10000.size inb5, p5⟩,
        ⟨Rect.unit (s := S8x10000) ![4, 0] S1x10000.size inb4, p4⟩,
        ⟨Rect.unit (s := S8x10000) ![3, 0] S1x10000.size inb3, p3⟩,
        ⟨Rect.unit (s := S8x10000) ![2, 0] S1x10000.size inb2, p2⟩,
        ⟨Rect.unit (s := S8x10000) ![1, 0] S1x10000.size inb1, p1⟩,
        ⟨Rect.unit (s := S8x10000) ![0, 0] S1x10000.size inb0, p0⟩]
      (Rect.unit (s := S8x10000) ![0, 0] S8x10000.size inbL).toLoadRect (ix2 lb dd)
      = (![p0, p1, p2, p3, p4, p5, p6, p7] : Fin 8 → Vec Ideal S1x10000 .f32) lb (ix2 0 dd) := by
  rw [View.readCov_eq_canon']
  have hidx : (Rect.unit (s := S8x10000) ![0, 0] S8x10000.size inbL).toLoadRect.idx (ix2 lb dd) = ix2 lb dd := by
    funext a; apply Fin.ext
    match a with
    | ⟨0, _⟩ => show 0 + 1 * lb.val = lb.val; omega
    | ⟨1, _⟩ => show 0 + 1 * dd.val = dd.val; omega
  show View.canon _ ((Rect.unit (s := S8x10000) ![0, 0] S8x10000.size inbL).toLoadRect.idx (ix2 lb dd)) = _
  rw [hidx]
  match lb with
  | ⟨0, _⟩ =>
      exact (canon_row_miss 7 inb7 p7 _ 0 (by omega) dd (by omega)).trans <|
        (canon_row_miss 6 inb6 p6 _ 0 (by omega) dd (by omega)).trans <|
        (canon_row_miss 5 inb5 p5 _ 0 (by omega) dd (by omega)).trans <|
        (canon_row_miss 4 inb4 p4 _ 0 (by omega) dd (by omega)).trans <|
        (canon_row_miss 3 inb3 p3 _ 0 (by omega) dd (by omega)).trans <|
        (canon_row_miss 2 inb2 p2 _ 0 (by omega) dd (by omega)).trans <|
        (canon_row_miss 1 inb1 p1 _ 0 (by omega) dd (by omega)).trans <|
        canon_row_hit 0 inb0 p0 _ 0 (by omega) dd rfl
  | ⟨1, _⟩ =>
      exact (canon_row_miss 7 inb7 p7 _ 1 (by omega) dd (by omega)).trans <|
        (canon_row_miss 6 inb6 p6 _ 1 (by omega) dd (by omega)).trans <|
        (canon_row_miss 5 inb5 p5 _ 1 (by omega) dd (by omega)).trans <|
        (canon_row_miss 4 inb4 p4 _ 1 (by omega) dd (by omega)).trans <|
        (canon_row_miss 3 inb3 p3 _ 1 (by omega) dd (by omega)).trans <|
        (canon_row_miss 2 inb2 p2 _ 1 (by omega) dd (by omega)).trans <|
        canon_row_hit 1 inb1 p1 _ 1 (by omega) dd rfl
  | ⟨2, _⟩ =>
      exact (canon_row_miss 7 inb7 p7 _ 2 (by omega) dd (by omega)).trans <|
        (canon_row_miss 6 inb6 p6 _ 2 (by omega) dd (by omega)).trans <|
        (canon_row_miss 5 inb5 p5 _ 2 (by omega) dd (by omega)).trans <|
        (canon_row_miss 4 inb4 p4 _ 2 (by omega) dd (by omega)).trans <|
        (canon_row_miss 3 inb3 p3 _ 2 (by omega) dd (by omega)).trans <|
        canon_row_hit 2 inb2 p2 _ 2 (by omega) dd rfl
  | ⟨3, _⟩ =>
      exact (canon_row_miss 7 inb7 p7 _ 3 (by omega) dd (by omega)).trans <|
        (canon_row_miss 6 inb6 p6 _ 3 (by omega) dd (by omega)).trans <|
        (canon_row_miss 5 inb5 p5 _ 3 (by omega) dd (by omega)).trans <|
        (canon_row_miss 4 inb4 p4 _ 3 (by omega) dd (by omega)).trans <|
        canon_row_hit 3 inb3 p3 _ 3 (by omega) dd rfl
  | ⟨4, _⟩ =>
      exact (canon_row_miss 7 inb7 p7 _ 4 (by omega) dd (by omega)).trans <|
        (canon_row_miss 6 inb6 p6 _ 4 (by omega) dd (by omega)).trans <|
        (canon_row_miss 5 inb5 p5 _ 4 (by omega) dd (by omega)).trans <|
        canon_row_hit 4 inb4 p4 _ 4 (by omega) dd rfl
  | ⟨5, _⟩ =>
      exact (canon_row_miss 7 inb7 p7 _ 5 (by omega) dd (by omega)).trans <|
        (canon_row_miss 6 inb6 p6 _ 5 (by omega) dd (by omega)).trans <|
        canon_row_hit 5 inb5 p5 _ 5 (by omega) dd rfl
  | ⟨6, _⟩ =>
      exact (canon_row_miss 7 inb7 p7 _ 6 (by omega) dd (by omega)).trans <|
        canon_row_hit 6 inb6 p6 _ 6 (by omega) dd rfl
  | ⟨7, _⟩ =>
      exact canon_row_hit 7 inb7 p7 _ 7 (by omega) dd rfl

/-- A row pool loaded whole after a copy landed in it whole reads the copy's payload, whatever it held before. -/
theorem pool_load {sig' : RefSig} {κ : Kind} {sp : Space} (v : View sig' κ sp S10000 .f32) (w : Vec Ideal S10000 .f32)
    (L : List (View.Piece (Elt Ideal) S10000 .f32)) (inb : ∀ a, (![0] : Fin 1 → Nat) a + S10000.size a ≤ S10000.size a) :
    v.readCov (Val := Elt Ideal) ((⟨Rect.whole S10000, w⟩ : View.Piece (Elt Ideal) S10000 .f32) :: L)
      (Rect.unit (s := S10000) ![0] S10000.size inb).toLoadRect = w := by
  rw [View.readCov_eq_canon']
  funext j
  have hj : (Rect.unit (s := S10000) ![0] S10000.size inb).toLoadRect.idx j = (Rect.whole S10000).emb j := by
    funext a; apply Fin.ext
    match a with
    | ⟨0, _⟩ => show 0 + 1 * (j 0).val = 0 + 1 * (j 0).val; rfl
  exact (congrArg (View.canon ((⟨Rect.whole S10000, w⟩ : View.Piece (Elt Ideal) S10000 .f32) :: L)) hj).trans
    (View.canon_cons_emb (Rect.whole S10000) w L j)

/-- One row of an N-row level table, sliced out at row r and read as a vector of lanes: lane d is the table at (r, d). -/
theorem rowcopy_apply {N : Nat} (M : Memref sig .tc .hbm (⟨2, ![N, 10000]⟩ : Shape) .f32)
    (f : M.view.ty.Contents (Elt Ideal)) (off : Fin 2 → Nat)
    (inb : ∀ a, off a + S1x10000.size a ≤ (⟨2, ![N, 10000]⟩ : Shape).size a)
    (hs : ∀ a, (Rect.unit (s := (⟨2, ![N, 10000]⟩ : Shape)) off S1x10000.size inb).stride a = 1)
    (sq : (Rect.unit (s := (⟨2, ![N, 10000]⟩ : Shape)) off S1x10000.size inb).shape.Squeezes S10000)
    (r : Nat) (hr : r < N) (hoff : off = ![r, 0]) (dd : Fin 10000) :
    ((M.slice (Rect.unit (s := (⟨2, ![N, 10000]⟩ : Shape)) off S1x10000.size inb) hs).squeeze S10000 sq).view.read (Elt Ideal) f (ix1 dd)
      = M.view.read (Elt Ideal) f (ix2 ⟨r, hr⟩ dd) := by
  subst hoff
  have e1 : Shape.reshapeEquiv sq.numel_eq (ix1 dd) = (ix2 (0 : Fin 1) dd : (Rect.unit (s := (⟨2, ![N, 10000]⟩ : Shape)) ![r, 0] S1x10000.size inb).shape.Idx) :=
    Shape.reshapeEquiv_eq_of_rowMajor sq.numel_eq (by
      rw [Shape.rowMajor_val_two, Shape.rowMajor_val_one]
      show 0 * 10000 + dd.val = dd.val
      omega)
  have e2 : (Rect.unit (s := (⟨2, ![N, 10000]⟩ : Shape)) ![r, 0] S1x10000.size inb).emb (ix2 (0 : Fin 1) dd) = ix2 ⟨r, hr⟩ dd := by
    funext a; apply Fin.ext
    match a with
    | ⟨0, _⟩ => show r + 1 * 0 = r; omega
    | ⟨1, _⟩ => show 0 + 1 * dd.val = dd.val; omega
  show M.view.read (Elt Ideal) f ((Rect.unit (s := (⟨2, ![N, 10000]⟩ : Shape)) ![r, 0] S1x10000.size inb).emb (Shape.reshapeEquiv sq.numel_eq (ix1 dd))) = _
  rw [e1, e2]

/-- The word a scalar read of the 64 x 30 index table returns at offsets (row, channel): the table's entry there. -/
theorem word2_apply (M : Memref sig .tc .smem S64x30 .i32) (f : M.view.ty.Contents (Elt Ideal)) (off : Fin 2 → Nat)
    (inb : ∀ a, off a + S1x1.size a ≤ S64x30.size a) (x : (Rect.unit (s := S64x30) off S1x1.size inb).shape.Idx)
    (r k : Nat) (hr : r < 64) (hk : k < 30) (hoff : off = ![r, k]) :
    View.readAt (Elt Ideal) M.view (Rect.unit (s := S64x30) off S1x1.size inb).toLoadRect f x = M.view.read (Elt Ideal) f (ix2 ⟨r, hr⟩ ⟨k, hk⟩) := by
  subst hoff
  have e2 : (Rect.unit (s := S64x30) ![r, k] S1x1.size inb).emb x = ix2 ⟨r, hr⟩ ⟨k, hk⟩ := by
    funext a; apply Fin.ext
    match a with
    | ⟨0, _⟩ => show r + 1 * (x 0).val = r; have := (x 0).isLt; (have h1 : (x 0).val < 1 := this); omega
    | ⟨1, _⟩ => show k + 1 * (x 1).val = k; have := (x 1).isLt; (have h1 : (x 1).val < 1 := this); omega
  show M.view.read (Elt Ideal) f ((Rect.unit (s := S64x30) ![r, k] S1x1.size inb).emb x) = _
  rw [e2]

/-- The same for the 64-word heart-rate index table. -/
theorem word1_apply (M : Memref sig .tc .smem S64 .i32) (f : M.view.ty.Contents (Elt Ideal)) (off : Fin 1 → Nat)
    (inb : ∀ a, off a + S1.size a ≤ S64.size a) (x : (Rect.unit (s := S64) off S1.size inb).shape.Idx)
    (r : Nat) (hr : r < 64) (hoff : off = ![r]) :
    View.readAt (Elt Ideal) M.view (Rect.unit (s := S64) off S1.size inb).toLoadRect f x = M.view.read (Elt Ideal) f (ix1 ⟨r, hr⟩) := by
  subst hoff
  have e2 : (Rect.unit (s := S64) ![r] S1.size inb).emb x = ix1 ⟨r, hr⟩ := by
    funext a; apply Fin.ext
    match a with
    | ⟨0, _⟩ => show r + 1 * (x 0).val = r; have := (x 0).isLt; (have h1 : (x 0).val < 1 := this); omega
  show M.view.read (Elt Ideal) f ((Rect.unit (s := S64) ![r] S1.size inb).emb x) = _
  rw [e2]

/-- A table read at the row two equal words name. -/
theorem table_congr {N : Nat} (T : (⟨2, ![N, 10000]⟩ : Shape).Idx → EReal) (w w' : BitVec 32) (h : w = w')
    (hw : w.toNat < N) (hw' : w'.toNat < N) (dd : Fin 10000) : T (ix2 ⟨w.toNat, hw⟩ dd) = T (ix2 ⟨w'.toNat, hw'⟩ dd) := by
  subst h; rfl

/-- A row store's value at its one row: the row pool's newest copy, which is the level table's row the index word names. -/
theorem leaf_motion (c : Dev nD) (fh0 : HbBuf0 (F := Ideal) c hbM0_0)
    {sig' : RefSig} {κ : Kind} {sp : Space} (v : View sig' κ sp S10000 .f32)
    (off : Fin 2 → Nat) (inb : ∀ a, off a + S1x10000.size a ≤ S3000x10000.size a)
    (hs : ∀ a, (Rect.unit (s := S3000x10000) off S1x10000.size inb).stride a = 1)
    (sq : (Rect.unit (s := S3000x10000) off S1x10000.size inb).shape.Squeezes S10000)
    (L : List (View.Piece (Elt Ideal) S10000 .f32)) (inbP : ∀ a, (![0] : Fin 1 → Nat) a + S10000.size a ≤ S10000.size a)
    (hc : S10000.ShapeCasts S1x10000) (n : Nat) (hn : n < 3000) (hoff : off = ![n, 0]) (dd : Fin 10000) :
    shapeCast S1x10000 (v.readCov (Val := Elt Ideal)
        ((⟨Rect.whole S10000, ReadAs.same.apply (View.read (Elt Ideal) ((hbM0_0.slice (Rect.unit (s := S3000x10000) off S1x10000.size inb) hs).squeeze S10000 sq).view fh0)⟩
          : View.Piece (Elt Ideal) S10000 .f32) :: L) (Rect.unit (s := S10000) ![0] S10000.size inbP).toLoadRect) hc (ix2 (0 : Fin 1) dd)
      = hbM0_0.view.read (Elt Ideal) fh0 (ix2 ⟨n, hn⟩ dd) := by
  refine (shapeCast_a_1a_apply _ hc (0 : Fin 1) dd).trans ?_
  refine (congrFun (pool_load _ _ _ _) (ix1 dd)).trans ?_
  exact rowcopy_apply (N := 3000) hbM0_0 fh0 off inb hs sq n hn hoff dd

/-- The same for the heart-rate channel's row store, out of the 200-row table. -/
theorem leaf_heart (c : Dev nD) (fh1 : HbBuf0 (F := Ideal) c hbM0_1)
    {sig' : RefSig} {κ : Kind} {sp : Space} (v : View sig' κ sp S10000 .f32)
    (off : Fin 2 → Nat) (inb : ∀ a, off a + S1x10000.size a ≤ S200x10000.size a)
    (hs : ∀ a, (Rect.unit (s := S200x10000) off S1x10000.size inb).stride a = 1)
    (sq : (Rect.unit (s := S200x10000) off S1x10000.size inb).shape.Squeezes S10000)
    (L : List (View.Piece (Elt Ideal) S10000 .f32)) (inbP : ∀ a, (![0] : Fin 1 → Nat) a + S10000.size a ≤ S10000.size a)
    (hc : S10000.ShapeCasts S1x10000) (n : Nat) (hn : n < 200) (hoff : off = ![n, 0]) (dd : Fin 10000) :
    shapeCast S1x10000 (v.readCov (Val := Elt Ideal)
        ((⟨Rect.whole S10000, ReadAs.same.apply (View.read (Elt Ideal) ((hbM0_1.slice (Rect.unit (s := S200x10000) off S1x10000.size inb) hs).squeeze S10000 sq).view fh1)⟩
          : View.Piece (Elt Ideal) S10000 .f32) :: L) (Rect.unit (s := S10000) ![0] S10000.size inbP).toLoadRect) hc (ix2 (0 : Fin 1) dd)
      = hbM0_1.view.read (Elt Ideal) fh1 (ix2 ⟨n, hn⟩ dd) := by
  refine (shapeCast_a_1a_apply _ hc (0 : Fin 1) dd).trans ?_
  refine (congrFun (pool_load _ _ _ _) (ix1 dd)).trans ?_
  exact rowcopy_apply (N := 200) hbM0_1 fh1 off inb hs sq n hn hoff dd

set_option hygiene false in
/-- One motion row store at its row: pick the row's store out of the eight, then open the store's value, the pool's load,
    the copy's payload and the index word in turn. -/
macro "motion_leaf" r:num k:num : tactic => `(tactic| (
  simp only [Matrix.cons_val_succ', Matrix.cons_val_zero']
  open_value
  open_value
  open_value
  refine (leaf_motion _ _ _ _ _ _ _ _ _ _ _ (hT0 _) rfl dd).trans ?_
  refine table_congr _ _ _ ?_ _ _ dd
  open_value
  exact word2_apply tbM0_0 xt0 _ _ _ (8 * (i 0).val + $r) $k (by omega) (by omega) (Cert.Hdc.row_off2 (i 0).val $r $k hi (by omega))))

set_option hygiene false in
/-- One heart-rate row store at its row, likewise. -/
macro "heart_leaf" r:num : tactic => `(tactic| (
  simp only [Matrix.cons_val_succ', Matrix.cons_val_zero']
  open_value
  open_value
  open_value
  refine (leaf_heart _ _ _ _ _ _ _ _ _ _ _ (hT1 _) rfl dd).trans ?_
  refine table_congr _ _ _ ?_ _ _ dd
  open_value
  exact word1_apply tbM0_1 xt1 _ _ _ (8 * (i 0).val + $r) (by omega) (Cert.Hdc.row_off1 (i 0).val $r hi (by omega))))

set_option hygiene false in
/-- A motion channel's collector read back at (lb, dd): the lb-th of its eight row stores, at its row. -/
macro "motion_collector" k:num : tactic => `(tactic| (
  open_value
  open_store_lists
  refine (collector_apply _ _ _ _ _ _ _ _ _ _ _ _ _ _ _ _ _ _ lb dd).trans ?_
  match lb with
  | ⟨0, _⟩ => motion_leaf 0 $k
  | ⟨1, _⟩ => motion_leaf 1 $k
  | ⟨2, _⟩ => motion_leaf 2 $k
  | ⟨3, _⟩ => motion_leaf 3 $k
  | ⟨4, _⟩ => motion_leaf 4 $k
  | ⟨5, _⟩ => motion_leaf 5 $k
  | ⟨6, _⟩ => motion_leaf 6 $k
  | ⟨7, _⟩ => motion_leaf 7 $k))

set_option hygiene false in
/-- The heart-rate channel's collector, likewise. -/
macro "heart_collector" : tactic => `(tactic| (
  open_value
  open_store_lists
  refine (collector_apply _ _ _ _ _ _ _ _ _ _ _ _ _ _ _ _ _ _ lb dd).trans ?_
  match lb with
  | ⟨0, _⟩ => heart_leaf 0
  | ⟨1, _⟩ => heart_leaf 1
  | ⟨2, _⟩ => heart_leaf 2
  | ⟨3, _⟩ => heart_leaf 3
  | ⟨4, _⟩ => heart_leaf 4
  | ⟨5, _⟩ => heart_leaf 5
  | ⟨6, _⟩ => heart_leaf 6
  | ⟨7, _⟩ => heart_leaf 7))

end Cert.KernelIdeal.Fr

end
-- ==== Proof.KIBlockA.lean ====
/- What the symbolic run of the kernel body leaves in the output block, part A: the collectors of channels 0 to 7
   (of the 31, numbered from 0). A collector read back whole at (lb, dd) is the level table's row that the index
   word of sample 8 i + lb for the collector's channel names, at lane dd. -/
import proofs.«428504_j90692529422509_4_alg».proof.Proof.KIBlock0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem coll_0 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3488 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨0, by omega⟩) : BitVec 32).toNat, hT0 _⟩ dd) := by
  motion_collector 0

theorem coll_1 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3489 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨1, by omega⟩) : BitVec 32).toNat, hT0 _⟩ dd) := by
  motion_collector 1

theorem coll_2 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3490 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨2, by omega⟩) : BitVec 32).toNat, hT0 _⟩ dd) := by
  motion_collector 2

theorem coll_3 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3491 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨3, by omega⟩) : BitVec 32).toNat, hT0 _⟩ dd) := by
  motion_collector 3

theorem coll_4 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3492 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨4, by omega⟩) : BitVec 32).toNat, hT0 _⟩ dd) := by
  motion_collector 4

theorem coll_5 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3493 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨5, by omega⟩) : BitVec 32).toNat, hT0 _⟩ dd) := by
  motion_collector 5

theorem coll_6 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3494 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨6, by omega⟩) : BitVec 32).toNat, hT0 _⟩ dd) := by
  motion_collector 6

theorem coll_7 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3495 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨7, by omega⟩) : BitVec 32).toNat, hT0 _⟩ dd) := by
  motion_collector 7

end Cert.KernelIdeal.Fr

end
-- ==== Proof.KIBlockB.lean ====
/- What the symbolic run of the kernel body leaves in the output block, part B: the collectors of channels 8 to 15
   (of the 31, numbered from 0). A collector read back whole at (lb, dd) is the level table's row that the index
   word of sample 8 i + lb for the collector's channel names, at lane dd. -/
import proofs.«428504_j90692529422509_4_alg».proof.Proof.KIBlock0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem coll_8 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3496 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨8, by omega⟩) : BitVec 32).toNat, hT0 _⟩ dd) := by
  motion_collector 8

theorem coll_9 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3497 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨9, by omega⟩) : BitVec 32).toNat, hT0 _⟩ dd) := by
  motion_collector 9

theorem coll_10 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3498 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨10, by omega⟩) : BitVec 32).toNat, hT0 _⟩ dd) := by
  motion_collector 10

theorem coll_11 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3499 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨11, by omega⟩) : BitVec 32).toNat, hT0 _⟩ dd) := by
  motion_collector 11

theorem coll_12 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3500 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨12, by omega⟩) : BitVec 32).toNat, hT0 _⟩ dd) := by
  motion_collector 12

theorem coll_13 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3501 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨13, by omega⟩) : BitVec 32).toNat, hT0 _⟩ dd) := by
  motion_collector 13

theorem coll_14 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3502 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨14, by omega⟩) : BitVec 32).toNat, hT0 _⟩ dd) := by
  motion_collector 14

theorem coll_15 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3503 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨15, by omega⟩) : BitVec 32).toNat, hT0 _⟩ dd) := by
  motion_collector 15

end Cert.KernelIdeal.Fr

end
-- ==== Proof.KIBlockC.lean ====
/- What the symbolic run of the kernel body leaves in the output block, part C: the collectors of channels 16 to 23
   (of the 31, numbered from 0). A collector read back whole at (lb, dd) is the level table's row that the index
   word of sample 8 i + lb for the collector's channel names, at lane dd. -/
import proofs.«428504_j90692529422509_4_alg».proof.Proof.KIBlock0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem coll_16 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3504 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨16, by omega⟩) : BitVec 32).toNat, hT0 _⟩ dd) := by
  motion_collector 16

theorem coll_17 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3505 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨17, by omega⟩) : BitVec 32).toNat, hT0 _⟩ dd) := by
  motion_collector 17

theorem coll_18 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3506 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨18, by omega⟩) : BitVec 32).toNat, hT0 _⟩ dd) := by
  motion_collector 18

theorem coll_19 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3507 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨19, by omega⟩) : BitVec 32).toNat, hT0 _⟩ dd) := by
  motion_collector 19

theorem coll_20 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3508 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨20, by omega⟩) : BitVec 32).toNat, hT0 _⟩ dd) := by
  motion_collector 20

theorem coll_21 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3509 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨21, by omega⟩) : BitVec 32).toNat, hT0 _⟩ dd) := by
  motion_collector 21

theorem coll_22 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3510 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨22, by omega⟩) : BitVec 32).toNat, hT0 _⟩ dd) := by
  motion_collector 22

theorem coll_23 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3511 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨23, by omega⟩) : BitVec 32).toNat, hT0 _⟩ dd) := by
  motion_collector 23

end Cert.KernelIdeal.Fr

end
-- ==== Proof.KIBlockD.lean ====
/- What the symbolic run of the kernel body leaves in the output block, part D: the collectors of channels 24 to 30
   (of the 31, numbered from 0; the last is the heart-rate channel's). A collector read back whole at (lb, dd) is the level table's row that the index
   word of sample 8 i + lb for the collector's channel names, at lane dd. -/
import proofs.«428504_j90692529422509_4_alg».proof.Proof.KIBlock0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem coll_24 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3512 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨24, by omega⟩) : BitVec 32).toNat, hT0 _⟩ dd) := by
  motion_collector 24

theorem coll_25 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3513 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨25, by omega⟩) : BitVec 32).toNat, hT0 _⟩ dd) := by
  motion_collector 25

theorem coll_26 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3514 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨26, by omega⟩) : BitVec 32).toNat, hT0 _⟩ dd) := by
  motion_collector 26

theorem coll_27 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3515 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨27, by omega⟩) : BitVec 32).toNat, hT0 _⟩ dd) := by
  motion_collector 27

theorem coll_28 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3516 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨28, by omega⟩) : BitVec 32).toNat, hT0 _⟩ dd) := by
  motion_collector 28

theorem coll_29 (c : Dev nD) (i : grid0.Coords) (xt0 : TbBuf0 (F := Ideal) c tbM0_0) (fh0 : HbBuf0 (F := Ideal) c hbM0_0)
    (hT0 : ∀ y : S64x30.Idx, (tbM0_0.view.read (Elt Ideal) xt0 y : BitVec 32).toNat < 3000)
    (hi : (i 0).val < 8) (lb : Fin 8) (dd : Fin 10000) :
    kernelRun0.sl.v3517 (F := Ideal) c i xt0 fh0 hT0 (ix2 lb dd)
      = hbM0_0.view.read (Elt Ideal) fh0
          (ix2 ⟨(tbM0_0.view.read (Elt Ideal) xt0 (ix2 ⟨8 * (i 0).val + lb.val, by omega⟩ ⟨29, by omega⟩) : BitVec 32).toNat, hT0 _⟩ dd) := by
  motion_collector 29

theorem coll_30 (c : Dev nD) (i : grid0.Coords) (xt1 : TbBuf0 (F := Ideal) c tbM0_1) (fh1 : HbBuf0 (F := Ideal) c hbM0_1)
    (hT1 : ∀ y : S64.Idx, (tbM0_1.view.read (Elt Ideal) xt1 y : BitVec 32).toNat < 200)
    (hi : (i 0).val < 8) (lb : Fin 8) (dd : Fin 10000) :
    kernelRun0.sl.v3518 (F := Ideal) c i xt1 fh1 hT1 (ix2 lb dd)
      = hbM0_1.view.read (Elt Ideal) fh1
          (ix2 ⟨(tbM0_1.view.read (Elt Ideal) xt1 (ix1 ⟨8 * (i 0).val + lb.val, by omega⟩) : BitVec 32).toNat, hT1 _⟩ dd) := by
  heart_collector

end Cert.KernelIdeal.Fr

end
-- ==== Proof.KIBlock.lean ====
/- What the symbolic run of the kernel body leaves in the output block: at (lb, d) the hypervector of sample 8 i + lb at
   lane d. The run's one store covers the block, so the block read back is the store's value; that value is the sign of
   the keys-bound sum of 7-grams over the stack of the 31 collectors; and the stack at (lb, cc, dd) is the level table's
   row that the sample's index word for channel cc names (parts A to D, one collector at a time). -/
import proofs.«428504_j90692529422509_4_alg».proof.Proof.KIBlockA
import proofs.«428504_j90692529422509_4_alg».proof.Proof.KIBlockB
import proofs.«428504_j90692529422509_4_alg».proof.Proof.KIBlockC
import proofs.«428504_j90692529422509_4_alg».proof.Proof.KIBlockD

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- A coordinate of the grid's one axis, of extent 8, is below 8. -/
theorem coord_lt (i : grid0.Coords) : (i 0).val < 8 := (i 0).isLt

/-- The sample row 8 i + lb of a block is one of the 64 rows. -/
theorem row_lt (i : grid0.Coords) (lb : Fin 8) : 8 * (i 0).val + lb.val < 64 := by
  have h1 := coord_lt i
  have h2 := lb.isLt
  omega

set_option maxHeartbeats 4000000 in
/-- The stack of the 31 collectors at (lb, cc, dd): the level table's row that sample 8 i + lb's index word for channel cc
    names — the motion table for the first 30 channels, the heart-rate table for the last. -/
theorem rows_apply (c : Dev nD) (i : grid0.Coords) (xt0 : TbBuf0 (F := Ideal) c tbM0_0) (xt1 : TbBuf0 (F := Ideal) c tbM0_1)
    (fh0 : HbBuf0 (F := Ideal) c hbM0_0) (fh1 : HbBuf0 (F := Ideal) c hbM0_1)
    (hT0 : ∀ y : S64x30.Idx, (tbM0_0.view.read (Elt Ideal) xt0 y : BitVec 32).toNat < 3000)
    (hT1 : ∀ y : S64.Idx, (tbM0_1.view.read (Elt Ideal) xt1 y : BitVec 32).toNat < 200)
    (hi : (i 0).val < 8) (lb : Fin 8) (cc : Fin 31) (dd : Fin 10000) :
    kernelRun0.sl.r_249 (F := Ideal) c i xt0 xt1 fh0 fh1 hT0 hT1 (ix3 lb cc dd)
      = if h : cc.val < 30
        then hbM0_0.view.read (Elt Ideal) fh0
          (ix2 ⟨(tbM0_0.view.read (Elt Ideal) xt0 (ix2 ⟨8 * (i 0).val + lb.val, by omega⟩ ⟨cc.val, h⟩) : BitVec 32).toNat, hT0 _⟩ dd)
        else hbM0_1.view.read (Elt Ideal) fh1
          (ix2 ⟨(tbM0_1.view.read (Elt Ideal) xt1 (ix1 ⟨8 * (i 0).val + lb.val, by omega⟩) : BitVec 32).toNat, hT1 _⟩ dd) := by
  unfold kernelRun0.sl.r_249
  refine (stack31_apply _ _ _ _ _ _ _ _ _ _ _ _ _ _ _ _ _ _ _ _ _ _ _ _ _ _ _ _ _ _ _ lb cc dd).trans ?_
  match cc with
  | ⟨0, _⟩ =>
    refine Eq.trans ?_ (dif_pos (show (0 : Nat) < 30 by omega)).symm
    refine Eq.trans ?_ (coll_0 c i xt0 fh0 hT0 hi lb dd)
    simp only [Matrix.cons_val_succ', Matrix.cons_val_zero']
  | ⟨1, _⟩ =>
    refine Eq.trans ?_ (dif_pos (show (1 : Nat) < 30 by omega)).symm
    refine Eq.trans ?_ (coll_1 c i xt0 fh0 hT0 hi lb dd)
    simp only [Matrix.cons_val_succ', Matrix.cons_val_zero']
  | ⟨2, _⟩ =>
    refine Eq.trans ?_ (dif_pos (show (2 : Nat) < 30 by omega)).symm
    refine Eq.trans ?_ (coll_2 c i xt0 fh0 hT0 hi lb dd)
    simp only [Matrix.cons_val_succ', Matrix.cons_val_zero']
  | ⟨3, _⟩ =>
    refine Eq.trans ?_ (dif_pos (show (3 : Nat) < 30 by omega)).symm
    refine Eq.trans ?_ (coll_3 c i xt0 fh0 hT0 hi lb dd)
    simp only [Matrix.cons_val_succ', Matrix.cons_val_zero']
  | ⟨4, _⟩ =>
    refine Eq.trans ?_ (dif_pos (show (4 : Nat) < 30 by omega)).symm
    refine Eq.trans ?_ (coll_4 c i xt0 fh0 hT0 hi lb dd)
    simp only [Matrix.cons_val_succ', Matrix.cons_val_zero']
  | ⟨5, _⟩ =>
    refine Eq.trans ?_ (dif_pos (show (5 : Nat) < 30 by omega)).symm
    refine Eq.trans ?_ (coll_5 c i xt0 fh0 hT0 hi lb dd)
    simp only [Matrix.cons_val_succ', Matrix.cons_val_zero']
  | ⟨6, _⟩ =>
    refine Eq.trans ?_ (dif_pos (show (6 : Nat) < 30 by omega)).symm
    refine Eq.trans ?_ (coll_6 c i xt0 fh0 hT0 hi lb dd)
    simp only [Matrix.cons_val_succ', Matrix.cons_val_zero']
  | ⟨7, _⟩ =>
    refine Eq.trans ?_ (dif_pos (show (7 : Nat) < 30 by omega)).symm
    refine Eq.trans ?_ (coll_7 c i xt0 fh0 hT0 hi lb dd)
    simp only [Matrix.cons_val_succ', Matrix.cons_val_zero']
  | ⟨8, _⟩ =>
    refine Eq.trans ?_ (dif_pos (show (8 : Nat) < 30 by omega)).symm
    refine Eq.trans ?_ (coll_8 c i xt0 fh0 hT0 hi lb dd)
    simp only [Matrix.cons_val_succ', Matrix.cons_val_zero']
  | ⟨9, _⟩ =>
    refine Eq.trans ?_ (dif_pos (show (9 : Nat) < 30 by omega)).symm
    refine Eq.trans ?_ (coll_9 c i xt0 fh0 hT0 hi lb dd)
    simp only [Matrix.cons_val_succ', Matrix.cons_val_zero']
  | ⟨10, _⟩ =>
    refine Eq.trans ?_ (dif_pos (show (10 : Nat) < 30 by omega)).symm
    refine Eq.trans ?_ (coll_10 c i xt0 fh0 hT0 hi lb dd)
    simp only [Matrix.cons_val_succ', Matrix.cons_val_zero']
  | ⟨11, _⟩ =>
    refine Eq.trans ?_ (dif_pos (show (11 : Nat) < 30 by omega)).symm
    refine Eq.trans ?_ (coll_11 c i xt0 fh0 hT0 hi lb dd)
    simp only [Matrix.cons_val_succ', Matrix.cons_val_zero']
  | ⟨12, _⟩ =>
    refine Eq.trans ?_ (dif_pos (show (12 : Nat) < 30 by omega)).symm
    refine Eq.trans ?_ (coll_12 c i xt0 fh0 hT0 hi lb dd)
    simp only [Matrix.cons_val_succ', Matrix.cons_val_zero']
  | ⟨13, _⟩ =>
    refine Eq.trans ?_ (dif_pos (show (13 : Nat) < 30 by omega)).symm
    refine Eq.trans ?_ (coll_13 c i xt0 fh0 hT0 hi lb dd)
    simp only [Matrix.cons_val_succ', Matrix.cons_val_zero']
  | ⟨14, _⟩ =>
    refine Eq.trans ?_ (dif_pos (show (14 : Nat) < 30 by omega)).symm
    refine Eq.trans ?_ (coll_14 c i xt0 fh0 hT0 hi lb dd)
    simp only [Matrix.cons_val_succ', Matrix.cons_val_zero']
  | ⟨15, _⟩ =>
    refine Eq.trans ?_ (dif_pos (show (15 : Nat) < 30 by omega)).symm
    refine Eq.trans ?_ (coll_15 c i xt0 fh0 hT0 hi lb dd)
    simp only [Matrix.cons_val_succ', Matrix.cons_val_zero']
  | ⟨16, _⟩ =>
    refine Eq.trans ?_ (dif_pos (show (16 : Nat) < 30 by omega)).symm
    refine Eq.trans ?_ (coll_16 c i xt0 fh0 hT0 hi lb dd)
    simp only [Matrix.cons_val_succ', Matrix.cons_val_zero']
  | ⟨17, _⟩ =>
    refine Eq.trans ?_ (dif_pos (show (17 : Nat) < 30 by omega)).symm
    refine Eq.trans ?_ (coll_17 c i xt0 fh0 hT0 hi lb dd)
    simp only [Matrix.cons_val_succ', Matrix.cons_val_zero']
  | ⟨18, _⟩ =>
    refine Eq.trans ?_ (dif_pos (show (18 : Nat) < 30 by omega)).symm
    refine Eq.trans ?_ (coll_18 c i xt0 fh0 hT0 hi lb dd)
    simp only [Matrix.cons_val_succ', Matrix.cons_val_zero']
  | ⟨19, _⟩ =>
    refine Eq.trans ?_ (dif_pos (show (19 : Nat) < 30 by omega)).symm
    refine Eq.trans ?_ (coll_19 c i xt0 fh0 hT0 hi lb dd)
    simp only [Matrix.cons_val_succ', Matrix.cons_val_zero']
  | ⟨20, _⟩ =>
    refine Eq.trans ?_ (dif_pos (show (20 : Nat) < 30 by omega)).symm
    refine Eq.trans ?_ (coll_20 c i xt0 fh0 hT0 hi lb dd)
    simp only [Matrix.cons_val_succ', Matrix.cons_val_zero']
  | ⟨21, _⟩ =>
    refine Eq.trans ?_ (dif_pos (show (21 : Nat) < 30 by omega)).symm
    refine Eq.trans ?_ (coll_21 c i xt0 fh0 hT0 hi lb dd)
    simp only [Matrix.cons_val_succ', Matrix.cons_val_zero']
  | ⟨22, _⟩ =>
    refine Eq.trans ?_ (dif_pos (show (22 : Nat) < 30 by omega)).symm
    refine Eq.trans ?_ (coll_22 c i xt0 fh0 hT0 hi lb dd)
    simp only [Matrix.cons_val_succ', Matrix.cons_val_zero']
  | ⟨23, _⟩ =>
    refine Eq.trans ?_ (dif_pos (show (23 : Nat) < 30 by omega)).symm
    refine Eq.trans ?_ (coll_23 c i xt0 fh0 hT0 hi lb dd)
    simp only [Matrix.cons_val_succ', Matrix.cons_val_zero']
  | ⟨24, _⟩ =>
    refine Eq.trans ?_ (dif_pos (show (24 : Nat) < 30 by omega)).symm
    refine Eq.trans ?_ (coll_24 c i xt0 fh0 hT0 hi lb dd)
    simp only [Matrix.cons_val_succ', Matrix.cons_val_zero']
  | ⟨25, _⟩ =>
    refine Eq.trans ?_ (dif_pos (show (25 : Nat) < 30 by omega)).symm
    refine Eq.trans ?_ (coll_25 c i xt0 fh0 hT0 hi lb dd)
    simp only [Matrix.cons_val_succ', Matrix.cons_val_zero']
  | ⟨26, _⟩ =>
    refine Eq.trans ?_ (dif_pos (show (26 : Nat) < 30 by omega)).symm
    refine Eq.trans ?_ (coll_26 c i xt0 fh0 hT0 hi lb dd)
    simp only [Matrix.cons_val_succ', Matrix.cons_val_zero']
  | ⟨27, _⟩ =>
    refine Eq.trans ?_ (dif_pos (show (27 : Nat) < 30 by omega)).symm
    refine Eq.trans ?_ (coll_27 c i xt0 fh0 hT0 hi lb dd)
    simp only [Matrix.cons_val_succ', Matrix.cons_val_zero']
  | ⟨28, _⟩ =>
    refine Eq.trans ?_ (dif_pos (show (28 : Nat) < 30 by omega)).symm
    refine Eq.trans ?_ (coll_28 c i xt0 fh0 hT0 hi lb dd)
    simp only [Matrix.cons_val_succ', Matrix.cons_val_zero']
  | ⟨29, _⟩ =>
    refine Eq.trans ?_ (dif_pos (show (29 : Nat) < 30 by omega)).symm
    refine Eq.trans ?_ (coll_29 c i xt0 fh0 hT0 hi lb dd)
    simp only [Matrix.cons_val_succ', Matrix.cons_val_zero']
  | ⟨30, _⟩ =>
    refine Eq.trans ?_ (dif_neg (show ¬ (30 : Nat) < 30 by omega)).symm
    refine Eq.trans ?_ (coll_30 c i xt1 fh1 hT1 hi lb dd)
    simp only [Matrix.cons_val_succ', Matrix.cons_val_zero']
  | ⟨n + 31, hn⟩ => exact absurd hn (by omega)

/-- The run's witness: one store of the whole output block, its value the sign of the bound sum over the stack of collectors,
    the keys and the three rotated views of the stack. -/
theorem run_pieces (c : Dev nD) (i : grid0.Coords)
    (arg5 : Memref sig .tc .vmem S25x10000 .f32) (harg5 : arg5.IsWhole) (arg6 : Memref sig .tc .vmem S8x10000 .f32) (harg6 : arg6.IsWhole)
    (x0 : Vec Ideal S25x10000 .f32) (xt0 : TbBuf0 (F := Ideal) c tbM0_0) (xt1 : TbBuf0 (F := Ideal) c tbM0_1)
    (fh0 : HbBuf0 (F := Ideal) c hbM0_0) (fh1 : HbBuf0 (F := Ideal) c hbM0_1)
    (hT0 : ∀ y : S64x30.Idx, (tbM0_0.view.read (Elt Ideal) xt0 y : BitVec 32).toNat < 3000)
    (hT1 : ∀ y : S64.Idx, (tbM0_1.view.read (Elt Ideal) xt1 y : BitVec 32).toNat < 200) :
    (kernelRun0 (F := Ideal) c i arg5 harg5 arg6 harg6 x0 xt0 xt1 fh0 fh1 hT0 hT1).1
      = [⟨Rect.unit (s := S8x10000) ![0, 0] S8x10000.size inb_S8x10000_S8x10000_0_0,
          k0_pay1 (kernelRun0.sl.r_249 c i xt0 xt1 fh0 fh1 hT0 hT1) (kernelRun0.sl.r_250 c arg5 harg5 x0)
            (kernelRun0.sl.r_251 c i xt0 xt1 fh0 fh1 hT0 hT1) (kernelRun0.sl.r_252 c i xt0 xt1 fh0 fh1 hT0 hT1)
            (kernelRun0.sl.r_253 c i xt0 xt1 fh0 fh1 hT0 hT1)⟩] := rfl

/-- What the body leaves in the output block at (lb, d): the hypervector of sample 8 i + lb at lane d — the sign of the
    keys-bound sum of the 7-grams of the sample's 31 level-table rows. -/
theorem out0_1_apply (c : Dev nD) (i : grid0.Coords)
    (arg5 : Memref sig .tc .vmem S25x10000 .f32) (harg5 : arg5.IsWhole) (arg6 : Memref sig .tc .vmem S8x10000 .f32) (harg6 : arg6.IsWhole)
    (x0 : Vec Ideal S25x10000 .f32) (xt0 : TbBuf0 (F := Ideal) c tbM0_0) (xt1 : TbBuf0 (F := Ideal) c tbM0_1)
    (fh0 : HbBuf0 (F := Ideal) c hbM0_0) (fh1 : HbBuf0 (F := Ideal) c hbM0_1)
    (hT0 : ∀ y : S64x30.Idx, (tbM0_0.view.read (Elt Ideal) xt0 y : BitVec 32).toNat < 3000)
    (hT1 : ∀ y : S64.Idx, (tbM0_1.view.read (Elt Ideal) xt1 y : BitVec 32).toNat < 200) (lb : Fin 8) (d : Fin 10000) :
    out0_1 (F := Ideal) c i arg5 harg5 arg6 harg6 x0 xt0 xt1 fh0 fh1 hT0 hT1 (ValueIdx.ix2 lb d)
      = Cert.Hdc.hv (fun w dd => x0 (ValueIdx.ix2 w dd))
          (fun cc dd => if h : cc.val < 30
            then Cert.Hdc.rowOf (N := 3000) (by decide) (hbM0_0.view.read (Elt Ideal) fh0)
              (tbM0_0.view.read (Elt Ideal) xt0 (ValueIdx.ix2 (⟨8 * (i 0).val + lb.val, row_lt i lb⟩ : Fin 64) (⟨cc.val, h⟩ : Fin 30))) dd
            else Cert.Hdc.rowOf (N := 200) (by decide) (hbM0_1.view.read (Elt Ideal) fh1)
              (tbM0_1.view.read (Elt Ideal) xt1 (ValueIdx.ix1 (⟨8 * (i 0).val + lb.val, row_lt i lb⟩ : Fin 64))) dd) d := by
  have hz : (![0, 0] : Fin 2 → Nat) = fun _ => 0 := by
    funext a
    match a with
    | ⟨0, _⟩ => rfl
    | ⟨1, _⟩ => rfl
  unfold out0_1
  rw [View.read_writes_junk_eq_canon, run_pieces, View.canon_unit_zero hz]
  have e250 : kernelRun0.sl.r_250 (F := Ideal) c arg5 harg5 x0 = k0_pay251 x0 := by
    unfold kernelRun0.sl.r_250
    rw [View.readAt_eq_ld, harg5.read_unread, View.ld_unit_zero hz]
  rw [e250]
  refine (Cert.KernelIdeal.Pay.pay_apply (kernelRun0.sl.r_249 (F := Ideal) c i xt0 xt1 fh0 fh1 hT0 hT1) x0 lb d).trans ?_
  refine congrArg (fun R => Cert.Hdc.hv (fun w dd => x0 (ValueIdx.ix2 w dd)) R d) ?_
  funext cc dd
  rw [rows_apply c i xt0 xt1 fh0 fh1 hT0 hT1 (coord_lt i) lb cc dd]
  by_cases h : cc.val < 30
  · rw [dif_pos h, dif_pos h, Cert.Hdc.rowOf_of_lt _ _ _ (hT0 _) (by decide)]
  · rw [dif_neg h, dif_neg h, Cert.Hdc.rowOf_of_lt _ _ _ (hT1 _) (by decide)]

end Cert.KernelIdeal.Fr

end
-- ==== Proof.KICover.lean ====
/- The geometry of the kernel's output window: the result array of 64 x 10000 is written in 8 blocks of 8 rows,
   block t at rows 8t … 8t+7, one at each of the grid's 8 points, every point writing its block back; so every index
   of the array lies in exactly the block of point (row / 8). -/
import proofs.«428504_j90692529422509_4_alg».proof.Proof.KISetup
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The output window is written back at every point, at any contents of the tables (its index map reads none). -/
theorem flush1 (a : (pcfg0 (F := F)).Adm) : ∀ t : Fin (cfg0 a).N, ((cfg0 a).win 1).flush t = true :=
  (by decide +kernel : ∀ t : Fin grid0.N, Pipeline.Window.flushOf grid0 true cc0_transform_3 t = true)

/-- The grid has one axis: a point's coordinate is its number. -/
theorem coords_val (t : Fin grid0.N) : ((grid0.coords t) 0).val = t.val :=
  (by decide +kernel : ∀ t : Fin grid0.N, ((grid0.coords t) 0).val = t.val) t

/-- The output window's block index at point t is (t, 0), at any contents of the tables. -/
theorem index1 (a : (pcfg0 (F := F)).Adm) : ∀ t : Fin (cfg0 a).N,
    ((cfg0 a).win 1).index t (0 : Fin 2) = t.val ∧ ((cfg0 a).win 1).index t (1 : Fin 2) = 0 :=
  (by decide +kernel : ∀ t : Fin grid0.N,
    cc0_transform_3 (grid0.coords t) (0 : Fin 2) = t.val ∧ cc0_transform_3 (grid0.coords t) (1 : Fin 2) = 0)

/-- The grid has 8 points. -/
theorem N1 : (cfgM m).N = 8 := N_0

/-- WHERE BLOCK t LIES: element (j0, j1) of point t's block is element (8t + j0, j1) of the array (a block's coordinate
    is its index times the block's size plus the coordinate inside the block). -/
theorem blk1_emb (t : Fin (cfgM m).N) (j : S8x10000.Idx) :
    (((cfgM m).win 1).blk t).view.emb j
      = ValueIdx.ix2 (⟨8 * t.val + (j 0).val, by
          have ht : t.val < 8 := (N1 m) ▸ t.isLt
          have hj : (j 0).val < 8 := (j 0).isLt
          omega⟩ : Fin 64) (⟨(j 1).val, (j 1).isLt⟩ : Fin 10000) := by
  obtain ⟨e0, e1⟩ : ((cfgM m).win 1).index t (0 : Fin 2) = t.val ∧ ((cfgM m).win 1).index t (1 : Fin 2) = 0 :=
    index1 (adm m) t
  funext a; apply Fin.ext
  match a with
  | ⟨0, _⟩ =>
    show ((cfgM m).win 1).index t (0 : Fin 2) * 8 + 1 * (j 0).val = 8 * t.val + (j 0).val
    rw [e0]; omega
  | ⟨1, _⟩ =>
    show ((cfgM m).win 1).index t (1 : Fin 2) * 10000 + 1 * (j 1).val = (j 1).val
    rw [e1]; omega

set_option backward.isDefEq.respectTransparency.types false in
/-- An index of the array is in point t's block iff its row is one of the block's 8. -/
theorem mem_blk1 (t : Fin (cfgM m).N) (i : S64x10000.Idx) :
    i ∈ (((cfgM m).win 1).blk t).view.set ↔ 8 * t.val ≤ (i 0).val ∧ (i 0).val < 8 * t.val + 8 := by
  obtain ⟨e0, e1⟩ : ((cfgM m).win 1).index t (0 : Fin 2) = t.val ∧ ((cfgM m).win 1).index t (1 : Fin 2) = 0 :=
    index1 (adm m) t
  show i ∈ ((View.whole main_v25).slice (((cfgM m).win 1).rect t)).set ↔ _
  rw [View.set_slice_whole]
  refine Rect.mem_set_unit.trans ?_
  constructor
  · intro h
    have h0 : ((cfgM m).win 1).index t (0 : Fin 2) * 8 ≤ (i 0).val
        ∧ (i 0).val < ((cfgM m).win 1).index t (0 : Fin 2) * 8 + 8 := h 0
    rw [e0] at h0; omega
  · intro h a
    match a with
    | ⟨0, _⟩ =>
      show ((cfgM m).win 1).index t (0 : Fin 2) * 8 ≤ (i 0).val
        ∧ (i 0).val < ((cfgM m).win 1).index t (0 : Fin 2) * 8 + 8
      rw [e0]; omega
    | ⟨1, _⟩ =>
      show ((cfgM m).win 1).index t (1 : Fin 2) * 10000 ≤ (i 1).val
        ∧ (i 1).val < ((cfgM m).win 1).index t (1 : Fin 2) * 10000 + 10000
      rw [e1, Nat.zero_mul, Nat.zero_add]
      exact ⟨Nat.zero_le _, (i 1).isLt⟩

/-- EVERY INDEX IS COVERED: index i of the array lies in the block of point (row / 8), which writes it back. -/
theorem cover1 (i : S64x10000.Idx) :
    ∃ t : Fin (cfgM m).N, ((cfgM m).win 1).flush t = true ∧ i ∈ (((cfgM m).win 1).blk t).view.set := by
  have hi : (i 0).val < 64 := (i 0).isLt
  refine ⟨⟨(i 0).val / 8, by rw [N1 m]; omega⟩, flush1 (adm m) _, ?_⟩
  rw [mem_blk1]
  show 8 * ((i 0).val / 8) ≤ (i 0).val ∧ (i 0).val < 8 * ((i 0).val / 8) + 8
  omega

end Cert.KernelIdeal.Fr

end
-- ==== Proof.KIValue.lean ====
/- The value of KernelIdeal's result: after the run the result array is the specification G of the four arguments.
   At grid point t the body leaves in the output block, at (lb, d), the hypervector of sample 8t + lb at lane d: its
   keys are the keys window's block, the first 25 rows of the keys; its rows are the level tables' rows the two index
   tables name, and the tables hold the level indices of the sample's channels 1 to 31 of the first timestep. Block t
   lies at rows 8t … 8t+7 of the array, every point writes its block back, and the 8 blocks cover the array. -/
import proofs.«428504_j90692529422509_4_alg».proof.Proof.KIFrame
import proofs.«428504_j90692529422509_4_alg».proof.Proof.KIHost
import proofs.«428504_j90692529422509_4_alg».proof.Proof.KIBlock
import proofs.«428504_j90692529422509_4_alg».proof.Proof.KICover
import proofs.«428504_j90692529422509_4_alg».proof.Proof.Spec
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Hdc

variable (m : (ℓ : Loc nD τ sig) → Buf (Elt Ideal) ℓ) (ρ : Dev nD → PrngReg)

/-- The index tables' words are rows of their level tables. -/
theorem tblOk : TblOk m := ⟨tbl0_lt m, tbl1_lt m⟩

/-- The specification of the result on core c: G of the four arguments as launched. -/
abbrev Gk (c : Dev nD) : Buf (Elt Ideal) ((c : Thread nD τ).loc main_v25) :=
  Cert.Hdc.G (m ((c : Thread nD τ).loc main_arg0)) (m ((c : Thread nD τ).loc main_arg1))
    (m ((c : Thread nD τ).loc main_arg2)) (m ((c : Thread nD τ).loc main_arg3))

/-- The hypervector of equal keys and equal rows is the same. -/
theorem hv_congr {K K' : Fin 25 → Fin 10000 → EReal} {R R' : Fin 31 → Fin 10000 → EReal} (hK : K = K') (hR : R = R')
    (d : Fin 10000) : hv K R d = hv K' R' d := by rw [hK, hR]

/-- The rows the body reads for sample 8t + lb are the specification's rows of that sample: the table words are the
    level indices of the sample's channels, and the level tables are the launch contents. -/
theorem rows_eq (c : Dev nD) (t : Fin (cfgM m).N) (lb : Fin 8) (hb : 8 * t.val + lb.val < 64)
    (hb' : 8 * ((grid0.coords t) 0).val + lb.val < 64) :
    (fun (cc : Fin 31) (dd : Fin 10000) => if h : cc.val < 30
        then rowOf (N := 3000) (by decide) (hbM0_0.view.read (Elt Ideal) (V m c main_arg2))
          (tbM0_0.view.read (Elt Ideal) (tbl m 0) (ix2 (⟨8 * ((grid0.coords t) 0).val + lb.val, hb'⟩ : Fin 64) (⟨cc.val, h⟩ : Fin 30))) dd
        else rowOf (N := 200) (by decide) (hbM0_1.view.read (Elt Ideal) (V m c main_arg3))
          (tbM0_1.view.read (Elt Ideal) (tbl m 1) (ix1 (⟨8 * ((grid0.coords t) 0).val + lb.val, hb'⟩ : Fin 64))) dd)
      = rowsOf (m ((c : Thread nD τ).loc main_arg2)) (m ((c : Thread nD τ).loc main_arg3))
          (fun k => m ((c : Thread nD τ).loc main_arg0) (ix3 (⟨8 * t.val + lb.val, hb⟩ : Fin 64) (0 : Fin 4) k)) := by
  obtain rfl : c = 0 := Subsingleton.elim _ _
  have hc : (⟨8 * ((grid0.coords t) 0).val + lb.val, hb'⟩ : Fin 64) = ⟨8 * t.val + lb.val, hb⟩ :=
    Fin.ext (by show 8 * ((grid0.coords t) 0).val + lb.val = 8 * t.val + lb.val; rw [coords_val t])
  have h2 : hbM0_0.view.read (Elt Ideal) (V m 0 main_arg2) = m (((0 : Dev nD) : Thread nD τ).loc main_arg2) := V_main_arg2 m 0
  have h3 : hbM0_1.view.read (Elt Ideal) (V m 0 main_arg3) = m (((0 : Dev nD) : Thread nD τ).loc main_arg3) := V_main_arg3 m 0
  funext cc dd
  unfold rowsOf
  rw [hc, h2, h3]
  by_cases h : cc.val < 30
  · rw [dif_pos h, dif_pos h, tbl0_word m ⟨8 * t.val + lb.val, hb⟩ ⟨cc.val, h⟩]
  · rw [dif_neg h, dif_neg h, tbl1_word m ⟨8 * t.val + lb.val, hb⟩]

/-- WHAT POINT t WRITES BACK is block t of the specification. -/
theorem flushed1_eq (c : Dev nD) (t : Fin (cfgM m).N) :
    (dats (tblOk m) 0 c).flushed 1 t = (((cfgM m).win 1).blk t).view.read (Elt Ideal) (Gk m c) := by
  show ((cfgM m).win 1).cut (grid0.coords t) ((dats (tblOk m) 0 c).after 1 t) = _
  rw [after0_1]
  refine funext fun (j : S8x10000.Idx) => ?_
  obtain ⟨lb, d, rfl⟩ : ∃ (lb : Fin 8) (d : Fin 10000), j = ix2 lb d := ⟨j 0, j 1, eq_ix2 j⟩
  have ht : t.val < 8 := (N1 m) ▸ t.isLt
  have hb : 8 * t.val + lb.val < 64 := by have := lb.isLt; omega
  have hb' : 8 * ((grid0.coords t) 0).val + lb.val < 64 := by rw [coords_val t]; exact hb
  show outsAt0 (tblOk m) c t (ix2 lb d) = Gk m c ((((cfgM m).win 1).blk t).view.emb (ix2 lb d))
  rw [blk1_emb m t (ix2 lb d)]
  show outsAt0 (tblOk m) c t (ix2 lb d)
    = hv (fun w dd => m ((c : Thread nD τ).loc main_arg1) (ix2 (⟨w.val, by omega⟩ : Fin 32) dd))
        (rowsOf (m ((c : Thread nD τ).loc main_arg2)) (m ((c : Thread nD τ).loc main_arg3))
          (fun k => m ((c : Thread nD τ).loc main_arg0) (ix3 (⟨8 * t.val + lb.val, hb⟩ : Fin 64) (0 : Fin 4) k))) d
  unfold outsAt0
  refine (out0_1_apply c (grid0.coords t) _ _ _ _ _ _ _ _ _ _ _ lb d).trans (hv_congr ?_ ?_ d)
  · funext w dd; exact keys_blk m c t w dd
  · exact rows_eq m c t lb hb hb'

/-- THE RESULT ARRAY after the run is the specification. -/
theorem final1 (c : Dev nD) : (dats (tblOk m) 0 c).arrAt 1 (cfgM m).N = Gk m c :=
  (dats (tblOk m) 0 c).arrAt_eq_of_cover 1 (Gk m c) (fun t _ => flushed1_eq m c t) (cover1 m)

/-- The run, read: the result array ends at the specification of the arguments, and the arguments are unchanged. -/
theorem run_value : θ_run defs (onTc (τ := τ) (main (F := Ideal))) ⟨m, fun _ => 0, ρ⟩ fun r => ∀ c : Dev nD,
      r.2.mem ((c.tc : Thread nD τ).loc main_v25) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 1).trans (final1 m c),
      ((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c)⟩)
    (run_main ρ (tblOk m))

end Cert.KernelIdeal.Fr

end
-- ==== Proof.RefSpec.lean ====
/- The reference program's result, read index by index, is the specification G.
   The reference moves every channel value to a level index (subtract, divide, scale, round to even, convert, clip),
   wraps a negative index around by the table's height, gathers the level tables' rows, joins the 31 motion rows and
   the heart-rate row, keeps the first timestep, and multiplies seven row windows, the j-th rotated right by 6-j lanes;
   it binds the products with the keys, sums over the 25 windows and takes the sign.
   The clip leaves no negative index, so the wrap-around is the identity; the gather clamps into the table, which is
   the specification's row; two pieces of a row joined on the lane axis are the row rotated; the product starts at 1. -/
import proofs.«428504_j90692529422509_4_alg».proof.Proof.RefRead
import proofs.«428504_j90692529422509_4_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.RRead Idealize.ShloMosaic Idealize.ShloMosaic.ValueIdx Cert.Hdc
open scoped BigOperators

/-- Two rank-3 indices with equal coordinates are equal. -/
theorem ix3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- A word clipped into [0, hi] (hi not negative) is not negative, so the wrap-around of a negative index
    (add the table's height where the word is below zero) leaves it as it is. -/
theorem clip_select (hi k w : BitVec 32) (hhi : hi.slt 0#32 = false) :
    Scalar.select (IntOp.cmpi .slt (IntOp.minsi hi (IntOp.maxsi 0#32 w)) 0#32)
        (IntOp.addi (IntOp.minsi hi (IntOp.maxsi 0#32 w)) k) (IntOp.minsi hi (IntOp.maxsi 0#32 w))
      = IntOp.minsi hi (IntOp.maxsi 0#32 w) := by
  have h : (IntOp.minsi hi (IntOp.maxsi 0#32 w)).slt 0#32 = false := by
    unfold IntOp.minsi IntOp.maxsi
    by_cases h1 : w.slt 0#32 = true
    · rw [if_pos h1]
      by_cases h2 : hi.slt 0#32 = true
      · rw [if_pos h2]; exact hhi
      · rw [if_neg h2]; rfl
    · rw [if_neg h1]
      by_cases h2 : hi.slt w = true
      · rw [if_pos h2]; exact hhi
      · rw [if_neg h2]; simpa using h1
  unfold IntOp.cmpi Scalar.select
  simp [h]

/-- The dimension numbers of a row gather table[idx]: operand [N, 10000], start indices [64, 4, C, 1], result
    [64, 4, C, 10000]; the start index names the row (axis 0, collapsed), the result's last axis is the lane. -/
abbrev rowDims (N C : Nat)
    (wf : GatherDims.WF ⟨2, ![N, 10000]⟩ ⟨4, ![64, 4, C, 1]⟩ ⟨4, ![64, 4, C, 10000]⟩ [3] [0] [] [0] [] 3 ![1, 10000]) :
    GatherDims ⟨2, ![N, 10000]⟩ ⟨4, ![64, 4, C, 1]⟩ ⟨4, ![64, 4, C, 10000]⟩ where
  offsetDims := [3]
  collapsedSliceDims := [0]
  operandBatchingDims := []
  startIndicesBatchingDims := []
  startIndexMap := [0]
  indexVectorDim := 3
  sliceSizes := ![1, 10000]
  wf := wf

/-- The row gather at (b, t, c, l): lane l of the row the start index at (b, t, c) names, read signed and clamped
    into the table. -/
theorem gather_row_apply {α : Type} {N C w : Nat} (hN : 0 < N)
    (wf : GatherDims.WF ⟨2, ![N, 10000]⟩ ⟨4, ![64, 4, C, 1]⟩ ⟨4, ![64, 4, C, 10000]⟩ [3] [0] [] [0] [] 3 ![1, 10000])
    (x : (⟨2, ![N, 10000]⟩ : Shape).Idx → α) (idx : IVec ⟨4, ![64, 4, C, 1]⟩ w)
    (b : Fin 64) (t : Fin 4) (c : Fin C) (l : Fin 10000) (W : BitVec w) (hW : idx (ix4 b t c (0 : Fin 1)) = W) :
    Host.gather (rowDims N C wf) x idx (ix4 b t c l)
      = x (ix2 ⟨min W.toInt.toNat (N - 1), by omega⟩ l) := by
  subst hW
  unfold Host.gather
  congr 1
  funext a
  refine Fin.ext ?_
  match a with
  | ⟨0, _⟩ =>
    show (rowDims N C wf).start (ix4 b t c l) idx 0 + (rowDims N C wf).batchCoord (ix4 b t c l) 0
      + (rowDims N C wf).offCoord (ix4 b t c l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C wf).startIndexMap from List.mem_singleton.mpr rfl)]
    have hsi : (rowDims N C wf).siIdx (ix4 b t c l) ⟨List.idxOf (0 : Fin 2) (rowDims N C wf).startIndexMap,
        List.idxOf_lt_length_iff.2 (List.mem_singleton.mpr rfl)⟩ = ix4 b t c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show (rowDims N C wf).start (ix4 b t c l) idx 1 + (rowDims N C wf).batchCoord (ix4 b t c l) 1
      + (rowDims N C wf).offCoord (ix4 b t c l) 1 = l.val
    rw [GatherDims.batchCoord_eq_zero _ _ _ List.not_mem_nil]
    unfold GatherDims.start
    rw [dif_neg (show ¬ (1 : Fin 2) ∈ (rowDims N C wf).startIndexMap from (show (1 : Fin 2) ∉ [(0 : Fin 2)] by decide))]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- Two pieces joined on the lane axis, the first the last s1 lanes of y and the second its first s2 lanes, are y
    rotated right by s1. -/
theorem roll_apply {α : Type} (s1 s2 : Nat) (hs : s1 + s2 = 10000)
    (y : (⟨3, ![64, 25, 10000]⟩ : Shape).Idx → α)
    (x₁ : (⟨3, ![64, 25, s1]⟩ : Shape).Idx → α) (x₂ : (⟨3, ![64, 25, s2]⟩ : Shape).Idx → α)
    (h : Shape.Concatenates [⟨3, ![64, 25, s1]⟩, ⟨3, ![64, 25, s2]⟩] ⟨3, ![64, 25, 10000]⟩ 2)
    (h1 : ∀ (b : Fin 64) (w : Fin 25) (l : Fin s1), x₁ (ix3 b w l) = y (ix3 b w ⟨s2 + l.val, by omega⟩))
    (h2 : ∀ (b : Fin 64) (w : Fin 25) (l : Fin s2), x₂ (ix3 b w l) = y (ix3 b w ⟨l.val, by omega⟩))
    (b : Fin 64) (w : Fin 25) (l : Fin 10000) :
    concatenate (⟨3, ![64, 25, 10000]⟩ : Shape) 2 [⟨⟨3, ![64, 25, s1]⟩, x₁⟩, ⟨⟨3, ![64, 25, s2]⟩, x₂⟩] h (ix3 b w l)
      = y (ix3 b w (rot s1 l)) := by
  by_cases hl : l.val < s1
  · rw [concatenate_pair_apply_left (2 : Fin 3) x₁ x₂ h (ix3 b w l) rfl (ix3 b w ⟨l.val, hl⟩)
      (fun e => by match e with | ⟨0, _⟩ => rfl | ⟨1, _⟩ => rfl | ⟨2, _⟩ => rfl), h1]
    refine congrArg y (congrArg (ix3 b w) (Fin.ext ?_))
    show s2 + l.val = (l.val + 10000 - s1 % 10000) % 10000
    have := l.isLt; omega
  · rw [concatenate_pair_apply_right (2 : Fin 3) x₁ x₂ h (ix3 b w l) rfl rfl (ix3 b w ⟨l.val - s1, by have := l.isLt; omega⟩)
      (fun e he => by
        match e with
        | ⟨0, _⟩ => rfl
        | ⟨1, _⟩ => rfl
        | ⟨2, _⟩ => exact absurd rfl he)
      (by show l.val - s1 + s1 = l.val; omega), h2]
    refine congrArg y (congrArg (ix3 b w) (Fin.ext ?_))
    show l.val - s1 = (l.val + 10000 - s1 % 10000) % 10000
    have := l.isLt; omega

/-! ## The index words -/

/-- The motion channels' index word at (b, t, c): the clip keeps it from being negative, so the wrap-around select
    is the identity and the word is the specification's. -/
theorem word_motion (x0 : (⟨S64x4x32, .f32⟩ : BufTy).Contents (Elt Ideal)) (b : Fin 64) (t : Fin 4) (c : Fin 31) :
    val_main_v15 (F := Ideal) x0 (ix3 b t c) = wordM (F := Ideal) (x0 (ix3 b t (⟨c.val, by omega⟩ : Fin 32))) := by
  have e : idx_main_v0 (ix3 b t c) = ix3 b t (⟨c.val, by omega⟩ : Fin 32) := ix3_ext _ _ rfl rfl rfl
  rw [val_main_v15_apply, val_main_v12_apply, val_main_v14_apply, val_main_v11_apply, val_main_v13_apply,
    val_main_c_3_apply, val_main_c_4_apply, val_main_v10_apply, val_main_call1_v4_apply, val_main_call1_v3_apply,
    val_main_c_2_apply, val_main_call1_v2_apply, val_main_call1_v1_apply, val_main_call1_v0_apply, val_main_c_apply,
    clip_select 2999#32 3000#32 _ (by decide),
    val_main_v9_apply, val_main_v8_apply, val_main_v7_apply, val_main_v5_apply, val_main_v3_apply, val_main_v0_apply,
    val_main_v2_apply, val_main_cst_apply, val_main_v4_apply, val_main_cst_0_apply, val_main_v6_apply,
    val_main_cst_1_apply, e]
  rfl

/-- The heart-rate channel's index word at (b, t). -/
theorem word_heart (x0 : (⟨S64x4x32, .f32⟩ : BufTy).Contents (Elt Ideal)) (b : Fin 64) (t : Fin 4) :
    val_main_v31 (F := Ideal) x0 (ix3 b t (0 : Fin 1)) = wordH (F := Ideal) (x0 (ix3 b t (⟨31, by decide⟩ : Fin 32))) := by
  have e : idx_main_v1 (ix3 b t (0 : Fin 1)) = ix3 b t (⟨31, by decide⟩ : Fin 32) := ix3_ext _ _ rfl rfl rfl
  rw [val_main_v31_apply, val_main_v28_apply, val_main_v30_apply, val_main_v27_apply, val_main_v29_apply,
    val_main_c_10_apply, val_main_c_11_apply, val_main_v26_apply, val_main_call3_v4_apply, val_main_call3_v3_apply,
    val_main_c_9_apply, val_main_call3_v2_apply, val_main_call3_v1_apply, val_main_call3_v0_apply, val_main_c_8_apply,
    clip_select 199#32 200#32 _ (by decide),
    val_main_v25_apply, val_main_v24_apply, val_main_v23_apply, val_main_v21_apply, val_main_v19_apply, val_main_v1_apply,
    val_main_v18_apply, val_main_cst_5_apply, val_main_v20_apply, val_main_cst_6_apply, val_main_v22_apply,
    val_main_cst_7_apply, e]
  rfl

/-! ## The gathered rows -/

/-- The motion gather at (b, t, c, l): lane l of the motion table's row the word selects. -/
theorem row_motion (x0 : (⟨S64x4x32, .f32⟩ : BufTy).Contents (Elt Ideal)) (x2 : (⟨S3000x10000, .f32⟩ : BufTy).Contents (Elt Ideal))
    (b : Fin 64) (t : Fin 4) (c : Fin 31) (l : Fin 10000) :
    val_main_v17 (F := Ideal) x0 x2 (ix4 b t c l)
      = rowOf (N := 3000) (by decide) x2 (wordM (F := Ideal) (x0 (ix3 b t (⟨c.val, by omega⟩ : Fin 32)))) l := by
  have e : idx_main_v16 (ix4 b t c (0 : Fin 1)) = ix3 b t c := ix3_ext _ _ rfl rfl rfl
  have hW : val_main_v16 (F := Ideal) x0 (ix4 b t c (0 : Fin 1))
      = wordM (F := Ideal) (x0 (ix3 b t (⟨c.val, by omega⟩ : Fin 32))) := by
    rw [val_main_v16_apply, e, word_motion]
  unfold val_main_v17
  exact gather_row_apply (N := 3000) (C := 31) (by decide) _ x2 (val_main_v16 (F := Ideal) x0) b t c l _ hW

/-- The heart-rate gather at (b, t, 0, l): lane l of the heart-rate table's row the word selects. -/
theorem row_heart (x0 : (⟨S64x4x32, .f32⟩ : BufTy).Contents (Elt Ideal)) (x3 : (⟨S200x10000, .f32⟩ : BufTy).Contents (Elt Ideal))
    (b : Fin 64) (t : Fin 4) (l : Fin 10000) :
    val_main_v33 (F := Ideal) x0 x3 (ix4 b t (0 : Fin 1) l)
      = rowOf (N := 200) (by decide) x3 (wordH (F := Ideal) (x0 (ix3 b t (⟨31, by decide⟩ : Fin 32)))) l := by
  have e : idx_main_v32 (ix4 b t (0 : Fin 1) (0 : Fin 1)) = ix3 b t (0 : Fin 1) := ix3_ext _ _ rfl rfl rfl
  have hW : val_main_v32 (F := Ideal) x0 (ix4 b t (0 : Fin 1) (0 : Fin 1))
      = wordH (F := Ideal) (x0 (ix3 b t (⟨31, by decide⟩ : Fin 32))) := by
    rw [val_main_v32_apply, e, word_heart]
  unfold val_main_v33
  exact gather_row_apply (N := 200) (C := 1) (by decide) _ x3 (val_main_v32 (F := Ideal) x0) b t (0 : Fin 1) l _ hW

/-- The joined rows below row 31 are the motion rows. -/
theorem rows_joined_lt (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (t : Fin 4) (r : Fin 32) (l : Fin 10000) (h : r.val < 31) :
    val_main_v34 (F := Ideal) x0 x2 x3 (ix4 b t r l) = val_main_v17 (F := Ideal) x0 x2 (ix4 b t (⟨r.val, h⟩ : Fin 31) l) := by
  unfold val_main_v34
  exact concatenate_pair_apply_left (s₁ := S64x4x31x10000) (s₂ := S64x4x1x10000) (2 : Fin 4) (val_main_v17 (F := Ideal) x0 x2)
    (val_main_v33 (F := Ideal) x0 x3) _ (ix4 b t r l) rfl (ix4 b t (⟨r.val, h⟩ : Fin 31) l)
    (fun e => by match e with | ⟨0, _⟩ => rfl | ⟨1, _⟩ => rfl | ⟨2, _⟩ => rfl | ⟨3, _⟩ => rfl)

/-- Row 31 of the joined rows is the heart-rate row. -/
theorem rows_joined_ge (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (t : Fin 4) (r : Fin 32) (l : Fin 10000) (h : ¬ r.val < 31) :
    val_main_v34 (F := Ideal) x0 x2 x3 (ix4 b t r l) = val_main_v33 (F := Ideal) x0 x3 (ix4 b t (0 : Fin 1) l) := by
  unfold val_main_v34
  exact concatenate_pair_apply_right (s₁ := S64x4x31x10000) (s₂ := S64x4x1x10000) (2 : Fin 4) (val_main_v17 (F := Ideal) x0 x2)
    (val_main_v33 (F := Ideal) x0 x3) _ (ix4 b t r l) rfl rfl (ix4 b t (0 : Fin 1) l)
    (fun e he => by
      match e with
      | ⟨0, _⟩ => rfl
      | ⟨1, _⟩ => rfl
      | ⟨2, _⟩ => exact absurd rfl he
      | ⟨3, _⟩ => rfl)
    (by show 0 + 31 = r.val; have := r.isLt; omega)

/-- Sample b's row r (0 … 31) of the first timestep at lane l: rows below 31 from the motion table, row 31 from the
    heart-rate table. -/
def row32 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (r : Fin 32) (l : Fin 10000) : EReal :=
  if h : r.val < 31 then rowOf (N := 3000) (by decide) x2 (wordM (F := Ideal) (x0 (ix3 b (0 : Fin 4) (⟨r.val, by omega⟩ : Fin 32)))) l
  else rowOf (N := 200) (by decide) x3 (wordH (F := Ideal) (x0 (ix3 b (0 : Fin 4) (⟨31, by decide⟩ : Fin 32)))) l

/-- The first timestep's rows, reshaped to [64, 32, 10000], at (b, r, l). -/
theorem rows_apply (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (r : Fin 32) (l : Fin 10000) :
    val_main_v36 (F := Ideal) x0 x2 x3 (ix3 b r l) = row32 x0 x2 x3 b r l := by
  have e : idx_main_v35 (idx_main_v36 (ix3 b r l)) = ix4 b (0 : Fin 4) r l :=
    funext fun a => Fin.ext (by
      have hb := b.isLt; have hr := r.isLt; have hl := l.isLt
      match a with
      | ⟨0, _⟩ => show ((b.val * 32 + r.val) * 10000 + l.val) / 320000 = b.val; omega
      | ⟨1, _⟩ => rfl
      | ⟨2, _⟩ => show ((b.val * 32 + r.val) * 10000 + l.val) / 10000 % 32 = r.val; omega
      | ⟨3, _⟩ => show ((b.val * 32 + r.val) * 10000 + l.val) % 10000 = l.val; omega)
  rw [val_main_v36_apply, val_main_v35_apply, e]
  unfold row32
  by_cases h : r.val < 31
  · rw [dif_pos h, rows_joined_lt x0 x2 x3 b 0 r l h, row_motion]
  · rw [dif_neg h, rows_joined_ge x0 x2 x3 b 0 r l h, row_heart]

/-! ## The rotated factors -/

/-- Factor 1 of the product: rows 1 … 25 rotated right by 6 lanes. -/
theorem factor1 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v40 (F := Ideal) x0 x2 x3 (ix3 b w l)
      = val_main_v36 (F := Ideal) x0 x2 x3 (ix3 b (⟨w.val + 1, by omega⟩ : Fin 32) (rot 6 l)) := by
  have hy : ∀ (b : Fin 64) (w : Fin 25) (l : Fin 10000), val_main_v39 (F := Ideal) x0 x2 x3 (ix3 b w l)
      = val_main_v36 (F := Ideal) x0 x2 x3 (ix3 b (⟨w.val + 1, by omega⟩ : Fin 32) l) := fun b w l => by
    rw [val_main_v39_apply]
    exact congrArg _ (ix3_ext _ _ rfl (by show 1 + w.val = w.val + 1; omega) rfl)
  unfold val_main_v40
  refine (roll_apply 6 9994 rfl (val_main_v39 (F := Ideal) x0 x2 x3) (val_main_call4_v0 (F := Ideal) x0 x2 x3)
    (val_main_call4_v1 (F := Ideal) x0 x2 x3) _ (fun b w l => ?_) (fun b w l => ?_) b w l).trans (hy _ _ _)
  · rw [val_main_call4_v0_apply]; exact congrArg _ (ix3_ext _ _ rfl rfl rfl)
  · rw [val_main_call4_v1_apply]; exact congrArg _ (ix3_ext _ _ rfl rfl rfl)

/-- Factor 2 of the product: rows 2 … 26 rotated right by 5 lanes. -/
theorem factor2 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v43 (F := Ideal) x0 x2 x3 (ix3 b w l)
      = val_main_v36 (F := Ideal) x0 x2 x3 (ix3 b (⟨w.val + 1 + 1, by omega⟩ : Fin 32) (rot 5 l)) := by
  have hy : ∀ (b : Fin 64) (w : Fin 25) (l : Fin 10000), val_main_v42 (F := Ideal) x0 x2 x3 (ix3 b w l)
      = val_main_v36 (F := Ideal) x0 x2 x3 (ix3 b (⟨w.val + 1 + 1, by omega⟩ : Fin 32) l) := fun b w l => by
    rw [val_main_v42_apply]
    exact congrArg _ (ix3_ext _ _ rfl (by show 2 + w.val = w.val + 1 + 1; omega) rfl)
  unfold val_main_v43
  refine (roll_apply 5 9995 rfl (val_main_v42 (F := Ideal) x0 x2 x3) (val_main_call5_v0 (F := Ideal) x0 x2 x3)
    (val_main_call5_v1 (F := Ideal) x0 x2 x3) _ (fun b w l => ?_) (fun b w l => ?_) b w l).trans (hy _ _ _)
  · rw [val_main_call5_v0_apply]; exact congrArg _ (ix3_ext _ _ rfl rfl rfl)
  · rw [val_main_call5_v1_apply]; exact congrArg _ (ix3_ext _ _ rfl rfl rfl)

/-- Factor 3 of the product: rows 3 … 27 rotated right by 4 lanes. -/
theorem factor3 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v46 (F := Ideal) x0 x2 x3 (ix3 b w l)
      = val_main_v36 (F := Ideal) x0 x2 x3 (ix3 b (⟨w.val + 2 + 1, by omega⟩ : Fin 32) (rot 4 l)) := by
  have hy : ∀ (b : Fin 64) (w : Fin 25) (l : Fin 10000), val_main_v45 (F := Ideal) x0 x2 x3 (ix3 b w l)
      = val_main_v36 (F := Ideal) x0 x2 x3 (ix3 b (⟨w.val + 2 + 1, by omega⟩ : Fin 32) l) := fun b w l => by
    rw [val_main_v45_apply]
    exact congrArg _ (ix3_ext _ _ rfl (by show 3 + w.val = w.val + 2 + 1; omega) rfl)
  unfold val_main_v46
  refine (roll_apply 4 9996 rfl (val_main_v45 (F := Ideal) x0 x2 x3) (val_main_call6_v0 (F := Ideal) x0 x2 x3)
    (val_main_call6_v1 (F := Ideal) x0 x2 x3) _ (fun b w l => ?_) (fun b w l => ?_) b w l).trans (hy _ _ _)
  · rw [val_main_call6_v0_apply]; exact congrArg _ (ix3_ext _ _ rfl rfl rfl)
  · rw [val_main_call6_v1_apply]; exact congrArg _ (ix3_ext _ _ rfl rfl rfl)

/-- Factor 4 of the product: rows 4 … 28 rotated right by 3 lanes. -/
theorem factor4 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v49 (F := Ideal) x0 x2 x3 (ix3 b w l)
      = val_main_v36 (F := Ideal) x0 x2 x3 (ix3 b (⟨w.val + 3 + 1, by omega⟩ : Fin 32) (rot 3 l)) := by
  have hy : ∀ (b : Fin 64) (w : Fin 25) (l : Fin 10000), val_main_v48 (F := Ideal) x0 x2 x3 (ix3 b w l)
      = val_main_v36 (F := Ideal) x0 x2 x3 (ix3 b (⟨w.val + 3 + 1, by omega⟩ : Fin 32) l) := fun b w l => by
    rw [val_main_v48_apply]
    exact congrArg _ (ix3_ext _ _ rfl (by show 4 + w.val = w.val + 3 + 1; omega) rfl)
  unfold val_main_v49
  refine (roll_apply 3 9997 rfl (val_main_v48 (F := Ideal) x0 x2 x3) (val_main_call7_v0 (F := Ideal) x0 x2 x3)
    (val_main_call7_v1 (F := Ideal) x0 x2 x3) _ (fun b w l => ?_) (fun b w l => ?_) b w l).trans (hy _ _ _)
  · rw [val_main_call7_v0_apply]; exact congrArg _ (ix3_ext _ _ rfl rfl rfl)
  · rw [val_main_call7_v1_apply]; exact congrArg _ (ix3_ext _ _ rfl rfl rfl)

/-- Factor 5 of the product: rows 5 … 29 rotated right by 2 lanes. -/
theorem factor5 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v52 (F := Ideal) x0 x2 x3 (ix3 b w l)
      = val_main_v36 (F := Ideal) x0 x2 x3 (ix3 b (⟨w.val + 4 + 1, by omega⟩ : Fin 32) (rot 2 l)) := by
  have hy : ∀ (b : Fin 64) (w : Fin 25) (l : Fin 10000), val_main_v51 (F := Ideal) x0 x2 x3 (ix3 b w l)
      = val_main_v36 (F := Ideal) x0 x2 x3 (ix3 b (⟨w.val + 4 + 1, by omega⟩ : Fin 32) l) := fun b w l => by
    rw [val_main_v51_apply]
    exact congrArg _ (ix3_ext _ _ rfl (by show 5 + w.val = w.val + 4 + 1; omega) rfl)
  unfold val_main_v52
  refine (roll_apply 2 9998 rfl (val_main_v51 (F := Ideal) x0 x2 x3) (val_main_call8_v0 (F := Ideal) x0 x2 x3)
    (val_main_call8_v1 (F := Ideal) x0 x2 x3) _ (fun b w l => ?_) (fun b w l => ?_) b w l).trans (hy _ _ _)
  · rw [val_main_call8_v0_apply]; exact congrArg _ (ix3_ext _ _ rfl rfl rfl)
  · rw [val_main_call8_v1_apply]; exact congrArg _ (ix3_ext _ _ rfl rfl rfl)

/-- Factor 6 of the product: rows 6 … 30 rotated right by 1 lanes. -/
theorem factor6 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v55 (F := Ideal) x0 x2 x3 (ix3 b w l)
      = val_main_v36 (F := Ideal) x0 x2 x3 (ix3 b (⟨w.val + 5 + 1, by omega⟩ : Fin 32) (rot 1 l)) := by
  have hy : ∀ (b : Fin 64) (w : Fin 25) (l : Fin 10000), val_main_v54 (F := Ideal) x0 x2 x3 (ix3 b w l)
      = val_main_v36 (F := Ideal) x0 x2 x3 (ix3 b (⟨w.val + 5 + 1, by omega⟩ : Fin 32) l) := fun b w l => by
    rw [val_main_v54_apply]
    exact congrArg _ (ix3_ext _ _ rfl (by show 6 + w.val = w.val + 5 + 1; omega) rfl)
  unfold val_main_v55
  refine (roll_apply 1 9999 rfl (val_main_v54 (F := Ideal) x0 x2 x3) (val_main_call9_v0 (F := Ideal) x0 x2 x3)
    (val_main_call9_v1 (F := Ideal) x0 x2 x3) _ (fun b w l => ?_) (fun b w l => ?_) b w l).trans (hy _ _ _)
  · rw [val_main_call9_v0_apply]; exact congrArg _ (ix3_ext _ _ rfl rfl rfl)
  · rw [val_main_call9_v1_apply]; exact congrArg _ (ix3_ext _ _ rfl rfl rfl)

/-- Factor 7 of the product: rows 7 … 31, not rotated (the rotation by 0 joins the whole array with an empty piece). -/
theorem factor7 (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v58 (F := Ideal) x0 x2 x3 (ix3 b w l)
      = val_main_v36 (F := Ideal) x0 x2 x3 (ix3 b (⟨w.val + 6 + 1, by omega⟩ : Fin 32) (rot 0 l)) := by
  have hy : ∀ (b : Fin 64) (w : Fin 25) (l : Fin 10000), val_main_v57 (F := Ideal) x0 x2 x3 (ix3 b w l)
      = val_main_v36 (F := Ideal) x0 x2 x3 (ix3 b (⟨w.val + 6 + 1, by omega⟩ : Fin 32) l) := fun b w l => by
    rw [val_main_v57_apply]
    exact congrArg _ (ix3_ext _ _ rfl (by show 7 + w.val = w.val + 6 + 1; omega) rfl)
  have hr : rot 10000 l = rot 0 l :=
    Fin.ext (by show (l.val + 10000 - 10000 % 10000) % 10000 = (l.val + 10000 - 0 % 10000) % 10000; omega)
  unfold val_main_v58
  refine (roll_apply 10000 0 rfl (val_main_v57 (F := Ideal) x0 x2 x3) (val_main_call10_v0 (F := Ideal) x0 x2 x3)
    (val_main_call10_v1 (F := Ideal) x0 x2 x3) _ (fun b w l => ?_) (fun b w l => l.elim0) b w l).trans ?_
  · rw [val_main_call10_v0_apply]; exact congrArg _ (ix3_ext _ _ rfl rfl (by show l.val = 0 + l.val; omega))
  · rw [hr]; exact hy _ _ _

/-! ## The product, the sum and the sign -/

/-- The 7-gram product of window w at (b, w, l). -/
theorem gram_apply (x0 : (⟨S64x4x32, .f32⟩ : BufTy).Contents (Elt Ideal)) (x2 : (⟨S3000x10000, .f32⟩ : BufTy).Contents (Elt Ideal)) (x3 : (⟨S200x10000, .f32⟩ : BufTy).Contents (Elt Ideal))
    (b : Fin 64) (w : Fin 25) (l : Fin 10000) :
    val_main_v59 (F := Ideal) x0 x2 x3 (ix3 b w l)
      = ngram (fun (c : Fin 31) d => row32 x0 x2 x3 b (⟨c.val + 1, by omega⟩ : Fin 32) d) w l := by
  rw [val_main_v59_apply, val_main_v56_apply, val_main_v53_apply, val_main_v50_apply, val_main_v47_apply,
    val_main_v44_apply, val_main_v41_apply, val_main_v38_apply, val_main_cst_12_apply,
    factor1, factor2, factor3, factor4, factor5, factor6, factor7]
  simp only [Ideal.mulf_def, Ideal.ofBits_def, Ideal.ofBits_one_f32, one_mul, rows_apply]
  rfl

/-- The rows the specification names are rows 1 … 31 of the first timestep. -/
theorem rows_spec (x0 : (⟨S64x4x32, .f32⟩ : BufTy).Contents (Elt Ideal)) (x2 : (⟨S3000x10000, .f32⟩ : BufTy).Contents (Elt Ideal)) (x3 : (⟨S200x10000, .f32⟩ : BufTy).Contents (Elt Ideal)) (b : Fin 64) :
    (fun (c : Fin 31) d => row32 x0 x2 x3 b (⟨c.val + 1, by omega⟩ : Fin 32) d)
      = rowsOf x2 x3 (fun k => x0 (ix3 b (0 : Fin 4) k)) := by
  funext c d
  unfold row32 rowsOf
  by_cases h : c.val < 30
  · rw [dif_pos h, dif_pos (show (⟨c.val + 1, by omega⟩ : Fin 32).val < 31 by show c.val + 1 < 31; omega)]
  · rw [dif_neg h, dif_neg (show ¬ (⟨c.val + 1, by omega⟩ : Fin 32).val < 31 by show ¬ c.val + 1 < 31; omega)]

/-- THE REFERENCE IS THE SPECIFICATION: the reference program's result, index by index. -/
theorem result_eq (x0 : (⟨S64x4x32, .f32⟩ : BufTy).Contents (Elt Ideal)) (x1 : (⟨S32x10000, .f32⟩ : BufTy).Contents (Elt Ideal)) (x2 : (⟨S3000x10000, .f32⟩ : BufTy).Contents (Elt Ideal)) (x3 : (⟨S200x10000, .f32⟩ : BufTy).Contents (Elt Ideal)) :
    val_main_v68 (F := Ideal) x0 x1 x2 x3 = Cert.Hdc.G x0 x1 x2 x3 := by
  funext i
  obtain ⟨b, l, rfl⟩ : ∃ (b : Fin 64) (l : Fin 10000), i = ix2 b l := ⟨i 0, i 1, eq_ix2 i⟩
  have hs : ∀ k : Fin 25, val_main_v63 (F := Ideal) x0 x1 x2 x3 (idx_main_v64 (ix2 b l) k)
      = x1 (ix2 (⟨k.val, by omega⟩ : Fin 32) l) * ngram (rowsOf x2 x3 (fun k => x0 (ix3 b (0 : Fin 4) k))) k l := fun k => by
    have e1 : idx_main_v64 (ix2 b l) k = ix3 b k l := ix3_ext _ _ rfl rfl rfl
    have e2 : idx_main_v60 (idx_main_v61 (idx_main_v62 (ix3 b k l))) = ix2 (⟨k.val, by omega⟩ : Fin 32) l :=
      funext fun a => Fin.ext (by match a with | ⟨0, _⟩ => rfl | ⟨1, _⟩ => rfl)
    rw [e1, val_main_v63_apply, val_main_v62_apply, val_main_v61_apply, val_main_v60_apply, e2, gram_apply, rows_spec]
    rfl
  have hz : ∀ s : EReal, Scalar.select (FloatOps.cmpf (F := Ideal) (φ := .f32) .ogt (Ideal.ofBits .f32 0x00000000#32 + s)
      (Ideal.ofBits .f32 0x00000000#32)) (Ideal.ofBits .f32 0x3F800000#32) (Ideal.ofBits .f32 0xBF800000#32) = sgn s := fun s => by
    unfold sgn
    rw [show Ideal.ofBits .f32 0x00000000#32 + s = s by rw [Ideal.ofBits_zero_f32, zero_add]]
  rw [val_main_v68_apply, val_main_v67_apply, val_main_v66_apply, val_main_v65_apply, val_main_cst_14_apply,
    val_main_call11_v0_apply, val_main_cst_15_apply, val_main_call11_v1_apply, val_main_cst_16_apply,
    val_main_v64_apply, val_main_cst_13_apply]
  simp only [hs, Ideal.ofBits_def]
  exact hz _

end Cert.ReferenceIdeal.RefValue

end
-- ==== Proof.lean ====
/- The hypervector encoder: 64 samples; each sample's channels 1 … 31 (first timestep) pick rows of two level tables by a
   clipped, rounded index; the 7-gram products of rotated rows over 25 windows are bound with the first 25 keys, summed, and
   the sign taken. The kernel gathers the rows by its own copies from HBM, eight samples per grid point, and computes in
   bf16; the reference gathers on the host and computes in f32. Over the extended reals both are the one function
   Cert.Hdc.G of the four arguments, index by index (Proof/Spec.lean): the narrowings are the identity, the reference's
   leading factor 1 is absorbed, and the index words are the same clipped words, so the gather's clamp and the kernel's
   unclamped row address agree. The frames: the host lines' clip bounds every index word, which is what each row copy
   assumes; within a grid point every copy is waited for before its row is read, and the semaphores return to zero. -/
import proofs.«428504_j90692529422509_4_alg».proof.Defs
import proofs.«428504_j90692529422509_4_alg».proof.Proof.Gen.Kernel
import proofs.«428504_j90692529422509_4_alg».proof.Proof.Gen.KernelIdeal
import proofs.«428504_j90692529422509_4_alg».proof.Proof.Gen.ReferenceIdeal
import proofs.«428504_j90692529422509_4_alg».proof.Proof.Gen.Pre_finite_inputs
import proofs.«428504_j90692529422509_4_alg».proof.Proof.RefRun
import proofs.«428504_j90692529422509_4_alg».proof.Proof.RefRead
import proofs.«428504_j90692529422509_4_alg».proof.Proof.KFrame
import proofs.«428504_j90692529422509_4_alg».proof.Proof.KHost
import proofs.«428504_j90692529422509_4_alg».proof.Proof.KIValue
import proofs.«428504_j90692529422509_4_alg».proof.Proof.RefSpec
import Idealize.ShloMosaic.PureOps.IdealRules

noncomputable section

namespace Cert.Proof

open Idealize.ShloMosaic Idealize.SL.Sem

/-- The word-level kernel's frame: the clip bounds the index words (no precondition is needed for that). -/
theorem frame_k : Cert.frame_Kernel := fun m ρ _ =>
  Cert.Kernel.Fr.frame ρ ⟨Cert.Kernel.Fr.tbl0_lt m, Cert.Kernel.Fr.tbl1_lt m⟩

/-- The idealized kernel's frame, the same way. -/
theorem frame_ki : Cert.frame_KernelIdeal := fun m ρ _ =>
  Cert.KernelIdeal.Fr.frame ρ (Cert.KernelIdeal.Fr.tblOk m)

/-- The reference's frame: its run with the result dropped. -/
theorem frame_ri : Cert.frame_ReferenceIdeal := fun m ρ _ =>
  (θ_run Cert.ReferenceIdeal.defs _ _).mono (fun _ h c => (h c).2) (Cert.ReferenceIdeal.RValue.run (F := Ideal) m ρ)

/-- The one rewrite of the ideal pass: widening a narrowed sum back is the identity over the extended reals. -/
theorem preserves : Cert.preserves_Kernel_KernelIdeal := IdealRules.truncf_extf.statement _ .f32 .bf16

/-- Both programs end at Cert.Hdc.G of the arguments. -/
theorem algebraic : Cert.algebraic_KernelIdeal_ReferenceIdeal := by
  intro m ρ m' ρ' _ hagree
  refine ⟨fun c => Cert.KernelIdeal.Fr.Gk m c, Cert.KernelIdeal.Fr.run_value m ρ, ?_⟩
  refine (θ_run Cert.ReferenceIdeal.defs _ _).mono (fun _ h c => ⟨(h c).1.trans ?_, (h c).2⟩) (Cert.ReferenceIdeal.RValue.run (F := Ideal) m' ρ')
  rw [Cert.ReferenceIdeal.RRead.val_main_v68_eq, Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
